-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S120x256 : Shape := ⟨2, ![120, 256]⟩
abbrev S16x64 : Shape := ⟨2, ![16, 64]⟩
abbrev S256x512 : Shape := ⟨2, ![256, 512]⟩
abbrev S256 : Shape := ⟨1, ![256]⟩
abbrev S256x320 : Shape := ⟨2, ![256, 320]⟩
abbrev S500000 : Shape := ⟨1, ![500000]⟩
abbrev S150000 : Shape := ⟨1, ![150000]⟩
abbrev S60000 : Shape := ⟨1, ![60000]⟩
abbrev S30000 : Shape := ⟨1, ![30000]⟩
abbrev S_ : Shape := ⟨0, ![]⟩
abbrev S150000x1 : Shape := ⟨2, ![150000, 1]⟩
abbrev S60000x1 : Shape := ⟨2, ![60000, 1]⟩
abbrev S30000x1 : Shape := ⟨2, ![30000, 1]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S120x256 : S_.BroadcastsInDim S120x256 (![] : Fin 0 → Fin S120x256.rank)
  reducesTo_S120x256_S_d0_1 : S120x256.ReducesTo [0, 1] S_
  bcast_S_S16x64 : S_.BroadcastsInDim S16x64 (![] : Fin 0 → Fin S16x64.rank)
  reducesTo_S16x64_S_d0_1 : S16x64.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x320 : S_.BroadcastsInDim S256x320 (![] : Fin 0 → Fin S256x320.rank)
  reducesTo_S256x320_S_d0_1 : S256x320.ReducesTo [0, 1] S_
  bcast_S_S500000 : S_.BroadcastsInDim S500000 (![] : Fin 0 → Fin S500000.rank)
  reducesTo_S500000_S_d0 : S500000.ReducesTo [0] S_
  bcast_S_S60000 : S_.BroadcastsInDim S60000 (![] : Fin 0 → Fin S60000.rank)
  reducesTo_S60000_S_d0 : S60000.ReducesTo [0] S_
  bcast_S_S30000 : S_.BroadcastsInDim S30000 (![] : Fin 0 → Fin S30000.rank)
  reducesTo_S30000_S_d0 : S30000.ReducesTo [0] S_
  bcast_S_S150000 : S_.BroadcastsInDim S150000 (![] : Fin 0 → Fin S150000.rank)
  bcast_S150000_S150000x1_0 : S150000.BroadcastsInDim S150000x1 (![0] : Fin 1 → Fin S150000x1.rank)
  bcast_S60000_S60000x1_0 : S60000.BroadcastsInDim S60000x1 (![0] : Fin 1 → Fin S60000x1.rank)
  bcast_S30000_S30000x1_0 : S30000.BroadcastsInDim S30000x1 (![0] : Fin 1 → Fin S30000x1.rank)
  scatter_S500000_S150000x1_S150000_n_0_0_1_wf : ScatterDims.WF S500000 S150000x1 S150000 [] [0] [0] 1
  gather_S500000_S60000x1_S60000_n_0_n_n_0_1_1_wf : GatherDims.WF S500000 S60000x1 S60000 [] [0] [] [0] [] 1 ![1]
  gather_S500000_S30000x1_S30000_n_0_n_n_0_1_1_wf : GatherDims.WF S500000 S30000x1 S30000 [] [0] [] [0] [] 1 ![1]
  scatter_S500000_S60000x1_S60000_n_0_0_1_wf : ScatterDims.WF S500000 S60000x1 S60000 [] [0] [0] 1

variable [Facts]

def scatter_S500000_S150000x1_S150000_n_0_0_1 : ScatterDims S500000 S150000x1 S150000 where
  updateWindowDims := []
  insertedWindowDims := [0]
  scatterDimsToOperandDims := [0]
  indexVectorDim := 1
  wf := scatter_S500000_S150000x1_S150000_n_0_0_1_wf
def gather_S500000_S60000x1_S60000_n_0_n_n_0_1_1 : GatherDims S500000 S60000x1 S60000 where
  offsetDims := []
  collapsedSliceDims := [0]
  operandBatchingDims := []
  startIndicesBatchingDims := []
  startIndexMap := [0]
  indexVectorDim := 1
  sliceSizes := ![1]
  wf := gather_S500000_S60000x1_S60000_n_0_n_n_0_1_1_wf
def gather_S500000_S30000x1_S30000_n_0_n_n_0_1_1 : GatherDims S500000 S30000x1 S30000 where
  offsetDims := []
  collapsedSliceDims := [0]
  operandBatchingDims := []
  startIndicesBatchingDims := []
  startIndexMap := [0]
  indexVectorDim := 1
  sliceSizes := ![1]
  wf := gather_S500000_S30000x1_S30000_n_0_n_n_0_1_1_wf
def scatter_S500000_S60000x1_S60000_n_0_0_1 : ScatterDims S500000 S60000x1 S60000 where
  updateWindowDims := []
  insertedWindowDims := [0]
  scatterDimsToOperandDims := [0]
  indexVectorDim := 1
  wf := scatter_S500000_S60000x1_S60000_n_0_0_1_wf
def fn_part7 {F : FTy → Type} [FloatOps F] (main_arg16 : IVec S30000 32) (main_v109 : IVec S_ 1) (main_v118 : IVec S500000 32) : IVec S_ 1 :=
  let main_c_47 : IVec S_ 32 := constantI S_ 32 0#32
  let main_v119 : IVec S30000 32 := broadcastInDim S30000 ![] bcast_S_S30000 main_c_47
  let main_v120 : IVec S30000 1 := cmpi .slt main_arg16 main_v119
  let main_c_48 : IVec S_ 32 := constantI S_ 32 500000#32
  let main_v121 : IVec S30000 32 := broadcastInDim S30000 ![] bcast_S_S30000 main_c_48
  let main_v122 : IVec S30000 32 := addi main_arg16 main_v121
  let main_v123 : IVec S30000 32 := select main_v120 main_v122 main_arg16
  let main_v124 : IVec S30000x1 32 := broadcastInDim S30000x1 ![0] bcast_S30000_S30000x1_0 main_v123
  let main_v125 : IVec S30000 32 := (fun x i => Host.gather gather_S500000_S30000x1_S30000_n_0_n_n_0_1_1 x i) main_v118 main_v124
  let main_c_49 : IVec S_ 32 := constantI S_ 32 0#32
  let main_v126 : IVec S30000 32 := broadcastInDim S30000 ![] bcast_S_S30000 main_c_49
  let main_v127 : IVec S30000 1 := cmpi .eq main_v125 main_v126
  let main_c_50 : IVec S_ 1 := constantI S_ 1 1#1
  let main_v128 : IVec S_ 1 := (fun x v => Host.reduce IntOp.andi x v reducesTo_S30000_S_d0 h_S_) main_v127 main_c_50
  let main_v129 : IVec S_ 1 := andi main_v109 main_v128
  main_v129

def fn_part6 {F : FTy → Type} [FloatOps F] (main_arg14 : IVec S60000 32) (main_arg16 : IVec S30000 32) (main_v89 : IVec S_ 1) (main_v98 : IVec S500000 32) (main_v100 : IVec S30000 1) (main_c_40 : IVec S_ 32) : IVec S_ 1 :=
  let main_v101 : IVec S30000 32 := broadcastInDim S30000 ![] bcast_S_S30000 main_c_40
  let main_v102 : IVec S30000 32 := addi main_arg16 main_v101
  let main_v103 : IVec S30000 32 := select main_v100 main_v102 main_arg16
  let main_v104 : IVec S30000x1 32 := broadcastInDim S30000x1 ![0] bcast_S30000_S30000x1_0 main_v103
  let main_v105 : IVec S30000 32 := (fun x i => Host.gather gather_S500000_S30000x1_S30000_n_0_n_n_0_1_1 x i) main_v98 main_v104
  let main_c_41 : IVec S_ 32 := constantI S_ 32 0#32
  let main_v106 : IVec S30000 32 := broadcastInDim S30000 ![] bcast_S_S30000 main_c_41
  let main_v107 : IVec S30000 1 := cmpi .eq main_v105 main_v106
  let main_c_42 : IVec S_ 1 := constantI S_ 1 1#1
  let main_v108 : IVec S_ 1 := (fun x v => Host.reduce IntOp.andi x v reducesTo_S30000_S_d0 h_S_) main_v107 main_c_42
  let main_v109 : IVec S_ 1 := andi main_v89 main_v108
  let main_c_43 : IVec S_ 32 := constantI S_ 32 0#32
  let main_v110 : IVec S500000 32 := broadcastInDim S500000 ![] bcast_S_S500000 main_c_43
  let main_c_44 : IVec S_ 32 := constantI S_ 32 0#32
  let main_v111 : IVec S60000 32 := broadcastInDim S60000 ![] bcast_S_S60000 main_c_44
  let main_v112 : IVec S60000 1 := cmpi .slt main_arg14 main_v111
  let main_c_45 : IVec S_ 32 := constantI S_ 32 500000#32
  let main_v113 : IVec S60000 32 := broadcastInDim S60000 ![] bcast_S_S60000 main_c_45
  let main_v114 : IVec S60000 32 := addi main_arg14 main_v113
  let main_v115 : IVec S60000 32 := select main_v112 main_v114 main_arg14
  let main_v116 : IVec S60000x1 32 := broadcastInDim S60000x1 ![0] bcast_S60000_S60000x1_0 main_v115
  let main_c_46 : IVec S_ 32 := constantI S_ 32 1#32
  let main_v117 : IVec S60000 32 := broadcastInDim S60000 ![] bcast_S_S60000 main_c_46
  let main_v118 : IVec S500000 32 := (fun x i u => Host.scatter scatter_S500000_S60000x1_S60000_n_0_0_1 (fun _ b => b) x i u) main_v110 main_v116 main_v117
  fn_part7 (F := F) main_arg16 main_v109 main_v118

def fn_part5 {F : FTy → Type} [FloatOps F] (main_arg12 : IVec S150000 32) (main_arg14 : IVec S60000 32) (main_arg16 : IVec S30000 32) (main_v69 : IVec S_ 1) (main_v78 : IVec S500000 32) (main_v84 : IVec S60000x1 32) : IVec S_ 1 :=
  let main_v85 : IVec S60000 32 := (fun x i => Host.gather gather_S500000_S60000x1_S60000_n_0_n_n_0_1_1 x i) main_v78 main_v84
  let main_c_33 : IVec S_ 32 := constantI S_ 32 0#32
  let main_v86 : IVec S60000 32 := broadcastInDim S60000 ![] bcast_S_S60000 main_c_33
  let main_v87 : IVec S60000 1 := cmpi .eq main_v85 main_v86
  let main_c_34 : IVec S_ 1 := constantI S_ 1 1#1
  let main_v88 : IVec S_ 1 := (fun x v => Host.reduce IntOp.andi x v reducesTo_S60000_S_d0 h_S_) main_v87 main_c_34
  let main_v89 : IVec S_ 1 := andi main_v69 main_v88
  let main_c_35 : IVec S_ 32 := constantI S_ 32 0#32
  let main_v90 : IVec S500000 32 := broadcastInDim S500000 ![] bcast_S_S500000 main_c_35
  let main_c_36 : IVec S_ 32 := constantI S_ 32 0#32
  let main_v91 : IVec S150000 32 := broadcastInDim S150000 ![] bcast_S_S150000 main_c_36
  let main_v92 : IVec S150000 1 := cmpi .slt main_arg12 main_v91
  let main_c_37 : IVec S_ 32 := constantI S_ 32 500000#32
  let main_v93 : IVec S150000 32 := broadcastInDim S150000 ![] bcast_S_S150000 main_c_37
  let main_v94 : IVec S150000 32 := addi main_arg12 main_v93
  let main_v95 : IVec S150000 32 := select main_v92 main_v94 main_arg12
  let main_v96 : IVec S150000x1 32 := broadcastInDim S150000x1 ![0] bcast_S150000_S150000x1_0 main_v95
  let main_c_38 : IVec S_ 32 := constantI S_ 32 1#32
  let main_v97 : IVec S150000 32 := broadcastInDim S150000 ![] bcast_S_S150000 main_c_38
  let main_v98 : IVec S500000 32 := (fun x i u => Host.scatter scatter_S500000_S150000x1_S150000_n_0_0_1 (fun _ b => b) x i u) main_v90 main_v96 main_v97
  let main_c_39 : IVec S_ 32 := constantI S_ 32 0#32
  let main_v99 : IVec S30000 32 := broadcastInDim S30000 ![] bcast_S_S30000 main_c_39
  let main_v100 : IVec S30000 1 := cmpi .slt main_arg16 main_v99
  let main_c_40 : IVec S_ 32 := constantI S_ 32 500000#32
  fn_part6 (F := F) main_arg14 main_arg16 main_v89 main_v98 main_v100 main_c_40

def fn_part4 {F : FTy → Type} [FloatOps F] (main_arg12 : IVec S150000 32) (main_arg14 : IVec S60000 32) (main_arg16 : IVec S30000 32) (main_v62 : IVec S_ 1) (main_v67 : IVec S30000 1) : IVec S_ 1 :=
  let main_c_26 : IVec S_ 1 := constantI S_ 1 1#1
  let main_v68 : IVec S_ 1 := (fun x v => Host.reduce IntOp.andi x v reducesTo_S30000_S_d0 h_S_) main_v67 main_c_26
  let main_v69 : IVec S_ 1 := andi main_v62 main_v68
  let main_c_27 : IVec S_ 32 := constantI S_ 32 0#32
  let main_v70 : IVec S500000 32 := broadcastInDim S500000 ![] bcast_S_S500000 main_c_27
  let main_c_28 : IVec S_ 32 := constantI S_ 32 0#32
  let main_v71 : IVec S150000 32 := broadcastInDim S150000 ![] bcast_S_S150000 main_c_28
  let main_v72 : IVec S150000 1 := cmpi .slt main_arg12 main_v71
  let main_c_29 : IVec S_ 32 := constantI S_ 32 500000#32
  let main_v73 : IVec S150000 32 := broadcastInDim S150000 ![] bcast_S_S150000 main_c_29
  let main_v74 : IVec S150000 32 := addi main_arg12 main_v73
  let main_v75 : IVec S150000 32 := select main_v72 main_v74 main_arg12
  let main_v76 : IVec S150000x1 32 := broadcastInDim S150000x1 ![0] bcast_S150000_S150000x1_0 main_v75
  let main_c_30 : IVec S_ 32 := constantI S_ 32 1#32
  let main_v77 : IVec S150000 32 := broadcastInDim S150000 ![] bcast_S_S150000 main_c_30
  let main_v78 : IVec S500000 32 := (fun x i u => Host.scatter scatter_S500000_S150000x1_S150000_n_0_0_1 (fun _ b => b) x i u) main_v70 main_v76 main_v77
  let main_c_31 : IVec S_ 32 := constantI S_ 32 0#32
  let main_v79 : IVec S60000 32 := broadcastInDim S60000 ![] bcast_S_S60000 main_c_31
  let main_v80 : IVec S60000 1 := cmpi .slt main_arg14 main_v79
  let main_c_32 : IVec S_ 32 := constantI S_ 32 500000#32
  let main_v81 : IVec S60000 32 := broadcastInDim S60000 ![] bcast_S_S60000 main_c_32
  let main_v82 : IVec S60000 32 := addi main_arg14 main_v81
  let main_v83 : IVec S60000 32 := select main_v80 main_v82 main_arg14
  let main_v84 : IVec S60000x1 32 := broadcastInDim S60000x1 ![0] bcast_S60000_S60000x1_0 main_v83
  fn_part5 (F := F) main_arg12 main_arg14 main_arg16 main_v69 main_v78 main_v84

def fn_part3 {F : FTy → Type} [FloatOps F] (main_arg10 : IVec S500000 32) (main_arg12 : IVec S150000 32) (main_arg13 : IVec S60000 32) (main_arg14 : IVec S60000 32) (main_arg15 : IVec S30000 32) (main_arg16 : IVec S30000 32) (main_v48 : IVec S_ 1) (main_v50 : IVec S500000 1) : IVec S_ 1 :=
  let main_c_19 : IVec S_ 32 := constantI S_ 32 120#32
  let main_v51 : IVec S500000 32 := broadcastInDim S500000 ![] bcast_S_S500000 main_c_19
  let main_v52 : IVec S500000 1 := cmpi .slt main_arg10 main_v51
  let main_v53 : IVec S500000 1 := andi main_v50 main_v52
  let main_c_20 : IVec S_ 1 := constantI S_ 1 1#1
  let main_v54 : IVec S_ 1 := (fun x v => Host.reduce IntOp.andi x v reducesTo_S500000_S_d0 h_S_) main_v53 main_c_20
  let main_v55 : IVec S_ 1 := andi main_v48 main_v54
  let main_c_21 : IVec S_ 32 := constantI S_ 32 0#32
  let main_v56 : IVec S60000 32 := broadcastInDim S60000 ![] bcast_S_S60000 main_c_21
  let main_v57 : IVec S60000 1 := cmpi .sge main_arg13 main_v56
  let main_c_22 : IVec S_ 32 := constantI S_ 32 16#32
  let main_v58 : IVec S60000 32 := broadcastInDim S60000 ![] bcast_S_S60000 main_c_22
  let main_v59 : IVec S60000 1 := cmpi .slt main_arg13 main_v58
  let main_v60 : IVec S60000 1 := andi main_v57 main_v59
  let main_c_23 : IVec S_ 1 := constantI S_ 1 1#1
  let main_v61 : IVec S_ 1 := (fun x v => Host.reduce IntOp.andi x v reducesTo_S60000_S_d0 h_S_) main_v60 main_c_23
  let main_v62 : IVec S_ 1 := andi main_v55 main_v61
  let main_c_24 : IVec S_ 32 := constantI S_ 32 0#32
  let main_v63 : IVec S30000 32 := broadcastInDim S30000 ![] bcast_S_S30000 main_c_24
  let main_v64 : IVec S30000 1 := cmpi .sge main_arg15 main_v63
  let main_c_25 : IVec S_ 32 := constantI S_ 32 16#32
  let main_v65 : IVec S30000 32 := broadcastInDim S30000 ![] bcast_S_S30000 main_c_25
  let main_v66 : IVec S30000 1 := cmpi .slt main_arg15 main_v65
  let main_v67 : IVec S30000 1 := andi main_v64 main_v66
  fn_part4 (F := F) main_arg12 main_arg14 main_arg16 main_v62 main_v67

def fn_part2 {F : FTy → Type} [FloatOps F] (main_arg7 : FVec F S256 .f32) (main_arg8 : FVec F S256x320 .f32) (main_arg9 : FVec F S256 .f32) (main_arg10 : IVec S500000 32) (main_arg12 : IVec S150000 32) (main_arg13 : IVec S60000 32) (main_arg14 : IVec S60000 32) (main_arg15 : IVec S30000 32) (main_arg16 : IVec S30000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x320 .f32 := Host.absf main_arg8
  let main_cst_14 : FVec F S_ .f32 := constant S_ .f32 0x7F800000#32
  let main_v40 : FVec F S256x320 .f32 := broadcastInDim S256x320 ![] bcast_S_S256x320 main_cst_14
  let main_v41 : IVec S256x320 1 := cmpf .olt main_v39 main_v40
  let main_c_15 : IVec S_ 1 := constantI S_ 1 1#1
  let main_v42 : IVec S_ 1 := (fun x v => Host.reduce IntOp.andi x v reducesTo_S256x320_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_c_18 : IVec S_ 32 := constantI S_ 32 0#32
  let main_v49 : IVec S500000 32 := broadcastInDim S500000 ![] bcast_S_S500000 main_c_18
  let main_v50 : IVec S500000 1 := cmpi .sge main_arg10 main_v49
  fn_part3 (F := F) main_arg10 main_arg12 main_arg13 main_arg14 main_arg15 main_arg16 main_v48 main_v50

def fn_part1 {F : FTy → Type} [FloatOps F] (main_arg4 : FVec F S256x512 .f32) (main_arg5 : FVec F S256 .f32) (main_arg6 : FVec F S256x320 .f32) (main_arg7 : FVec F S256 .f32) (main_arg8 : FVec F S256x320 .f32) (main_arg9 : FVec F S256 .f32) (main_arg10 : IVec S500000 32) (main_arg12 : IVec S150000 32) (main_arg13 : IVec S60000 32) (main_arg14 : IVec S60000 32) (main_arg15 : IVec S30000 32) (main_arg16 : IVec S30000 32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x320 .f32 := Host.absf main_arg6
  let main_cst_10 : FVec F S_ .f32 := constant S_ .f32 0x7F800000#32
  let main_v30 : FVec F S256x320 .f32 := broadcastInDim S256x320 ![] bcast_S_S256x320 main_cst_10
  let main_v31 : IVec S256x320 1 := cmpf .olt main_v29 main_v30
  let main_c_11 : IVec S_ 1 := constantI S_ 1 1#1
  let main_v32 : IVec S_ 1 := (fun x v => Host.reduce IntOp.andi x v reducesTo_S256x320_S_d0_1 h_S_) main_v31 main_c_11
  let main_v33 : IVec S_ 1 := andi main_v28 main_v32
  fn_part2 (F := F) main_arg7 main_arg8 main_arg9 main_arg10 main_arg12 main_arg13 main_arg14 main_arg15 main_arg16 main_v33

def fn {F : FTy → Type} [FloatOps F] (main_arg0 : FVec F S50000x256 .f32) (main_arg1 : FVec F S120x256 .f32) (main_arg2 : FVec F S16x64 .f32) (main_arg3 : FVec F S16x64 .f32) (main_arg4 : FVec F S256x512 .f32) (main_arg5 : FVec F S256 .f32) (main_arg6 : FVec F S256x320 .f32) (main_arg7 : FVec F S256 .f32) (main_arg8 : FVec F S256x320 .f32) (main_arg9 : FVec F S256 .f32) (main_arg10 : IVec S500000 32) (main_arg11 : IVec S150000 32) (main_arg12 : IVec S150000 32) (main_arg13 : IVec S60000 32) (main_arg14 : IVec S60000 32) (main_arg15 : IVec S30000 32) (main_arg16 : IVec S30000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S120x256 .f32 := Host.absf main_arg1
  let main_cst_0 : FVec F S_ .f32 := constant S_ .f32 0x7F800000#32
  let main_v5 : FVec F S120x256 .f32 := broadcastInDim S120x256 ![] bcast_S_S120x256 main_cst_0
  let main_v6 : IVec S120x256 1 := cmpf .olt main_v4 main_v5
  let main_c_1 : IVec S_ 1 := constantI S_ 1 1#1
  let main_v7 : IVec S_ 1 := (fun x v => Host.reduce IntOp.andi x v reducesTo_S120x256_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg6 main_arg7 main_arg8 main_arg9 main_arg10 main_arg12 main_arg13 main_arg14 main_arg15 main_arg16 main_v13 main_v16
-- ==== Kernel.lean ====
abbrev S50000x256 : Shape := ⟨2, ![50000, 256]⟩
abbrev S120x256 : Shape := ⟨2, ![120, 256]⟩
abbrev S16x64 : Shape := ⟨2, ![16, 64]⟩
abbrev S256x512 : Shape := ⟨2, ![256, 512]⟩
abbrev S256 : Shape := ⟨1, ![256]⟩
abbrev S256x320 : Shape := ⟨2, ![256, 320]⟩
abbrev S500000 : Shape := ⟨1, ![500000]⟩
abbrev S150000 : Shape := ⟨1, ![150000]⟩
abbrev S60000 : Shape := ⟨1, ![60000]⟩
abbrev S30000 : Shape := ⟨1, ![30000]⟩
abbrev S500000x1 : Shape := ⟨2, ![500000, 1]⟩
abbrev S500000x256 : Shape := ⟨2, ![500000, 256]⟩
abbrev S_ : Shape := ⟨0, ![]⟩
abbrev S150000x1 : Shape := ⟨2, ![150000, 1]⟩
abbrev S150000x256 : Shape := ⟨2, ![150000, 256]⟩
abbrev S256x256 : Shape := ⟨2, ![256, 256]⟩
abbrev S1x256 : Shape := ⟨2, ![1, 256]⟩
abbrev S60000x1 : Shape := ⟨2, ![60000, 1]⟩
abbrev S256x64 : Shape := ⟨2, ![256, 64]⟩
abbrev S64x256 : Shape := ⟨2, ![64, 256]⟩
abbrev S60000x256 : Shape := ⟨2, ![60000, 256]⟩
abbrev S30000x1 : Shape := ⟨2, ![30000, 1]⟩
abbrev S30000x256 : Shape := ⟨2, ![30000, 256]⟩
abbrev S10000x1 : Shape := ⟨2, ![10000, 1]⟩
abbrev S10000x256 : Shape := ⟨2, ![10000, 256]⟩
abbrev S10000 : Shape := ⟨1, ![10000]⟩
abbrev S10000x120 : Shape := ⟨2, ![10000, 120]⟩
abbrev S6000x1 : Shape := ⟨2, ![6000, 1]⟩
abbrev S6000x256 : Shape := ⟨2, ![6000, 256]⟩
abbrev S6000 : Shape := ⟨1, ![6000]⟩
abbrev S6000x120 : Shape := ⟨2, ![6000, 120]⟩
abbrev S6000x16 : Shape := ⟨2, ![6000, 16]⟩
abbrev S6000x64 : Shape := ⟨2, ![6000, 64]⟩

abbrev nBuf : Space → Nat
  | .hbm => 105
  | .vmem => 37
  | .smem => 0
  | _ => 0

abbrev bufTy : (tb : Table) → Fin (tcTables nBuf tb) → BufTy
  | .hbm, ⟨0, _⟩ => ⟨S50000x256, .f32⟩
  | .hbm, ⟨1, _⟩ => ⟨S120x256, .f32⟩
  | .hbm, ⟨2, _⟩ => ⟨S16x64, .f32⟩
  | .hbm, ⟨3, _⟩ => ⟨S16x64, .f32⟩
  | .hbm, ⟨4, _⟩ => ⟨S256x512, .f32⟩
  | .hbm, ⟨5, _⟩ => ⟨S256, .f32⟩
  | .hbm, ⟨6, _⟩ => ⟨S256x320, .f32⟩
  | .hbm, ⟨7, _⟩ => ⟨S256, .f32⟩
  | .hbm, ⟨8, _⟩ => ⟨S256x320, .f32⟩
  | .hbm, ⟨9, _⟩ => ⟨S256, .f32⟩
  | .hbm, ⟨10, _⟩ => ⟨S500000, .i32⟩
  | .hbm, ⟨11, _⟩ => ⟨S150000, .i32⟩
  | .hbm, ⟨12, _⟩ => ⟨S150000, .i32⟩
  | .hbm, ⟨13, _⟩ => ⟨S60000, .i32⟩
  | .hbm, ⟨14, _⟩ => ⟨S60000, .i32⟩
  | .hbm, ⟨15, _⟩ => ⟨S30000, .i32⟩
  | .hbm, ⟨16, _⟩ => ⟨S30000, .i32⟩
  | .hbm, ⟨17, _⟩ => ⟨S500000x1, .i32⟩
  | .hbm, ⟨18, _⟩ => ⟨S500000x256, .f32⟩
  | .hbm, ⟨19, _⟩ => ⟨S_, .i32⟩
  | .hbm, ⟨20, _⟩ => ⟨S150000, .i32⟩
  | .hbm, ⟨21, _⟩ => ⟨S150000, .i1⟩
  | .hbm, ⟨22, _⟩ => ⟨S_, .i32⟩
  | .hbm, ⟨23, _⟩ => ⟨S150000, .i32⟩
  | .hbm, ⟨24, _⟩ => ⟨S150000, .i32⟩
  | .hbm, ⟨25, _⟩ => ⟨S150000, .i32⟩
  | .hbm, ⟨26, _⟩ => ⟨S150000x1, .i32⟩
  | .hbm, ⟨27, _⟩ => ⟨S150000, .i32⟩
  | .hbm, ⟨28, _⟩ => ⟨S150000x1, .i32⟩
  | .hbm, ⟨29, _⟩ => ⟨S_, .i32⟩
  | .hbm, ⟨30, _⟩ => ⟨S150000, .i32⟩
  | .hbm, ⟨31, _⟩ => ⟨S150000, .i1⟩
  | .hbm, ⟨32, _⟩ => ⟨S_, .i32⟩
  | .hbm, ⟨33, _⟩ => ⟨S150000, .i32⟩
  | .hbm, ⟨34, _⟩ => ⟨S150000, .i32⟩
  | .hbm, ⟨35, _⟩ => ⟨S150000, .i32⟩
  | .hbm, ⟨36, _⟩ => ⟨S150000x1, .i32⟩
  | .hbm, ⟨37, _⟩ => ⟨S150000x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S1x256, .f32⟩
  | .hbm, ⟨43, _⟩ => ⟨S150000x256, .f32⟩
  | .hbm, ⟨44, _⟩ => ⟨S_, .i32⟩
  | .hbm, ⟨45, _⟩ => ⟨S150000, .i32⟩
  | .hbm, ⟨46, _⟩ => ⟨S150000, .i1⟩
  | .hbm, ⟨47, _⟩ => ⟨S_, .i32⟩
  | .hbm, ⟨48, _⟩ => ⟨S150000, .i32⟩
  | .hbm, ⟨49, _⟩ => ⟨S150000, .i32⟩
  | .hbm, ⟨50, _⟩ => ⟨S150000, .i32⟩
  | .hbm, ⟨51, _⟩ => ⟨S150000x1, .i32⟩
  | .hbm, ⟨52, _⟩ => ⟨S500000x256, .f32⟩
  | .hbm, ⟨53, _⟩ => ⟨S_, .i32⟩
  | .hbm, ⟨54, _⟩ => ⟨S60000, .i32⟩
  | .hbm, ⟨55, _⟩ => ⟨S60000, .i1⟩
  | .hbm, ⟨56, _⟩ => ⟨S_, .i32⟩
  | .hbm, ⟨57, _⟩ => ⟨S60000, .i32⟩
  | .hbm, ⟨58, _⟩ => ⟨S60000, .i32⟩
  | .hbm, ⟨59, _⟩ => ⟨S60000, .i32⟩
  | .hbm, ⟨60, _⟩ => ⟨S60000x1, .i32⟩
  | .hbm, ⟨61, _⟩ => ⟨S60000, .i32⟩
  | .hbm, ⟨62, _⟩ => ⟨S60000x1, .i32⟩
  | .hbm, ⟨63, _⟩ => ⟨S60000x1, .i32⟩
  | .hbm, ⟨64, _⟩ => ⟨S256x64, .f32⟩
  | .hbm, ⟨65, _⟩ => ⟨S64x256, .f32⟩
  | .hbm, ⟨66, _⟩ => ⟨S256x256, .f32⟩
  | .hbm, ⟨67, _⟩ => ⟨S256x256, .f32⟩
  | .hbm, ⟨68, _⟩ => ⟨S1x256, .f32⟩
  | .hbm, ⟨69, _⟩ => ⟨S60000x256, .f32⟩
  | .hbm, ⟨70, _⟩ => ⟨S_, .i32⟩
  | .hbm, ⟨71, _⟩ => ⟨S60000, .i32⟩
  | .hbm, ⟨72, _⟩ => ⟨S60000, .i1⟩
  | .hbm, ⟨73, _⟩ => ⟨S_, .i32⟩
  | .hbm, ⟨74, _⟩ => ⟨S60000, .i32⟩
  | .hbm, ⟨75, _⟩ => ⟨S60000, .i32⟩
  | .hbm, ⟨76, _⟩ => ⟨S60000, .i32⟩
  | .hbm, ⟨77, _⟩ => ⟨S60000x1, .i32⟩
  | .hbm, ⟨78, _⟩ => ⟨S500000x256, .f32⟩
  | .hbm, ⟨79, _⟩ => ⟨S_, .i32⟩
  | .hbm, ⟨80, _⟩ => ⟨S30000, .i32⟩
  | .hbm, ⟨81, _⟩ => ⟨S30000, .i1⟩
  | .hbm, ⟨82, _⟩ => ⟨S_, .i32⟩
  | .hbm, ⟨83, _⟩ => ⟨S30000, .i32⟩
  | .hbm, ⟨84, _⟩ => ⟨S30000, .i32⟩
  | .hbm, ⟨85, _⟩ => ⟨S30000, .i32⟩
  | .hbm, ⟨86, _⟩ => ⟨S30000x1, .i32⟩
  | .hbm, ⟨87, _⟩ => ⟨S30000, .i32⟩
  | .hbm, ⟨88, _⟩ => ⟨S30000x1, .i32⟩
  | .hbm, ⟨89, _⟩ => ⟨S30000x1, .i32⟩
  | .hbm, ⟨90, _⟩ => ⟨S256x64, .f32⟩
  | .hbm, ⟨91, _⟩ => ⟨S64x256, .f32⟩
  | .hbm, ⟨92, _⟩ => ⟨S256x256, .f32⟩
  | .hbm, ⟨93, _⟩ => ⟨S256x256, .f32⟩
  | .hbm, ⟨94, _⟩ => ⟨S1x256, .f32⟩
  | .hbm, ⟨95, _⟩ => ⟨S30000x256, .f32⟩
  | .hbm, ⟨96, _⟩ => ⟨S_, .i32⟩
  | .hbm, ⟨97, _⟩ => ⟨S30000, .i32⟩
  | .hbm, ⟨98, _⟩ => ⟨S30000, .i1⟩
  | .hbm, ⟨99, _⟩ => ⟨S_, .i32⟩
  | .hbm, ⟨100, _⟩ => ⟨S30000, .i32⟩
  | .hbm, ⟨101, _⟩ => ⟨S30000, .i32⟩
  | .hbm, ⟨102, _⟩ => ⟨S30000, .i32⟩
  | .hbm, ⟨103, _⟩ => ⟨S30000x1, .i32⟩
  | .hbm, ⟨104, _⟩ => ⟨S500000x256, .f32⟩
  | .local _ .vmem, ⟨0, _⟩ => ⟨S10000x1, .i32⟩
  | .local _ .vmem, ⟨1, _⟩ => ⟨S10000x1, .i32⟩
  | .local _ .vmem, ⟨2, _⟩ => ⟨S120x256, .f32⟩
  | .local _ .vmem, ⟨3, _⟩ => ⟨S10000x256, .f32⟩
  | .local _ .vmem, ⟨4, _⟩ => ⟨S10000x256, .f32⟩
  | .local _ .vmem, ⟨5, _⟩ => ⟨S6000x1, .i32⟩
  | .local _ .vmem, ⟨6, _⟩ => ⟨S6000x1, .i32⟩
  | .local _ .vmem, ⟨7, _⟩ => ⟨S120x256, .f32⟩
  | .local _ .vmem, ⟨8, _⟩ => ⟨S6000x256, .f32⟩
  | .local _ .vmem, ⟨9, _⟩ => ⟨S6000x256, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S6000x256, .f32⟩
  | .local _ .vmem, ⟨14, _⟩ => ⟨S6000x256, .f32⟩
  | .local _ .vmem, ⟨15, _⟩ => ⟨S6000x1, .i32⟩
  | .local _ .vmem, ⟨16, _⟩ => ⟨S6000x1, .i32⟩
  | .local _ .vmem, ⟨17, _⟩ => ⟨S120x256, .f32⟩
  | .local _ .vmem, ⟨18, _⟩ => ⟨S6000x1, .i32⟩
  | .local _ .vmem, ⟨19, _⟩ => ⟨S6000x1, .i32⟩
  | .local _ .vmem, ⟨20, _⟩ => ⟨S16x64, .f32⟩
  | .local _ .vmem, ⟨21, _⟩ => ⟨S64x256, .f32⟩
  | .local _ .vmem, ⟨22, _⟩ => ⟨S256x256, .f32⟩
  | .local _ .vmem, ⟨23, _⟩ => ⟨S1x256, .f32⟩
  | .local _ .vmem, ⟨24, _⟩ => ⟨S6000x256, .f32⟩
  | .local _ .vmem, ⟨25, _⟩ => ⟨S6000x256, .f32⟩
  | .local _ .vmem, ⟨26, _⟩ => ⟨S6000x1, .i32⟩
  | .local _ .vmem, ⟨27, _⟩ => ⟨S6000x1, .i32⟩
  | .local _ .vmem, ⟨28, _⟩ => ⟨S120x256, .f32⟩
  | .local _ .vmem, ⟨29, _⟩ => ⟨S6000x1, .i32⟩
  | .local _ .vmem, ⟨30, _⟩ => ⟨S6000x1, .i32⟩
  | .local _ .vmem, ⟨31, _⟩ => ⟨S16x64, .f32⟩
  | .local _ .vmem, ⟨32, _⟩ => ⟨S64x256, .f32⟩
  | .local _ .vmem, ⟨33, _⟩ => ⟨S256x256, .f32⟩
  | .local _ .vmem, ⟨34, _⟩ => ⟨S1x256, .f32⟩
  | .local _ .vmem, ⟨35, _⟩ => ⟨S6000x256, .f32⟩
  | .local _ .vmem, ⟨36, _⟩ => ⟨S6000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_c : Ref sig .tc := ⟨.hbm, 19, rfl⟩
abbrev main_call0_v2 : Ref sig .tc := ⟨.hbm, 20, rfl⟩
abbrev main_call0_v3 : Ref sig .tc := ⟨.hbm, 21, rfl⟩
abbrev main_call0_c_0 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_c_1 : Ref sig .tc := ⟨.hbm, 29, rfl⟩
abbrev main_call0_v10 : Ref sig .tc := ⟨.hbm, 30, rfl⟩
abbrev main_call0_v11 : Ref sig .tc := ⟨.hbm, 31, rfl⟩
abbrev main_call0_c_2 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_call0_v22 : Ref sig .tc := ⟨.hbm, 43, rfl⟩
abbrev main_call0_c_3 : Ref sig .tc := ⟨.hbm, 44, rfl⟩
abbrev main_call0_v23 : Ref sig .tc := ⟨.hbm, 45, rfl⟩
abbrev main_call0_v24 : Ref sig .tc := ⟨.hbm, 46, rfl⟩
abbrev main_call0_c_4 : Ref sig .tc := ⟨.hbm, 47, rfl⟩
abbrev main_call0_v25 : Ref sig .tc := ⟨.hbm, 48, rfl⟩
abbrev main_call0_v26 : Ref sig .tc := ⟨.hbm, 49, rfl⟩
abbrev main_call0_v27 : Ref sig .tc := ⟨.hbm, 50, rfl⟩
abbrev main_call0_v28 : Ref sig .tc := ⟨.hbm, 51, rfl⟩
abbrev main_call0_v29 : Ref sig .tc := ⟨.hbm, 52, rfl⟩
abbrev main_call0_c_5 : Ref sig .tc := ⟨.hbm, 53, rfl⟩
abbrev main_call0_v30 : Ref sig .tc := ⟨.hbm, 54, rfl⟩
abbrev main_call0_v31 : Ref sig .tc := ⟨.hbm, 55, rfl⟩
abbrev main_call0_c_6 : Ref sig .tc := ⟨.hbm, 56, rfl⟩
abbrev main_call0_v32 : Ref sig .tc := ⟨.hbm, 57, rfl⟩
abbrev main_call0_v33 : Ref sig .tc := ⟨.hbm, 58, rfl⟩
abbrev main_call0_v34 : Ref sig .tc := ⟨.hbm, 59, rfl⟩
abbrev main_call0_v35 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_v40 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_v44 : Ref sig .tc := ⟨.hbm, 69, rfl⟩
abbrev main_call0_c_7 : Ref sig .tc := ⟨.hbm, 70, rfl⟩
abbrev main_call0_v45 : Ref sig .tc := ⟨.hbm, 71, rfl⟩
abbrev main_call0_v46 : Ref sig .tc := ⟨.hbm, 72, rfl⟩
abbrev main_call0_c_8 : Ref sig .tc := ⟨.hbm, 73, rfl⟩
abbrev main_call0_v47 : Ref sig .tc := ⟨.hbm, 74, rfl⟩
abbrev main_call0_v48 : Ref sig .tc := ⟨.hbm, 75, rfl⟩
abbrev main_call0_v49 : Ref sig .tc := ⟨.hbm, 76, rfl⟩
abbrev main_call0_v50 : Ref sig .tc := ⟨.hbm, 77, rfl⟩
abbrev main_call0_v51 : Ref sig .tc := ⟨.hbm, 78, rfl⟩
abbrev main_call0_c_9 : Ref sig .tc := ⟨.hbm, 79, rfl⟩
abbrev main_call0_v52 : Ref sig .tc := ⟨.hbm, 80, rfl⟩
abbrev main_call0_v53 : Ref sig .tc := ⟨.hbm, 81, rfl⟩
abbrev main_call0_c_10 : Ref sig .tc := ⟨.hbm, 82, rfl⟩
abbrev main_call0_v54 : Ref sig .tc := ⟨.hbm, 83, rfl⟩
abbrev main_call0_v55 : Ref sig .tc := ⟨.hbm, 84, rfl⟩
abbrev main_call0_v56 : Ref sig .tc := ⟨.hbm, 85, rfl⟩
abbrev main_call0_v57 : Ref sig .tc := ⟨.hbm, 86, rfl⟩
abbrev main_call0_v58 : Ref sig .tc := ⟨.hbm, 87, rfl⟩
abbrev main_call0_v59 : Ref sig .tc := ⟨.hbm, 88, rfl⟩
abbrev main_call0_v60 : Ref sig .tc := ⟨.hbm, 89, rfl⟩
abbrev main_call0_v61 : Ref sig .tc := ⟨.hbm, 90, rfl⟩
abbrev main_call0_v62 : Ref sig .tc := ⟨.hbm, 91, rfl⟩
abbrev main_call0_v63 : Ref sig .tc := ⟨.hbm, 92, rfl⟩
abbrev main_call0_v64 : Ref sig .tc := ⟨.hbm, 93, rfl⟩
abbrev main_call0_v65 : Ref sig .tc := ⟨.hbm, 94, rfl⟩
abbrev main_call0_v66 : Ref sig .tc := ⟨.hbm, 95, rfl⟩
abbrev main_call0_c_11 : Ref sig .tc := ⟨.hbm, 96, rfl⟩
abbrev main_call0_v67 : Ref sig .tc := ⟨.hbm, 97, rfl⟩
abbrev main_call0_v68 : Ref sig .tc := ⟨.hbm, 98, rfl⟩
abbrev main_call0_c_12 : Ref sig .tc := ⟨.hbm, 99, rfl⟩
abbrev main_call0_v69 : Ref sig .tc := ⟨.hbm, 100, rfl⟩
abbrev main_call0_v70 : Ref sig .tc := ⟨.hbm, 101, rfl⟩
abbrev main_call0_v71 : Ref sig .tc := ⟨.hbm, 102, rfl⟩
abbrev main_call0_v72 : Ref sig .tc := ⟨.hbm, 103, rfl⟩
abbrev main_v0 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S120x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S120x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S6000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S120x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S6000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S6000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S500000_S500000x1 : S500000.ShapeCasts S500000x1
  bcast_S_S150000 : S_.BroadcastsInDim S150000 (![] : Fin 0 → Fin S150000.rank)
  bcast_S150000_S150000x1_0 : S150000.BroadcastsInDim S150000x1 (![0] : Fin 1 → Fin S150000x1.rank)
  shapeCasts_S150000_S150000x1 : S150000.ShapeCasts S150000x1
  slices_S256x512_S256x256_0_0 : S256x512.Slices ![0, 0] S256x256
  transposes_S256x256_S256x256_1_0 : S256x256.Transposes [1, 0] S256x256
  slices_S256x512_S256x256_0_256 : S256x512.Slices ![0, 256] S256x256
  shapeCasts_S256_S1x256 : S256.ShapeCasts S1x256
  bcast_S_S60000 : S_.BroadcastsInDim S60000 (![] : Fin 0 → Fin S60000.rank)
  bcast_S60000_S60000x1_0 : S60000.BroadcastsInDim S60000x1 (![0] : Fin 1 → Fin S60000x1.rank)
  shapeCasts_S60000_S60000x1 : S60000.ShapeCasts S60000x1
  slices_S256x320_S256x64_0_0 : S256x320.Slices ![0, 0] S256x64
  transposes_S256x64_S64x256_1_0 : S256x64.Transposes [1, 0] S64x256
  slices_S256x320_S256x256_0_64 : S256x320.Slices ![0, 64] S256x256
  bcast_S_S30000 : S_.BroadcastsInDim S30000 (![] : Fin 0 → Fin S30000.rank)
  bcast_S30000_S30000x1_0 : S30000.BroadcastsInDim S30000x1 (![0] : Fin 1 → Fin S30000x1.rank)
  shapeCasts_S30000_S30000x1 : S30000.ShapeCasts S30000x1
  inb_S10000x1_S10000x1_0_0 : ∀ a, (![0, 0] : Fin 2 → Nat) a + S10000x1.size a ≤ S10000x1.size a
  h_S10000x1 : 0 < S10000x1.numel
  shapeCasts_S10000x1_S10000 : S10000x1.ShapeCasts S10000
  shapeCasts_S10000_S10000x1 : S10000.ShapeCasts S10000x1
  iota_S10000x120_d1_w32 : S10000x120.Iotas .tc 32 [1]
  broadcasts_S10000x1_S10000x120 : S10000x1.Broadcasts S10000x120
  natLt_1_32 : 1 < 32
  inb_S120x256_S120x256_0_0 : ∀ a, (![0, 0] : Fin 2 → Nat) a + S120x256.size a ≤ S120x256.size a
  h_S120x256 : 0 < S120x256.numel
  inb_S10000x256_S10000x256_0_0 : ∀ a, (![0, 0] : Fin 2 → Nat) a + S10000x256.size a ≤ S10000x256.size a
  h_S10000x256 : 0 < S10000x256.numel
  inb_S6000x1_S6000x1_0_0 : ∀ a, (![0, 0] : Fin 2 → Nat) a + S6000x1.size a ≤ S6000x1.size a
  h_S6000x1 : 0 < S6000x1.numel
  shapeCasts_S6000x1_S6000 : S6000x1.ShapeCasts S6000
  shapeCasts_S6000_S6000x1 : S6000.ShapeCasts S6000x1
  iota_S6000x120_d1_w32 : S6000x120.Iotas .tc 32 [1]
  broadcasts_S6000x1_S6000x120 : S6000x1.Broadcasts S6000x120
  inb_S6000x256_S6000x256_0_0 : ∀ a, (![0, 0] : Fin 2 → Nat) a + S6000x256.size a ≤ S6000x256.size a
  h_S6000x256 : 0 < S6000x256.numel
  shapeCasts_S6000x256_S6000x256 : S6000x256.ShapeCasts S6000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6000x256 : S1x256.Broadcasts S6000x256
  iota_S6000x16_d1_w32 : S6000x16.Iotas .tc 32 [1]
  broadcasts_S6000x1_S6000x16 : S6000x1.Broadcasts S6000x16
  inb_S16x64_S16x64_0_0 : ∀ a, (![0, 0] : Fin 2 → Nat) a + S16x64.size a ≤ S16x64.size a
  h_S16x64 : 0 < S16x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  gather_S500000_S150000x1_S150000_n_0_n_n_0_1_1_wf : GatherDims.WF S500000 S150000x1 S150000 [] [0] [] [0] [] 1 ![1]
  gather_S50000x256_S150000x1_S150000x256_1_0_n_n_0_1_1256_wf : GatherDims.WF S50000x256 S150000x1 S150000x256 [1] [0] [] [0] [] 1 ![1, 256]
  scatter_S500000x256_S150000x1_S150000x256_1_0_0_1_wf : ScatterDims.WF S500000x256 S150000x1 S150000x256 [1] [0] [0] 1
  gather_S500000_S60000x1_S60000_n_0_n_n_0_1_1_wf : GatherDims.WF S500000 S60000x1 S60000 [] [0] [] [0] [] 1 ![1]
  scatter_S500000x256_S60000x1_S60000x256_1_0_0_1_wf : ScatterDims.WF S500000x256 S60000x1 S60000x256 [1] [0] [0] 1
  gather_S500000_S30000x1_S30000_n_0_n_n_0_1_1_wf : GatherDims.WF S500000 S30000x1 S30000 [] [0] [] [0] [] 1 ![1]
  scatter_S500000x256_S30000x1_S30000x256_1_0_0_1_wf : ScatterDims.WF S500000x256 S30000x1 S30000x256 [1] [0] [0] 1
  dot_S10000x120_S120x256_S10000x256_1_0_0_1_n_n_wf : DotDims.WF S10000x120 S120x256 S10000x256 [1] [0] [0] [1] [] []
  dot_S6000x120_S120x256_S6000x256_1_0_0_1_n_n_wf : DotDims.WF S6000x120 S120x256 S6000x256 [1] [0] [0] [1] [] []
  dot_S6000x256_S256x256_S6000x256_1_0_0_1_n_n_wf : DotDims.WF S6000x256 S256x256 S6000x256 [1] [0] [0] [1] [] []
  dot_S6000x16_S16x64_S6000x64_1_0_0_1_n_n_wf : DotDims.WF S6000x16 S16x64 S6000x64 [1] [0] [0] [1] [] []
  dot_S6000x64_S64x256_S6000x256_1_0_0_1_n_n_wf : DotDims.WF S6000x64 S64x256 S6000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S500000x1.size a
  hwx0_0 : ∀ i : grid0.Coords, EltTy.bits .i32 = 32 ∨ (Rect.block (s := S500000x1) S10000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S120x256.size a ≤ S120x256.size a
  hwx0_1 : ∀ i : grid0.Coords, EltTy.bits .f32 = 32 ∨ (Rect.block (s := S120x256) S120x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S500000x256.size a
  hwx0_2 : ∀ i : grid0.Coords, EltTy.bits .f32 = 32 ∨ (Rect.block (s := S500000x256) S10000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x1.size a ≤ S150000x1.size a
  hwx1_0 : ∀ i : grid1.Coords, EltTy.bits .i32 = 32 ∨ (Rect.block (s := S150000x1) S6000x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S120x256.size a ≤ S120x256.size a
  hwx1_1 : ∀ i : grid1.Coords, EltTy.bits .f32 = 32 ∨ (Rect.block (s := S120x256) S120x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x256.size a ≤ S150000x256.size a
  hwx1_2 : ∀ i : grid1.Coords, EltTy.bits .f32 = 32 ∨ (Rect.block (s := S150000x256) S6000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6000x256.size a ≤ S150000x256.size a
  hwx1_6 : ∀ i : grid1.Coords, EltTy.bits .f32 = 32 ∨ (Rect.block (s := S150000x256) S6000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x1.size a ≤ S60000x1.size a
  hwx2_0 : ∀ i : grid2.Coords, EltTy.bits .i32 = 32 ∨ (Rect.block (s := S60000x1) S6000x1.size (cc2_transform_0 i) (hinb2_0 i)).WholeWords (EltTy.packing .i32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S120x256.size a ≤ S120x256.size a
  hwx2_1 : ∀ i : grid2.Coords, EltTy.bits .f32 = 32 ∨ (Rect.block (s := S120x256) S120x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x1.size a ≤ S60000x1.size a
  hwx2_2 : ∀ i : grid2.Coords, EltTy.bits .i32 = 32 ∨ (Rect.block (s := S60000x1) S6000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x64.size a ≤ S16x64.size a
  hwx2_3 : ∀ i : grid2.Coords, EltTy.bits .f32 = 32 ∨ (Rect.block (s := S16x64) S16x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x256.size a ≤ S64x256.size a
  hwx2_4 : ∀ i : grid2.Coords, EltTy.bits .f32 = 32 ∨ (Rect.block (s := S64x256) S64x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6000x256.size a ≤ S60000x256.size a
  hwx2_7 : ∀ i : grid2.Coords, EltTy.bits .f32 = 32 ∨ (Rect.block (s := S60000x256) S6000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x1.size a ≤ S30000x1.size a
  hwx3_0 : ∀ i : grid3.Coords, EltTy.bits .i32 = 32 ∨ (Rect.block (s := S30000x1) S6000x1.size (cc3_transform_0 i) (hinb3_0 i)).WholeWords (EltTy.packing .i32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S120x256.size a ≤ S120x256.size a
  hwx3_1 : ∀ i : grid3.Coords, EltTy.bits .f32 = 32 ∨ (Rect.block (s := S120x256) S120x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x1.size a ≤ S30000x1.size a
  hwx3_2 : ∀ i : grid3.Coords, EltTy.bits .i32 = 32 ∨ (Rect.block (s := S30000x1) S6000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x64.size a ≤ S16x64.size a
  hwx3_3 : ∀ i : grid3.Coords, EltTy.bits .f32 = 32 ∨ (Rect.block (s := S16x64) S16x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x256.size a ≤ S64x256.size a
  hwx3_4 : ∀ i : grid3.Coords, EltTy.bits .f32 = 32 ∨ (Rect.block (s := S64x256) S64x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S6000x256.size a ≤ S30000x256.size a
  hwx3_7 : ∀ i : grid3.Coords, EltTy.bits .f32 = 32 ∨ (Rect.block (s := S30000x256) S6000x256.size (cc3_transform_7 i) (hinb3_7 i)).WholeWords (EltTy.packing .f32)

variable [Facts₀]

def gather_S500000_S150000x1_S150000_n_0_n_n_0_1_1 : GatherDims S500000 S150000x1 S150000 where
  offsetDims := []
  collapsedSliceDims := [0]
  operandBatchingDims := []
  startIndicesBatchingDims := []
  startIndexMap := [0]
  indexVectorDim := 1
  sliceSizes := ![1]
  wf := gather_S500000_S150000x1_S150000_n_0_n_n_0_1_1_wf
def gather_S50000x256_S150000x1_S150000x256_1_0_n_n_0_1_1256 : GatherDims S50000x256 S150000x1 S150000x256 where
  offsetDims := [1]
  collapsedSliceDims := [0]
  operandBatchingDims := []
  startIndicesBatchingDims := []
  startIndexMap := [0]
  indexVectorDim := 1
  sliceSizes := ![1, 256]
  wf := gather_S50000x256_S150000x1_S150000x256_1_0_n_n_0_1_1256_wf
def scatter_S500000x256_S150000x1_S150000x256_1_0_0_1 : ScatterDims S500000x256 S150000x1 S150000x256 where
  updateWindowDims := [1]
  insertedWindowDims := [0]
  scatterDimsToOperandDims := [0]
  indexVectorDim := 1
  wf := scatter_S500000x256_S150000x1_S150000x256_1_0_0_1_wf
def gather_S500000_S60000x1_S60000_n_0_n_n_0_1_1 : GatherDims S500000 S60000x1 S60000 where
  offsetDims := []
  collapsedSliceDims := [0]
  operandBatchingDims := []
  startIndicesBatchingDims := []
  startIndexMap := [0]
  indexVectorDim := 1
  sliceSizes := ![1]
  wf := gather_S500000_S60000x1_S60000_n_0_n_n_0_1_1_wf
def scatter_S500000x256_S60000x1_S60000x256_1_0_0_1 : ScatterDims S500000x256 S60000x1 S60000x256 where
  updateWindowDims := [1]
  insertedWindowDims := [0]
  scatterDimsToOperandDims := [0]
  indexVectorDim := 1
  wf := scatter_S500000x256_S60000x1_S60000x256_1_0_0_1_wf
def gather_S500000_S30000x1_S30000_n_0_n_n_0_1_1 : GatherDims S500000 S30000x1 S30000 where
  offsetDims := []
  collapsedSliceDims := [0]
  operandBatchingDims := []
  startIndicesBatchingDims := []
  startIndexMap := [0]
  indexVectorDim := 1
  sliceSizes := ![1]
  wf := gather_S500000_S30000x1_S30000_n_0_n_n_0_1_1_wf
def scatter_S500000x256_S30000x1_S30000x256_1_0_0_1 : ScatterDims S500000x256 S30000x1 S30000x256 where
  updateWindowDims := [1]
  insertedWindowDims := [0]
  scatterDimsToOperandDims := [0]
  indexVectorDim := 1
  wf := scatter_S500000x256_S30000x1_S30000x256_1_0_0_1_wf
def dot_S10000x120_S120x256_S10000x256_1_0_0_1_n_n : DotDims S10000x120 S120x256 S10000x256 where
  lhsContracting := [1]
  rhsContracting := [0]
  lhsNonContracting := [0]
  rhsNonContracting := [1]
  lhsBatch := []
  rhsBatch := []
  wf := dot_S10000x120_S120x256_S10000x256_1_0_0_1_n_n_wf
def dot_S6000x120_S120x256_S6000x256_1_0_0_1_n_n : DotDims S6000x120 S120x256 S6000x256 where
  lhsContracting := [1]
  rhsContracting := [0]
  lhsNonContracting := [0]
  rhsNonContracting := [1]
  lhsBatch := []
  rhsBatch := []
  wf := dot_S6000x120_S120x256_S6000x256_1_0_0_1_n_n_wf
def dot_S6000x256_S256x256_S6000x256_1_0_0_1_n_n : DotDims S6000x256 S256x256 S6000x256 where
  lhsContracting := [1]
  rhsContracting := [0]
  lhsNonContracting := [0]
  rhsNonContracting := [1]
  lhsBatch := []
  rhsBatch := []
  wf := dot_S6000x256_S256x256_S6000x256_1_0_0_1_n_n_wf
def dot_S6000x16_S16x64_S6000x64_1_0_0_1_n_n : DotDims S6000x16 S16x64 S6000x64 where
  lhsContracting := [1]
  rhsContracting := [0]
  lhsNonContracting := [0]
  rhsNonContracting := [1]
  lhsBatch := []
  rhsBatch := []
  wf := dot_S6000x16_S16x64_S6000x64_1_0_0_1_n_n_wf
def dot_S6000x64_S64x256_S6000x256_1_0_0_1_n_n : DotDims S6000x64 S64x256 S6000x256 where
  lhsContracting := [1]
  rhsContracting := [0]
  lhsNonContracting := [0]
  rhsNonContracting := [1]
  lhsBatch := []
  rhsBatch := []
  wf := dot_S6000x64_S64x256_S6000x256_1_0_0_1_n_n_wf

abbrev win0_0 : Pipeline.Window sig grid0 :=
  Pipeline.Window.ofSpec (Memref.whole main_call0_v0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S120x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S10000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v9) S6000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S120x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v16) S6000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v18) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v20) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v21) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v22) S6000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v37) S6000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S120x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v38) S6000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S16x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v40) S64x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v42) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v43) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v44) S6000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_call0_v59) S6000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S120x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v60) S6000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S16x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v62) S64x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v64) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v65) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_call0_v66) S6000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x256 : Shape := ⟨2, ![50000, 256]⟩
abbrev S120x256 : Shape := ⟨2, ![120, 256]⟩
abbrev S16x64 : Shape := ⟨2, ![16, 64]⟩
abbrev S256x512 : Shape := ⟨2, ![256, 512]⟩
abbrev S256 : Shape := ⟨1, ![256]⟩
abbrev S256x320 : Shape := ⟨2, ![256, 320]⟩
abbrev S500000 : Shape := ⟨1, ![500000]⟩
abbrev S150000 : Shape := ⟨1, ![150000]⟩
abbrev S60000 : Shape := ⟨1, ![60000]⟩
abbrev S30000 : Shape := ⟨1, ![30000]⟩
abbrev S_ : Shape := ⟨0, ![]⟩
abbrev S500000x1 : Shape := ⟨2, ![500000, 1]⟩
abbrev S500000x256 : Shape := ⟨2, ![500000, 256]⟩
abbrev S150000x1 : Shape := ⟨2, ![150000, 1]⟩
abbrev S150000x256 : Shape := ⟨2, ![150000, 256]⟩
abbrev S150000x512 : Shape := ⟨2, ![150000, 512]⟩
abbrev S512x256 : Shape := ⟨2, ![512, 256]⟩
abbrev S1x256 : Shape := ⟨2, ![1, 256]⟩
abbrev S60000x1 : Shape := ⟨2, ![60000, 1]⟩
abbrev S60000x64 : Shape := ⟨2, ![60000, 64]⟩
abbrev S60000x256 : Shape := ⟨2, ![60000, 256]⟩
abbrev S60000x320 : Shape := ⟨2, ![60000, 320]⟩
abbrev S320x256 : Shape := ⟨2, ![320, 256]⟩
abbrev S30000x1 : Shape := ⟨2, ![30000, 1]⟩
abbrev S30000x64 : Shape := ⟨2, ![30000, 64]⟩
abbrev S30000x256 : Shape := ⟨2, ![30000, 256]⟩
abbrev S30000x320 : Shape := ⟨2, ![30000, 320]⟩

abbrev nBuf : Space → Nat
  | .hbm => 125
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S120x256, .f32⟩
  | .hbm, ⟨2, _⟩ => ⟨S16x64, .f32⟩
  | .hbm, ⟨3, _⟩ => ⟨S16x64, .f32⟩
  | .hbm, ⟨4, _⟩ => ⟨S256x512, .f32⟩
  | .hbm, ⟨5, _⟩ => ⟨S256, .f32⟩
  | .hbm, ⟨6, _⟩ => ⟨S256x320, .f32⟩
  | .hbm, ⟨7, _⟩ => ⟨S256, .f32⟩
  | .hbm, ⟨8, _⟩ => ⟨S256x320, .f32⟩
  | .hbm, ⟨9, _⟩ => ⟨S256, .f32⟩
  | .hbm, ⟨10, _⟩ => ⟨S500000, .i32⟩
  | .hbm, ⟨11, _⟩ => ⟨S150000, .i32⟩
  | .hbm, ⟨12, _⟩ => ⟨S150000, .i32⟩
  | .hbm, ⟨13, _⟩ => ⟨S60000, .i32⟩
  | .hbm, ⟨14, _⟩ => ⟨S60000, .i32⟩
  | .hbm, ⟨15, _⟩ => ⟨S30000, .i32⟩
  | .hbm, ⟨16, _⟩ => ⟨S30000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x256, .f32⟩
  | .hbm, ⟨26, _⟩ => ⟨S_, .i32⟩
  | .hbm, ⟨27, _⟩ => ⟨S150000, .i32⟩
  | .hbm, ⟨28, _⟩ => ⟨S150000, .i1⟩
  | .hbm, ⟨29, _⟩ => ⟨S_, .i32⟩
  | .hbm, ⟨30, _⟩ => ⟨S150000, .i32⟩
  | .hbm, ⟨31, _⟩ => ⟨S150000, .i32⟩
  | .hbm, ⟨32, _⟩ => ⟨S150000, .i32⟩
  | .hbm, ⟨33, _⟩ => ⟨S150000x1, .i32⟩
  | .hbm, ⟨34, _⟩ => ⟨S150000x256, .f32⟩
  | .hbm, ⟨35, _⟩ => ⟨S_, .i32⟩
  | .hbm, ⟨36, _⟩ => ⟨S150000, .i32⟩
  | .hbm, ⟨37, _⟩ => ⟨S150000, .i1⟩
  | .hbm, ⟨38, _⟩ => ⟨S_, .i32⟩
  | .hbm, ⟨39, _⟩ => ⟨S150000, .i32⟩
  | .hbm, ⟨40, _⟩ => ⟨S150000, .i32⟩
  | .hbm, ⟨41, _⟩ => ⟨S150000, .i32⟩
  | .hbm, ⟨42, _⟩ => ⟨S150000x1, .i32⟩
  | .hbm, ⟨43, _⟩ => ⟨S150000x256, .f32⟩
  | .hbm, ⟨44, _⟩ => ⟨S150000x512, .f32⟩
  | .hbm, ⟨45, _⟩ => ⟨S512x256, .f32⟩
  | .hbm, ⟨46, _⟩ => ⟨S150000x256, .f32⟩
  | .hbm, ⟨47, _⟩ => ⟨S1x256, .f32⟩
  | .hbm, ⟨48, _⟩ => ⟨S150000x256, .f32⟩
  | .hbm, ⟨49, _⟩ => ⟨S150000x256, .f32⟩
  | .hbm, ⟨50, _⟩ => ⟨S_, .i32⟩
  | .hbm, ⟨51, _⟩ => ⟨S150000, .i32⟩
  | .hbm, ⟨52, _⟩ => ⟨S150000, .i1⟩
  | .hbm, ⟨53, _⟩ => ⟨S_, .i32⟩
  | .hbm, ⟨54, _⟩ => ⟨S150000, .i32⟩
  | .hbm, ⟨55, _⟩ => ⟨S150000, .i32⟩
  | .hbm, ⟨56, _⟩ => ⟨S150000, .i32⟩
  | .hbm, ⟨57, _⟩ => ⟨S150000x1, .i32⟩
  | .hbm, ⟨58, _⟩ => ⟨S500000x256, .f32⟩
  | .hbm, ⟨59, _⟩ => ⟨S_, .i32⟩
  | .hbm, ⟨60, _⟩ => ⟨S60000, .i32⟩
  | .hbm, ⟨61, _⟩ => ⟨S60000, .i1⟩
  | .hbm, ⟨62, _⟩ => ⟨S_, .i32⟩
  | .hbm, ⟨63, _⟩ => ⟨S60000, .i32⟩
  | .hbm, ⟨64, _⟩ => ⟨S60000, .i32⟩
  | .hbm, ⟨65, _⟩ => ⟨S60000, .i32⟩
  | .hbm, ⟨66, _⟩ => ⟨S60000x1, .i32⟩
  | .hbm, ⟨67, _⟩ => ⟨S60000x64, .f32⟩
  | .hbm, ⟨68, _⟩ => ⟨S_, .i32⟩
  | .hbm, ⟨69, _⟩ => ⟨S60000, .i32⟩
  | .hbm, ⟨70, _⟩ => ⟨S60000, .i1⟩
  | .hbm, ⟨71, _⟩ => ⟨S_, .i32⟩
  | .hbm, ⟨72, _⟩ => ⟨S60000, .i32⟩
  | .hbm, ⟨73, _⟩ => ⟨S60000, .i32⟩
  | .hbm, ⟨74, _⟩ => ⟨S60000, .i32⟩
  | .hbm, ⟨75, _⟩ => ⟨S60000x1, .i32⟩
  | .hbm, ⟨76, _⟩ => ⟨S60000x256, .f32⟩
  | .hbm, ⟨77, _⟩ => ⟨S60000x320, .f32⟩
  | .hbm, ⟨78, _⟩ => ⟨S320x256, .f32⟩
  | .hbm, ⟨79, _⟩ => ⟨S60000x256, .f32⟩
  | .hbm, ⟨80, _⟩ => ⟨S1x256, .f32⟩
  | .hbm, ⟨81, _⟩ => ⟨S60000x256, .f32⟩
  | .hbm, ⟨82, _⟩ => ⟨S60000x256, .f32⟩
  | .hbm, ⟨83, _⟩ => ⟨S_, .i32⟩
  | .hbm, ⟨84, _⟩ => ⟨S60000, .i32⟩
  | .hbm, ⟨85, _⟩ => ⟨S60000, .i1⟩
  | .hbm, ⟨86, _⟩ => ⟨S_, .i32⟩
  | .hbm, ⟨87, _⟩ => ⟨S60000, .i32⟩
  | .hbm, ⟨88, _⟩ => ⟨S60000, .i32⟩
  | .hbm, ⟨89, _⟩ => ⟨S60000, .i32⟩
  | .hbm, ⟨90, _⟩ => ⟨S60000x1, .i32⟩
  | .hbm, ⟨91, _⟩ => ⟨S500000x256, .f32⟩
  | .hbm, ⟨92, _⟩ => ⟨S_, .i32⟩
  | .hbm, ⟨93, _⟩ => ⟨S30000, .i32⟩
  | .hbm, ⟨94, _⟩ => ⟨S30000, .i1⟩
  | .hbm, ⟨95, _⟩ => ⟨S_, .i32⟩
  | .hbm, ⟨96, _⟩ => ⟨S30000, .i32⟩
  | .hbm, ⟨97, _⟩ => ⟨S30000, .i32⟩
  | .hbm, ⟨98, _⟩ => ⟨S30000, .i32⟩
  | .hbm, ⟨99, _⟩ => ⟨S30000x1, .i32⟩
  | .hbm, ⟨100, _⟩ => ⟨S30000x64, .f32⟩
  | .hbm, ⟨101, _⟩ => ⟨S_, .i32⟩
  | .hbm, ⟨102, _⟩ => ⟨S30000, .i32⟩
  | .hbm, ⟨103, _⟩ => ⟨S30000, .i1⟩
  | .hbm, ⟨104, _⟩ => ⟨S_, .i32⟩
  | .hbm, ⟨105, _⟩ => ⟨S30000, .i32⟩
  | .hbm, ⟨106, _⟩ => ⟨S30000, .i32⟩
  | .hbm, ⟨107, _⟩ => ⟨S30000, .i32⟩
  | .hbm, ⟨108, _⟩ => ⟨S30000x1, .i32⟩
  | .hbm, ⟨109, _⟩ => ⟨S30000x256, .f32⟩
  | .hbm, ⟨110, _⟩ => ⟨S30000x320, .f32⟩
  | .hbm, ⟨111, _⟩ => ⟨S320x256, .f32⟩
  | .hbm, ⟨112, _⟩ => ⟨S30000x256, .f32⟩
  | .hbm, ⟨113, _⟩ => ⟨S1x256, .f32⟩
  | .hbm, ⟨114, _⟩ => ⟨S30000x256, .f32⟩
  | .hbm, ⟨115, _⟩ => ⟨S30000x256, .f32⟩
  | .hbm, ⟨116, _⟩ => ⟨S_, .i32⟩
  | .hbm, ⟨117, _⟩ => ⟨S30000, .i32⟩
  | .hbm, ⟨118, _⟩ => ⟨S30000, .i1⟩
  | .hbm, ⟨119, _⟩ => ⟨S_, .i32⟩
  | .hbm, ⟨120, _⟩ => ⟨S30000, .i32⟩
  | .hbm, ⟨121, _⟩ => ⟨S30000, .i32⟩
  | .hbm, ⟨122, _⟩ => ⟨S30000, .i32⟩
  | .hbm, ⟨123, _⟩ => ⟨S30000x1, .i32⟩
  | .hbm, ⟨124, _⟩ => ⟨S500000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_15 : Ref sig .tc := ⟨.hbm, 101, rfl⟩
abbrev main_v68 : Ref sig .tc := ⟨.hbm, 102, rfl⟩
abbrev main_v69 : Ref sig .tc := ⟨.hbm, 103, rfl⟩
abbrev main_c_16 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_17 : Ref sig .tc := ⟨.hbm, 116, rfl⟩
abbrev main_v81 : Ref sig .tc := ⟨.hbm, 117, rfl⟩
abbrev main_v82 : Ref sig .tc := ⟨.hbm, 118, rfl⟩
abbrev main_c_18 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S150000 : S_.BroadcastsInDim S150000 (![] : Fin 0 → Fin S150000.rank)
  bcast_S150000_S150000x1_0 : S150000.BroadcastsInDim S150000x1 (![0] : Fin 1 → Fin S150000x1.rank)
  concatenates_S150000x256_S150000x256_S150000x512_d1 : Shape.Concatenates [S150000x256, S150000x256] S150000x512 1
  transposes_S256x512_S512x256_1_0 : S256x512.Transposes [1, 0] S512x256
  bcast_S256_S1x256_1 : S256.BroadcastsInDim S1x256 (![1] : Fin 1 → Fin S1x256.rank)
  bcast_S1x256_S150000x256_0_1 : S1x256.BroadcastsInDim S150000x256 (![0, 1] : Fin 2 → Fin S150000x256.rank)
  bcast_S_S60000 : S_.BroadcastsInDim S60000 (![] : Fin 0 → Fin S60000.rank)
  bcast_S60000_S60000x1_0 : S60000.BroadcastsInDim S60000x1 (![0] : Fin 1 → Fin S60000x1.rank)
  concatenates_S60000x64_S60000x256_S60000x320_d1 : Shape.Concatenates [S60000x64, S60000x256] S60000x320 1
  transposes_S256x320_S320x256_1_0 : S256x320.Transposes [1, 0] S320x256
  bcast_S1x256_S60000x256_0_1 : S1x256.BroadcastsInDim S60000x256 (![0, 1] : Fin 2 → Fin S60000x256.rank)
  bcast_S_S30000 : S_.BroadcastsInDim S30000 (![] : Fin 0 → Fin S30000.rank)
  bcast_S30000_S30000x1_0 : S30000.BroadcastsInDim S30000x1 (![0] : Fin 1 → Fin S30000x1.rank)
  concatenates_S30000x64_S30000x256_S30000x320_d1 : Shape.Concatenates [S30000x64, S30000x256] S30000x320 1
  bcast_S1x256_S30000x256_0_1 : S1x256.BroadcastsInDim S30000x256 (![0, 1] : Fin 2 → Fin S30000x256.rank)
  gather_S120x256_S500000x1_S500000x256_1_0_n_n_0_1_1256_wf : GatherDims.WF S120x256 S500000x1 S500000x256 [1] [0] [] [0] [] 1 ![1, 256]
  gather_S50000x256_S150000x1_S150000x256_1_0_n_n_0_1_1256_wf : GatherDims.WF S50000x256 S150000x1 S150000x256 [1] [0] [] [0] [] 1 ![1, 256]
  gather_S500000x256_S150000x1_S150000x256_1_0_n_n_0_1_1256_wf : GatherDims.WF S500000x256 S150000x1 S150000x256 [1] [0] [] [0] [] 1 ![1, 256]
  dot_S150000x512_S512x256_S150000x256_1_0_0_1_n_n_wf : DotDims.WF S150000x512 S512x256 S150000x256 [1] [0] [0] [1] [] []
  scatter_S500000x256_S150000x1_S150000x256_1_0_0_1_wf : ScatterDims.WF S500000x256 S150000x1 S150000x256 [1] [0] [0] 1
  gather_S16x64_S60000x1_S60000x64_1_0_n_n_0_1_164_wf : GatherDims.WF S16x64 S60000x1 S60000x64 [1] [0] [] [0] [] 1 ![1, 64]
  gather_S500000x256_S60000x1_S60000x256_1_0_n_n_0_1_1256_wf : GatherDims.WF S500000x256 S60000x1 S60000x256 [1] [0] [] [0] [] 1 ![1, 256]
  dot_S60000x320_S320x256_S60000x256_1_0_0_1_n_n_wf : DotDims.WF S60000x320 S320x256 S60000x256 [1] [0] [0] [1] [] []
  scatter_S500000x256_S60000x1_S60000x256_1_0_0_1_wf : ScatterDims.WF S500000x256 S60000x1 S60000x256 [1] [0] [0] 1
  gather_S16x64_S30000x1_S30000x64_1_0_n_n_0_1_164_wf : GatherDims.WF S16x64 S30000x1 S30000x64 [1] [0] [] [0] [] 1 ![1, 64]
  gather_S500000x256_S30000x1_S30000x256_1_0_n_n_0_1_1256_wf : GatherDims.WF S500000x256 S30000x1 S30000x256 [1] [0] [] [0] [] 1 ![1, 256]
  dot_S30000x320_S320x256_S30000x256_1_0_0_1_n_n_wf : DotDims.WF S30000x320 S320x256 S30000x256 [1] [0] [0] [1] [] []
  scatter_S500000x256_S30000x1_S30000x256_1_0_0_1_wf : ScatterDims.WF S500000x256 S30000x1 S30000x256 [1] [0] [0] 1

variable [Facts₀]

def gather_S120x256_S500000x1_S500000x256_1_0_n_n_0_1_1256 : GatherDims S120x256 S500000x1 S500000x256 where
  offsetDims := [1]
  collapsedSliceDims := [0]
  operandBatchingDims := []
  startIndicesBatchingDims := []
  startIndexMap := [0]
  indexVectorDim := 1
  sliceSizes := ![1, 256]
  wf := gather_S120x256_S500000x1_S500000x256_1_0_n_n_0_1_1256_wf
def gather_S50000x256_S150000x1_S150000x256_1_0_n_n_0_1_1256 : GatherDims S50000x256 S150000x1 S150000x256 where
  offsetDims := [1]
  collapsedSliceDims := [0]
  operandBatchingDims := []
  startIndicesBatchingDims := []
  startIndexMap := [0]
  indexVectorDim := 1
  sliceSizes := ![1, 256]
  wf := gather_S50000x256_S150000x1_S150000x256_1_0_n_n_0_1_1256_wf
def gather_S500000x256_S150000x1_S150000x256_1_0_n_n_0_1_1256 : GatherDims S500000x256 S150000x1 S150000x256 where
  offsetDims := [1]
  collapsedSliceDims := [0]
  operandBatchingDims := []
  startIndicesBatchingDims := []
  startIndexMap := [0]
  indexVectorDim := 1
  sliceSizes := ![1, 256]
  wf := gather_S500000x256_S150000x1_S150000x256_1_0_n_n_0_1_1256_wf
def dot_S150000x512_S512x256_S150000x256_1_0_0_1_n_n : DotDims S150000x512 S512x256 S150000x256 where
  lhsContracting := [1]
  rhsContracting := [0]
  lhsNonContracting := [0]
  rhsNonContracting := [1]
  lhsBatch := []
  rhsBatch := []
  wf := dot_S150000x512_S512x256_S150000x256_1_0_0_1_n_n_wf
def scatter_S500000x256_S150000x1_S150000x256_1_0_0_1 : ScatterDims S500000x256 S150000x1 S150000x256 where
  updateWindowDims := [1]
  insertedWindowDims := [0]
  scatterDimsToOperandDims := [0]
  indexVectorDim := 1
  wf := scatter_S500000x256_S150000x1_S150000x256_1_0_0_1_wf
def gather_S16x64_S60000x1_S60000x64_1_0_n_n_0_1_164 : GatherDims S16x64 S60000x1 S60000x64 where
  offsetDims := [1]
  collapsedSliceDims := [0]
  operandBatchingDims := []
  startIndicesBatchingDims := []
  startIndexMap := [0]
  indexVectorDim := 1
  sliceSizes := ![1, 64]
  wf := gather_S16x64_S60000x1_S60000x64_1_0_n_n_0_1_164_wf
def gather_S500000x256_S60000x1_S60000x256_1_0_n_n_0_1_1256 : GatherDims S500000x256 S60000x1 S60000x256 where
  offsetDims := [1]
  collapsedSliceDims := [0]
  operandBatchingDims := []
  startIndicesBatchingDims := []
  startIndexMap := [0]
  indexVectorDim := 1
  sliceSizes := ![1, 256]
  wf := gather_S500000x256_S60000x1_S60000x256_1_0_n_n_0_1_1256_wf
def dot_S60000x320_S320x256_S60000x256_1_0_0_1_n_n : DotDims S60000x320 S320x256 S60000x256 where
  lhsContracting := [1]
  rhsContracting := [0]
  lhsNonContracting := [0]
  rhsNonContracting := [1]
  lhsBatch := []
  rhsBatch := []
  wf := dot_S60000x320_S320x256_S60000x256_1_0_0_1_n_n_wf
def scatter_S500000x256_S60000x1_S60000x256_1_0_0_1 : ScatterDims S500000x256 S60000x1 S60000x256 where
  updateWindowDims := [1]
  insertedWindowDims := [0]
  scatterDimsToOperandDims := [0]
  indexVectorDim := 1
  wf := scatter_S500000x256_S60000x1_S60000x256_1_0_0_1_wf
def gather_S16x64_S30000x1_S30000x64_1_0_n_n_0_1_164 : GatherDims S16x64 S30000x1 S30000x64 where
  offsetDims := [1]
  collapsedSliceDims := [0]
  operandBatchingDims := []
  startIndicesBatchingDims := []
  startIndexMap := [0]
  indexVectorDim := 1
  sliceSizes := ![1, 64]
  wf := gather_S16x64_S30000x1_S30000x64_1_0_n_n_0_1_164_wf
def gather_S500000x256_S30000x1_S30000x256_1_0_n_n_0_1_1256 : GatherDims S500000x256 S30000x1 S30000x256 where
  offsetDims := [1]
  collapsedSliceDims := [0]
  operandBatchingDims := []
  startIndicesBatchingDims := []
  startIndexMap := [0]
  indexVectorDim := 1
  sliceSizes := ![1, 256]
  wf := gather_S500000x256_S30000x1_S30000x256_1_0_n_n_0_1_1256_wf
def dot_S30000x320_S320x256_S30000x256_1_0_0_1_n_n : DotDims S30000x320 S320x256 S30000x256 where
  lhsContracting := [1]
  rhsContracting := [0]
  lhsNonContracting := [0]
  rhsNonContracting := [1]
  lhsBatch := []
  rhsBatch := []
  wf := dot_S30000x320_S320x256_S30000x256_1_0_0_1_n_n_wf
def scatter_S500000x256_S30000x1_S30000x256_1_0_0_1 : ScatterDims S500000x256 S30000x1 S30000x256 where
  updateWindowDims := [1]
  insertedWindowDims := [0]
  scatterDimsToOperandDims := [0]
  indexVectorDim := 1
  wf := scatter_S500000x256_S30000x1_S30000x256_1_0_0_1_wf

class Facts : Prop extends Facts₀ where

variable [Facts]
-- ==== Proof.KFold.lean ====
/-
  THE KERNEL PROGRAM'S RESULT BUFFER, READ BACK THROUGH THE HOST STRETCHES.

  After its last host operation the result buffer holds three nested replacing scatters: the array the first region
  leaves, with the second region's rows scattered at the identifier leaves' node indices, then the third region's rows
  at the primitive leaves', then the fourth region's at the module leaves' — each index operand the node-index
  argument, a negative word having 500000 added, laid out as a column. The argument arrays are read at each boundary
  as launched: no host operation and no region writes one.
-/
import proofs.«414947_j9895604650636_3_alg».proof.Proof.Gen.KernelIdeal.Frame
import Idealize.ShloMosaic.PureOps.Ideal

set_option maxRecDepth 16384

noncomputable section

namespace Cert.KernelIdeal.Fold

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ) (ρ : Dev nD → PrngReg)

/-- A buffer that no operation of a host stretch writes is, after the stretch, what it was before. -/
local macro "host_skip " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The node-index arguments at the boundaries where a scatter reads them -/

theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by host_skip hostOps1
    _ = W1 m ρ c (Proc.devRef .tc main_arg12) := W2_of_ne m ρ c main_arg12 (by decide)
    _ = W0 m ρ c (Proc.devRef .tc main_arg12) := by host_skip hostOps0
    _ = m ((c : Thread nD τ).loc main_arg12) := rfl

theorem W6_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := by host_skip hostOps2
    _ = W3 m ρ c (Proc.devRef .tc main_arg14) := W4_of_ne m ρ c main_arg14 (by decide)
    _ = W2 m ρ c (Proc.devRef .tc main_arg14) := by host_skip hostOps1
    _ = W1 m ρ c (Proc.devRef .tc main_arg14) := W2_of_ne m ρ c main_arg14 (by decide)
    _ = W0 m ρ c (Proc.devRef .tc main_arg14) := by host_skip hostOps0
    _ = m ((c : Thread nD τ).loc main_arg14) := rfl

theorem W8_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := by host_skip hostOps3
    _ = W5 m ρ c (Proc.devRef .tc main_arg16) := W6_of_ne m ρ c main_arg16 (by decide)
    _ = W4 m ρ c (Proc.devRef .tc main_arg16) := by host_skip hostOps2
    _ = W3 m ρ c (Proc.devRef .tc main_arg16) := W4_of_ne m ρ c main_arg16 (by decide)
    _ = W2 m ρ c (Proc.devRef .tc main_arg16) := by host_skip hostOps1
    _ = W1 m ρ c (Proc.devRef .tc main_arg16) := W2_of_ne m ρ c main_arg16 (by decide)
    _ = W0 m ρ c (Proc.devRef .tc main_arg16) := by host_skip hostOps0
    _ = m ((c : Thread nD τ).loc main_arg16) := rfl

/-! ## The first region's array, carried to the first scatter -/

theorem W4_enc (c : Dev nD) : W4 m ρ c (Proc.devRef .tc main_call0_v1) = (dat0 (V1 m ρ) c).arrAt 2 cfg0.N :=
  calc W4 m ρ c (Proc.devRef .tc main_call0_v1)
    _ = W3 m ρ c (Proc.devRef .tc main_call0_v1) := W4_of_ne m ρ c main_call0_v1 (by decide)
    _ = W2 m ρ c (Proc.devRef .tc main_call0_v1) := by host_skip hostOps1
    _ = (dat0 (V1 m ρ) c).arrAt 2 cfg0.N := W2_arr m ρ c 2

/-! ## One host stretch's scatter, from any contents

Stated for an arbitrary valuation of the buffers: the stretch's replacing scatter, read at its result buffer, is the
scatter of the contents at its three operand buffers — the index operand the node-index argument with 500000 added to
its negative words, laid out as a column. The operands are compared one at a time, so that the two scatters meet only
once their operands are the same terms. -/

set_option maxHeartbeats 4000000 in
/-- The third host stretch. -/
theorem step2 (V : Valuation τ sig (Elt F)) :
    (StableHlo.after hostOps2 V (Proc.devRef .tc main_call0_v29) : S500000x256.Idx → Elt F .f32)
      = Host.scatter scatter_S500000x256_S150000x1_S150000x256_1_0_0_1 (fun _ b => b)
          (V (Proc.devRef .tc main_call0_v1) : S500000x256.Idx → Elt F .f32)
          (broadcastInDim S150000x1 ![0] bcast_S150000_S150000x1_0 (select (cmpi .slt ((V (Proc.devRef .tc main_arg12) : S150000.Idx → BitVec 32)) (broadcastInDim S150000 ![] bcast_S_S150000 (constantI S_ 32 0#32))) (addi ((V (Proc.devRef .tc main_arg12) : S150000.Idx → BitVec 32)) (broadcastInDim S150000 ![] bcast_S_S150000 (constantI S_ 32 500000#32))) ((V (Proc.devRef .tc main_arg12) : S150000.Idx → BitVec 32))))
          (V (Proc.devRef .tc main_call0_v22) : S150000x256.Idx → Elt F .f32) := by
  after_results_simp
  refine (eq_of_heq (cast_heq _ _)).trans ?_
  refine congr (congr (congrArg (Host.scatter scatter_S500000x256_S150000x1_S150000x256_1_0_0_1 (fun _ b => b)) ?_) ?_) ?_
  · exact eq_of_heq (cast_heq _ _)
  · refine (eq_of_heq (cast_heq _ _)).trans ?_
    rfl
  · exact eq_of_heq (cast_heq _ _)

set_option maxHeartbeats 4000000 in
/-- The fourth host stretch. -/
theorem step3 (V : Valuation τ sig (Elt F)) :
    (StableHlo.after hostOps3 V (Proc.devRef .tc main_call0_v51) : S500000x256.Idx → Elt F .f32)
      = Host.scatter scatter_S500000x256_S60000x1_S60000x256_1_0_0_1 (fun _ b => b)
          (V (Proc.devRef .tc main_call0_v29) : S500000x256.Idx → Elt F .f32)
          (broadcastInDim S60000x1 ![0] bcast_S60000_S60000x1_0 (select (cmpi .slt ((V (Proc.devRef .tc main_arg14) : S60000.Idx → BitVec 32)) (broadcastInDim S60000 ![] bcast_S_S60000 (constantI S_ 32 0#32))) (addi ((V (Proc.devRef .tc main_arg14) : S60000.Idx → BitVec 32)) (broadcastInDim S60000 ![] bcast_S_S60000 (constantI S_ 32 500000#32))) ((V (Proc.devRef .tc main_arg14) : S60000.Idx → BitVec 32))))
          (V (Proc.devRef .tc main_call0_v44) : S60000x256.Idx → Elt F .f32) := by
  after_results_simp
  refine (eq_of_heq (cast_heq _ _)).trans ?_
  refine congr (congr (congrArg (Host.scatter scatter_S500000x256_S60000x1_S60000x256_1_0_0_1 (fun _ b => b)) ?_) ?_) ?_
  · exact eq_of_heq (cast_heq _ _)
  · refine (eq_of_heq (cast_heq _ _)).trans ?_
    rfl
  · exact eq_of_heq (cast_heq _ _)

set_option maxHeartbeats 4000000 in
/-- The last host stretch. -/
theorem step4 (V : Valuation τ sig (Elt F)) :
    (StableHlo.after hostOps4 V (Proc.devRef .tc main_v0) : S500000x256.Idx → Elt F .f32)
      = Host.scatter scatter_S500000x256_S30000x1_S30000x256_1_0_0_1 (fun _ b => b)
          (V (Proc.devRef .tc main_call0_v51) : S500000x256.Idx → Elt F .f32)
          (broadcastInDim S30000x1 ![0] bcast_S30000_S30000x1_0 (select (cmpi .slt ((V (Proc.devRef .tc main_arg16) : S30000.Idx → BitVec 32)) (broadcastInDim S30000 ![] bcast_S_S30000 (constantI S_ 32 0#32))) (addi ((V (Proc.devRef .tc main_arg16) : S30000.Idx → BitVec 32)) (broadcastInDim S30000 ![] bcast_S_S30000 (constantI S_ 32 500000#32))) ((V (Proc.devRef .tc main_arg16) : S30000.Idx → BitVec 32))))
          (V (Proc.devRef .tc main_call0_v66) : S30000x256.Idx → Elt F .f32) := by
  after_results_simp
  refine (eq_of_heq (cast_heq _ _)).trans ?_
  refine congr (congr (congrArg (Host.scatter scatter_S500000x256_S30000x1_S30000x256_1_0_0_1 (fun _ b => b)) ?_) ?_) ?_
  · exact eq_of_heq (cast_heq _ _)
  · refine (eq_of_heq (cast_heq _ _)).trans ?_
    rfl
  · exact eq_of_heq (cast_heq _ _)

/-! ## The three scatters over the regions' arrays -/

/-- After the third host stretch: the first region's array with the second region's rows scattered into it. -/
theorem W5_scattered (c : Dev nD) :
    W5 m ρ c (Proc.devRef .tc main_call0_v29)
      = Host.scatter scatter_S500000x256_S150000x1_S150000x256_1_0_0_1 (fun _ b => b)
          ((dat0 (V1 m ρ) c).arrAt 2 cfg0.N)
          (broadcastInDim S150000x1 ![0] bcast_S150000_S150000x1_0 (select (cmpi .slt (m ((c : Thread nD τ).loc main_arg12)) (broadcastInDim S150000 ![] bcast_S_S150000 (constantI S_ 32 0#32))) (addi (m ((c : Thread nD τ).loc main_arg12)) (broadcastInDim S150000 ![] bcast_S_S150000 (constantI S_ 32 500000#32))) (m ((c : Thread nD τ).loc main_arg12))))
          ((dat1 (V3 m ρ) c).arrAt 6 cfg1.N) := by
  have e22 : W4 m ρ c (Proc.devRef .tc main_call0_v22) = (dat1 (V3 m ρ) c).arrAt 6 cfg1.N := W4_arr m ρ c 6
  refine (step2 (W4 m ρ c)).trans ?_
  rw [W4_enc m ρ c, W4_arg12 m ρ c, e22]

/-- After the fourth host stretch: that array with the third region's rows scattered into it. -/
theorem W7_scattered (c : Dev nD) :
    W7 m ρ c (Proc.devRef .tc main_call0_v51)
      = Host.scatter scatter_S500000x256_S60000x1_S60000x256_1_0_0_1 (fun _ b => b)
          (W5 m ρ c (Proc.devRef .tc main_call0_v29))
          (broadcastInDim S60000x1 ![0] bcast_S60000_S60000x1_0 (select (cmpi .slt (m ((c : Thread nD τ).loc main_arg14)) (broadcastInDim S60000 ![] bcast_S_S60000 (constantI S_ 32 0#32))) (addi (m ((c : Thread nD τ).loc main_arg14)) (broadcastInDim S60000 ![] bcast_S_S60000 (constantI S_ 32 500000#32))) (m ((c : Thread nD τ).loc main_arg14))))
          ((dat2 (V5 m ρ) c).arrAt 7 cfg2.N) := by
  have e29 : W6 m ρ c (Proc.devRef .tc main_call0_v29) = W5 m ρ c (Proc.devRef .tc main_call0_v29) :=
    W6_of_ne m ρ c main_call0_v29 (by decide)
  have e44 : W6 m ρ c (Proc.devRef .tc main_call0_v44) = (dat2 (V5 m ρ) c).arrAt 7 cfg2.N := W6_arr m ρ c 7
  refine (step3 (W6 m ρ c)).trans ?_
  rw [e29, W6_arg14 m ρ c, e44]

/-- The result buffer after the last host stretch: that array with the fourth region's rows scattered into it. -/
theorem W9_result (c : Dev nD) :
    W9 m ρ c (Proc.devRef .tc main_v0)
      = Host.scatter scatter_S500000x256_S30000x1_S30000x256_1_0_0_1 (fun _ b => b)
          (W7 m ρ c (Proc.devRef .tc main_call0_v51))
          (broadcastInDim S30000x1 ![0] bcast_S30000_S30000x1_0 (select (cmpi .slt (m ((c : Thread nD τ).loc main_arg16)) (broadcastInDim S30000 ![] bcast_S_S30000 (constantI S_ 32 0#32))) (addi (m ((c : Thread nD τ).loc main_arg16)) (broadcastInDim S30000 ![] bcast_S_S30000 (constantI S_ 32 500000#32))) (m ((c : Thread nD τ).loc main_arg16))))
          ((dat3 (V7 m ρ) c).arrAt 7 cfg3.N) := by
  have e51 : W8 m ρ c (Proc.devRef .tc main_call0_v51) = W7 m ρ c (Proc.devRef .tc main_call0_v51) :=
    W8_of_ne m ρ c main_call0_v51 (by decide)
  have e66 : W8 m ρ c (Proc.devRef .tc main_call0_v66) = (dat3 (V7 m ρ) c).arrAt 7 cfg3.N := W8_arr m ρ c 7
  refine (step4 (W8 m ρ c)).trans ?_
  rw [e51, W8_arg16 m ρ c, e66]

end Cert.KernelIdeal.Fold

end
-- ==== Proof.Spec.lean ====
/-
  THE NODE EMBEDDING WITH THREE DISJOINT ROW UPDATES, INDEX BY INDEX.

  Every node first gets the row of the node-type table that its type selects. Then three groups of rows are
  replaced, one group after the other: the replacement of row p is an affine map of the concatenation of a NEW
  embedding (a row of the identifier encodings, or of one of two small tables) with the row that p held BEFORE any
  replacement, which is again its node-type row.

  This module fixes the vocabulary in which both programs are read: how an integer word is read as a row number
  (a negative word has the axis length added; a gather clamps what it reads into range; a scatter drops what is out
  of range), the node-type row of a node, and one replacement row as "new part + original part + bias", each part a
  finite sum of products over the extended reals. Nothing here mentions a program.
-/
import Idealize.ShloMosaic.PureOps.Ideal
import Idealize.ShloMosaic.Lib.ValueIdx

noncomputable section

namespace Cert.NodeEmbed

open Idealize.ShloMosaic Idealize.ShloMosaic.ValueIdx

/-! ## Integer words read as row numbers -/

/-- A possibly negative index word into an axis of n rows: a negative word has n added, any other is kept. -/
def wrap (n v : BitVec 32) : BitVec 32 := Scalar.select (IntOp.cmpi .slt v 0#32) (IntOp.addi v n) v

/-- The row a gather reads for the start word v in an axis of n rows: v read signed and clamped into [0, n - 1]. -/
def readRow (n : Nat) (hn : 0 < n) (v : BitVec 32) : Fin n := ⟨min v.toInt.toNat (n - 1), by omega⟩

/-- The row a scatter writes for the start word v in an axis of n rows: v read signed when it is in range, and no
    row otherwise. -/
def writeRow (n : Nat) (v : BitVec 32) : Option (Fin n) :=
  if h : 0 ≤ v.toInt ∧ v.toInt < (n : Int) then some ⟨v.toInt.toNat, by omega⟩ else none

/-- A word in range of an axis of n rows, below 2^31, is read by a gather as itself, wrapped or not. -/
theorem readRow_wrap_of_range (n : Nat) (hn : 0 < n) (v : BitVec 32) (h0 : 0 ≤ v.toInt) (h1 : v.toInt < (n : Int)) :
    readRow n hn (wrap (BitVec.ofNat 32 n) v) = ⟨v.toInt.toNat, by omega⟩ := by
  have hs : IntOp.cmpi .slt v 0#32 = 0#1 := by
    show BitVec.ofBool (v.slt 0#32) = 0#1
    have : v.slt 0#32 = false := by
      rw [BitVec.slt_eq_decide]; simp only [BitVec.toInt_zero]; exact decide_eq_false (by omega)
    rw [this]; rfl
  unfold wrap
  rw [hs, select_zero]
  refine Fin.ext ?_
  show min v.toInt.toNat (n - 1) = v.toInt.toNat
  omega

/-! ## The arrays, index by index -/

/-- The node-type row of node p: the table row that p's type word selects (read as a gather reads it). -/
def typeRow (tab : (⟨2, ![120, 256]⟩ : Shape).Idx → EReal) (types : (⟨1, ![500000]⟩ : Shape).Idx → BitVec 32)
    (p : Fin 500000) (k : Fin 256) : EReal :=
  tab (ix2 (readRow 120 (by decide) (wrap 120#32 (types (ix1 p)))) k)

/-- One entry of a replacement row: the new part against the first columns of the weight row, the original part
    against the remaining columns, and the bias. -/
def updEntry {A : Nat} (new wNew : Fin A → EReal) (orig wOrig : Fin 256 → EReal) (bias : EReal) : EReal :=
  (∑ k, new k * wNew k) + (∑ k, orig k * wOrig k) + bias

/-- The node a word of one of the three node-index arrays addresses when it is READ. -/
def nodeRead (v : BitVec 32) : Fin 500000 := readRow 500000 (by decide) (wrap 500000#32 v)

/-- The node a word of one of the three node-index arrays addresses when it is WRITTEN, if any. -/
def nodeWrite (v : BitVec 32) : Option (Fin 500000) := writeRow 500000 (wrap 500000#32 v)

/-! ## The four arrays the programs build, as functions of the arguments -/

/-- Every node's node-type row: the array both programs start from. -/
def enc0 (tab : (⟨2, ![120, 256]⟩ : Shape).Idx → EReal) (types : (⟨1, ![500000]⟩ : Shape).Idx → BitVec 32) :
    (⟨2, ![500000, 256]⟩ : Shape).Idx → EReal :=
  fun i => typeRow tab types ⟨(i 0).val, idx2_lt0 i⟩ ⟨(i 1).val, idx2_lt1 i⟩

/-- The replacement rows of the identifier leaves: row r is the affine map W · [enc[ident r] ; typeRow (node r)] + b,
    the identifier encodings' row read as a gather reads it. -/
def updId (enc : (⟨2, ![50000, 256]⟩ : Shape).Idx → EReal) (tab : (⟨2, ![120, 256]⟩ : Shape).Idx → EReal)
    (W : (⟨2, ![256, 512]⟩ : Shape).Idx → EReal) (b : (⟨1, ![256]⟩ : Shape).Idx → EReal)
    (types : (⟨1, ![500000]⟩ : Shape).Idx → BitVec 32) (ident node : (⟨1, ![150000]⟩ : Shape).Idx → BitVec 32) :
    (⟨2, ![150000, 256]⟩ : Shape).Idx → EReal :=
  fun i =>
    updEntry (A := 256)
      (fun k => enc (ix2 (readRow 50000 (by decide) (wrap 50000#32 (ident (ix1 ⟨(i 0).val, idx2_lt0 i⟩)))) k))
      (fun k => W (ix2 ⟨(i 1).val, idx2_lt1 i⟩ ⟨k.val, by omega⟩))
      (fun k => typeRow tab types (nodeRead (node (ix1 ⟨(i 0).val, idx2_lt0 i⟩))) k)
      (fun k => W (ix2 ⟨(i 1).val, idx2_lt1 i⟩ ⟨256 + k.val, by omega⟩))
      (b (ix1 ⟨(i 1).val, idx2_lt1 i⟩))

/-- The replacement rows of a group whose new embedding is a row of a 16-row table (the primitive-type leaves, the
    module leaves): row r is W · [small[sel r] ; typeRow (node r)] + b. -/
def updSmall {M : Nat} (small : (⟨2, ![16, 64]⟩ : Shape).Idx → EReal) (tab : (⟨2, ![120, 256]⟩ : Shape).Idx → EReal)
    (W : (⟨2, ![256, 320]⟩ : Shape).Idx → EReal) (b : (⟨1, ![256]⟩ : Shape).Idx → EReal)
    (types : (⟨1, ![500000]⟩ : Shape).Idx → BitVec 32) (sel node : (⟨1, ![M]⟩ : Shape).Idx → BitVec 32) :
    (⟨2, ![M, 256]⟩ : Shape).Idx → EReal :=
  fun i =>
    updEntry (A := 64)
      (fun k => small (ix2 (readRow 16 (by decide) (wrap 16#32 (sel (ix1 ⟨(i 0).val, idx2_lt0 i⟩)))) k))
      (fun k => W (ix2 ⟨(i 1).val, idx2_lt1 i⟩ ⟨k.val, by omega⟩))
      (fun k => typeRow tab types (nodeRead (node (ix1 ⟨(i 0).val, idx2_lt0 i⟩))) k)
      (fun k => W (ix2 ⟨(i 1).val, idx2_lt1 i⟩ ⟨64 + k.val, by omega⟩))
      (b (ix1 ⟨(i 1).val, idx2_lt1 i⟩))

/-! ## What the precondition says of the integer arguments -/

/-- The domain the statement is made on: every type word indexes its table in range, and no node-index word of a
    later group reads a row that an earlier group writes. -/
structure Domain (types : (⟨1, ![500000]⟩ : Shape).Idx → BitVec 32)
    (idNode : (⟨1, ![150000]⟩ : Shape).Idx → BitVec 32)
    (primSel primNode : (⟨1, ![60000]⟩ : Shape).Idx → BitVec 32)
    (modSel modNode : (⟨1, ![30000]⟩ : Shape).Idx → BitVec 32) : Prop where
  types : ∀ p : Fin 500000, 0 ≤ (types (ix1 p)).toInt ∧ (types (ix1 p)).toInt < 120
  prims : ∀ r : Fin 60000, 0 ≤ (primSel (ix1 r)).toInt ∧ (primSel (ix1 r)).toInt < 16
  mods : ∀ r : Fin 30000, 0 ≤ (modSel (ix1 r)).toInt ∧ (modSel (ix1 r)).toInt < 16
  id_prim : ∀ (j : Fin 150000) (r : Fin 60000), nodeWrite (idNode (ix1 j)) ≠ some (nodeRead (primNode (ix1 r)))
  id_mod : ∀ (j : Fin 150000) (r : Fin 30000), nodeWrite (idNode (ix1 j)) ≠ some (nodeRead (modNode (ix1 r)))
  prim_mod : ∀ (j : Fin 60000) (r : Fin 30000), nodeWrite (primNode (ix1 j)) ≠ some (nodeRead (modNode (ix1 r)))

end Cert.NodeEmbed

end
-- ==== Proof.KRegion0.lean ====
/-
  THE FIRST KERNEL: EVERY NODE'S NODE-TYPE ROW.

  The grid has 50 points; point t works on rows 10000 t … 10000 t + 9999. Its body compares each row's type word with
  the column numbers 0 … 119, turns the comparison bits into the floats 0 and 1, and multiplies that one-hot 10000 × 120
  matrix with the 120 × 256 table into a zero accumulator. Entry (q, d) of the product is the sum over the 120 table rows v
  of [word q = v] · table (v, d). With the word in [0, 120) exactly one term has the factor 1 and every other the factor 0,
  and 0 · x = 0 for every extended real x, infinite ones included, so the sum is table (word q, d): the row a gather of
  the table at that word reads. The 50 blocks tile the 500000 rows, so the array the kernel leaves is, row by row, the
  node-type row of the specification.
-/
import proofs.«414947_j9895604650636_3_alg».proof.Proof.Gen.KernelIdeal.Frame
import proofs.«414947_j9895604650636_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.NodeEmbed
open Idealize.ShloMosaic.StableHlo

/-! ## One entry of the one-hot row -/

/-- For a type word w in [0, 120) and a column k < 120, the comparison bit "w = k", widened to a word and converted to
    a float, is 1 when k is the word's value and 0 otherwise. -/
theorem onehot_entry (w : BitVec 32) (k : Fin 120) (h0 : 0 ≤ w.toInt) (h1 : w.toInt < 120) :
    FloatOps.sitofp (F := Ideal) .f32 ((IntOp.cmpi .eq w (BitVec.ofNat 32 k.val)).setWidth 32)
      = if k.val = w.toInt.toNat then (1 : EReal) else 0 := by
  have hk : k.val < 120 := k.isLt
  have hn : w.toInt = (w.toNat : Int) := by
    have h := BitVec.toInt_eq_toNat_cond w
    have hl := w.isLt
    split_ifs at h <;> omega
  show (((((IntOp.cmpi .eq w (BitVec.ofNat 32 k.val)).setWidth 32).toInt : ℤ) : ℝ) : EReal) = _
  by_cases e : k.val = w.toInt.toNat
  · have hw : w = BitVec.ofNat 32 k.val := by
      apply BitVec.eq_of_toNat_eq; rw [BitVec.toNat_ofNat]; omega
    rw [if_pos e, ← hw]
    have hc : IntOp.cmpi .eq w w = 1#1 := by
      show BitVec.ofBool (w == w) = 1#1
      rw [beq_self_eq_true]; rfl
    rw [hc]
    have h1 : ((1#1 : BitVec 1).setWidth 32).toInt = 1 := by decide
    rw [h1]; simp
  · rw [if_neg e]
    have hc : IntOp.cmpi .eq w (BitVec.ofNat 32 k.val) = 0#1 := by
      show BitVec.ofBool (w == BitVec.ofNat 32 k.val) = 0#1
      have : (w == BitVec.ofNat 32 k.val) = false := by
        rw [beq_eq_false_iff_ne]
        intro hw
        apply e
        have := congrArg BitVec.toNat hw
        rw [BitVec.toNat_ofNat] at this
        omega
      rw [this]; rfl
    rw [hc]
    have h1 : ((0#1 : BitVec 1).setWidth 32).toInt = 0 := by decide
    rw [h1]; simp

/-! ## The block product at an entry

The contraction runs over the second axis of the left operand and the first of the right; the four lemmas read the two
operands' indices off the dimension numbers, axis by axis. -/

/-- The left operand's row is the result's row. -/
theorem lhs_pay_0 (i : S10000x256.Idx) (q : dot_S10000x120_S120x256_S10000x256_1_0_0_1_n_n.contr.Idx) :
    (dot_S10000x120_S120x256_S10000x256_1_0_0_1_n_n.lhsIdx i q 0).val = (i 0).val := by
  unfold DotDims.lhsIdx
  rw [dif_neg (show ¬(0 : Fin S10000x120.rank) ∈ dot_S10000x120_S120x256_S10000x256_1_0_0_1_n_n.lhsBatch by decide), dif_pos (show (0 : Fin S10000x120.rank) ∈ dot_S10000x120_S120x256_S10000x256_1_0_0_1_n_n.lhsNonContracting by decide)]
  rfl
/-- The left operand's column is the contraction coordinate. -/
theorem lhs_pay_1 (i : S10000x256.Idx) (q : dot_S10000x120_S120x256_S10000x256_1_0_0_1_n_n.contr.Idx) :
    (dot_S10000x120_S120x256_S10000x256_1_0_0_1_n_n.lhsIdx i q 1).val = (q ⟨0, by decide⟩).val :=
  dot_S10000x120_S120x256_S10000x256_1_0_0_1_n_n.lhsIdx_val_of_single rfl i q
/-- The right operand's row is the contraction coordinate. -/
theorem rhs_pay_0 (i : S10000x256.Idx) (q : dot_S10000x120_S120x256_S10000x256_1_0_0_1_n_n.contr.Idx) :
    (dot_S10000x120_S120x256_S10000x256_1_0_0_1_n_n.rhsIdx i q 0).val = (q ⟨0, by decide⟩).val :=
  dot_S10000x120_S120x256_S10000x256_1_0_0_1_n_n.rhsIdx_val_of_single rfl i q
/-- The right operand's column is the result's column. -/
theorem rhs_pay_1 (i : S10000x256.Idx) (q : dot_S10000x120_S120x256_S10000x256_1_0_0_1_n_n.contr.Idx) :
    (dot_S10000x120_S120x256_S10000x256_1_0_0_1_n_n.rhsIdx i q 1).val = (i 1).val := by
  unfold DotDims.rhsIdx
  rw [dif_neg (show ¬(1 : Fin S120x256.rank) ∈ dot_S10000x120_S120x256_S10000x256_1_0_0_1_n_n.rhsBatch by decide), dif_pos (show (1 : Fin S120x256.rank) ∈ dot_S10000x120_S120x256_S10000x256_1_0_0_1_n_n.rhsNonContracting by decide)]
  rfl

/-- The block product into the zero accumulator, entry (q, d): the sum over the 120 table rows. -/
theorem matmul_entry (a : FVec Ideal S10000x120 .f32) (b : FVec Ideal S120x256 .f32) (q : Fin 10000) (d : Fin 256) :
    matmul dot_S10000x120_S120x256_S10000x256_1_0_0_1_n_n none a b (constant S10000x256 .f32 0x00000000#32) (ix2 q d)
      = ∑ k : Fin 120, a (ix2 q k) * b (ix2 k d) := by
  simp only [matmul]
  rw [Ideal.matmul_constant_zero_apply, ← Equiv.sum_comp (ValueIdx.contrEquiv1 dot_S10000x120_S120x256_S10000x256_1_0_0_1_n_n 120 rfl rfl).symm]
  refine Finset.sum_congr rfl fun k _ => ?_
  have hk := ValueIdx.contrEquiv1_symm_val dot_S10000x120_S120x256_S10000x256_1_0_0_1_n_n 120 rfl rfl k
  have el : dot_S10000x120_S120x256_S10000x256_1_0_0_1_n_n.lhsIdx (ix2 q d) ((ValueIdx.contrEquiv1 dot_S10000x120_S120x256_S10000x256_1_0_0_1_n_n 120 rfl rfl).symm k) = ix2 q k := funext fun a => Fin.ext (by
    match a with
    | ⟨0, _⟩ => exact lhs_pay_0 _ _
    | ⟨1, _⟩ => exact (lhs_pay_1 _ _).trans hk)
  have er : dot_S10000x120_S120x256_S10000x256_1_0_0_1_n_n.rhsIdx (ix2 q d) ((ValueIdx.contrEquiv1 dot_S10000x120_S120x256_S10000x256_1_0_0_1_n_n 120 rfl rfl).symm k) = ix2 k d := funext fun a => Fin.ext (by
    match a with
    | ⟨0, _⟩ => exact (rhs_pay_0 _ _).trans hk
    | ⟨1, _⟩ => exact rhs_pay_1 _ _)
  rw [el, er]

/-- The type word of block row q, broadcast along the 120 columns. -/
theorem word_entry (x0 : Vec Ideal S10000x1 .i32) (q : Fin 10000) (k : Fin 120) :
    broadcastTo S10000x120 (shapeCast S10000x1 (shapeCast S10000 x0 shapeCasts_S10000x1_S10000) shapeCasts_S10000_S10000x1) broadcasts_S10000x1_S10000x120 (ix2 q k)
      = x0 (ix2 q (0 : Fin 1)) := by
  rw [shapeCast_shapeCast]
  refine broadcastTo_apply _ _ _ (ix2 q (0 : Fin 1)) fun a => ?_
  match a with
  | ⟨0, _⟩ => rfl
  | ⟨1, _⟩ => rfl

/-- The column number, as a word. -/
theorem col_entry (q : Fin 10000) (k : Fin 120) :
    iota .tc S10000x120 32 [1] iota_S10000x120_d1_w32 (ix2 q k) = BitVec.ofNat 32 k.val :=
  iota_single_apply .tc S10000x120 32 1 iota_S10000x120_d1_w32 (ix2 q k)

/-- THE PAYLOAD AT (q, d): the one-hot row of the type word times the table is the table's row at that word. -/
theorem pay_entry (x0 : Vec Ideal S10000x1 .i32) (x1 : Vec Ideal S120x256 .f32) (q : Fin 10000) (d : Fin 256)
    (h0 : 0 ≤ (x0 (ix2 q (0 : Fin 1))).toInt) (h1 : (x0 (ix2 q (0 : Fin 1))).toInt < 120) :
    k0_pay1 (F := Ideal) x0 x1 (ix2 q d) = x1 (ix2 (⟨(x0 (ix2 q (0 : Fin 1))).toInt.toNat, by omega⟩ : Fin 120) d) := by
  unfold k0_pay1
  refine (matmul_entry _ _ q d).trans ?_
  refine (Finset.sum_eq_single (⟨(x0 (ix2 q (0 : Fin 1))).toInt.toNat, by omega⟩ : Fin 120) ?_ ?_).trans ?_
  · intro k _ hk
    have e : (sitofp .f32 (extui 32 (cmpi .eq (broadcastTo S10000x120 (shapeCast S10000x1 (shapeCast S10000 x0 shapeCasts_S10000x1_S10000) shapeCasts_S10000_S10000x1) broadcasts_S10000x1_S10000x120) (iota .tc S10000x120 32 [1] iota_S10000x120_d1_w32)) natLt_1_32) : FVec Ideal S10000x120 .f32) (ix2 q k) = 0 := by
      show FloatOps.sitofp (F := Ideal) .f32 ((IntOp.cmpi .eq (broadcastTo S10000x120 (shapeCast S10000x1 (shapeCast S10000 x0 shapeCasts_S10000x1_S10000) shapeCasts_S10000_S10000x1) broadcasts_S10000x1_S10000x120 (ix2 q k)) (iota .tc S10000x120 32 [1] iota_S10000x120_d1_w32 (ix2 q k))).setWidth 32) = 0
      rw [word_entry, col_entry, onehot_entry _ k h0 h1, if_neg]
      intro hh; exact hk (Fin.ext hh)
    rw [e, zero_mul]
  · intro hk; exact absurd (Finset.mem_univ _) hk
  · have e : (sitofp .f32 (extui 32 (cmpi .eq (broadcastTo S10000x120 (shapeCast S10000x1 (shapeCast S10000 x0 shapeCasts_S10000x1_S10000) shapeCasts_S10000_S10000x1) broadcasts_S10000x1_S10000x120) (iota .tc S10000x120 32 [1] iota_S10000x120_d1_w32)) natLt_1_32) : FVec Ideal S10000x120 .f32) (ix2 q (⟨(x0 (ix2 q (0 : Fin 1))).toInt.toNat, by omega⟩ : Fin 120)) = 1 := by
      show FloatOps.sitofp (F := Ideal) .f32 ((IntOp.cmpi .eq (broadcastTo S10000x120 (shapeCast S10000x1 (shapeCast S10000 x0 shapeCasts_S10000x1_S10000) shapeCasts_S10000_S10000x1) broadcasts_S10000x1_S10000x120 (ix2 q _)) (iota .tc S10000x120 32 [1] iota_S10000x120_d1_w32 (ix2 q _))).setWidth 32) = 1
      rw [word_entry, col_entry, onehot_entry _ _ h0 h1, if_pos rfl]
    rw [e, one_mul]

/-! ## The region's two input arrays, and its blocks -/

variable (m : (ℓ : Loc nD τ sig) → Buf (Elt Ideal) ℓ) (ρ : Dev nD → PrngReg)

/-- The offset of a store or load that starts at the block's origin. -/
theorem origin_eq : (![0, 0] : Fin 2 → Nat) = fun _ => 0 := funext fun a => by fin_cases a <;> rfl

/-- The type words as the region finds them: the argument viewed as one column. -/
theorem types_in (c : Dev nD) :
    (V1 m ρ c main_call0_v0 : S500000x1.Idx → BitVec 32)
      = shapeCast S500000x1 (m ((c : Thread nD τ).loc main_arg10)) shapeCasts_S500000_S500000x1 := by
  show StableHlo.after hostOps0 (W0 m ρ c) (Proc.devRef .tc main_call0_v0) = _
  after_results
  rfl

/-- The table as the region finds it: the argument. -/
theorem table_in (c : Dev nD) : V1 m ρ c main_arg1 = m ((c : Thread nD τ).loc main_arg1) :=
  (StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))).trans rfl

/-- The three windows' block indices at each of the 50 points: the type column moves with the output's row block, the
    table's block is always the whole table, and the output's row block number is at most 49, its column block 0. -/
theorem block_rows : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 49
    ∧ win0_2.index t (1 : Fin 2) = 0 :=
  (by decide +kernel : ∀ t : Fin grid0.N, _)

/-- Every block row of the output is some point's. -/
theorem block_row_onto : ∀ q0 : Fin 50, ∃ t : Fin cfg0.N, win0_2.index t = ![q0.val, 0] :=
  (by decide +kernel : ∀ q0 : Fin 50, ∃ t : Fin grid0.N, win0_2.index t = ![q0.val, 0])

/-- Window 0's block at point t, row r: the type word of array row (block index) * 10000 + r. -/
theorem type_block_entry (c : Dev nD) (t : Fin cfg0.N) (y : S10000x1.Idx) (p : Fin 500000)
    (hp : p.val = win0_0.index t (0 : Fin 2) * 10000 + (y 0).val) :
    (iblk0 (V1 m ρ) c 0 t : Vec Ideal S10000x1 .i32) y = m ((c : Thread nD τ).loc main_arg10) (ix1 p) := by
  obtain ⟨e0, e1, -⟩ := block_rows t
  unfold iblk0
  rw [View.read_apply]
  show (V1 m ρ c main_call0_v0 : S500000x1.Idx → BitVec 32) (((cfg0.win 0).blk t).view.emb y) = _
  rw [types_in]
  refine shapeCast_apply (s := S500000) (t := S500000x1) _ _ _ (ix1 p) ?_
  show ((⟨1, ![500000]⟩ : Shape).rowMajor (ix1 p)).val = ((⟨2, ![500000, 1]⟩ : Shape).rowMajor (((cfg0.win 0).blk t).view.emb y)).val
  rw [Shape.rowMajor_val_one, Shape.rowMajor_val_two]
  show p.val = (win0_0.index t (0 : Fin 2) * 10000 + 1 * (y 0).val) * 1 + (win0_0.index t (1 : Fin 2) * 1 + 1 * (y 1).val)
  have := idx2_lt1 y
  omega

/-- Window 1's block at every point is the whole table. -/
theorem table_block (c : Dev nD) (t : Fin cfg0.N) :
    (iblk0 (V1 m ρ) c 1 t : Vec Ideal S120x256 .f32) = m ((c : Thread nD τ).loc main_arg1) := by
  obtain ⟨-, -, e2, e3, -⟩ := block_rows t
  funext y
  unfold iblk0
  rw [View.read_apply]
  show V1 m ρ c main_arg1 (((cfg0.win 1).blk t).view.emb y) = _
  rw [table_in]
  refine congrArg _ ?_
  funext a; apply Fin.ext
  match a with
  | ⟨0, _⟩ => show win0_1.index t (0 : Fin 2) * 120 + 1 * (y 0).val = (y 0).val; omega
  | ⟨1, _⟩ => show win0_1.index t (1 : Fin 2) * 256 + 1 * (y 1).val = (y 1).val; omega

/-! ## From blocks to the array -/

/-- ONE ENTRY OF A BLOCK: with the block's type column holding the words of the array rows under it and its table
    block the table, the payload at (q, d) is the node-type row entry of the array index over it. -/
theorem block_entry (tab : (⟨2, ![120, 256]⟩ : Shape).Idx → EReal) (types : (⟨1, ![500000]⟩ : Shape).Idx → BitVec 32)
    (hT : ∀ p : Fin 500000, 0 ≤ (types (ix1 p)).toInt ∧ (types (ix1 p)).toInt < 120)
    (x0 : Vec Ideal S10000x1 .i32) (x1 : Vec Ideal S120x256 .f32) (j : S10000x256.Idx) (i : S500000x256.Idx)
    (hx1 : x1 = tab)
    (hx0 : ∀ y : S10000x1.Idx, (y 0).val = (j 0).val → x0 y = types (ix1 ⟨(i 0).val, idx2_lt0 i⟩))
    (hi1 : (i 1).val = (j 1).val) :
    k0_pay1 (F := Ideal) x0 x1 j = enc0 tab types i := by
  obtain ⟨q, d, rfl⟩ : ∃ (q : Fin 10000) (d : Fin 256), j = ix2 q d := ⟨j 0, j 1, eq_ix2 j⟩
  subst hx1
  have hw : x0 (ix2 q (0 : Fin 1)) = types (ix1 ⟨(i 0).val, idx2_lt0 i⟩) := hx0 _ rfl
  have h0 := (hT ⟨(i 0).val, idx2_lt0 i⟩).1
  have h1 := (hT ⟨(i 0).val, idx2_lt0 i⟩).2
  refine (pay_entry x0 x1 q d (by rw [hw]; exact h0) (by rw [hw]; exact h1)).trans ?_
  unfold enc0 typeRow
  rw [readRow_wrap_of_range 120 (by decide) _ h0 h1]
  refine congrArg x1 ?_
  funext a; apply Fin.ext
  match a with
  | ⟨0, _⟩ => show (x0 (ix2 q (0 : Fin 1))).toInt.toNat = (types (ix1 ⟨(i 0).val, idx2_lt0 i⟩)).toInt.toNat; rw [hw]
  | ⟨1, _⟩ => exact hi1.symm

/-- WHAT POINT t WRITES BACK is block t of the node-type rows of the whole array. -/
theorem written_block (c : Dev nD)
    (hT : ∀ p : Fin 500000, 0 ≤ (m ((c : Thread nD τ).loc main_arg10) (ix1 p)).toInt ∧ (m ((c : Thread nD τ).loc main_arg10) (ix1 p)).toInt < 120)
    (t : Fin cfg0.N) :
    (dat0 (V1 m ρ) c).flushed 2 t
      = ((cfg0.win 2).blk t).view.read (Elt Ideal) (enc0 (m ((c : Thread nD τ).loc main_arg1)) (m ((c : Thread nD τ).loc main_arg10))) := by
  show (cfg0.win 2).cut (grid0.coords t) ((dat0 (V1 m ρ) c).after 2 t) = _
  rw [after0_2]
  unfold out0_2
  rw [View.canon_unit_zero origin_eq]
  simp only [View.ld_unit_zero (S := S10000x1) origin_eq, View.ld_unit_zero (S := S120x256) origin_eq]
  obtain ⟨e0, e1, e2, e3, e4, e5⟩ := block_rows t
  funext j
  show k0_pay1 (F := Ideal) (iblk0 (V1 m ρ) c 0 t) (iblk0 (V1 m ρ) c 1 t) j
    = enc0 (m ((c : Thread nD τ).loc main_arg1)) (m ((c : Thread nD τ).loc main_arg10)) (((cfg0.win 2).blk t).view.emb j)
  refine block_entry (m ((c : Thread nD τ).loc main_arg1)) (m ((c : Thread nD τ).loc main_arg10)) hT
    (iblk0 (V1 m ρ) c 0 t) (iblk0 (V1 m ρ) c 1 t) j (((cfg0.win 2).blk t).view.emb j) (table_block m ρ c t) (fun y hy => ?_) ?_
  · refine type_block_entry m ρ c t y _ ?_
    show win0_2.index t (0 : Fin 2) * 10000 + 1 * (j 0).val = win0_0.index t (0 : Fin 2) * 10000 + (y 0).val
    omega
  · show win0_2.index t (1 : Fin 2) * 256 + 1 * (j 1).val = (j 1).val
    omega

/-- An array index is in point t's block iff each coordinate is in the block's range on its axis. -/
theorem mem_block (t : Fin cfg0.N) (i : S500000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_call0_v1).slice (win0_2.rect t)).set ↔ _
  rw [View.set_slice_whole, Rect.mem_set_unit]
  exact Iff.rfl

/-- The 50 blocks of 10000 rows cover the 500000 rows: row r lies in block r / 10000. -/
theorem rows_covered (i : S500000x256.Idx) :
    ∃ t : Fin cfg0.N, (cfg0.win 2).flush t = true ∧ i ∈ ((cfg0.win 2).blk t).view.set := by
  have hi0 : (i 0).val < 500000 := idx2_lt0 i
  have hi1 : (i 1).val < 256 := idx2_lt1 i
  obtain ⟨t, ht⟩ := block_row_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 256 ≤ (i 1).val ∧ (i 1).val < win0_2.index t (1 : Fin 2) * 256 + 256; omega

/-- THE OUTPUT ARRAY after the 50 points: every node's node-type row. -/
theorem out_eq (c : Dev nD)
    (hT : ∀ p : Fin 500000, 0 ≤ (m ((c : Thread nD τ).loc main_arg10) (ix1 p)).toInt ∧ (m ((c : Thread nD τ).loc main_arg10) (ix1 p)).toInt < 120) :
    (dat0 (V1 m ρ) c).arrAt 2 cfg0.N = enc0 (m ((c : Thread nD τ).loc main_arg1)) (m ((c : Thread nD τ).loc main_arg10)) :=
  (dat0 (V1 m ρ) c).arrAt_eq_of_cover 2 _ (fun t _ => written_block m ρ c hT t) rows_covered

end Cert.KernelIdeal.Region0

end
-- ==== Proof.LibGatherRows.lean ====
/-
  THE HOST'S GATHER OF WHOLE ROWS READ AT AN INDEX: operand [P, C], start indices [N, 1] with the index vector on
  axis 1, result [N, C]; offset axes [1], collapsed slice axes [0], start index map [0], slice sizes [1, C], no
  batching axes. Result element (n, ch) is the operand at row idx[n, 0], read signed and clamped into [0, P - 1], and
  column ch. The extents and the index width are variables; the dimension numbers are known only through the
  equations on their lists.
-/
import Idealize.ShloMosaic.PureOps.ShapeOps
import Idealize.ShloMosaic.Lib.ValueIdx

namespace Idealize.ShloMosaic.GatherRows

open Idealize.ShloMosaic Idealize.ShloMosaic.ValueIdx

/-! ## A list with one entry -/

/-- Every entry of a list that equals a one-entry list is that entry. -/
theorem getElem_singleton_of_eq {α : Type} {l : List α} {a : α} (h : l = [a]) (k : Nat) (hk : k < l.length) :
    l[k] = a := by
  subst h
  have hk0 : k = 0 := by simpa using hk
  subst hk0
  rfl

/-! ## The general gather: the start-indices index of a result index, axis by axis -/

section General
variable {s si t : Shape} (d : GatherDims s si t)

/-- On the index vector's axis the start-indices index has the component's number. -/
theorem siIdx_val_of_eq (j : t.Idx) (c : Fin d.startIndexMap.length) (b : Fin si.rank)
    (hb : b.val = d.indexVectorDim) : (d.siIdx j c b).val = c.val := by
  unfold GatherDims.siIdx
  rw [dif_pos hb]

/-- With one result batch axis a, the start-indices index has, off the index vector's axis, the result index's
    coordinate on a. -/
theorem siIdx_val_of_ne (j : t.Idx) (c : Fin d.startIndexMap.length) (b : Fin si.rank)
    (hb : ¬ b.val = d.indexVectorDim) (a : Fin t.rank) (ha : d.batchDims = [a]) :
    (d.siIdx j c b).val = (j a).val := by
  unfold GatherDims.siIdx
  rw [dif_neg hb]
  unfold GatherDims.siCoord
  exact congrArg (fun e => (j e).val) (getElem_singleton_of_eq ha _ _)

/-- With one offset axis b, the offset coordinate on a kept operand axis is the result index's coordinate on b. -/
theorem offCoord_of_singleton (j : t.Idx) (a : Fin s.rank) (ha : a ∈ d.sKept) (b : Fin t.rank)
    (hb : d.offsetDims = [b]) : d.offCoord j a = (j b).val := by
  unfold GatherDims.offCoord
  rw [dif_pos ha]
  exact congrArg (fun e => (j e).val) (getElem_singleton_of_eq hb _ _)

end General

/-! ## Operand [P, C], start indices [N, 1], result [N, C] -/

/-- THE GATHER READ AT (n, ch): the operand at the clamped start row and the same column. -/
theorem gather_rows_apply {α : Type} {P C N w : Nat} (hP : 0 < P)
    (d : GatherDims (⟨2, ![P, C]⟩ : Shape) (⟨2, ![N, 1]⟩ : Shape) (⟨2, ![N, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  -- no operand axis is a batching axis
  have hnb : ∀ a : Fin 2, a ∉ d.operandBatchingDims := fun a h => by rw [hob] at h; exact List.not_mem_nil h
  -- axis 0 is the one start axis and is collapsed; axis 1 is the one kept axis
  have h0mem : (0 : Fin 2) ∈ d.startIndexMap := by rw [hsm]; exact List.mem_singleton.2 rfl
  have h1nmem : (1 : Fin 2) ∉ d.startIndexMap := by rw [hsm]; exact fun h => h10 (List.mem_singleton.1 h)
  have h0k : (0 : Fin 2) ∉ d.sKept := fun h =>
    ((d.mem_sKept 0).1 h).1 (by rw [hcs]; exact List.mem_singleton.2 rfl)
  have h1k : (1 : Fin 2) ∈ d.sKept :=
    (d.mem_sKept 1).2 ⟨by rw [hcs]; exact fun h => h10 (List.mem_singleton.1 h), hnb 1⟩
  -- the result's one batch axis is axis 0
  have hbd : d.batchDims = [0] := by
    show Shape.kept _ d.offsetDims = [0]
    rw [hod]; rfl
  -- the start-indices index of (n, ch) is [n, 0], whatever the component
  have hsi : ∀ c : Fin d.startIndexMap.length, d.siIdx (ix2 n ch) c = ix2 n (0 : Fin 1) := by
    intro c
    funext b
    refine Fin.ext ?_
    match b with
    | ⟨0, hb⟩ =>
      rw [siIdx_val_of_ne d (ix2 n ch) c ⟨0, hb⟩ (by rw [hiv]; exact Nat.zero_ne_one) 0 hbd]
      rfl
    | ⟨1, hb⟩ =>
      have h1 : (d.siIdx (ix2 n ch) c ⟨1, hb⟩).val < 1 := (d.siIdx (ix2 n ch) c ⟨1, hb⟩).isLt
      show (d.siIdx (ix2 n ch) c ⟨1, hb⟩).val = 0
      omega
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    simp only [Nat.add_zero]
    unfold GatherDims.start
    rw [dif_pos h0mem, hsi, hss]
    rfl
  | ⟨1, _⟩ =>
    show d.start (ix2 n ch) idx 1 + d.batchCoord (ix2 n ch) 1 + d.offCoord (ix2 n ch) 1 = ch.val
    rw [d.batchCoord_eq_zero _ _ (hnb 1), offCoord_of_singleton d _ _ h1k 1 hod]
    simp only [Nat.add_zero]
    unfold GatherDims.start
    rw [dif_neg h1nmem, Nat.zero_add]
    rfl

end Idealize.ShloMosaic.GatherRows
-- ==== Proof.KRegion1.lean ====
/-
  THE IDENTIFIER LEAVES' REPLACEMENT ROWS, AS THE SECOND PIPELINED CALL LEAVES THEM.

  The call runs over 25 points; point t handles rows 6000 t … 6000 t + 5999 of its three row-blocked arrays (the type
  words of the leaves' nodes, the gathered identifier encodings, the output) and sees the table, the two halves of the
  weight matrix and the bias whole. On a block it stores

      new · Wnew + (onehot(types) · table) · Worig + bias,

  three products into zero accumulators. Read at (q, d) this is a sum over 256 columns, a sum over 256 columns of an
  inner sum over the 120 table rows, and one bias entry. Under the range hypothesis on the type words the inner sum
  has one non-zero term — the indicator is 1 at the word's own row and 0 elsewhere, and 0 · x = 0 for every extended
  real x — so it is the table row the word selects, which is the node-type row of the specification. The host
  operations before the call make the six input arrays out of the arguments (wrapped index words, two gathers, two
  column slices transposed, two reshapes); each is read here at an index as an entry of an argument. The 25 blocks
  tile the 150000 rows, so the output array is the specification's replacement rows, entry by entry.
-/
import proofs.«414947_j9895604650636_3_alg».proof.Proof.Gen.KernelIdeal.Frame
import proofs.«414947_j9895604650636_3_alg».proof.Proof.Spec
import proofs.«414947_j9895604650636_3_alg».proof.Proof.LibGatherRows
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.NodeEmbed

variable (m : (ℓ : Loc nD τ sig) → Buf (Elt Ideal) ℓ) (ρ : Dev nD → PrngReg)

/-! ## A one-hot row against a table selects the table's row -/

/-- A word in [0, n) read signed equals the word of a row number exactly when the row number is the word's value. -/
theorem word_eq_ofNat_iff (n : Nat) (hn : n < 2 ^ 31) (w : BitVec 32) (h0 : 0 ≤ w.toInt) (h1 : w.toInt < (n : Int)) (v : Fin n) :
    w = BitVec.ofNat 32 v.val ↔ v.val = w.toInt.toNat := by
  have hv : v.val < n := v.isLt
  have hw : w.toNat < 2 ^ 31 := by
    rcases Nat.lt_or_ge w.toNat (2 ^ 31) with h | h
    · exact h
    · exfalso
      have : w.toInt = (w.toNat : Int) - 2 ^ 32 := by
        rw [BitVec.toInt_eq_toNat_cond]; rw [if_neg (by omega)]; norm_num
      have := w.isLt
      omega
  have hti : w.toInt = (w.toNat : Int) := by
    rw [BitVec.toInt_eq_toNat_cond, if_pos (by omega)]
  constructor
  · intro e
    rw [hti, e]
    simp only [BitVec.toNat_ofNat, Int.toNat_natCast]
    omega
  · intro e
    apply BitVec.eq_of_toNat_eq
    simp only [BitVec.toNat_ofNat]
    rw [hti] at e
    simp only [Int.toNat_natCast] at e
    omega

/-- The sum over the 120 rows of "indicator that the word is row v" times row v's entry is the entry of the word's
    row: every other term is 0 · x = 0, which holds for every extended real x. -/
theorem onehot_sum (w : BitVec 32) (h0 : 0 ≤ w.toInt) (h1 : w.toInt < 120) (T : Fin 120 → EReal) :
    (∑ v : Fin 120, (FloatOps.sitofp (F := Ideal) .f32 ((IntOp.cmpi .eq w (BitVec.ofNat 32 v.val)).setWidth 32)) * T v)
      = T ⟨w.toInt.toNat, by omega⟩ := by
  rw [Finset.sum_eq_single (⟨w.toInt.toNat, by omega⟩ : Fin 120)]
  · have e : IntOp.cmpi .eq w (BitVec.ofNat 32 w.toInt.toNat) = 1#1 :=
      StableHlo.Predicate.cmpi_eq_iff.mpr ((word_eq_ofNat_iff 120 (by norm_num) w h0 h1 ⟨w.toInt.toNat, by omega⟩).mpr rfl)
    show ((((IntOp.cmpi .eq w (BitVec.ofNat 32 w.toInt.toNat)).setWidth 32).toInt : ℝ) : EReal) * _ = _
    rw [e]
    have : ((1#1 : BitVec 1).setWidth 32).toInt = 1 := by decide
    rw [this]
    simp
  · intro v _ hv
    have e : IntOp.cmpi .eq w (BitVec.ofNat 32 v.val) = 0#1 := by
      apply eq_zero_of_ne_one
      intro h
      apply hv
      exact Fin.ext ((word_eq_ofNat_iff 120 (by norm_num) w h0 h1 v).mp (StableHlo.Predicate.cmpi_eq_iff.mp h))
    show ((((IntOp.cmpi .eq w (BitVec.ofNat 32 v.val)).setWidth 32).toInt : ℝ) : EReal) * _ = _
    rw [e]
    have : ((0#1 : BitVec 1).setWidth 32).toInt = 0 := by decide
    rw [this]
    simp
  · intro h; exact absurd (Finset.mem_univ _) h

/-! ## The two contractions of the body, read at an index -/

theorem lhs_oh_0 (i : S6000x256.Idx) (q : dot_S6000x120_S120x256_S6000x256_1_0_0_1_n_n.contr.Idx) :
    (dot_S6000x120_S120x256_S6000x256_1_0_0_1_n_n.lhsIdx i q 0).val = (i 0).val := by
  unfold DotDims.lhsIdx
  rw [dif_neg (show ¬(0 : Fin S6000x120.rank) ∈ dot_S6000x120_S120x256_S6000x256_1_0_0_1_n_n.lhsBatch by decide), dif_pos (show (0 : Fin S6000x120.rank) ∈ dot_S6000x120_S120x256_S6000x256_1_0_0_1_n_n.lhsNonContracting by decide)]
  rfl
theorem lhs_oh_1 (i : S6000x256.Idx) (q : dot_S6000x120_S120x256_S6000x256_1_0_0_1_n_n.contr.Idx) :
    (dot_S6000x120_S120x256_S6000x256_1_0_0_1_n_n.lhsIdx i q 1).val = (q ⟨0, by decide⟩).val :=
  dot_S6000x120_S120x256_S6000x256_1_0_0_1_n_n.lhsIdx_val_of_single rfl i q
theorem rhs_oh_0 (i : S6000x256.Idx) (q : dot_S6000x120_S120x256_S6000x256_1_0_0_1_n_n.contr.Idx) :
    (dot_S6000x120_S120x256_S6000x256_1_0_0_1_n_n.rhsIdx i q 0).val = (q ⟨0, by decide⟩).val :=
  dot_S6000x120_S120x256_S6000x256_1_0_0_1_n_n.rhsIdx_val_of_single rfl i q
theorem rhs_oh_1 (i : S6000x256.Idx) (q : dot_S6000x120_S120x256_S6000x256_1_0_0_1_n_n.contr.Idx) :
    (dot_S6000x120_S120x256_S6000x256_1_0_0_1_n_n.rhsIdx i q 1).val = (i 1).val := by
  unfold DotDims.rhsIdx
  rw [dif_neg (show ¬(1 : Fin S120x256.rank) ∈ dot_S6000x120_S120x256_S6000x256_1_0_0_1_n_n.rhsBatch by decide), dif_pos (show (1 : Fin S120x256.rank) ∈ dot_S6000x120_S120x256_S6000x256_1_0_0_1_n_n.rhsNonContracting by decide)]
  rfl

/-- The product of a block of 6000 rows of length 120 with the 120 × 256 table, into a zero accumulator, at (q, d). -/
theorem matmul_oh_apply (l : FVec Ideal S6000x120 .f32) (r : FVec Ideal S120x256 .f32) (q : Fin 6000) (d : Fin 256) :
    matmul dot_S6000x120_S120x256_S6000x256_1_0_0_1_n_n none l r (constant (F := Ideal) S6000x256 .f32 0x00000000#32) (ix2 q d)
      = ∑ k : Fin 120, l (ix2 q k) * r (ix2 k d) := by
  simp only [matmul]
  rw [Ideal.matmul_constant_zero_apply, ← Equiv.sum_comp (ValueIdx.contrEquiv1 dot_S6000x120_S120x256_S6000x256_1_0_0_1_n_n 120 rfl rfl).symm]
  refine Finset.sum_congr rfl fun k _ => ?_
  have hk := ValueIdx.contrEquiv1_symm_val dot_S6000x120_S120x256_S6000x256_1_0_0_1_n_n 120 rfl rfl k
  have el : dot_S6000x120_S120x256_S6000x256_1_0_0_1_n_n.lhsIdx (ix2 q d) ((ValueIdx.contrEquiv1 dot_S6000x120_S120x256_S6000x256_1_0_0_1_n_n 120 rfl rfl).symm k) = ix2 q k := funext fun a => Fin.ext (by
    match a with
    | ⟨0, _⟩ => exact lhs_oh_0 _ _
    | ⟨1, _⟩ => exact (lhs_oh_1 _ _).trans hk)
  have er : dot_S6000x120_S120x256_S6000x256_1_0_0_1_n_n.rhsIdx (ix2 q d) ((ValueIdx.contrEquiv1 dot_S6000x120_S120x256_S6000x256_1_0_0_1_n_n 120 rfl rfl).symm k) = ix2 k d := funext fun a => Fin.ext (by
    match a with
    | ⟨0, _⟩ => exact (rhs_oh_0 _ _).trans hk
    | ⟨1, _⟩ => exact rhs_oh_1 _ _)
  rw [el, er]

theorem lhs_w_0 (i : S6000x256.Idx) (q : dot_S6000x256_S256x256_S6000x256_1_0_0_1_n_n.contr.Idx) :
    (dot_S6000x256_S256x256_S6000x256_1_0_0_1_n_n.lhsIdx i q 0).val = (i 0).val := by
  unfold DotDims.lhsIdx
  rw [dif_neg (show ¬(0 : Fin S6000x256.rank) ∈ dot_S6000x256_S256x256_S6000x256_1_0_0_1_n_n.lhsBatch by decide), dif_pos (show (0 : Fin S6000x256.rank) ∈ dot_S6000x256_S256x256_S6000x256_1_0_0_1_n_n.lhsNonContracting by decide)]
  rfl
theorem lhs_w_1 (i : S6000x256.Idx) (q : dot_S6000x256_S256x256_S6000x256_1_0_0_1_n_n.contr.Idx) :
    (dot_S6000x256_S256x256_S6000x256_1_0_0_1_n_n.lhsIdx i q 1).val = (q ⟨0, by decide⟩).val :=
  dot_S6000x256_S256x256_S6000x256_1_0_0_1_n_n.lhsIdx_val_of_single rfl i q
theorem rhs_w_0 (i : S6000x256.Idx) (q : dot_S6000x256_S256x256_S6000x256_1_0_0_1_n_n.contr.Idx) :
    (dot_S6000x256_S256x256_S6000x256_1_0_0_1_n_n.rhsIdx i q 0).val = (q ⟨0, by decide⟩).val :=
  dot_S6000x256_S256x256_S6000x256_1_0_0_1_n_n.rhsIdx_val_of_single rfl i q
theorem rhs_w_1 (i : S6000x256.Idx) (q : dot_S6000x256_S256x256_S6000x256_1_0_0_1_n_n.contr.Idx) :
    (dot_S6000x256_S256x256_S6000x256_1_0_0_1_n_n.rhsIdx i q 1).val = (i 1).val := by
  unfold DotDims.rhsIdx
  rw [dif_neg (show ¬(1 : Fin S256x256.rank) ∈ dot_S6000x256_S256x256_S6000x256_1_0_0_1_n_n.rhsBatch by decide), dif_pos (show (1 : Fin S256x256.rank) ∈ dot_S6000x256_S256x256_S6000x256_1_0_0_1_n_n.rhsNonContracting by decide)]
  rfl

/-- The product of a block of 6000 rows of length 256 with a 256 × 256 matrix, into a zero accumulator, at (q, d). -/
theorem matmul_w_apply (l : FVec Ideal S6000x256 .f32) (r : FVec Ideal S256x256 .f32) (q : Fin 6000) (d : Fin 256) :
    matmul dot_S6000x256_S256x256_S6000x256_1_0_0_1_n_n none l r (constant (F := Ideal) S6000x256 .f32 0x00000000#32) (ix2 q d)
      = ∑ k : Fin 256, l (ix2 q k) * r (ix2 k d) := by
  simp only [matmul]
  rw [Ideal.matmul_constant_zero_apply, ← Equiv.sum_comp (ValueIdx.contrEquiv1 dot_S6000x256_S256x256_S6000x256_1_0_0_1_n_n 256 rfl rfl).symm]
  refine Finset.sum_congr rfl fun k _ => ?_
  have hk := ValueIdx.contrEquiv1_symm_val dot_S6000x256_S256x256_S6000x256_1_0_0_1_n_n 256 rfl rfl k
  have el : dot_S6000x256_S256x256_S6000x256_1_0_0_1_n_n.lhsIdx (ix2 q d) ((ValueIdx.contrEquiv1 dot_S6000x256_S256x256_S6000x256_1_0_0_1_n_n 256 rfl rfl).symm k) = ix2 q k := funext fun a => Fin.ext (by
    match a with
    | ⟨0, _⟩ => exact lhs_w_0 _ _
    | ⟨1, _⟩ => exact (lhs_w_1 _ _).trans hk)
  have er : dot_S6000x256_S256x256_S6000x256_1_0_0_1_n_n.rhsIdx (ix2 q d) ((ValueIdx.contrEquiv1 dot_S6000x256_S256x256_S6000x256_1_0_0_1_n_n 256 rfl rfl).symm k) = ix2 k d := funext fun a => Fin.ext (by
    match a with
    | ⟨0, _⟩ => exact (rhs_w_0 _ _).trans hk
    | ⟨1, _⟩ => exact rhs_w_1 _ _)
  rw [el, er]

/-! ## The one-hot block -/

/-- Entry (q, v) of the one-hot block: the indicator, as an extended real, of "row q's type word is v". -/
theorem onehot_apply (x0 : Vec Ideal S6000x1 .i32) (q : Fin 6000) (v : Fin 120) :
    (sitofp (F := Ideal) .f32 (extui 32 (cmpi .eq (broadcastTo S6000x120 (shapeCast S6000x1 (shapeCast S6000 x0 shapeCasts_S6000x1_S6000) shapeCasts_S6000_S6000x1) broadcasts_S6000x1_S6000x120) (iota .tc S6000x120 32 [1] iota_S6000x120_d1_w32)) natLt_1_32)) (ix2 q v)
      = FloatOps.sitofp (F := Ideal) .f32 ((IntOp.cmpi .eq (x0 (ix2 q (0 : Fin 1))) (BitVec.ofNat 32 v.val)).setWidth 32) := by
  show FloatOps.sitofp (F := Ideal) .f32 ((IntOp.cmpi .eq (broadcastTo S6000x120 (shapeCast S6000x1 (shapeCast S6000 x0 shapeCasts_S6000x1_S6000) shapeCasts_S6000_S6000x1) broadcasts_S6000x1_S6000x120 (ix2 q v)) (iota .tc S6000x120 32 [1] iota_S6000x120_d1_w32 (ix2 q v))).setWidth 32) = _
  rw [shapeCast_shapeCast, iota_single_apply,
    broadcastTo_apply x0 broadcasts_S6000x1_S6000x120 (ix2 q v) (ix2 q (0 : Fin 1)) (fun a => by
      match a with
      | ⟨0, _⟩ => rfl
      | ⟨1, _⟩ => rfl)]

/-! ## The body's stored value at an index -/

/-- The stored block at (q, d): the new rows against the first weight matrix, the one-hot rows against the table and
    then against the second weight matrix, and the bias row. -/
theorem pay_apply (x0 : Vec Ideal S6000x1 .i32) (x1 : Vec Ideal S120x256 .f32) (x2 : Vec Ideal S6000x256 .f32)
    (x3 x4 : Vec Ideal S256x256 .f32) (x5 : Vec Ideal S1x256 .f32) (q : Fin 6000) (d : Fin 256) :
    (k1_pay1 (F := Ideal) x0 x1 x2 x3 x4 x5) (ix2 q d)
      = (∑ k : Fin 256, x2 (ix2 q k) * x3 (ix2 k d))
        + (∑ k : Fin 256, (∑ v : Fin 120, FloatOps.sitofp (F := Ideal) .f32 ((IntOp.cmpi .eq (x0 (ix2 q (0 : Fin 1))) (BitVec.ofNat 32 v.val)).setWidth 32) * x1 (ix2 v k)) * x4 (ix2 k d))
        + x5 (ix2 (0 : Fin 1) d) := by
  unfold k1_pay1
  rw [addf_apply, addf_apply, shapeCast_self x2, shapeCast_self x3, shapeCast_self x4, shapeCast_self x5,
    matmul_w_apply, matmul_w_apply, broadcastTo_1b_ab_apply]
  refine congrArg₂ (· + ·) (congrArg₂ (· + ·) rfl ?_) rfl
  refine Finset.sum_congr rfl fun k _ => ?_
  rw [matmul_oh_apply]
  refine congrArg₂ (· * ·) ?_ rfl
  refine Finset.sum_congr rfl fun v _ => ?_
  rw [onehot_apply]

/-! ## One stored entry is one entry of the replacement rows -/

/-- Entry (q, d) of the stored block is entry (r, d) of the replacement rows, whenever the six loaded blocks hold,
    on row q and column d, what the region's arrays hold for leaf r. -/
theorem pay_eq_updId
    (enc : (⟨2, ![50000, 256]⟩ : Shape).Idx → EReal) (tab : (⟨2, ![120, 256]⟩ : Shape).Idx → EReal)
    (Wt : (⟨2, ![256, 512]⟩ : Shape).Idx → EReal) (b : (⟨1, ![256]⟩ : Shape).Idx → EReal)
    (types : (⟨1, ![500000]⟩ : Shape).Idx → BitVec 32) (ident node : (⟨1, ![150000]⟩ : Shape).Idx → BitVec 32)
    (hT : ∀ p : Fin 500000, 0 ≤ (types (ix1 p)).toInt ∧ (types (ix1 p)).toInt < 120)
    (x0 : Vec Ideal S6000x1 .i32) (x1 : Vec Ideal S120x256 .f32) (x2 : Vec Ideal S6000x256 .f32)
    (x3 x4 : Vec Ideal S256x256 .f32) (x5 : Vec Ideal S1x256 .f32) (q : Fin 6000) (d : Fin 256) (r : Fin 150000)
    (h0 : x0 (ix2 q (0 : Fin 1)) = types (ix1 (nodeRead (node (ix1 r)))))
    (h1 : ∀ (v : Fin 120) (k : Fin 256), x1 (ix2 v k) = tab (ix2 v k))
    (h2 : ∀ k : Fin 256, x2 (ix2 q k) = enc (ix2 (readRow 50000 (by decide) (wrap 50000#32 (ident (ix1 r)))) k))
    (h3 : ∀ k : Fin 256, x3 (ix2 k d) = Wt (ix2 d ⟨k.val, by omega⟩))
    (h4 : ∀ k : Fin 256, x4 (ix2 k d) = Wt (ix2 d ⟨256 + k.val, by omega⟩))
    (h5 : x5 (ix2 (0 : Fin 1) d) = b (ix1 d)) :
    (k1_pay1 (F := Ideal) x0 x1 x2 x3 x4 x5) (ix2 q d) = updId enc tab Wt b types ident node (ix2 r d) := by
  rw [pay_apply]
  show _ = (∑ k : Fin 256, enc (ix2 (readRow 50000 (by decide) (wrap 50000#32 (ident (ix1 r)))) k) * Wt (ix2 d ⟨k.val, by omega⟩))
      + (∑ k : Fin 256, typeRow tab types (nodeRead (node (ix1 r))) k * Wt (ix2 d ⟨256 + k.val, by omega⟩))
      + b (ix1 d)
  refine congrArg₂ (· + ·) (congrArg₂ (· + ·) ?_ ?_) h5
  · exact Finset.sum_congr rfl fun k _ => by rw [h2 k, h3 k]
  · refine Finset.sum_congr rfl fun k _ => ?_
    rw [h4 k, h0]
    refine congrArg₂ (· * ·) ?_ rfl
    have hs : (∑ v : Fin 120, FloatOps.sitofp (F := Ideal) .f32 ((IntOp.cmpi .eq (types (ix1 (nodeRead (node (ix1 r))))) (BitVec.ofNat 32 v.val)).setWidth 32) * x1 (ix2 v k))
        = ∑ v : Fin 120, FloatOps.sitofp (F := Ideal) .f32 ((IntOp.cmpi .eq (types (ix1 (nodeRead (node (ix1 r))))) (BitVec.ofNat 32 v.val)).setWidth 32) * tab (ix2 v k) :=
      Finset.sum_congr rfl fun v _ => by rw [h1 v k]
    rw [hs, onehot_sum _ (hT _).1 (hT _).2 (fun v => tab (ix2 v k))]
    unfold typeRow
    rw [readRow_wrap_of_range 120 (by decide) _ (hT _).1 (hT _).2]

/-! ## The host's gather of single entries of a vector: operand [P], start indices [N, 1], result [N] -/

/-- Entry n of the gather is the operand at the start word of row n, read signed and clamped into [0, P - 1]. -/
theorem gather_vec_apply {α : Type} {P N w : Nat} (hP : 0 < P)
    (d : GatherDims (⟨1, ![P]⟩ : Shape) (⟨2, ![N, 1]⟩ : Shape) (⟨1, ![N]⟩ : Shape))
    (hod : d.offsetDims = []) (hcs : d.collapsedSliceDims = [0]) (hob : d.operandBatchingDims = [])
    (hsm : d.startIndexMap = [0]) (hiv : d.indexVectorDim = 1) (hss : d.sliceSizes = ![1])
    (x : (⟨1, ![P]⟩ : Shape).Idx → α) (idx : IVec (⟨2, ![N, 1]⟩ : Shape) w) (n : Fin N) :
    Host.gather d x idx (ix1 n)
      = x (ix1 (⟨min (idx (ix2 n (0 : Fin 1))).toInt.toNat (P - 1), by omega⟩ : Fin P)) := by
  -- the operand's one axis is the start axis, collapsed, and not a batching axis
  have hnb : ∀ a : Fin 1, a ∉ d.operandBatchingDims := fun a h => by rw [hob] at h; exact List.not_mem_nil h
  have h0mem : (0 : Fin 1) ∈ d.startIndexMap := by rw [hsm]; exact List.mem_singleton.2 rfl
  have h0k : (0 : Fin 1) ∉ d.sKept := fun h =>
    ((d.mem_sKept 0).1 h).1 (by rw [hcs]; exact List.mem_singleton.2 rfl)
  -- the result's one axis is a batch axis
  have hbd : d.batchDims = [0] := by
    show Shape.kept _ d.offsetDims = [0]
    rw [hod]; rfl
  -- the start-indices index of n is [n, 0]
  have hsi : ∀ c : Fin d.startIndexMap.length, d.siIdx (ix1 n) c = ix2 n (0 : Fin 1) := by
    intro c
    funext b
    refine Fin.ext ?_
    match b with
    | ⟨0, hb⟩ =>
      rw [GatherRows.siIdx_val_of_ne d (ix1 n) c ⟨0, hb⟩ (by rw [hiv]; exact Nat.zero_ne_one) 0 hbd]
      rfl
    | ⟨1, hb⟩ =>
      have h1 : (d.siIdx (ix1 n) c ⟨1, hb⟩).val < 1 := (d.siIdx (ix1 n) c ⟨1, hb⟩).isLt
      show (d.siIdx (ix1 n) c ⟨1, hb⟩).val = 0
      omega
  unfold Host.gather
  congr 1
  funext a
  refine Fin.ext ?_
  match a with
  | ⟨0, _⟩ =>
    show d.start (ix1 n) idx 0 + d.batchCoord (ix1 n) 0 + d.offCoord (ix1 n) 0
      = min (idx (ix2 n (0 : Fin 1))).toInt.toNat (P - 1)
    rw [d.batchCoord_eq_zero _ _ (hnb 0), d.offCoord_eq_zero _ _ h0k]
    simp only [Nat.add_zero]
    unfold GatherDims.start
    rw [dif_pos h0mem, hsi, hss]
    rfl

/-! ## The region's input arrays as terms of the arguments -/

/-- A buffer that neither the first pipelined call nor the reshape before it writes holds, at that call's exit, what it
    held at launch. -/
theorem W2_arg (c : Dev nD) (b : Ref sig .tc) (h0 : ∀ w, Pipeline.arrRef spec0 w ≠ b) (h1 : b ≠ main_call0_v0) :
    W2 m ρ c (Proc.devRef .tc b) = m ((c : Thread nD τ).loc b) :=
  calc W2 m ρ c (Proc.devRef .tc b)
    _ = W1 m ρ c (Proc.devRef .tc b) := W2_of_ne m ρ c b h0
    _ = W0 m ρ c (Proc.devRef .tc b) := StableHlo.after_of_forall_not_mem (b := Proc.devRef .tc b) _ _ (List.forall_iff_forall_mem.mp (by
          simp only [hostOps0, List.Forall, StableHlo.reshape_writes, Finset.mem_singleton]
          exact StableHlo.devRef_ne_of_ne h1))
    _ = m ((c : Thread nD τ).loc b) := rfl

/-- The index words of an axis of n rows made non-negative: a negative word has n added. -/
abbrev wrapVec (n : BitVec 32) (v : IVec S150000 32) : IVec S150000x1 32 :=
  broadcastInDim S150000x1 ![0] bcast_S150000_S150000x1_0
    (select (cmpi .slt v (broadcastInDim S150000 ![] bcast_S_S150000 (constantI S_ 32 0#32)))
      (addi v (broadcastInDim S150000 ![] bcast_S_S150000 (constantI S_ 32 n))) v)

/-- Row (r, 0) of the wrapped index words is the wrapped word of row r. -/
theorem wrapVec_apply (n : BitVec 32) (v : IVec S150000 32) (r : Fin 150000) (u : Fin 1) :
    wrapVec n v (ix2 r u) = wrap n (v (ix1 r)) :=
  broadcastInDim_apply _ _ _ (ix2 r u) (ix1 r) (fun a => by
    match a with
    | ⟨0, _⟩ => rfl)

section Host
variable (W : Valuation τ sig (Elt Ideal))

theorem host_v9 : StableHlo.after hostOps1 W (Proc.devRef .tc main_call0_v9)
      = shapeCast S150000x1 (Host.gather gather_S500000_S150000x1_S150000_n_0_n_n_0_1_1 (W (Proc.devRef .tc main_arg10))
          (wrapVec 500000#32 (W (Proc.devRef .tc main_arg12)))) shapeCasts_S150000_S150000x1 := by
  after_results
  rfl

theorem host_arg1 : StableHlo.after hostOps1 W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem host_v16 : StableHlo.after hostOps1 W (Proc.devRef .tc main_call0_v16)
      = Host.gather gather_S50000x256_S150000x1_S150000x256_1_0_n_n_0_1_1256 (W (Proc.devRef .tc main_arg0))
          (wrapVec 50000#32 (W (Proc.devRef .tc main_arg11))) := by
  after_results
  rfl

theorem host_v18 : StableHlo.after hostOps1 W (Proc.devRef .tc main_call0_v18)
      = transpose S256x256 [1, 0] (extractStridedSlice S256x256 ![0, 0] (W (Proc.devRef .tc main_arg4)) slices_S256x512_S256x256_0_0) transposes_S256x256_S256x256_1_0 := by
  after_results
  rfl

theorem host_v20 : StableHlo.after hostOps1 W (Proc.devRef .tc main_call0_v20)
      = transpose S256x256 [1, 0] (extractStridedSlice S256x256 ![0, 256] (W (Proc.devRef .tc main_arg4)) slices_S256x512_S256x256_0_256) transposes_S256x256_S256x256_1_0 := by
  after_results
  rfl

theorem host_v21 : StableHlo.after hostOps1 W (Proc.devRef .tc main_call0_v21)
      = shapeCast S1x256 (W (Proc.devRef .tc main_arg5)) shapeCasts_S256_S1x256 := by
  after_results
  rfl

end Host

/-- The type words of the identifier leaves' nodes, as a column. -/
theorem arr_types (c : Dev nD) (r : Fin 150000) (u : Fin 1) :
    V3 m ρ c main_call0_v9 (ix2 r u)
      = m ((c : Thread nD τ).loc main_arg10) (ix1 (nodeRead (m ((c : Thread nD τ).loc main_arg12) (ix1 r)))) := by
  have e : V3 m ρ c main_call0_v9 = _ := (host_v9 (W2 m ρ c))
  rw [e, W2_arg m ρ c main_arg10 (by decide) (by decide), W2_arg m ρ c main_arg12 (by decide) (by decide)]
  refine (shapeCast_apply _ _ (ix2 r u) (ix1 r) ?_).trans ?_
  · rw [Shape.rowMajor_val_one, Shape.rowMajor_val_two]
    show r.val = r.val * 1 + u.val
    omega
  · rw [gather_vec_apply (by decide) gather_S500000_S150000x1_S150000_n_0_n_n_0_1_1 rfl rfl rfl rfl rfl rfl]
    refine congrArg (fun p : Fin 500000 => m ((c : Thread nD τ).loc main_arg10) (ix1 p)) (Fin.ext ?_)
    show min (wrapVec 500000#32 (m ((c : Thread nD τ).loc main_arg12)) (ix2 r (0 : Fin 1))).toInt.toNat (500000 - 1)
      = min (wrap 500000#32 (m ((c : Thread nD τ).loc main_arg12) (ix1 r))).toInt.toNat (500000 - 1)
    rw [wrapVec_apply]

/-- The node-type table is an input of the first pipelined call, which never writes it back, and no host operation
    writes it: it is the argument itself. -/
theorem W2_table (c : Dev nD) : W2 m ρ c (Proc.devRef .tc main_arg1) = m ((c : Thread nD τ).loc main_arg1) :=
  calc W2 m ρ c (Proc.devRef .tc main_arg1)
    _ = (dat0 (V1 m ρ) c).arrAt 1 cfg0.N := W2_arr m ρ c 1
    _ = (dat0 (V1 m ρ) c).A 1 := (dat0 (V1 m ρ) c).arrAt_in 1 rfl _
    _ = V1 m ρ c (Pipeline.arrRef spec0 1) := A_eq0 (V1 m ρ) c 1
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))
    _ = m ((c : Thread nD τ).loc main_arg1) := rfl

theorem arr_table (c : Dev nD) : V3 m ρ c main_arg1 = m ((c : Thread nD τ).loc main_arg1) :=
  (host_arg1 (W2 m ρ c)).trans (W2_table m ρ c)

/-- The identifier encodings gathered by the identifier index words. -/
theorem arr_new (c : Dev nD) (r : Fin 150000) (k : Fin 256) :
    V3 m ρ c main_call0_v16 (ix2 r k)
      = m ((c : Thread nD τ).loc main_arg0) (ix2 (readRow 50000 (by decide) (wrap 50000#32 (m ((c : Thread nD τ).loc main_arg11) (ix1 r)))) k) := by
  have e : V3 m ρ c main_call0_v16 = _ := (host_v16 (W2 m ρ c))
  rw [e, W2_arg m ρ c main_arg0 (by decide) (by decide), W2_arg m ρ c main_arg11 (by decide) (by decide)]
  rw [GatherRows.gather_rows_apply (by decide) gather_S50000x256_S150000x1_S150000x256_1_0_n_n_0_1_1256 rfl rfl rfl rfl rfl rfl rfl]
  refine congrArg (fun p : Fin 50000 => m ((c : Thread nD τ).loc main_arg0) (ix2 p k)) (Fin.ext ?_)
  show min (wrapVec 50000#32 (m ((c : Thread nD τ).loc main_arg11)) (ix2 r (0 : Fin 1))).toInt.toNat (50000 - 1)
    = min (wrap 50000#32 (m ((c : Thread nD τ).loc main_arg11) (ix1 r))).toInt.toNat (50000 - 1)
  rw [wrapVec_apply]

/-- The first 256 columns of the weight matrix, transposed. -/
theorem arr_wNew (c : Dev nD) (k d : Fin 256) :
    V3 m ρ c main_call0_v18 (ix2 k d) = m ((c : Thread nD τ).loc main_arg4) (ix2 d ⟨k.val, by omega⟩) := by
  have e : V3 m ρ c main_call0_v18 = _ := (host_v18 (W2 m ρ c))
  rw [e, W2_arg m ρ c main_arg4 (by decide) (by decide), transpose_ix2_apply]
  exact slice2_axis1_apply 0 _ _ d k ⟨k.val, by omega⟩ (Nat.zero_add _).symm

/-- The last 256 columns of the weight matrix, transposed. -/
theorem arr_wOrig (c : Dev nD) (k d : Fin 256) :
    V3 m ρ c main_call0_v20 (ix2 k d) = m ((c : Thread nD τ).loc main_arg4) (ix2 d ⟨256 + k.val, by omega⟩) := by
  have e : V3 m ρ c main_call0_v20 = _ := (host_v20 (W2 m ρ c))
  rw [e, W2_arg m ρ c main_arg4 (by decide) (by decide), transpose_ix2_apply]
  exact slice2_axis1_apply 256 _ _ d k ⟨256 + k.val, by omega⟩ rfl

/-- The bias as a row. -/
theorem arr_bias (c : Dev nD) (u : Fin 1) (d : Fin 256) :
    V3 m ρ c main_call0_v21 (ix2 u d) = m ((c : Thread nD τ).loc main_arg5) (ix1 d) := by
  have e : V3 m ρ c main_call0_v21 = _ := (host_v21 (W2 m ρ c))
  rw [e, W2_arg m ρ c main_arg5 (by decide) (by decide)]
  exact shapeCast_a_1a_apply _ _ u d

/-! ## From blocks to the array -/

theorem hz : (![0, 0] : Fin 2 → Nat) = fun _ => 0 := funext fun a => by fin_cases a <;> rfl

/-- The index maps over the 25 grid points: the three row-blocked windows (type words, new rows, output) sit at block
    row t, every whole-array window at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section Blocks
variable (c : Dev nD) (t : Fin cfg1.N)

/-- Row q of point t's block of type words is row 6000 t + q of the array. -/
theorem blk_types (q : Fin 6000) (u : Fin 1) (r : Fin 150000) (hr : r.val = t.val * 6000 + q.val) :
    (iblk1 (V3 m ρ) c 0 t : Vec Ideal S6000x1 .i32) (ix2 q u) = V3 m ρ c main_call0_v9 (ix2 r u) := by
  obtain ⟨e0, e1, -⟩ := idx_facts t
  unfold iblk1
  rw [View.read_apply]
  show V3 m ρ c main_call0_v9 _ = V3 m ρ c main_call0_v9 _
  refine congrArg (V3 m ρ c main_call0_v9) (funext fun a => Fin.ext ?_)
  match a with
  | ⟨0, _⟩ => show win1_0.index t (0 : Fin 2) * 6000 + 1 * q.val = r.val; rw [e0, hr]; omega
  | ⟨1, _⟩ => show win1_0.index t (1 : Fin 2) * 1 + 1 * u.val = u.val; rw [e1]; omega

/-- The table's one block is the table. -/
theorem blk_table (v : Fin 120) (k : Fin 256) :
    (iblk1 (V3 m ρ) c 1 t : Vec Ideal S120x256 .f32) (ix2 v k) = V3 m ρ c main_arg1 (ix2 v k) := by
  obtain ⟨-, -, e0, e1, -⟩ := idx_facts t
  unfold iblk1
  rw [View.read_apply]
  show V3 m ρ c main_arg1 _ = V3 m ρ c main_arg1 _
  refine congrArg (V3 m ρ c main_arg1) (funext fun a => Fin.ext ?_)
  match a with
  | ⟨0, _⟩ => show win1_1.index t (0 : Fin 2) * 120 + 1 * v.val = v.val; rw [e0]; omega
  | ⟨1, _⟩ => show win1_1.index t (1 : Fin 2) * 256 + 1 * k.val = k.val; rw [e1]; omega

/-- Row q of point t's block of new rows is row 6000 t + q of the array. -/
theorem blk_new (q : Fin 6000) (k : Fin 256) (r : Fin 150000) (hr : r.val = t.val * 6000 + q.val) :
    (iblk1 (V3 m ρ) c 2 t : Vec Ideal S6000x256 .f32) (ix2 q k) = V3 m ρ c main_call0_v16 (ix2 r k) := by
  obtain ⟨-, -, -, -, e0, e1, -⟩ := idx_facts t
  unfold iblk1
  rw [View.read_apply]
  show V3 m ρ c main_call0_v16 _ = V3 m ρ c main_call0_v16 _
  refine congrArg (V3 m ρ c main_call0_v16) (funext fun a => Fin.ext ?_)
  match a with
  | ⟨0, _⟩ => show win1_2.index t (0 : Fin 2) * 6000 + 1 * q.val = r.val; rw [e0, hr]; omega
  | ⟨1, _⟩ => show win1_2.index t (1 : Fin 2) * 256 + 1 * k.val = k.val; rw [e1]; omega

/-- Each weight matrix's one block is the matrix. -/
theorem blk_wNew (k d : Fin 256) :
    (iblk1 (V3 m ρ) c 3 t : Vec Ideal S256x256 .f32) (ix2 k d) = V3 m ρ c main_call0_v18 (ix2 k d) := by
  obtain ⟨-, -, -, -, -, -, e0, e1, -⟩ := idx_facts t
  unfold iblk1
  rw [View.read_apply]
  show V3 m ρ c main_call0_v18 _ = V3 m ρ c main_call0_v18 _
  refine congrArg (V3 m ρ c main_call0_v18) (funext fun a => Fin.ext ?_)
  match a with
  | ⟨0, _⟩ => show win1_3.index t (0 : Fin 2) * 256 + 1 * k.val = k.val; rw [e0]; omega
  | ⟨1, _⟩ => show win1_3.index t (1 : Fin 2) * 256 + 1 * d.val = d.val; rw [e1]; omega

theorem blk_wOrig (k d : Fin 256) :
    (iblk1 (V3 m ρ) c 4 t : Vec Ideal S256x256 .f32) (ix2 k d) = V3 m ρ c main_call0_v20 (ix2 k d) := by
  obtain ⟨-, -, -, -, -, -, -, -, e0, e1, -⟩ := idx_facts t
  unfold iblk1
  rw [View.read_apply]
  show V3 m ρ c main_call0_v20 _ = V3 m ρ c main_call0_v20 _
  refine congrArg (V3 m ρ c main_call0_v20) (funext fun a => Fin.ext ?_)
  match a with
  | ⟨0, _⟩ => show win1_4.index t (0 : Fin 2) * 256 + 1 * k.val = k.val; rw [e0]; omega
  | ⟨1, _⟩ => show win1_4.index t (1 : Fin 2) * 256 + 1 * d.val = d.val; rw [e1]; omega

/-- The bias row's one block is the bias row. -/
theorem blk_bias (u : Fin 1) (d : Fin 256) :
    (iblk1 (V3 m ρ) c 5 t : Vec Ideal S1x256 .f32) (ix2 u d) = V3 m ρ c main_call0_v21 (ix2 u d) := by
  obtain ⟨-, -, -, -, -, -, -, -, -, -, e0, e1, -⟩ := idx_facts t
  unfold iblk1
  rw [View.read_apply]
  show V3 m ρ c main_call0_v21 _ = V3 m ρ c main_call0_v21 _
  refine congrArg (V3 m ρ c main_call0_v21) (funext fun a => Fin.ext ?_)
  match a with
  | ⟨0, _⟩ => show win1_5.index t (0 : Fin 2) * 1 + 1 * u.val = u.val; rw [e0]; omega
  | ⟨1, _⟩ => show win1_5.index t (1 : Fin 2) * 256 + 1 * d.val = d.val; rw [e1]; omega

end Blocks

/-- What point t writes back is block t of the replacement rows. -/
theorem flushed_eq (c : Dev nD)
    (hT : ∀ p : Fin 500000, 0 ≤ (m ((c : Thread nD τ).loc main_arg10) (ix1 p)).toInt ∧ (m ((c : Thread nD τ).loc main_arg10) (ix1 p)).toInt < 120)
    (t : Fin cfg1.N) :
    (dat1 (V3 m ρ) c).flushed 6 t = ((cfg1.win 6).blk t).view.read (Elt Ideal)
      (updId (m ((c : Thread nD τ).loc main_arg0)) (m ((c : Thread nD τ).loc main_arg1)) (m ((c : Thread nD τ).loc main_arg4))
        (m ((c : Thread nD τ).loc main_arg5)) (m ((c : Thread nD τ).loc main_arg10)) (m ((c : Thread nD τ).loc main_arg11))
        (m ((c : Thread nD τ).loc main_arg12))) := by
  show (cfg1.win 6).cut (grid1.coords t) ((dat1 (V3 m ρ) c).after 6 t) = _
  rw [after1_6]
  unfold out1_6
  rw [View.canon_unit_zero hz]
  simp only [View.ld_unit_zero (S := S6000x1) hz, View.ld_unit_zero (S := S120x256) hz, View.ld_unit_zero (S := S6000x256) hz,
    View.ld_unit_zero (S := S256x256) hz, View.ld_unit_zero (S := S1x256) hz]
  refine funext fun (j : S6000x256.Idx) => ?_
  obtain ⟨q, d, rfl⟩ : ∃ (q : Fin 6000) (d : Fin 256), j = ix2 q d := ⟨j 0, j 1, eq_ix2 j⟩
  have hq : q.val < 6000 := q.isLt
  have ht : t.val < 25 := lt_of_lt_of_eq t.isLt N_1
  obtain ⟨-, -, -, -, -, -, -, -, -, -, -, -, e0, e1⟩ := idx_facts t
  -- the block's entry (q, d) sits at row 6000 t + q, column d of the array
  have hemb : ((cfg1.win 6).blk t).view.emb (ix2 q d) = ix2 (⟨t.val * 6000 + q.val, by omega⟩ : Fin 150000) d := by
    funext a; apply Fin.ext
    match a with
    | ⟨0, _⟩ => show win1_6.index t (0 : Fin 2) * 6000 + 1 * q.val = t.val * 6000 + q.val; rw [e0]; omega
    | ⟨1, _⟩ => show win1_6.index t (1 : Fin 2) * 256 + 1 * d.val = d.val; rw [e1]; omega
  show (k1_pay1 (F := Ideal) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t)) (ix2 q d)
    = updId (m ((c : Thread nD τ).loc main_arg0)) (m ((c : Thread nD τ).loc main_arg1)) (m ((c : Thread nD τ).loc main_arg4))
        (m ((c : Thread nD τ).loc main_arg5)) (m ((c : Thread nD τ).loc main_arg10)) (m ((c : Thread nD τ).loc main_arg11))
        (m ((c : Thread nD τ).loc main_arg12)) (((cfg1.win 6).blk t).view.emb (ix2 q d))
  rw [hemb]
  exact pay_eq_updId (m ((c : Thread nD τ).loc main_arg0)) (m ((c : Thread nD τ).loc main_arg1)) (m ((c : Thread nD τ).loc main_arg4))
        (m ((c : Thread nD τ).loc main_arg5)) (m ((c : Thread nD τ).loc main_arg10)) (m ((c : Thread nD τ).loc main_arg11))
        (m ((c : Thread nD τ).loc main_arg12)) hT
    (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) q d ⟨t.val * 6000 + q.val, by omega⟩
    ((blk_types m ρ c t q 0 ⟨t.val * 6000 + q.val, by omega⟩ rfl).trans (arr_types m ρ c ⟨t.val * 6000 + q.val, by omega⟩ 0))
    (fun v k => (blk_table m ρ c t v k).trans (congrFun (arr_table m ρ c) (ix2 v k)))
    (fun k => (blk_new m ρ c t q k ⟨t.val * 6000 + q.val, by omega⟩ rfl).trans (arr_new m ρ c ⟨t.val * 6000 + q.val, by omega⟩ k))
    (fun k => (blk_wNew m ρ c t k d).trans (arr_wNew m ρ c k d))
    (fun k => (blk_wOrig m ρ c t k d).trans (arr_wOrig m ρ c k d))
    ((blk_bias m ρ c t 0 d).trans (arr_bias m ρ c 0 d))

/-- An index of the array is in point t's block iff each coordinate is in the block's range on its axis. -/
theorem mem_blk (t : Fin cfg1.N) (i : S150000x256.Idx) :
    i ∈ ((cfg1.win 6).blk t).view.set ↔ ∀ a : Fin 2, win1_6.index t a * S6000x256.size a ≤ (i a).val ∧ (i a).val < win1_6.index t a * S6000x256.size a + S6000x256.size a := by
  show i ∈ ((View.whole main_call0_v22).slice (win1_6.rect t)).set ↔ _
  rw [View.set_slice_whole, Rect.mem_set_unit]
  exact Iff.rfl

/-- The 25 blocks of 6000 rows cover the 150000 rows: row r is in the block of point r / 6000. -/
theorem covered (i : S150000x256.Idx) :
    ∃ t : Fin cfg1.N, (cfg1.win 6).flush t = true ∧ i ∈ ((cfg1.win 6).blk t).view.set := by
  have hi0 : (i 0).val < 150000 := (i 0).isLt
  have hi1 : (i 1).val < 256 := (i 1).isLt
  have hlt : (i 0).val / 6000 < cfg1.N := lt_of_lt_of_eq (by omega : (i 0).val / 6000 < 25) N_1.symm
  obtain ⟨-, -, -, -, -, -, -, -, -, -, -, -, e0, e1⟩ := idx_facts ⟨(i 0).val / 6000, hlt⟩
  refine ⟨⟨(i 0).val / 6000, hlt⟩, flush1_6 _, ?_⟩
  rw [mem_blk]
  intro a
  match a with
  | ⟨0, _⟩ =>
    show win1_6.index ⟨(i 0).val / 6000, hlt⟩ (0 : Fin 2) * 6000 ≤ (i 0).val ∧ (i 0).val < win1_6.index ⟨(i 0).val / 6000, hlt⟩ (0 : Fin 2) * 6000 + 6000
    rw [e0]
    show (i 0).val / 6000 * 6000 ≤ (i 0).val ∧ (i 0).val < (i 0).val / 6000 * 6000 + 6000
    omega
  | ⟨1, _⟩ =>
    show win1_6.index ⟨(i 0).val / 6000, hlt⟩ (1 : Fin 2) * 256 ≤ (i 1).val ∧ (i 1).val < win1_6.index ⟨(i 0).val / 6000, hlt⟩ (1 : Fin 2) * 256 + 256
    rw [e1]
    omega

/-! ## The array the region leaves -/

theorem out_eq (c : Dev nD)
    (hT : ∀ p : Fin 500000, 0 ≤ (m ((c : Thread nD τ).loc main_arg10) (ix1 p)).toInt ∧ (m ((c : Thread nD τ).loc main_arg10) (ix1 p)).toInt < 120) :
    (dat1 (V3 m ρ) c).arrAt 6 cfg1.N
      = updId (m ((c : Thread nD τ).loc main_arg0)) (m ((c : Thread nD τ).loc main_arg1)) (m ((c : Thread nD τ).loc main_arg4))
          (m ((c : Thread nD τ).loc main_arg5)) (m ((c : Thread nD τ).loc main_arg10)) (m ((c : Thread nD τ).loc main_arg11))
          (m ((c : Thread nD τ).loc main_arg12)) := by
  exact (dat1 (V3 m ρ) c).arrAt_eq_of_cover 6 _ (fun t _ => flushed_eq m ρ c hT t) covered

end Cert.KernelIdeal.Region1

end
-- ==== Proof.KSmallPayload.lean ====
/-
  THE SMALL-TABLE REPLACEMENT ROWS, ONE BLOCK AT A TIME.

  The two groups of leaves whose new embedding is a row of a 16-row table are served by one block function: out of
  a column of type words, the node-type table, a column of selector words, the small table, the two halves of the
  weight matrix (already transposed) and the bias row it forms

      (onehot16(selector) · small) · wNew  +  (onehot120(type) · table) · wOrig  +  bias.

  This module reads that block at one entry (q, d). A one-hot row against a table is the table's row: the row of
  zeros and a single one picks, in the sum over the table's rows, the row whose number is the word, provided the word
  is a row number at all; every other term is zero times an extended real, which is zero. So the entry is the
  replacement entry of the specification: new part + original part + bias.

  It also reads the host's gather of single words: operand [P], start indices [N, 1], result [N].
-/
import proofs.«414947_j9895604650636_3_alg».proof.Proof.Gen.KernelIdeal.Skeleton
import proofs.«414947_j9895604650636_3_alg».proof.Proof.Spec
import proofs.«414947_j9895604650636_3_alg».proof.Proof.LibGatherRows
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.SmallPayload

open Idealize.ShloMosaic Idealize.ShloMosaic.ValueIdx
open Cert.KernelIdeal Cert.KernelIdeal.Gen Cert.NodeEmbed

/-! ## The host's gather of single words -/

/-- Operand [P], start indices [N, 1] with the index vector on axis 1, result [N], the one operand axis collapsed:
    result element n is the operand at idx[n, 0], read signed and clamped into [0, P - 1]. -/
theorem gather_words_apply {α : Type} {P N w : Nat} (hP : 0 < P)
    (d : GatherDims (⟨1, ![P]⟩ : Shape) (⟨2, ![N, 1]⟩ : Shape) (⟨1, ![N]⟩ : Shape))
    (hod : d.offsetDims = []) (hcs : d.collapsedSliceDims = [0]) (hob : d.operandBatchingDims = [])
    (hsm : d.startIndexMap = [0]) (hiv : d.indexVectorDim = 1) (hss : d.sliceSizes = ![1])
    (x : (⟨1, ![P]⟩ : Shape).Idx → α) (idx : IVec (⟨2, ![N, 1]⟩ : Shape) w) (n : Fin N) :
    Host.gather d x idx (ix1 n)
      = x (ix1 (⟨min (idx (ix2 n (0 : Fin 1))).toInt.toNat (P - 1), by omega⟩ : Fin P)) := by
  have hnb : ∀ a : Fin 1, a ∉ d.operandBatchingDims := fun a h => by rw [hob] at h; exact List.not_mem_nil h
  have h0mem : (0 : Fin 1) ∈ d.startIndexMap := by rw [hsm]; exact List.mem_singleton.2 rfl
  have h0k : (0 : Fin 1) ∉ d.sKept := fun h =>
    ((d.mem_sKept 0).1 h).1 (by rw [hcs]; exact List.mem_singleton.2 rfl)
  -- the result's one axis is a batch axis
  have hbd : d.batchDims = [0] := by
    show Shape.kept _ d.offsetDims = [0]
    rw [hod]; rfl
  -- the start-indices index of n is [n, 0], whatever the component
  have hsi : ∀ c : Fin d.startIndexMap.length, d.siIdx (ix1 n) c = ix2 n (0 : Fin 1) := by
    intro c
    funext b
    refine Fin.ext ?_
    match b with
    | ⟨0, hb⟩ =>
      rw [GatherRows.siIdx_val_of_ne d (ix1 n) c ⟨0, hb⟩ (by rw [hiv]; exact Nat.zero_ne_one) 0 hbd]
      rfl
    | ⟨1, hb⟩ =>
      have h1 : (d.siIdx (ix1 n) c ⟨1, hb⟩).val < 1 := (d.siIdx (ix1 n) c ⟨1, hb⟩).isLt
      show (d.siIdx (ix1 n) c ⟨1, hb⟩).val = 0
      omega
  unfold Host.gather
  congr 1
  funext a
  refine Fin.ext ?_
  match a with
  | ⟨0, _⟩ =>
    show d.start (ix1 n) idx 0 + d.batchCoord (ix1 n) 0 + d.offCoord (ix1 n) 0
      = min (idx (ix2 n (0 : Fin 1))).toInt.toNat (P - 1)
    rw [d.batchCoord_eq_zero _ _ (hnb 0), d.offCoord_eq_zero _ _ h0k]
    simp only [Nat.add_zero]
    unfold GatherDims.start
    rw [dif_pos h0mem, hsi, hss]
    rfl

/-! ## One entry of a one-hot row -/

/-- A non-negative word read signed is the word read unsigned. -/
theorem toNat_of_toInt_nonneg (w : BitVec 32) (h0 : 0 ≤ w.toInt) : (w.toNat : Int) = w.toInt := by
  have h := BitVec.toInt_eq_toNat_cond w
  have hl := w.isLt
  split_ifs at h <;> omega

/-- A non-negative word is the word of a small number exactly when, read signed, it is that number. -/
theorem eq_ofNat_iff (w : BitVec 32) (h0 : 0 ≤ w.toInt) (n : Nat) (hn : n < 2147483648) :
    w = BitVec.ofNat 32 n ↔ w.toInt.toNat = n := by
  have hw := toNat_of_toInt_nonneg w h0
  constructor
  · intro h
    have e : w.toNat = n % 2 ^ 32 := by rw [h, BitVec.toNat_ofNat]
    omega
  · intro h
    apply BitVec.eq_of_toNat_eq
    rw [BitVec.toNat_ofNat]
    omega

/-- Entry n of the one-hot row of the word w: the comparison's bit, widened and converted, as an extended real. -/
def hot (w : BitVec 32) (n : Nat) : EReal :=
  FloatOps.sitofp (F := Ideal) .f32 ((IntOp.cmpi .eq w (BitVec.ofNat 32 n)).setWidth 32)

theorem hot_eq (w : BitVec 32) (n : Nat) : hot w n = if w = BitVec.ofNat 32 n then 1 else 0 := by
  unfold hot
  show (((((BitVec.ofBool (w == BitVec.ofNat 32 n)).setWidth 32).toInt : ℝ)) : EReal) = _
  by_cases h : w = BitVec.ofNat 32 n
  · rw [if_pos h, beq_iff_eq.2 h]
    have e : ((BitVec.ofBool true).setWidth 32).toInt = 1 := by decide
    rw [e]; simp
  · rw [if_neg h, beq_eq_false_iff_ne.2 h]
    have e : ((BitVec.ofBool false).setWidth 32).toInt = 0 := by decide
    rw [e]; simp

/-- A ONE-HOT ROW AGAINST A TABLE IS THE TABLE'S ROW: when the word is a row number of an N-row table, the sum over
    the rows of the one-hot entry times the row's entry is the entry of the row the word names. -/
theorem hot_sum {N : Nat} (hN : N ≤ 2147483648) (w : BitVec 32) (h0 : 0 ≤ w.toInt) (h1 : w.toInt < (N : Int))
    (T : Fin N → EReal) :
    ∑ v : Fin N, hot w v.val * T v = T ⟨w.toInt.toNat, by omega⟩ := by
  rw [Finset.sum_eq_single (⟨w.toInt.toNat, by omega⟩ : Fin N)]
  · rw [hot_eq, if_pos ((eq_ofNat_iff w h0 _ (by omega)).2 rfl), one_mul]
  · intro v _ hv
    rw [hot_eq, if_neg, zero_mul]
    intro h
    exact hv (Fin.ext ((eq_ofNat_iff w h0 v.val (by have := v.isLt; omega)).1 h).symm)
  · intro h; exact absurd (Finset.mem_univ _) h

/-! ## A matrix product into a zero accumulator, read at an entry -/

/-- A product [A, K] · [K, B] whose one contracted axis is the left operand's second and the right operand's first
    (the four coordinate facts l0, l1, r0, r1 say so), accumulated into zeros: entry (p, d) is the sum over k of
    x (p, k) · y (k, d). -/
theorem matmul2_apply {A K B : Nat}
    (D : DotDims (⟨2, ![A, K]⟩ : Shape) (⟨2, ![K, B]⟩ : Shape) (⟨2, ![A, B]⟩ : Shape))
    (hr : D.contr.rank = 1) (hs : D.contr.size ⟨0, by omega⟩ = K)
    (l0 : ∀ (i : (⟨2, ![A, B]⟩ : Shape).Idx) (q : D.contr.Idx), (D.lhsIdx i q 0).val = (i 0).val)
    (l1 : ∀ (i : (⟨2, ![A, B]⟩ : Shape).Idx) (q : D.contr.Idx), (D.lhsIdx i q 1).val = (q ⟨0, by omega⟩).val)
    (r0 : ∀ (i : (⟨2, ![A, B]⟩ : Shape).Idx) (q : D.contr.Idx), (D.rhsIdx i q 0).val = (q ⟨0, by omega⟩).val)
    (r1 : ∀ (i : (⟨2, ![A, B]⟩ : Shape).Idx) (q : D.contr.Idx), (D.rhsIdx i q 1).val = (i 1).val)
    (x : FVec Ideal (⟨2, ![A, K]⟩ : Shape) .f32) (y : FVec Ideal (⟨2, ![K, B]⟩ : Shape) .f32) (p : Fin A) (d : Fin B) :
    FloatOps.matmul D none x y (constant (F := Ideal) (⟨2, ![A, B]⟩ : Shape) .f32 0x00000000#32) (ix2 p d)
      = ∑ k : Fin K, x (ix2 p k) * y (ix2 k d) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p d) ((contrEquiv1 D K hr hs).symm k) = ix2 p k := funext fun a => Fin.ext (by
    match a with
    | ⟨0, _⟩ => exact l0 _ _
    | ⟨1, _⟩ => exact (l1 _ _).trans hk)
  have er : D.rhsIdx (ix2 p d) ((contrEquiv1 D K hr hs).symm k) = ix2 k d := funext fun a => Fin.ext (by
    match a with
    | ⟨0, _⟩ => exact (r0 _ _).trans hk
    | ⟨1, _⟩ => exact r1 _ _)
  rw [el, er]

/-! ### The four products of the block function: which axis each operand index takes from where -/

theorem lhs_type_0 (i : S6000x256.Idx) (q : dot_S6000x120_S120x256_S6000x256_1_0_0_1_n_n.contr.Idx) :
    (dot_S6000x120_S120x256_S6000x256_1_0_0_1_n_n.lhsIdx i q 0).val = (i 0).val := by
  unfold DotDims.lhsIdx
  rw [dif_neg (show ¬(0 : Fin S6000x120.rank) ∈ dot_S6000x120_S120x256_S6000x256_1_0_0_1_n_n.lhsBatch by decide), dif_pos (show (0 : Fin S6000x120.rank) ∈ dot_S6000x120_S120x256_S6000x256_1_0_0_1_n_n.lhsNonContracting by decide)]
  rfl
theorem lhs_type_1 (i : S6000x256.Idx) (q : dot_S6000x120_S120x256_S6000x256_1_0_0_1_n_n.contr.Idx) :
    (dot_S6000x120_S120x256_S6000x256_1_0_0_1_n_n.lhsIdx i q 1).val = (q ⟨0, by decide⟩).val :=
  dot_S6000x120_S120x256_S6000x256_1_0_0_1_n_n.lhsIdx_val_of_single rfl i q
theorem rhs_type_0 (i : S6000x256.Idx) (q : dot_S6000x120_S120x256_S6000x256_1_0_0_1_n_n.contr.Idx) :
    (dot_S6000x120_S120x256_S6000x256_1_0_0_1_n_n.rhsIdx i q 0).val = (q ⟨0, by decide⟩).val :=
  dot_S6000x120_S120x256_S6000x256_1_0_0_1_n_n.rhsIdx_val_of_single rfl i q
theorem rhs_type_1 (i : S6000x256.Idx) (q : dot_S6000x120_S120x256_S6000x256_1_0_0_1_n_n.contr.Idx) :
    (dot_S6000x120_S120x256_S6000x256_1_0_0_1_n_n.rhsIdx i q 1).val = (i 1).val := by
  unfold DotDims.rhsIdx
  rw [dif_neg (show ¬(1 : Fin S120x256.rank) ∈ dot_S6000x120_S120x256_S6000x256_1_0_0_1_n_n.rhsBatch by decide), dif_pos (show (1 : Fin S120x256.rank) ∈ dot_S6000x120_S120x256_S6000x256_1_0_0_1_n_n.rhsNonContracting by decide)]
  rfl

theorem lhs_sel_0 (i : S6000x64.Idx) (q : dot_S6000x16_S16x64_S6000x64_1_0_0_1_n_n.contr.Idx) :
    (dot_S6000x16_S16x64_S6000x64_1_0_0_1_n_n.lhsIdx i q 0).val = (i 0).val := by
  unfold DotDims.lhsIdx
  rw [dif_neg (show ¬(0 : Fin S6000x16.rank) ∈ dot_S6000x16_S16x64_S6000x64_1_0_0_1_n_n.lhsBatch by decide), dif_pos (show (0 : Fin S6000x16.rank) ∈ dot_S6000x16_S16x64_S6000x64_1_0_0_1_n_n.lhsNonContracting by decide)]
  rfl
theorem lhs_sel_1 (i : S6000x64.Idx) (q : dot_S6000x16_S16x64_S6000x64_1_0_0_1_n_n.contr.Idx) :
    (dot_S6000x16_S16x64_S6000x64_1_0_0_1_n_n.lhsIdx i q 1).val = (q ⟨0, by decide⟩).val :=
  dot_S6000x16_S16x64_S6000x64_1_0_0_1_n_n.lhsIdx_val_of_single rfl i q
theorem rhs_sel_0 (i : S6000x64.Idx) (q : dot_S6000x16_S16x64_S6000x64_1_0_0_1_n_n.contr.Idx) :
    (dot_S6000x16_S16x64_S6000x64_1_0_0_1_n_n.rhsIdx i q 0).val = (q ⟨0, by decide⟩).val :=
  dot_S6000x16_S16x64_S6000x64_1_0_0_1_n_n.rhsIdx_val_of_single rfl i q
theorem rhs_sel_1 (i : S6000x64.Idx) (q : dot_S6000x16_S16x64_S6000x64_1_0_0_1_n_n.contr.Idx) :
    (dot_S6000x16_S16x64_S6000x64_1_0_0_1_n_n.rhsIdx i q 1).val = (i 1).val := by
  unfold DotDims.rhsIdx
  rw [dif_neg (show ¬(1 : Fin S16x64.rank) ∈ dot_S6000x16_S16x64_S6000x64_1_0_0_1_n_n.rhsBatch by decide), dif_pos (show (1 : Fin S16x64.rank) ∈ dot_S6000x16_S16x64_S6000x64_1_0_0_1_n_n.rhsNonContracting by decide)]
  rfl

theorem lhs_new_0 (i : S6000x256.Idx) (q : dot_S6000x64_S64x256_S6000x256_1_0_0_1_n_n.contr.Idx) :
    (dot_S6000x64_S64x256_S6000x256_1_0_0_1_n_n.lhsIdx i q 0).val = (i 0).val := by
  unfold DotDims.lhsIdx
  rw [dif_neg (show ¬(0 : Fin S6000x64.rank) ∈ dot_S6000x64_S64x256_S6000x256_1_0_0_1_n_n.lhsBatch by decide), dif_pos (show (0 : Fin S6000x64.rank) ∈ dot_S6000x64_S64x256_S6000x256_1_0_0_1_n_n.lhsNonContracting by decide)]
  rfl
theorem lhs_new_1 (i : S6000x256.Idx) (q : dot_S6000x64_S64x256_S6000x256_1_0_0_1_n_n.contr.Idx) :
    (dot_S6000x64_S64x256_S6000x256_1_0_0_1_n_n.lhsIdx i q 1).val = (q ⟨0, by decide⟩).val :=
  dot_S6000x64_S64x256_S6000x256_1_0_0_1_n_n.lhsIdx_val_of_single rfl i q
theorem rhs_new_0 (i : S6000x256.Idx) (q : dot_S6000x64_S64x256_S6000x256_1_0_0_1_n_n.contr.Idx) :
    (dot_S6000x64_S64x256_S6000x256_1_0_0_1_n_n.rhsIdx i q 0).val = (q ⟨0, by decide⟩).val :=
  dot_S6000x64_S64x256_S6000x256_1_0_0_1_n_n.rhsIdx_val_of_single rfl i q
theorem rhs_new_1 (i : S6000x256.Idx) (q : dot_S6000x64_S64x256_S6000x256_1_0_0_1_n_n.contr.Idx) :
    (dot_S6000x64_S64x256_S6000x256_1_0_0_1_n_n.rhsIdx i q 1).val = (i 1).val := by
  unfold DotDims.rhsIdx
  rw [dif_neg (show ¬(1 : Fin S64x256.rank) ∈ dot_S6000x64_S64x256_S6000x256_1_0_0_1_n_n.rhsBatch by decide), dif_pos (show (1 : Fin S64x256.rank) ∈ dot_S6000x64_S64x256_S6000x256_1_0_0_1_n_n.rhsNonContracting by decide)]
  rfl

theorem lhs_orig_0 (i : S6000x256.Idx) (q : dot_S6000x256_S256x256_S6000x256_1_0_0_1_n_n.contr.Idx) :
    (dot_S6000x256_S256x256_S6000x256_1_0_0_1_n_n.lhsIdx i q 0).val = (i 0).val := by
  unfold DotDims.lhsIdx
  rw [dif_neg (show ¬(0 : Fin S6000x256.rank) ∈ dot_S6000x256_S256x256_S6000x256_1_0_0_1_n_n.lhsBatch by decide), dif_pos (show (0 : Fin S6000x256.rank) ∈ dot_S6000x256_S256x256_S6000x256_1_0_0_1_n_n.lhsNonContracting by decide)]
  rfl
theorem lhs_orig_1 (i : S6000x256.Idx) (q : dot_S6000x256_S256x256_S6000x256_1_0_0_1_n_n.contr.Idx) :
    (dot_S6000x256_S256x256_S6000x256_1_0_0_1_n_n.lhsIdx i q 1).val = (q ⟨0, by decide⟩).val :=
  dot_S6000x256_S256x256_S6000x256_1_0_0_1_n_n.lhsIdx_val_of_single rfl i q
theorem rhs_orig_0 (i : S6000x256.Idx) (q : dot_S6000x256_S256x256_S6000x256_1_0_0_1_n_n.contr.Idx) :
    (dot_S6000x256_S256x256_S6000x256_1_0_0_1_n_n.rhsIdx i q 0).val = (q ⟨0, by decide⟩).val :=
  dot_S6000x256_S256x256_S6000x256_1_0_0_1_n_n.rhsIdx_val_of_single rfl i q
theorem rhs_orig_1 (i : S6000x256.Idx) (q : dot_S6000x256_S256x256_S6000x256_1_0_0_1_n_n.contr.Idx) :
    (dot_S6000x256_S256x256_S6000x256_1_0_0_1_n_n.rhsIdx i q 1).val = (i 1).val := by
  unfold DotDims.rhsIdx
  rw [dif_neg (show ¬(1 : Fin S256x256.rank) ∈ dot_S6000x256_S256x256_S6000x256_1_0_0_1_n_n.rhsBatch by decide), dif_pos (show (1 : Fin S256x256.rank) ∈ dot_S6000x256_S256x256_S6000x256_1_0_0_1_n_n.rhsNonContracting by decide)]
  rfl

/-! ## The block function at one entry -/

/-- A column of words spread along each row of a [6000, n] array reads, at (q, v), the word of row q. -/
theorem col_spread {n : Nat} (x : IVec S6000x1 32) (h1 : S6000x1.ShapeCasts S6000) (h2 : S6000.ShapeCasts S6000x1)
    (hb : S6000x1.Broadcasts (⟨2, ![6000, n]⟩ : Shape)) (q : Fin 6000) (v : Fin n) :
    broadcastTo (⟨2, ![6000, n]⟩ : Shape) (shapeCast S6000x1 (shapeCast S6000 x h1) h2) hb (ix2 q v)
      = x (ix2 q (0 : Fin 1)) := by
  rw [shapeCast_shapeCast]
  refine broadcastTo_apply x hb (ix2 q v) (ix2 q (0 : Fin 1)) fun a => ?_
  match a with
  | ⟨0, _⟩ => rfl
  | ⟨1, _⟩ => rfl

/-- Entry (q, v) of the one-hot matrix of a column of words: the one-hot entry v of row q's word. -/
theorem onehot_entry {n : Nat} (x : IVec S6000x1 32) (h1 : S6000x1.ShapeCasts S6000) (h2 : S6000.ShapeCasts S6000x1)
    (hb : S6000x1.Broadcasts (⟨2, ![6000, n]⟩ : Shape)) (hi : (⟨2, ![6000, n]⟩ : Shape).Iotas .tc 32 [1])
    (hw : 1 < 32) (q : Fin 6000) (v : Fin n) :
    (sitofp .f32 (extui 32 (cmpi .eq (broadcastTo (⟨2, ![6000, n]⟩ : Shape) (shapeCast S6000x1 (shapeCast S6000 x h1) h2) hb)
        (iota .tc (⟨2, ![6000, n]⟩ : Shape) 32 [1] hi)) hw) : FVec Ideal (⟨2, ![6000, n]⟩ : Shape) .f32) (ix2 q v)
      = hot (x (ix2 q (0 : Fin 1))) v.val := by
  show FloatOps.sitofp (F := Ideal) .f32 ((IntOp.cmpi .eq
      (broadcastTo (⟨2, ![6000, n]⟩ : Shape) (shapeCast S6000x1 (shapeCast S6000 x h1) h2) hb (ix2 q v))
      (iota .tc (⟨2, ![6000, n]⟩ : Shape) 32 [1] hi (ix2 q v))).setWidth 32) = _
  rw [col_spread, iota_single_apply]
  rfl

/-- THE BLOCK FUNCTION AT (q, d): the selector's one-hot row through the small table and the first weight half, plus
    the type word's one-hot row through the node-type table and the second weight half, plus the bias. -/
theorem pay_apply (v0 : Vec Ideal S6000x1 .i32) (v8 : Vec Ideal S120x256 .f32) (v10 : Vec Ideal S6000x1 .i32)
    (v18 : Vec Ideal S16x64 .f32) (v20 : Vec Ideal S64x256 .f32) (v23 : Vec Ideal S256x256 .f32) (v27 : Vec Ideal S1x256 .f32)
    (q : Fin 6000) (d : Fin 256) :
    k2_pay1 (F := Ideal) v0 v8 v10 v18 v20 v23 v27 (ix2 q d)
      = (∑ k : Fin 64, (∑ v : Fin 16, hot (v10 (ix2 q (0 : Fin 1))) v.val * v18 (ix2 v k)) * v20 (ix2 k d))
        + (∑ k : Fin 256, (∑ v : Fin 120, hot (v0 (ix2 q (0 : Fin 1))) v.val * v8 (ix2 v k)) * v23 (ix2 k d))
        + v27 (ix2 (0 : Fin 1) d) := by
  unfold k2_pay1
  dsimp only
  rw [addf_apply, addf_apply]
  congr 1
  · congr 1
    · refine (matmul2_apply dot_S6000x64_S64x256_S6000x256_1_0_0_1_n_n rfl rfl lhs_new_0 lhs_new_1 rhs_new_0 rhs_new_1 _ _ q d).trans ?_
      refine Finset.sum_congr rfl fun k _ => ?_
      rw [shapeCast_self]
      congr 1
      refine (matmul2_apply dot_S6000x16_S16x64_S6000x64_1_0_0_1_n_n rfl rfl lhs_sel_0 lhs_sel_1 rhs_sel_0 rhs_sel_1 _ _ q k).trans ?_
      refine Finset.sum_congr rfl fun v _ => ?_
      congr 1
      exact onehot_entry v10 _ _ _ _ _ q v
    · refine (matmul2_apply dot_S6000x256_S256x256_S6000x256_1_0_0_1_n_n rfl rfl lhs_orig_0 lhs_orig_1 rhs_orig_0 rhs_orig_1 _ _ q d).trans ?_
      refine Finset.sum_congr rfl fun k _ => ?_
      rw [shapeCast_self]
      congr 1
      refine (matmul2_apply dot_S6000x120_S120x256_S6000x256_1_0_0_1_n_n rfl rfl lhs_type_0 lhs_type_1 rhs_type_0 rhs_type_1 _ _ q k).trans ?_
      refine Finset.sum_congr rfl fun v _ => ?_
      congr 1
      exact onehot_entry v0 _ _ _ _ _ q v
  · rw [shapeCast_self]
    exact broadcastTo_1b_ab_apply v27 _ q d

/-- THE BLOCK FUNCTION IS THE REPLACEMENT ENTRY: when row q's selector word is a row number of the small table and its
    type word a row number of the node-type table, entry (q, d) is the specification's replacement entry built from
    the small table's row, the node-type row, column d of each weight half and the bias at d. -/
theorem pay_entry (v0 : Vec Ideal S6000x1 .i32) (v8 : Vec Ideal S120x256 .f32) (v10 : Vec Ideal S6000x1 .i32)
    (v18 : Vec Ideal S16x64 .f32) (v20 : Vec Ideal S64x256 .f32) (v23 : Vec Ideal S256x256 .f32) (v27 : Vec Ideal S1x256 .f32)
    (q : Fin 6000) (d : Fin 256)
    (hT : 0 ≤ (v0 (ix2 q (0 : Fin 1))).toInt ∧ (v0 (ix2 q (0 : Fin 1))).toInt < 120)
    (hS : 0 ≤ (v10 (ix2 q (0 : Fin 1))).toInt ∧ (v10 (ix2 q (0 : Fin 1))).toInt < 16) :
    k2_pay1 (F := Ideal) v0 v8 v10 v18 v20 v23 v27 (ix2 q d)
      = updEntry (A := 64)
          (fun k => v18 (ix2 (readRow 16 (by decide) (wrap 16#32 (v10 (ix2 q (0 : Fin 1))))) k))
          (fun k => v20 (ix2 k d))
          (fun k => v8 (ix2 (readRow 120 (by decide) (wrap 120#32 (v0 (ix2 q (0 : Fin 1))))) k))
          (fun k => v23 (ix2 k d))
          (v27 (ix2 (0 : Fin 1) d)) := by
  rw [pay_apply]
  unfold updEntry
  congr 1
  congr 1
  · refine Finset.sum_congr rfl fun k _ => ?_
    congr 1
    rw [readRow_wrap_of_range 16 (by decide) _ hS.1 hS.2]
    exact hot_sum (N := 16) (by decide) _ hS.1 (by have := hS.2; omega) fun v => v18 (ix2 v k)
  · refine Finset.sum_congr rfl fun k _ => ?_
    congr 1
    rw [readRow_wrap_of_range 120 (by decide) _ hT.1 hT.2]
    exact hot_sum (N := 120) (by decide) _ hT.1 (by have := hT.2; omega) fun v => v8 (ix2 v k)

end Cert.KernelIdeal.SmallPayload

end
-- ==== Proof.KRegion2.lean ====
/-
  THE PRIMITIVE LEAVES' REPLACEMENT ROWS: what the third pipelined call leaves in its output array.

  The call walks 10 points; point t takes rows 6000 t … 6000 t + 5999 of two columns of words (the type word of the node
  each row addresses, and the row's selector word), the whole node-type table, the whole small table, the two
  transposed halves of the weight matrix and the bias row, applies the block function, and writes the 6000 rows back.

  The type-word column was made just before the call by gathering the type array at the wrapped node words; the gather
  clamps, so row r holds the type word of the node that node word r addresses when read. Under the range facts on the
  type words and the selector words the block function's entry is the specification's replacement entry, so each point
  writes back its 6000 rows of the replacement rows, and the 10 blocks tile the 60000 rows.
-/
import proofs.«414947_j9895604650636_3_alg».proof.Proof.Gen.KernelIdeal.Frame
import proofs.«414947_j9895604650636_3_alg».proof.Proof.Spec
import proofs.«414947_j9895604650636_3_alg».proof.Proof.KSmallPayload
import Idealize.ShloMosaic.Lib.Pipeline.Value
import Idealize.ShloMosaic.Lib.ValueLayout

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.NodeEmbed Cert.KernelIdeal.SmallPayload

variable (m : (ℓ : Loc nD τ sig) → Buf (Elt Ideal) ℓ) (ρ : Dev nD → PrngReg)

/-- A stretch of host operations leaves every buffer that none of them writes. -/
local macro "stretch_leaves " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The arguments as the region's last host stretch finds them

No host operation and no earlier region writes an argument, so the buffer contents two boundaries before the region, read
at an argument, are the launch contents. -/

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := by stretch_leaves hostOps1
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := by stretch_leaves hostOps0
    _ = m ((c : Thread nD τ).loc main_arg1) := rfl

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by stretch_leaves hostOps1
    _ = W1 m ρ c (Proc.devRef .tc main_arg2) := W2_of_ne m ρ c main_arg2 (by decide)
    _ = W0 m ρ c (Proc.devRef .tc main_arg2) := by stretch_leaves hostOps0
    _ = m ((c : Thread nD τ).loc main_arg2) := rfl

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by stretch_leaves hostOps1
    _ = W1 m ρ c (Proc.devRef .tc main_arg6) := W2_of_ne m ρ c main_arg6 (by decide)
    _ = W0 m ρ c (Proc.devRef .tc main_arg6) := by stretch_leaves hostOps0
    _ = m ((c : Thread nD τ).loc main_arg6) := rfl

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by stretch_leaves hostOps1
    _ = W1 m ρ c (Proc.devRef .tc main_arg7) := W2_of_ne m ρ c main_arg7 (by decide)
    _ = W0 m ρ c (Proc.devRef .tc main_arg7) := by stretch_leaves hostOps0
    _ = m ((c : Thread nD τ).loc main_arg7) := rfl

theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by stretch_leaves hostOps1
    _ = W1 m ρ c (Proc.devRef .tc main_arg10) := W2_of_ne m ρ c main_arg10 (by decide)
    _ = W0 m ρ c (Proc.devRef .tc main_arg10) := by stretch_leaves hostOps0
    _ = m ((c : Thread nD τ).loc main_arg10) := rfl

theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by stretch_leaves hostOps1
    _ = W1 m ρ c (Proc.devRef .tc main_arg13) := W2_of_ne m ρ c main_arg13 (by decide)
    _ = W0 m ρ c (Proc.devRef .tc main_arg13) := by stretch_leaves hostOps0
    _ = m ((c : Thread nD τ).loc main_arg13) := rfl

theorem W4_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := by stretch_leaves hostOps1
    _ = W1 m ρ c (Proc.devRef .tc main_arg14) := W2_of_ne m ρ c main_arg14 (by decide)
    _ = W0 m ρ c (Proc.devRef .tc main_arg14) := by stretch_leaves hostOps0
    _ = m ((c : Thread nD τ).loc main_arg14) := rfl

/-! ## The region's seven input arrays, as terms of the arguments -/

/-- The node-type table is the argument. -/
theorem tab_arr (c : Dev nD) : V5 m ρ c main_arg1 = m ((c : Thread nD τ).loc main_arg1) :=
  calc W5 m ρ c (Proc.devRef .tc main_arg1)
    _ = W4 m ρ c (Proc.devRef .tc main_arg1) := by stretch_leaves hostOps2
    _ = m ((c : Thread nD τ).loc main_arg1) := W4_arg1 m ρ c

/-- The small table is the argument. -/
theorem small_arr (c : Dev nD) : V5 m ρ c main_arg2 = m ((c : Thread nD τ).loc main_arg2) :=
  calc W5 m ρ c (Proc.devRef .tc main_arg2)
    _ = W4 m ρ c (Proc.devRef .tc main_arg2) := by stretch_leaves hostOps2
    _ = m ((c : Thread nD τ).loc main_arg2) := W4_arg2 m ρ c

set_option maxHeartbeats 4000000 in
/-- The column of type words: the type array gathered at the wrapped node words, as a column. -/
theorem type_arr (c : Dev nD) : (V5 m ρ c main_call0_v37 : S60000x1.Idx → BitVec 32)
    = shapeCast S60000x1 (Host.gather gather_S500000_S60000x1_S60000_n_0_n_n_0_1_1
        (m ((c : Thread nD τ).loc main_arg10) : S500000.Idx → BitVec 32)
        (broadcastInDim S60000x1 ![0] bcast_S60000_S60000x1_0
          (select (cmpi .slt (m ((c : Thread nD τ).loc main_arg14) : S60000.Idx → BitVec 32) (broadcastInDim S60000 ![] bcast_S_S60000 (constantI S_ 32 0#32)))
            (addi (m ((c : Thread nD τ).loc main_arg14) : S60000.Idx → BitVec 32) (broadcastInDim S60000 ![] bcast_S_S60000 (constantI S_ 32 500000#32)))
            (m ((c : Thread nD τ).loc main_arg14) : S60000.Idx → BitVec 32))))
        shapeCasts_S60000_S60000x1 := by
  show StableHlo.after hostOps2 (W4 m ρ c) (Proc.devRef .tc main_call0_v37) = _
  after_results_simp
  rw [W4_arg10, W4_arg14]
  rfl

/-- The column of selector words: the selector array as a column. -/
theorem sel_arr (c : Dev nD) : (V5 m ρ c main_call0_v38 : S60000x1.Idx → BitVec 32)
    = shapeCast S60000x1 (m ((c : Thread nD τ).loc main_arg13) : S60000.Idx → BitVec 32) shapeCasts_S60000_S60000x1 := by
  show StableHlo.after hostOps2 (W4 m ρ c) (Proc.devRef .tc main_call0_v38) = _
  after_results_simp
  rw [W4_arg13]
  rfl

/-- The first weight half: columns 0 … 63 of the weight matrix, transposed. -/
theorem wnew_arr (c : Dev nD) : (V5 m ρ c main_call0_v40 : S64x256.Idx → EReal)
    = transpose S64x256 [1, 0] (extractStridedSlice S256x64 ![0, 0] (m ((c : Thread nD τ).loc main_arg6) : S256x320.Idx → EReal) slices_S256x320_S256x64_0_0) transposes_S256x64_S64x256_1_0 := by
  show StableHlo.after hostOps2 (W4 m ρ c) (Proc.devRef .tc main_call0_v40) = _
  after_results_simp
  rw [W4_arg6]
  rfl

/-- The second weight half: columns 64 … 319 of the weight matrix, transposed. -/
theorem worig_arr (c : Dev nD) : (V5 m ρ c main_call0_v42 : S256x256.Idx → EReal)
    = transpose S256x256 [1, 0] (extractStridedSlice S256x256 ![0, 64] (m ((c : Thread nD τ).loc main_arg6) : S256x320.Idx → EReal) slices_S256x320_S256x256_0_64) transposes_S256x256_S256x256_1_0 := by
  show StableHlo.after hostOps2 (W4 m ρ c) (Proc.devRef .tc main_call0_v42) = _
  after_results_simp
  rw [W4_arg6]
  rfl

/-- The bias as one row. -/
theorem bias_arr (c : Dev nD) : (V5 m ρ c main_call0_v43 : S1x256.Idx → EReal)
    = shapeCast S1x256 (m ((c : Thread nD τ).loc main_arg7) : S256.Idx → EReal) shapeCasts_S256_S1x256 := by
  show StableHlo.after hostOps2 (W4 m ρ c) (Proc.devRef .tc main_call0_v43) = _
  after_results_simp
  rw [W4_arg7]
  rfl

/-! ## The input arrays read at an index -/

/-- Row r of the column of type words is the type word of the node that row r's node word addresses when read. -/
theorem type_arr_apply (c : Dev nD) (r : Fin 60000) :
    (V5 m ρ c main_call0_v37 : S60000x1.Idx → BitVec 32) (ix2 r (0 : Fin 1))
      = (m ((c : Thread nD τ).loc main_arg10) : S500000.Idx → BitVec 32)
          (ix1 (nodeRead ((m ((c : Thread nD τ).loc main_arg14) : S60000.Idx → BitVec 32) (ix1 r)))) := by
  rw [type_arr]
  refine (shapeCast_apply _ shapeCasts_S60000_S60000x1 (ix2 r (0 : Fin 1)) (ix1 r) (by
    rw [Shape.rowMajor_val_two, Shape.rowMajor_val_one]; show r.val = r.val * 1 + 0; omega)).trans ?_
  refine (gather_words_apply (by decide) gather_S500000_S60000x1_S60000_n_0_n_n_0_1_1 rfl rfl rfl rfl rfl rfl _ _ r).trans ?_
  refine congrArg (fun p : Fin 500000 => (m ((c : Thread nD τ).loc main_arg10) : S500000.Idx → BitVec 32) (ix1 p)) (Fin.ext ?_)
  show min (BitVec.toInt (broadcastInDim (s := S60000) S60000x1 ![0] bcast_S60000_S60000x1_0 _ (ix2 r (0 : Fin 1)))).toNat (500000 - 1) = _
  rw [broadcastInDim_apply (s := S60000) (t := S60000x1) ![0] bcast_S60000_S60000x1_0 _ (ix2 r (0 : Fin 1)) (ix1 r) (fun a => match a with | ⟨0, _⟩ => rfl)]
  rfl

/-- Row r of the column of selector words is selector word r. -/
theorem sel_arr_apply (c : Dev nD) (r : Fin 60000) :
    (V5 m ρ c main_call0_v38 : S60000x1.Idx → BitVec 32) (ix2 r (0 : Fin 1))
      = (m ((c : Thread nD τ).loc main_arg13) : S60000.Idx → BitVec 32) (ix1 r) := by
  rw [sel_arr]
  exact shapeCast_apply _ shapeCasts_S60000_S60000x1 (ix2 r (0 : Fin 1)) (ix1 r) (by
    rw [Shape.rowMajor_val_two, Shape.rowMajor_val_one]; show r.val = r.val * 1 + 0; omega)

/-- Entry (k, d) of the first weight half is the weight matrix at row d, column k. -/
theorem wnew_arr_apply (c : Dev nD) (k : Fin 64) (d : Fin 256) :
    (V5 m ρ c main_call0_v40 : S64x256.Idx → EReal) (ix2 k d)
      = (m ((c : Thread nD τ).loc main_arg6) : S256x320.Idx → EReal) (ix2 d (⟨k.val, by omega⟩ : Fin 320)) := by
  rw [wnew_arr]
  refine (transpose_ix2_apply _ transposes_S256x64_S64x256_1_0 k d).trans ?_
  exact slice2_axis1_apply 0 _ slices_S256x320_S256x64_0_0 d k ⟨k.val, by omega⟩ (Nat.zero_add _).symm

/-- Entry (k, d) of the second weight half is the weight matrix at row d, column 64 + k. -/
theorem worig_arr_apply (c : Dev nD) (k : Fin 256) (d : Fin 256) :
    (V5 m ρ c main_call0_v42 : S256x256.Idx → EReal) (ix2 k d)
      = (m ((c : Thread nD τ).loc main_arg6) : S256x320.Idx → EReal) (ix2 d (⟨64 + k.val, by omega⟩ : Fin 320)) := by
  rw [worig_arr]
  refine (transpose_ix2_apply _ transposes_S256x256_S256x256_1_0 k d).trans ?_
  exact slice2_axis1_apply 64 _ slices_S256x320_S256x256_0_64 d k ⟨64 + k.val, by omega⟩ rfl

/-- Entry (0, d) of the bias row is bias entry d. -/
theorem bias_arr_apply (c : Dev nD) (d : Fin 256) :
    (V5 m ρ c main_call0_v43 : S1x256.Idx → EReal) (ix2 (0 : Fin 1) d)
      = (m ((c : Thread nD τ).loc main_arg7) : S256.Idx → EReal) (ix1 d) := by
  rw [bias_arr]
  exact shapeCast_a_1a_apply _ shapeCasts_S256_S1x256 0 d

/-! ## The windows' blocks, read off the arrays -/

/-- The printed index maps over the grid: the three windows of 6000 rows move with the point, the others stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ t.val < 10 :=
  (by decide +kernel : ∀ t : Fin grid2.N, _)

section Blocks
variable (V : (c : Dev nD) → (b : Ref sig .tc) → Buf (Elt Ideal) ((c : Thread nD τ).loc b))

/-- Row q of point t's block of the type-word column is row 6000 t + q of the column. -/
theorem blk0_apply (c : Dev nD) (t : Fin cfg2.N) (q : Fin 6000) (r : Fin 60000) (hr : r.val = t.val * 6000 + q.val) :
    (iblk2 V c 0 t : Vec Ideal S6000x1 .i32) (ix2 q (0 : Fin 1))
      = (V c main_call0_v37 : S60000x1.Idx → BitVec 32) (ix2 r (0 : Fin 1)) := by
  obtain ⟨e0, e1, -⟩ := idx_facts t
  unfold iblk2
  show (V c main_call0_v37 : S60000x1.Idx → BitVec 32) (((cfg2.win 0).blk t).view.emb (ix2 q (0 : Fin 1))) = _
  refine congrArg (V c main_call0_v37 : S60000x1.Idx → BitVec 32) (funext fun a => Fin.ext ?_)
  match a with
  | ⟨0, _⟩ => show win2_0.index t (0 : Fin 2) * 6000 + 1 * q.val = r.val; omega
  | ⟨1, _⟩ => show win2_0.index t (1 : Fin 2) * 1 + 1 * 0 = 0; omega

/-- Row q of point t's block of the selector column is row 6000 t + q of the column. -/
theorem blk2_apply (c : Dev nD) (t : Fin cfg2.N) (q : Fin 6000) (r : Fin 60000) (hr : r.val = t.val * 6000 + q.val) :
    (iblk2 V c 2 t : Vec Ideal S6000x1 .i32) (ix2 q (0 : Fin 1))
      = (V c main_call0_v38 : S60000x1.Idx → BitVec 32) (ix2 r (0 : Fin 1)) := by
  obtain ⟨-, -, -, -, e0, e1, -⟩ := idx_facts t
  unfold iblk2
  show (V c main_call0_v38 : S60000x1.Idx → BitVec 32) (((cfg2.win 2).blk t).view.emb (ix2 q (0 : Fin 1))) = _
  refine congrArg (V c main_call0_v38 : S60000x1.Idx → BitVec 32) (funext fun a => Fin.ext ?_)
  match a with
  | ⟨0, _⟩ => show win2_2.index t (0 : Fin 2) * 6000 + 1 * q.val = r.val; omega
  | ⟨1, _⟩ => show win2_2.index t (1 : Fin 2) * 1 + 1 * 0 = 0; omega

/-- The node-type table's one block is the table. -/
theorem blk1_apply (c : Dev nD) (t : Fin cfg2.N) (v : Fin 120) (k : Fin 256) :
    (iblk2 V c 1 t : Vec Ideal S120x256 .f32) (ix2 v k) = (V c main_arg1 : S120x256.Idx → EReal) (ix2 v k) := by
  obtain ⟨-, -, e0, e1, -⟩ := idx_facts t
  unfold iblk2
  show (V c main_arg1 : S120x256.Idx → EReal) (((cfg2.win 1).blk t).view.emb (ix2 v k)) = _
  refine congrArg (V c main_arg1 : S120x256.Idx → EReal) (funext fun a => Fin.ext ?_)
  match a with
  | ⟨0, _⟩ => show win2_1.index t (0 : Fin 2) * 120 + 1 * v.val = v.val; omega
  | ⟨1, _⟩ => show win2_1.index t (1 : Fin 2) * 256 + 1 * k.val = k.val; omega

/-- The small table's one block is the table. -/
theorem blk3_apply (c : Dev nD) (t : Fin cfg2.N) (v : Fin 16) (k : Fin 64) :
    (iblk2 V c 3 t : Vec Ideal S16x64 .f32) (ix2 v k) = (V c main_arg2 : S16x64.Idx → EReal) (ix2 v k) := by
  obtain ⟨-, -, -, -, -, -, e0, e1, -⟩ := idx_facts t
  unfold iblk2
  show (V c main_arg2 : S16x64.Idx → EReal) (((cfg2.win 3).blk t).view.emb (ix2 v k)) = _
  refine congrArg (V c main_arg2 : S16x64.Idx → EReal) (funext fun a => Fin.ext ?_)
  match a with
  | ⟨0, _⟩ => show win2_3.index t (0 : Fin 2) * 16 + 1 * v.val = v.val; omega
  | ⟨1, _⟩ => show win2_3.index t (1 : Fin 2) * 64 + 1 * k.val = k.val; omega

/-- The first weight half's one block is the array. -/
theorem blk4_apply (c : Dev nD) (t : Fin cfg2.N) (k : Fin 64) (d : Fin 256) :
    (iblk2 V c 4 t : Vec Ideal S64x256 .f32) (ix2 k d) = (V c main_call0_v40 : S64x256.Idx → EReal) (ix2 k d) := by
  obtain ⟨-, -, -, -, -, -, -, -, e0, e1, -⟩ := idx_facts t
  unfold iblk2
  show (V c main_call0_v40 : S64x256.Idx → EReal) (((cfg2.win 4).blk t).view.emb (ix2 k d)) = _
  refine congrArg (V c main_call0_v40 : S64x256.Idx → EReal) (funext fun a => Fin.ext ?_)
  match a with
  | ⟨0, _⟩ => show win2_4.index t (0 : Fin 2) * 64 + 1 * k.val = k.val; omega
  | ⟨1, _⟩ => show win2_4.index t (1 : Fin 2) * 256 + 1 * d.val = d.val; omega

/-- The second weight half's one block is the array. -/
theorem blk5_apply (c : Dev nD) (t : Fin cfg2.N) (k : Fin 256) (d : Fin 256) :
    (iblk2 V c 5 t : Vec Ideal S256x256 .f32) (ix2 k d) = (V c main_call0_v42 : S256x256.Idx → EReal) (ix2 k d) := by
  obtain ⟨-, -, -, -, -, -, -, -, -, -, e0, e1, -⟩ := idx_facts t
  unfold iblk2
  show (V c main_call0_v42 : S256x256.Idx → EReal) (((cfg2.win 5).blk t).view.emb (ix2 k d)) = _
  refine congrArg (V c main_call0_v42 : S256x256.Idx → EReal) (funext fun a => Fin.ext ?_)
  match a with
  | ⟨0, _⟩ => show win2_5.index t (0 : Fin 2) * 256 + 1 * k.val = k.val; omega
  | ⟨1, _⟩ => show win2_5.index t (1 : Fin 2) * 256 + 1 * d.val = d.val; omega

/-- The bias row's one block is the row. -/
theorem blk6_apply (c : Dev nD) (t : Fin cfg2.N) (d : Fin 256) :
    (iblk2 V c 6 t : Vec Ideal S1x256 .f32) (ix2 (0 : Fin 1) d) = (V c main_call0_v43 : S1x256.Idx → EReal) (ix2 (0 : Fin 1) d) := by
  obtain ⟨-, -, -, -, -, -, -, -, -, -, -, -, e0, e1, -⟩ := idx_facts t
  unfold iblk2
  show (V c main_call0_v43 : S1x256.Idx → EReal) (((cfg2.win 6).blk t).view.emb (ix2 (0 : Fin 1) d)) = _
  refine congrArg (V c main_call0_v43 : S1x256.Idx → EReal) (funext fun a => Fin.ext ?_)
  match a with
  | ⟨0, _⟩ => show win2_6.index t (0 : Fin 2) * 1 + 1 * 0 = 0; omega
  | ⟨1, _⟩ => show win2_6.index t (1 : Fin 2) * 256 + 1 * d.val = d.val; omega

end Blocks

/-! ## What a point writes back, the cover, and the array after the region -/

theorem hz : (![0, 0] : Fin 2 → Nat) = fun _ => 0 := funext fun a => by fin_cases a <;> rfl

/-- Two replacement entries whose five ingredients agree entry by entry are equal. -/
theorem updEntry_congr {A : Nat} {n n' wN wN' : Fin A → EReal} {o o' wO wO' : Fin 256 → EReal} {b b' : EReal}
    (h1 : ∀ k, n k = n' k) (h2 : ∀ k, wN k = wN' k) (h3 : ∀ k, o k = o' k) (h4 : ∀ k, wO k = wO' k) (h5 : b = b') :
    updEntry n wN o wO b = updEntry n' wN' o' wO' b' := by
  rw [funext h1, funext h2, funext h3, funext h4, h5]

/-- The replacement rows of the primitive leaves, as one function of the arguments. -/
abbrev G (c : Dev nD) : S60000x256.Idx → EReal :=
  updSmall (M := 60000) (m ((c : Thread nD τ).loc main_arg2)) (m ((c : Thread nD τ).loc main_arg1)) (m ((c : Thread nD τ).loc main_arg6))
    (m ((c : Thread nD τ).loc main_arg7)) (m ((c : Thread nD τ).loc main_arg10)) (m ((c : Thread nD τ).loc main_arg13))
    (m ((c : Thread nD τ).loc main_arg14))

/-- WHAT POINT t WRITES BACK is rows 6000 t … 6000 t + 5999 of the replacement rows. -/
theorem flushed_eq (c : Dev nD)
    (hT : ∀ p : Fin 500000, 0 ≤ (m ((c : Thread nD τ).loc main_arg10) (ix1 p)).toInt ∧ (m ((c : Thread nD τ).loc main_arg10) (ix1 p)).toInt < 120)
    (hS : ∀ r : Fin 60000, 0 ≤ (m ((c : Thread nD τ).loc main_arg13) (ix1 r)).toInt ∧ (m ((c : Thread nD τ).loc main_arg13) (ix1 r)).toInt < 16)
    (t : Fin cfg2.N) :
    (dat2 (V5 m ρ) c).flushed 7 t = ((cfg2.win 7).blk t).view.read (Elt Ideal) (G m c) := by
  show (cfg2.win 7).cut (grid2.coords t) ((dat2 (V5 m ρ) c).after 7 t) = _
  rw [after2_7]
  unfold out2_7
  rw [View.canon_unit_zero hz]
  simp only [View.ld_unit_zero (S := S6000x1) hz, View.ld_unit_zero (S := S120x256) hz, View.ld_unit_zero (S := S16x64) hz,
    View.ld_unit_zero (S := S64x256) hz, View.ld_unit_zero (S := S256x256) hz, View.ld_unit_zero (S := S1x256) hz]
  obtain ⟨-, -, -, -, -, -, -, -, -, -, -, -, -, -, e0, e1, hlt⟩ := idx_facts t
  refine funext fun (j : S6000x256.Idx) => ?_
  obtain ⟨q, d, rfl⟩ : ∃ (q : Fin 6000) (d : Fin 256), j = ix2 q d := ⟨j 0, j 1, eq_ix2 j⟩
  have hq : q.val < 6000 := q.isLt
  show k2_pay1 (F := Ideal) (iblk2 (V5 m ρ) c 0 t) (iblk2 (V5 m ρ) c 1 t) (iblk2 (V5 m ρ) c 2 t) (iblk2 (V5 m ρ) c 3 t)
      (iblk2 (V5 m ρ) c 4 t) (iblk2 (V5 m ρ) c 5 t) (iblk2 (V5 m ρ) c 6 t) (ix2 q d)
    = G m c (((cfg2.win 7).blk t).view.emb (ix2 q d))
  have hemb : ((cfg2.win 7).blk t).view.emb (ix2 q d) = ix2 (⟨t.val * 6000 + q.val, by omega⟩ : Fin 60000) d := by
    funext a; apply Fin.ext
    match a with
    | ⟨0, _⟩ => show win2_7.index t (0 : Fin 2) * 6000 + 1 * q.val = t.val * 6000 + q.val; omega
    | ⟨1, _⟩ => show win2_7.index t (1 : Fin 2) * 256 + 1 * d.val = d.val; omega
  rw [hemb]
  have h0 := (blk0_apply (V5 m ρ) c t q ⟨t.val * 6000 + q.val, by omega⟩ rfl).trans (type_arr_apply m ρ c ⟨t.val * 6000 + q.val, by omega⟩)
  have h2 := (blk2_apply (V5 m ρ) c t q ⟨t.val * 6000 + q.val, by omega⟩ rfl).trans (sel_arr_apply m ρ c ⟨t.val * 6000 + q.val, by omega⟩)
  refine (pay_entry (iblk2 (V5 m ρ) c 0 t) (iblk2 (V5 m ρ) c 1 t) (iblk2 (V5 m ρ) c 2 t) (iblk2 (V5 m ρ) c 3 t)
      (iblk2 (V5 m ρ) c 4 t) (iblk2 (V5 m ρ) c 5 t) (iblk2 (V5 m ρ) c 6 t) q d
      (by rw [h0]; exact hT _) (by rw [h2]; exact hS _)).trans ?_
  rw [h0, h2]
  refine updEntry_congr (fun k => ?_) (fun k => ?_) (fun k => ?_) (fun k => ?_) ?_
  · exact (blk3_apply (V5 m ρ) c t _ k).trans (congrFun (small_arr m ρ c) _)
  · exact (blk4_apply (V5 m ρ) c t k d).trans (wnew_arr_apply m ρ c k d)
  · exact (blk1_apply (V5 m ρ) c t _ k).trans (congrFun (tab_arr m ρ c) _)
  · exact (blk5_apply (V5 m ρ) c t k d).trans (worig_arr_apply m ρ c k d)
  · exact (blk6_apply (V5 m ρ) c t d).trans (bias_arr_apply m ρ c d)

/-- An index of the array is in point t's block iff each coordinate is in the block's range on its axis. -/
theorem mem_blk (t : Fin cfg2.N) (i : S60000x256.Idx) :
    i ∈ ((cfg2.win 7).blk t).view.set ↔ ∀ a : Fin 2, win2_7.index t a * S6000x256.size a ≤ (i a).val ∧ (i a).val < win2_7.index t a * S6000x256.size a + S6000x256.size a := by
  show i ∈ ((View.whole main_call0_v44).slice (win2_7.rect t)).set ↔ _
  rw [View.set_slice_whole, Rect.mem_set_unit]
  exact Iff.rfl

/-- Row r of the array lies in the block of point r / 6000, and every point writes its block back. -/
theorem covered (i : S60000x256.Idx) :
    ∃ t : Fin cfg2.N, (cfg2.win 7).flush t = true ∧ i ∈ ((cfg2.win 7).blk t).view.set := by
  have hN : cfg2.N = 10 := N_2
  have hi0 : (i 0).val < 60000 := (i 0).isLt
  have hi1 : (i 1).val < 256 := (i 1).isLt
  have ht : (⟨(i 0).val / 6000, by omega⟩ : Fin cfg2.N).val = (i 0).val / 6000 := rfl
  obtain ⟨-, -, -, -, -, -, -, -, -, -, -, -, -, -, e0, e1, -⟩ := idx_facts ⟨(i 0).val / 6000, by omega⟩
  refine ⟨⟨(i 0).val / 6000, by omega⟩, flush2_7 _, ?_⟩
  rw [mem_blk]
  intro a
  match a with
  | ⟨0, _⟩ =>
    show win2_7.index ⟨(i 0).val / 6000, _⟩ (0 : Fin 2) * 6000 ≤ (i 0).val ∧ (i 0).val < win2_7.index ⟨(i 0).val / 6000, _⟩ (0 : Fin 2) * 6000 + 6000
    omega
  | ⟨1, _⟩ =>
    show win2_7.index ⟨(i 0).val / 6000, _⟩ (1 : Fin 2) * 256 ≤ (i 1).val ∧ (i 1).val < win2_7.index ⟨(i 0).val / 6000, _⟩ (1 : Fin 2) * 256 + 256
    omega

/-- THE ARRAY AFTER THE REGION: the replacement rows of the primitive leaves. -/
theorem out_eq (c : Dev nD)
    (hT : ∀ p : Fin 500000, 0 ≤ (m ((c : Thread nD τ).loc main_arg10) (ix1 p)).toInt ∧ (m ((c : Thread nD τ).loc main_arg10) (ix1 p)).toInt < 120)
    (hS : ∀ r : Fin 60000, 0 ≤ (m ((c : Thread nD τ).loc main_arg13) (ix1 r)).toInt ∧ (m ((c : Thread nD τ).loc main_arg13) (ix1 r)).toInt < 16) :
    (dat2 (V5 m ρ) c).arrAt 7 cfg2.N
      = updSmall (M := 60000) (m ((c : Thread nD τ).loc main_arg2)) (m ((c : Thread nD τ).loc main_arg1)) (m ((c : Thread nD τ).loc main_arg6))
          (m ((c : Thread nD τ).loc main_arg7)) (m ((c : Thread nD τ).loc main_arg10)) (m ((c : Thread nD τ).loc main_arg13))
          (m ((c : Thread nD τ).loc main_arg14)) :=
  (dat2 (V5 m ρ) c).arrAt_eq_of_cover 7 (G m c) (fun t _ => flushed_eq m ρ c hT hS t) covered

end Cert.KernelIdeal.Region2

end
-- ==== Proof.KRegion3.lean ====
/-
  THE MODULE LEAVES' REPLACEMENT ROWS: what the fourth pipelined call leaves in its output array.

  The call walks 5 points; point t takes rows 6000 t … 6000 t + 5999 of two columns of words (the type word of the node
  each row addresses, and the row's selector word), the whole node-type table, the whole module table, the two
  transposed halves of the weight matrix and the bias row, applies the same block function as the call before it, and
  writes the 6000 rows back.

  The type-word column was made just before the call by gathering the type array at the wrapped node words; the gather
  clamps, so row r holds the type word of the node that node word r addresses when read. Under the range facts on the
  type words and the selector words the block function's entry is the specification's replacement entry, so each point
  writes back its 6000 rows of the replacement rows, and the 5 blocks tile the 30000 rows.
-/
import proofs.«414947_j9895604650636_3_alg».proof.Proof.Gen.KernelIdeal.Frame
import proofs.«414947_j9895604650636_3_alg».proof.Proof.Spec
import proofs.«414947_j9895604650636_3_alg».proof.Proof.KSmallPayload
import Idealize.ShloMosaic.Lib.Pipeline.Value
import Idealize.ShloMosaic.Lib.ValueLayout

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.NodeEmbed Cert.KernelIdeal.SmallPayload

variable (m : (ℓ : Loc nD τ sig) → Buf (Elt Ideal) ℓ) (ρ : Dev nD → PrngReg)

/-- A stretch of host operations leaves every buffer that none of them writes. -/
local macro "stretch_leaves " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The arguments as the region's last host stretch finds them

No host operation and no earlier region writes an argument, so the buffer contents three boundaries before the region,
read at an argument, are the launch contents. -/

theorem W6_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 1).trans (((dat2 (V5 m ρ) c).arrAt_in 1 rfl _).trans (A_eq2 (V5 m ρ) c 1))
    _ = W4 m ρ c (Proc.devRef .tc main_arg1) := by stretch_leaves hostOps2
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := by stretch_leaves hostOps1
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := by stretch_leaves hostOps0
    _ = m ((c : Thread nD τ).loc main_arg1) := rfl

theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by stretch_leaves hostOps2
    _ = W3 m ρ c (Proc.devRef .tc main_arg3) := W4_of_ne m ρ c main_arg3 (by decide)
    _ = W2 m ρ c (Proc.devRef .tc main_arg3) := by stretch_leaves hostOps1
    _ = W1 m ρ c (Proc.devRef .tc main_arg3) := W2_of_ne m ρ c main_arg3 (by decide)
    _ = W0 m ρ c (Proc.devRef .tc main_arg3) := by stretch_leaves hostOps0
    _ = m ((c : Thread nD τ).loc main_arg3) := rfl

theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by stretch_leaves hostOps2
    _ = W3 m ρ c (Proc.devRef .tc main_arg8) := W4_of_ne m ρ c main_arg8 (by decide)
    _ = W2 m ρ c (Proc.devRef .tc main_arg8) := by stretch_leaves hostOps1
    _ = W1 m ρ c (Proc.devRef .tc main_arg8) := W2_of_ne m ρ c main_arg8 (by decide)
    _ = W0 m ρ c (Proc.devRef .tc main_arg8) := by stretch_leaves hostOps0
    _ = m ((c : Thread nD τ).loc main_arg8) := rfl

theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by stretch_leaves hostOps2
    _ = W3 m ρ c (Proc.devRef .tc main_arg9) := W4_of_ne m ρ c main_arg9 (by decide)
    _ = W2 m ρ c (Proc.devRef .tc main_arg9) := by stretch_leaves hostOps1
    _ = W1 m ρ c (Proc.devRef .tc main_arg9) := W2_of_ne m ρ c main_arg9 (by decide)
    _ = W0 m ρ c (Proc.devRef .tc main_arg9) := by stretch_leaves hostOps0
    _ = m ((c : Thread nD τ).loc main_arg9) := rfl

theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by stretch_leaves hostOps2
    _ = W3 m ρ c (Proc.devRef .tc main_arg10) := W4_of_ne m ρ c main_arg10 (by decide)
    _ = W2 m ρ c (Proc.devRef .tc main_arg10) := by stretch_leaves hostOps1
    _ = W1 m ρ c (Proc.devRef .tc main_arg10) := W2_of_ne m ρ c main_arg10 (by decide)
    _ = W0 m ρ c (Proc.devRef .tc main_arg10) := by stretch_leaves hostOps0
    _ = m ((c : Thread nD τ).loc main_arg10) := rfl

theorem W6_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := by stretch_leaves hostOps2
    _ = W3 m ρ c (Proc.devRef .tc main_arg15) := W4_of_ne m ρ c main_arg15 (by decide)
    _ = W2 m ρ c (Proc.devRef .tc main_arg15) := by stretch_leaves hostOps1
    _ = W1 m ρ c (Proc.devRef .tc main_arg15) := W2_of_ne m ρ c main_arg15 (by decide)
    _ = W0 m ρ c (Proc.devRef .tc main_arg15) := by stretch_leaves hostOps0
    _ = m ((c : Thread nD τ).loc main_arg15) := rfl

theorem W6_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := by stretch_leaves hostOps2
    _ = W3 m ρ c (Proc.devRef .tc main_arg16) := W4_of_ne m ρ c main_arg16 (by decide)
    _ = W2 m ρ c (Proc.devRef .tc main_arg16) := by stretch_leaves hostOps1
    _ = W1 m ρ c (Proc.devRef .tc main_arg16) := W2_of_ne m ρ c main_arg16 (by decide)
    _ = W0 m ρ c (Proc.devRef .tc main_arg16) := by stretch_leaves hostOps0
    _ = m ((c : Thread nD τ).loc main_arg16) := rfl

/-! ## The region's seven input arrays, as terms of the arguments -/

/-- The node-type table is the argument. -/
theorem tab_arr (c : Dev nD) : V7 m ρ c main_arg1 = m ((c : Thread nD τ).loc main_arg1) :=
  calc W7 m ρ c (Proc.devRef .tc main_arg1)
    _ = W6 m ρ c (Proc.devRef .tc main_arg1) := by stretch_leaves hostOps3
    _ = m ((c : Thread nD τ).loc main_arg1) := W6_arg1 m ρ c

/-- The module table is the argument. -/
theorem small_arr (c : Dev nD) : V7 m ρ c main_arg3 = m ((c : Thread nD τ).loc main_arg3) :=
  calc W7 m ρ c (Proc.devRef .tc main_arg3)
    _ = W6 m ρ c (Proc.devRef .tc main_arg3) := by stretch_leaves hostOps3
    _ = m ((c : Thread nD τ).loc main_arg3) := W6_arg3 m ρ c

set_option maxHeartbeats 4000000 in
/-- The column of type words: the type array gathered at the wrapped node words, as a column. -/
theorem type_arr (c : Dev nD) : (V7 m ρ c main_call0_v59 : S30000x1.Idx → BitVec 32)
    = shapeCast S30000x1 (Host.gather gather_S500000_S30000x1_S30000_n_0_n_n_0_1_1
        (m ((c : Thread nD τ).loc main_arg10) : S500000.Idx → BitVec 32)
        (broadcastInDim S30000x1 ![0] bcast_S30000_S30000x1_0
          (select (cmpi .slt (m ((c : Thread nD τ).loc main_arg16) : S30000.Idx → BitVec 32) (broadcastInDim S30000 ![] bcast_S_S30000 (constantI S_ 32 0#32)))
            (addi (m ((c : Thread nD τ).loc main_arg16) : S30000.Idx → BitVec 32) (broadcastInDim S30000 ![] bcast_S_S30000 (constantI S_ 32 500000#32)))
            (m ((c : Thread nD τ).loc main_arg16) : S30000.Idx → BitVec 32))))
        shapeCasts_S30000_S30000x1 := by
  show StableHlo.after hostOps3 (W6 m ρ c) (Proc.devRef .tc main_call0_v59) = _
  after_results_simp
  rw [W6_arg10, W6_arg16]
  rfl

/-- The column of selector words: the selector array as a column. -/
theorem sel_arr (c : Dev nD) : (V7 m ρ c main_call0_v60 : S30000x1.Idx → BitVec 32)
    = shapeCast S30000x1 (m ((c : Thread nD τ).loc main_arg15) : S30000.Idx → BitVec 32) shapeCasts_S30000_S30000x1 := by
  show StableHlo.after hostOps3 (W6 m ρ c) (Proc.devRef .tc main_call0_v60) = _
  after_results_simp
  rw [W6_arg15]
  rfl

/-- The first weight half: columns 0 … 63 of the weight matrix, transposed. -/
theorem wnew_arr (c : Dev nD) : (V7 m ρ c main_call0_v62 : S64x256.Idx → EReal)
    = transpose S64x256 [1, 0] (extractStridedSlice S256x64 ![0, 0] (m ((c : Thread nD τ).loc main_arg8) : S256x320.Idx → EReal) slices_S256x320_S256x64_0_0) transposes_S256x64_S64x256_1_0 := by
  show StableHlo.after hostOps3 (W6 m ρ c) (Proc.devRef .tc main_call0_v62) = _
  after_results_simp
  rw [W6_arg8]
  rfl

/-- The second weight half: columns 64 … 319 of the weight matrix, transposed. -/
theorem worig_arr (c : Dev nD) : (V7 m ρ c main_call0_v64 : S256x256.Idx → EReal)
    = transpose S256x256 [1, 0] (extractStridedSlice S256x256 ![0, 64] (m ((c : Thread nD τ).loc main_arg8) : S256x320.Idx → EReal) slices_S256x320_S256x256_0_64) transposes_S256x256_S256x256_1_0 := by
  show StableHlo.after hostOps3 (W6 m ρ c) (Proc.devRef .tc main_call0_v64) = _
  after_results_simp
  rw [W6_arg8]
  rfl

/-- The bias as one row. -/
theorem bias_arr (c : Dev nD) : (V7 m ρ c main_call0_v65 : S1x256.Idx → EReal)
    = shapeCast S1x256 (m ((c : Thread nD τ).loc main_arg9) : S256.Idx → EReal) shapeCasts_S256_S1x256 := by
  show StableHlo.after hostOps3 (W6 m ρ c) (Proc.devRef .tc main_call0_v65) = _
  after_results_simp
  rw [W6_arg9]
  rfl

/-! ## The input arrays read at an index -/

/-- Row r of the column of type words is the type word of the node that row r's node word addresses when read. -/
theorem type_arr_apply (c : Dev nD) (r : Fin 30000) :
    (V7 m ρ c main_call0_v59 : S30000x1.Idx → BitVec 32) (ix2 r (0 : Fin 1))
      = (m ((c : Thread nD τ).loc main_arg10) : S500000.Idx → BitVec 32)
          (ix1 (nodeRead ((m ((c : Thread nD τ).loc main_arg16) : S30000.Idx → BitVec 32) (ix1 r)))) := by
  rw [type_arr]
  refine (shapeCast_apply _ shapeCasts_S30000_S30000x1 (ix2 r (0 : Fin 1)) (ix1 r) (by
    rw [Shape.rowMajor_val_two, Shape.rowMajor_val_one]; show r.val = r.val * 1 + 0; omega)).trans ?_
  refine (gather_words_apply (by decide) gather_S500000_S30000x1_S30000_n_0_n_n_0_1_1 rfl rfl rfl rfl rfl rfl _ _ r).trans ?_
  refine congrArg (fun p : Fin 500000 => (m ((c : Thread nD τ).loc main_arg10) : S500000.Idx → BitVec 32) (ix1 p)) (Fin.ext ?_)
  show min (BitVec.toInt (broadcastInDim (s := S30000) S30000x1 ![0] bcast_S30000_S30000x1_0 _ (ix2 r (0 : Fin 1)))).toNat (500000 - 1) = _
  rw [broadcastInDim_apply (s := S30000) (t := S30000x1) ![0] bcast_S30000_S30000x1_0 _ (ix2 r (0 : Fin 1)) (ix1 r) (fun a => match a with | ⟨0, _⟩ => rfl)]
  rfl

/-- Row r of the column of selector words is selector word r. -/
theorem sel_arr_apply (c : Dev nD) (r : Fin 30000) :
    (V7 m ρ c main_call0_v60 : S30000x1.Idx → BitVec 32) (ix2 r (0 : Fin 1))
      = (m ((c : Thread nD τ).loc main_arg15) : S30000.Idx → BitVec 32) (ix1 r) := by
  rw [sel_arr]
  exact shapeCast_apply _ shapeCasts_S30000_S30000x1 (ix2 r (0 : Fin 1)) (ix1 r) (by
    rw [Shape.rowMajor_val_two, Shape.rowMajor_val_one]; show r.val = r.val * 1 + 0; omega)

/-- Entry (k, d) of the first weight half is the weight matrix at row d, column k. -/
theorem wnew_arr_apply (c : Dev nD) (k : Fin 64) (d : Fin 256) :
    (V7 m ρ c main_call0_v62 : S64x256.Idx → EReal) (ix2 k d)
      = (m ((c : Thread nD τ).loc main_arg8) : S256x320.Idx → EReal) (ix2 d (⟨k.val, by omega⟩ : Fin 320)) := by
  rw [wnew_arr]
  refine (transpose_ix2_apply _ transposes_S256x64_S64x256_1_0 k d).trans ?_
  exact slice2_axis1_apply 0 _ slices_S256x320_S256x64_0_0 d k ⟨k.val, by omega⟩ (Nat.zero_add _).symm

/-- Entry (k, d) of the second weight half is the weight matrix at row d, column 64 + k. -/
theorem worig_arr_apply (c : Dev nD) (k : Fin 256) (d : Fin 256) :
    (V7 m ρ c main_call0_v64 : S256x256.Idx → EReal) (ix2 k d)
      = (m ((c : Thread nD τ).loc main_arg8) : S256x320.Idx → EReal) (ix2 d (⟨64 + k.val, by omega⟩ : Fin 320)) := by
  rw [worig_arr]
  refine (transpose_ix2_apply _ transposes_S256x256_S256x256_1_0 k d).trans ?_
  exact slice2_axis1_apply 64 _ slices_S256x320_S256x256_0_64 d k ⟨64 + k.val, by omega⟩ rfl

/-- Entry (0, d) of the bias row is bias entry d. -/
theorem bias_arr_apply (c : Dev nD) (d : Fin 256) :
    (V7 m ρ c main_call0_v65 : S1x256.Idx → EReal) (ix2 (0 : Fin 1) d)
      = (m ((c : Thread nD τ).loc main_arg9) : S256.Idx → EReal) (ix1 d) := by
  rw [bias_arr]
  exact shapeCast_a_1a_apply _ shapeCasts_S256_S1x256 0 d

/-! ## The windows' blocks, read off the arrays -/

/-- The printed index maps over the grid: the three windows of 6000 rows move with the point, the others stay. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ t.val < 5 :=
  (by decide +kernel : ∀ t : Fin grid3.N, _)

section Blocks
variable (V : (c : Dev nD) → (b : Ref sig .tc) → Buf (Elt Ideal) ((c : Thread nD τ).loc b))

/-- Row q of point t's block of the type-word column is row 6000 t + q of the column. -/
theorem blk0_apply (c : Dev nD) (t : Fin cfg3.N) (q : Fin 6000) (r : Fin 30000) (hr : r.val = t.val * 6000 + q.val) :
    (iblk3 V c 0 t : Vec Ideal S6000x1 .i32) (ix2 q (0 : Fin 1))
      = (V c main_call0_v59 : S30000x1.Idx → BitVec 32) (ix2 r (0 : Fin 1)) := by
  obtain ⟨e0, e1, -⟩ := idx_facts t
  unfold iblk3
  show (V c main_call0_v59 : S30000x1.Idx → BitVec 32) (((cfg3.win 0).blk t).view.emb (ix2 q (0 : Fin 1))) = _
  refine congrArg (V c main_call0_v59 : S30000x1.Idx → BitVec 32) (funext fun a => Fin.ext ?_)
  match a with
  | ⟨0, _⟩ => show win3_0.index t (0 : Fin 2) * 6000 + 1 * q.val = r.val; omega
  | ⟨1, _⟩ => show win3_0.index t (1 : Fin 2) * 1 + 1 * 0 = 0; omega

/-- Row q of point t's block of the selector column is row 6000 t + q of the column. -/
theorem blk2_apply (c : Dev nD) (t : Fin cfg3.N) (q : Fin 6000) (r : Fin 30000) (hr : r.val = t.val * 6000 + q.val) :
    (iblk3 V c 2 t : Vec Ideal S6000x1 .i32) (ix2 q (0 : Fin 1))
      = (V c main_call0_v60 : S30000x1.Idx → BitVec 32) (ix2 r (0 : Fin 1)) := by
  obtain ⟨-, -, -, -, e0, e1, -⟩ := idx_facts t
  unfold iblk3
  show (V c main_call0_v60 : S30000x1.Idx → BitVec 32) (((cfg3.win 2).blk t).view.emb (ix2 q (0 : Fin 1))) = _
  refine congrArg (V c main_call0_v60 : S30000x1.Idx → BitVec 32) (funext fun a => Fin.ext ?_)
  match a with
  | ⟨0, _⟩ => show win3_2.index t (0 : Fin 2) * 6000 + 1 * q.val = r.val; omega
  | ⟨1, _⟩ => show win3_2.index t (1 : Fin 2) * 1 + 1 * 0 = 0; omega

/-- The node-type table's one block is the table. -/
theorem blk1_apply (c : Dev nD) (t : Fin cfg3.N) (v : Fin 120) (k : Fin 256) :
    (iblk3 V c 1 t : Vec Ideal S120x256 .f32) (ix2 v k) = (V c main_arg1 : S120x256.Idx → EReal) (ix2 v k) := by
  obtain ⟨-, -, e0, e1, -⟩ := idx_facts t
  unfold iblk3
  show (V c main_arg1 : S120x256.Idx → EReal) (((cfg3.win 1).blk t).view.emb (ix2 v k)) = _
  refine congrArg (V c main_arg1 : S120x256.Idx → EReal) (funext fun a => Fin.ext ?_)
  match a with
  | ⟨0, _⟩ => show win3_1.index t (0 : Fin 2) * 120 + 1 * v.val = v.val; omega
  | ⟨1, _⟩ => show win3_1.index t (1 : Fin 2) * 256 + 1 * k.val = k.val; omega

/-- The module table's one block is the table. -/
theorem blk3_apply (c : Dev nD) (t : Fin cfg3.N) (v : Fin 16) (k : Fin 64) :
    (iblk3 V c 3 t : Vec Ideal S16x64 .f32) (ix2 v k) = (V c main_arg3 : S16x64.Idx → EReal) (ix2 v k) := by
  obtain ⟨-, -, -, -, -, -, e0, e1, -⟩ := idx_facts t
  unfold iblk3
  show (V c main_arg3 : S16x64.Idx → EReal) (((cfg3.win 3).blk t).view.emb (ix2 v k)) = _
  refine congrArg (V c main_arg3 : S16x64.Idx → EReal) (funext fun a => Fin.ext ?_)
  match a with
  | ⟨0, _⟩ => show win3_3.index t (0 : Fin 2) * 16 + 1 * v.val = v.val; omega
  | ⟨1, _⟩ => show win3_3.index t (1 : Fin 2) * 64 + 1 * k.val = k.val; omega

/-- The first weight half's one block is the array. -/
theorem blk4_apply (c : Dev nD) (t : Fin cfg3.N) (k : Fin 64) (d : Fin 256) :
    (iblk3 V c 4 t : Vec Ideal S64x256 .f32) (ix2 k d) = (V c main_call0_v62 : S64x256.Idx → EReal) (ix2 k d) := by
  obtain ⟨-, -, -, -, -, -, -, -, e0, e1, -⟩ := idx_facts t
  unfold iblk3
  show (V c main_call0_v62 : S64x256.Idx → EReal) (((cfg3.win 4).blk t).view.emb (ix2 k d)) = _
  refine congrArg (V c main_call0_v62 : S64x256.Idx → EReal) (funext fun a => Fin.ext ?_)
  match a with
  | ⟨0, _⟩ => show win3_4.index t (0 : Fin 2) * 64 + 1 * k.val = k.val; omega
  | ⟨1, _⟩ => show win3_4.index t (1 : Fin 2) * 256 + 1 * d.val = d.val; omega

/-- The second weight half's one block is the array. -/
theorem blk5_apply (c : Dev nD) (t : Fin cfg3.N) (k : Fin 256) (d : Fin 256) :
    (iblk3 V c 5 t : Vec Ideal S256x256 .f32) (ix2 k d) = (V c main_call0_v64 : S256x256.Idx → EReal) (ix2 k d) := by
  obtain ⟨-, -, -, -, -, -, -, -, -, -, e0, e1, -⟩ := idx_facts t
  unfold iblk3
  show (V c main_call0_v64 : S256x256.Idx → EReal) (((cfg3.win 5).blk t).view.emb (ix2 k d)) = _
  refine congrArg (V c main_call0_v64 : S256x256.Idx → EReal) (funext fun a => Fin.ext ?_)
  match a with
  | ⟨0, _⟩ => show win3_5.index t (0 : Fin 2) * 256 + 1 * k.val = k.val; omega
  | ⟨1, _⟩ => show win3_5.index t (1 : Fin 2) * 256 + 1 * d.val = d.val; omega

/-- The bias row's one block is the row. -/
theorem blk6_apply (c : Dev nD) (t : Fin cfg3.N) (d : Fin 256) :
    (iblk3 V c 6 t : Vec Ideal S1x256 .f32) (ix2 (0 : Fin 1) d) = (V c main_call0_v65 : S1x256.Idx → EReal) (ix2 (0 : Fin 1) d) := by
  obtain ⟨-, -, -, -, -, -, -, -, -, -, -, -, e0, e1, -⟩ := idx_facts t
  unfold iblk3
  show (V c main_call0_v65 : S1x256.Idx → EReal) (((cfg3.win 6).blk t).view.emb (ix2 (0 : Fin 1) d)) = _
  refine congrArg (V c main_call0_v65 : S1x256.Idx → EReal) (funext fun a => Fin.ext ?_)
  match a with
  | ⟨0, _⟩ => show win3_6.index t (0 : Fin 2) * 1 + 1 * 0 = 0; omega
  | ⟨1, _⟩ => show win3_6.index t (1 : Fin 2) * 256 + 1 * d.val = d.val; omega

end Blocks

/-! ## What a point writes back, the cover, and the array after the region -/

theorem hz : (![0, 0] : Fin 2 → Nat) = fun _ => 0 := funext fun a => by fin_cases a <;> rfl

/-- Two replacement entries whose five ingredients agree entry by entry are equal. -/
theorem updEntry_congr {A : Nat} {n n' wN wN' : Fin A → EReal} {o o' wO wO' : Fin 256 → EReal} {b b' : EReal}
    (h1 : ∀ k, n k = n' k) (h2 : ∀ k, wN k = wN' k) (h3 : ∀ k, o k = o' k) (h4 : ∀ k, wO k = wO' k) (h5 : b = b') :
    updEntry n wN o wO b = updEntry n' wN' o' wO' b' := by
  rw [funext h1, funext h2, funext h3, funext h4, h5]

/-- The replacement rows of the module leaves, as one function of the arguments. -/
abbrev G (c : Dev nD) : S30000x256.Idx → EReal :=
  updSmall (M := 30000) (m ((c : Thread nD τ).loc main_arg3)) (m ((c : Thread nD τ).loc main_arg1)) (m ((c : Thread nD τ).loc main_arg8))
    (m ((c : Thread nD τ).loc main_arg9)) (m ((c : Thread nD τ).loc main_arg10)) (m ((c : Thread nD τ).loc main_arg15))
    (m ((c : Thread nD τ).loc main_arg16))

/-- WHAT POINT t WRITES BACK is rows 6000 t … 6000 t + 5999 of the replacement rows. The block function is the one of
    the call before (the two printed functions are the same term). -/
theorem flushed_eq (c : Dev nD)
    (hT : ∀ p : Fin 500000, 0 ≤ (m ((c : Thread nD τ).loc main_arg10) (ix1 p)).toInt ∧ (m ((c : Thread nD τ).loc main_arg10) (ix1 p)).toInt < 120)
    (hS : ∀ r : Fin 30000, 0 ≤ (m ((c : Thread nD τ).loc main_arg15) (ix1 r)).toInt ∧ (m ((c : Thread nD τ).loc main_arg15) (ix1 r)).toInt < 16)
    (t : Fin cfg3.N) :
    (dat3 (V7 m ρ) c).flushed 7 t = ((cfg3.win 7).blk t).view.read (Elt Ideal) (G m c) := by
  show (cfg3.win 7).cut (grid3.coords t) ((dat3 (V7 m ρ) c).after 7 t) = _
  rw [after3_7]
  unfold out3_7
  rw [View.canon_unit_zero hz]
  simp only [View.ld_unit_zero (S := S6000x1) hz, View.ld_unit_zero (S := S120x256) hz, View.ld_unit_zero (S := S16x64) hz,
    View.ld_unit_zero (S := S64x256) hz, View.ld_unit_zero (S := S256x256) hz, View.ld_unit_zero (S := S1x256) hz]
  obtain ⟨-, -, -, -, -, -, -, -, -, -, -, -, -, -, e0, e1, hlt⟩ := idx_facts t
  refine funext fun (j : S6000x256.Idx) => ?_
  obtain ⟨q, d, rfl⟩ : ∃ (q : Fin 6000) (d : Fin 256), j = ix2 q d := ⟨j 0, j 1, eq_ix2 j⟩
  have hq : q.val < 6000 := q.isLt
  show k2_pay1 (F := Ideal) (iblk3 (V7 m ρ) c 0 t) (iblk3 (V7 m ρ) c 1 t) (iblk3 (V7 m ρ) c 2 t) (iblk3 (V7 m ρ) c 3 t)
      (iblk3 (V7 m ρ) c 4 t) (iblk3 (V7 m ρ) c 5 t) (iblk3 (V7 m ρ) c 6 t) (ix2 q d)
    = G m c (((cfg3.win 7).blk t).view.emb (ix2 q d))
  have hemb : ((cfg3.win 7).blk t).view.emb (ix2 q d) = ix2 (⟨t.val * 6000 + q.val, by omega⟩ : Fin 30000) d := by
    funext a; apply Fin.ext
    match a with
    | ⟨0, _⟩ => show win3_7.index t (0 : Fin 2) * 6000 + 1 * q.val = t.val * 6000 + q.val; omega
    | ⟨1, _⟩ => show win3_7.index t (1 : Fin 2) * 256 + 1 * d.val = d.val; omega
  rw [hemb]
  have h0 := (blk0_apply (V7 m ρ) c t q ⟨t.val * 6000 + q.val, by omega⟩ rfl).trans (type_arr_apply m ρ c ⟨t.val * 6000 + q.val, by omega⟩)
  have h2 := (blk2_apply (V7 m ρ) c t q ⟨t.val * 6000 + q.val, by omega⟩ rfl).trans (sel_arr_apply m ρ c ⟨t.val * 6000 + q.val, by omega⟩)
  refine (pay_entry (iblk3 (V7 m ρ) c 0 t) (iblk3 (V7 m ρ) c 1 t) (iblk3 (V7 m ρ) c 2 t) (iblk3 (V7 m ρ) c 3 t)
      (iblk3 (V7 m ρ) c 4 t) (iblk3 (V7 m ρ) c 5 t) (iblk3 (V7 m ρ) c 6 t) q d
      (by rw [h0]; exact hT _) (by rw [h2]; exact hS _)).trans ?_
  rw [h0, h2]
  refine updEntry_congr (fun k => ?_) (fun k => ?_) (fun k => ?_) (fun k => ?_) ?_
  · exact (blk3_apply (V7 m ρ) c t _ k).trans (congrFun (small_arr m ρ c) _)
  · exact (blk4_apply (V7 m ρ) c t k d).trans (wnew_arr_apply m ρ c k d)
  · exact (blk1_apply (V7 m ρ) c t _ k).trans (congrFun (tab_arr m ρ c) _)
  · exact (blk5_apply (V7 m ρ) c t k d).trans (worig_arr_apply m ρ c k d)
  · exact (blk6_apply (V7 m ρ) c t d).trans (bias_arr_apply m ρ c d)

/-- An index of the array is in point t's block iff each coordinate is in the block's range on its axis. -/
theorem mem_blk (t : Fin cfg3.N) (i : S30000x256.Idx) :
    i ∈ ((cfg3.win 7).blk t).view.set ↔ ∀ a : Fin 2, win3_7.index t a * S6000x256.size a ≤ (i a).val ∧ (i a).val < win3_7.index t a * S6000x256.size a + S6000x256.size a := by
  show i ∈ ((View.whole main_call0_v66).slice (win3_7.rect t)).set ↔ _
  rw [View.set_slice_whole, Rect.mem_set_unit]
  exact Iff.rfl

/-- Row r of the array lies in the block of point r / 6000, and every point writes its block back. -/
theorem covered (i : S30000x256.Idx) :
    ∃ t : Fin cfg3.N, (cfg3.win 7).flush t = true ∧ i ∈ ((cfg3.win 7).blk t).view.set := by
  have hN : cfg3.N = 5 := N_3
  have hi0 : (i 0).val < 30000 := (i 0).isLt
  have hi1 : (i 1).val < 256 := (i 1).isLt
  have ht : (⟨(i 0).val / 6000, by omega⟩ : Fin cfg3.N).val = (i 0).val / 6000 := rfl
  obtain ⟨-, -, -, -, -, -, -, -, -, -, -, -, -, -, e0, e1, -⟩ := idx_facts ⟨(i 0).val / 6000, by omega⟩
  refine ⟨⟨(i 0).val / 6000, by omega⟩, flush3_7 _, ?_⟩
  rw [mem_blk]
  intro a
  match a with
  | ⟨0, _⟩ =>
    show win3_7.index ⟨(i 0).val / 6000, _⟩ (0 : Fin 2) * 6000 ≤ (i 0).val ∧ (i 0).val < win3_7.index ⟨(i 0).val / 6000, _⟩ (0 : Fin 2) * 6000 + 6000
    omega
  | ⟨1, _⟩ =>
    show win3_7.index ⟨(i 0).val / 6000, _⟩ (1 : Fin 2) * 256 ≤ (i 1).val ∧ (i 1).val < win3_7.index ⟨(i 0).val / 6000, _⟩ (1 : Fin 2) * 256 + 256
    omega

/-- THE ARRAY AFTER THE REGION: the replacement rows of the module leaves. -/
theorem out_eq (c : Dev nD)
    (hT : ∀ p : Fin 500000, 0 ≤ (m ((c : Thread nD τ).loc main_arg10) (ix1 p)).toInt ∧ (m ((c : Thread nD τ).loc main_arg10) (ix1 p)).toInt < 120)
    (hS : ∀ r : Fin 30000, 0 ≤ (m ((c : Thread nD τ).loc main_arg15) (ix1 r)).toInt ∧ (m ((c : Thread nD τ).loc main_arg15) (ix1 r)).toInt < 16) :
    (dat3 (V7 m ρ) c).arrAt 7 cfg3.N
      = updSmall (M := 30000) (m ((c : Thread nD τ).loc main_arg3)) (m ((c : Thread nD τ).loc main_arg1)) (m ((c : Thread nD τ).loc main_arg8))
          (m ((c : Thread nD τ).loc main_arg9)) (m ((c : Thread nD τ).loc main_arg10)) (m ((c : Thread nD τ).loc main_arg15))
          (m ((c : Thread nD τ).loc main_arg16)) :=
  (dat3 (V7 m ρ) c).arrAt_eq_of_cover 7 (G m c) (fun t _ => flushed_eq m ρ c hT hS t) covered

end Cert.KernelIdeal.Region3

end
-- ==== Proof.KValue.lean ====
/-
  THE KERNEL PROGRAM'S RESULT AS ONE FUNCTION OF ITS ARGUMENTS.

  On the domain, each region's output array is the array the vocabulary names — every node's node-type row; the
  replacement rows of the identifier leaves, of the primitive leaves and of the module leaves — and the result buffer
  is the three nested scatters of those rows into the first array.
-/
import proofs.«414947_j9895604650636_3_alg».proof.Proof.KFold
import proofs.«414947_j9895604650636_3_alg».proof.Proof.KRegion0
import proofs.«414947_j9895604650636_3_alg».proof.Proof.KRegion1
import proofs.«414947_j9895604650636_3_alg».proof.Proof.KRegion2
import proofs.«414947_j9895604650636_3_alg».proof.Proof.KRegion3

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.NodeEmbed

/-- A node-index argument of M words as the column of start words a scatter reads: a negative word has 500000
    added. -/
abbrev col12 (x : IVec S150000 32) : IVec S150000x1 32 :=
  (broadcastInDim S150000x1 ![0] bcast_S150000_S150000x1_0 (select (cmpi .slt (x) (broadcastInDim S150000 ![] bcast_S_S150000 (constantI S_ 32 0#32))) (addi (x) (broadcastInDim S150000 ![] bcast_S_S150000 (constantI S_ 32 500000#32))) (x)))
abbrev col14 (x : IVec S60000 32) : IVec S60000x1 32 :=
  (broadcastInDim S60000x1 ![0] bcast_S60000_S60000x1_0 (select (cmpi .slt (x) (broadcastInDim S60000 ![] bcast_S_S60000 (constantI S_ 32 0#32))) (addi (x) (broadcastInDim S60000 ![] bcast_S_S60000 (constantI S_ 32 500000#32))) (x)))
abbrev col16 (x : IVec S30000 32) : IVec S30000x1 32 :=
  (broadcastInDim S30000x1 ![0] bcast_S30000_S30000x1_0 (select (cmpi .slt (x) (broadcastInDim S30000 ![] bcast_S_S30000 (constantI S_ 32 0#32))) (addi (x) (broadcastInDim S30000 ![] bcast_S_S30000 (constantI S_ 32 500000#32))) (x)))

/-- The embedding: the node-type rows with the three groups of replacement rows scattered in, one after the other. -/
def result (x0 : FVec Ideal S50000x256 .f32) (x1 : FVec Ideal S120x256 .f32) (x2 : FVec Ideal S16x64 .f32) (x3 : FVec Ideal S16x64 .f32) (x4 : FVec Ideal S256x512 .f32) (x5 : FVec Ideal S256 .f32) (x6 : FVec Ideal S256x320 .f32) (x7 : FVec Ideal S256 .f32) (x8 : FVec Ideal S256x320 .f32) (x9 : FVec Ideal S256 .f32) (x10 : IVec S500000 32) (x11 : IVec S150000 32) (x12 : IVec S150000 32) (x13 : IVec S60000 32) (x14 : IVec S60000 32) (x15 : IVec S30000 32) (x16 : IVec S30000 32) : FVec Ideal S500000x256 .f32 :=
  Host.scatter scatter_S500000x256_S30000x1_S30000x256_1_0_0_1 (fun _ b => b)
    (Host.scatter scatter_S500000x256_S60000x1_S60000x256_1_0_0_1 (fun _ b => b)
      (Host.scatter scatter_S500000x256_S150000x1_S150000x256_1_0_0_1 (fun _ b => b) (enc0 x1 x10) (col12 x12) (updId x0 x1 x4 x5 x10 x11 x12))
      (col14 x14) (updSmall (M := 60000) x2 x1 x6 x7 x10 x13 x14))
    (col16 x16) (updSmall (M := 30000) x3 x1 x8 x9 x10 x15 x16)

variable (m : (ℓ : Loc nD τ sig) → Buf (Elt Ideal) ℓ) (ρ : Dev nD → PrngReg)

/-- On the domain the result buffer after the run is that embedding of the launch arguments. -/
theorem kernel_result (c : Dev nD)
    (dom : Domain (m ((c : Thread nD τ).loc main_arg10)) (m ((c : Thread nD τ).loc main_arg12)) (m ((c : Thread nD τ).loc main_arg13)) (m ((c : Thread nD τ).loc main_arg14)) (m ((c : Thread nD τ).loc main_arg15)) (m ((c : Thread nD τ).loc main_arg16))) :
    W9 m ρ c (Proc.devRef .tc main_v0) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold result col12 col14 col16
  rw [Fold.W9_result m ρ c, Fold.W7_scattered m ρ c, Fold.W5_scattered m ρ c, Region0.out_eq m ρ c dom.types,
    Region1.out_eq m ρ c dom.types, Region2.out_eq m ρ c dom.types dom.prims, Region3.out_eq m ρ c dom.types dom.mods]
  rfl

end Cert.KernelIdeal.Result

end
-- ==== Proof.LibScatterSet.lean ====
/-
  THE HOST'S REPLACING SCATTER READ AT AN INDEX.

  A scatter is the left fold, over the update indices in row-major order, of the step "the update index lands at an
  operand index (its start, read signed off the scatter indices, plus its window coordinate, when that is inside the
  operand) and the body's value of the element there and the update's element is put there". When the body returns
  the update's element the step overwrites. So at an operand index that no update lands at the result is the
  operand's element, and at an operand index that updates land at, all carrying one element, the result is that
  element. In particular, when the update indices land one to one (an injective map e), the result at e j is the
  update's element at j.

  The last part reads the scatter that PADS: every start zero and the update's axes the operand's axes in order, so
  that the updates fill the operand's corner at the origin; the result is the update inside that corner and the
  operand outside it (rank two and rank three).

  Nothing here evaluates a size or a dimension number: the shapes, the dimension numbers and the element type are
  variables.
-/
import Idealize.ShloMosaic.PureOps.ShapeOps
import Idealize.ShloMosaic.PureOps.Dims
import Idealize.ShloMosaic.Lib.ValueIdx

namespace Idealize.ShloMosaic.ScatterSet

open Idealize.ShloMosaic Idealize.ShloMosaic.ValueIdx

/-! ## A left fold that overwrites one place at a time -/

section Fold
variable {ι κ α : Type}

/-- Steps that leave place i alone leave the fold's value there alone. -/
theorem foldl_apply_of_untouched (st : (κ → α) → ι → (κ → α)) (i : κ) :
    ∀ (l : List ι) (x : κ → α), (∀ r, ∀ n ∈ l, st r n i = r i) → l.foldl st x i = x i
  | [], _, _ => rfl
  | a :: t, x, h => by
    rw [List.foldl_cons, foldl_apply_of_untouched st i t _ fun r n hn => h r n (List.mem_cons_of_mem _ hn)]
    exact h x a List.mem_cons_self

/-- If every step either leaves place i alone or puts the value w there, a fold that starts with w at i ends
    with w at i. -/
theorem foldl_apply_of_stays (st : (κ → α) → ι → (κ → α)) (i : κ) (w : α) :
    ∀ (l : List ι) (x : κ → α), (∀ r, ∀ n ∈ l, st r n i = r i ∨ st r n i = w) → x i = w → l.foldl st x i = w
  | [], _, _, hx => hx
  | a :: t, x, h, hx => by
    rw [List.foldl_cons]
    refine foldl_apply_of_stays st i w t _ (fun r n hn => h r n (List.mem_cons_of_mem _ hn)) ?_
    rcases h x a List.mem_cons_self with e | e
    · rw [e, hx]
    · exact e

/-- If some step of the list puts w at place i, and every step leaves i alone or puts w there, the fold ends with
    w at i. -/
theorem foldl_apply_of_written (st : (κ → α) → ι → (κ → α)) (i : κ) (w : α) (l : List ι) (x : κ → α)
    (n₀ : ι) (hn₀ : n₀ ∈ l) (hw : ∀ r, st r n₀ i = w) (h : ∀ r, ∀ n ∈ l, st r n i = r i ∨ st r n i = w) :
    l.foldl st x i = w := by
  obtain ⟨l₁, l₂, rfl⟩ := List.append_of_mem hn₀
  rw [List.foldl_append, List.foldl_cons]
  exact foldl_apply_of_stays st i w l₂ _
    (fun r n hn => h r n (List.mem_append_right _ (List.mem_cons_of_mem _ hn))) (hw _)

end Fold

/-! ## The scatter -/

section Scatter
variable {s si u : Shape} {w : Nat} {α : Type} (d : ScatterDims s si u)

/-- An update index whose start plus window coordinate is, on every axis, the coordinate of the operand index k
    lands at k. -/
theorem resultIdx?_eq_some_of_coords (j : u.Idx) (idx : IVec si w) (k : s.Idx)
    (h : ∀ a, d.start j idx a + (d.window j a : Int) = ((k a).val : Int)) : d.resultIdx? j idx = some k := by
  unfold ScatterDims.resultIdx?
  rw [dif_pos fun a => by have := h a; have := (k a).isLt; omega]
  refine congrArg some (funext fun a => Fin.ext ?_)
  show (d.start j idx a + (d.window j a : Int)).toNat = (k a).val
  have := h a
  omega

/-- Where every scatter index reads zero, every start is zero. -/
theorem start_eq_zero_of_zero (j : u.Idx) (idx : IVec si w) (hz : ∀ k, (idx k).toInt = 0) (a : Fin s.rank) :
    d.start j idx a = 0 := by
  unfold ScatterDims.start
  split
  · exact hz _
  · rfl

/-- On an operand axis that is not inserted, the window coordinate is the update index's coordinate on the window
    axis in that axis's position. -/
theorem window_of_mem (j : u.Idx) (a : Fin s.rank) (ha : a ∈ d.sKept) :
    d.window j a
      = (j (d.updateWindowDims[d.sKept.idxOf a]'(by rw [d.window_length]; exact List.idxOf_lt_length_iff.2 ha))).val := by
  unfold ScatterDims.window
  rw [dif_pos ha]

/-- One step of the scatter's fold. -/
abbrev step (f : α → α → α) (idx : IVec si w) (upd : u.Idx → α) (r : s.Idx → α) (n : Fin u.numel) : s.Idx → α :=
  match d.resultIdx? (u.rowMajor.symm n) idx with
  | some i => fun i' => if i' = i then f (r i) (upd (u.rowMajor.symm n)) else r i'
  | none => r

theorem scatter_eq_foldl (f : α → α → α) (x : s.Idx → α) (idx : IVec si w) (upd : u.Idx → α) :
    Host.scatter d f x idx upd = (List.finRange u.numel).foldl (step d f idx upd) x := rfl

/-- A step whose update does not land at i leaves i alone. -/
theorem step_apply_of_ne (f : α → α → α) (idx : IVec si w) (upd : u.Idx → α) (r : s.Idx → α) (n : Fin u.numel)
    (i : s.Idx) (h : d.resultIdx? (u.rowMajor.symm n) idx ≠ some i) : step d f idx upd r n i = r i := by
  unfold step
  generalize d.resultIdx? (u.rowMajor.symm n) idx = o at h
  cases o with
  | none => rfl
  | some k =>
    show (if i = k then f (r k) (upd (u.rowMajor.symm n)) else r i) = r i
    exact if_neg fun e => h (by rw [e])

/-- A replacing step whose update lands at i puts the update there. -/
theorem step_apply_of_eq (idx : IVec si w) (upd : u.Idx → α) (r : s.Idx → α) (n : Fin u.numel)
    (i : s.Idx) (h : d.resultIdx? (u.rowMajor.symm n) idx = some i) :
    step d (fun _ b => b) idx upd r n i = upd (u.rowMajor.symm n) := by
  unfold step
  rw [h]
  exact if_pos rfl

/-- THE SCATTER OFF THE UPDATES: an operand index no update lands at keeps the operand's element. -/
theorem scatter_apply_of_missed (f : α → α → α) (x : s.Idx → α) (idx : IVec si w) (upd : u.Idx → α) (i : s.Idx)
    (h : ∀ j, d.resultIdx? j idx ≠ some i) : Host.scatter d f x idx upd i = x i := by
  rw [scatter_eq_foldl]
  exact foldl_apply_of_untouched _ i _ x fun r n _ => step_apply_of_ne d f idx upd r n i (h _)

/-- THE REPLACING SCATTER ON AN UPDATE: if the update index j₀ lands at i, and every update index that lands at i
    carries the same element as j₀, the result at i is that element. -/
theorem scatter_set_apply_of_landed (x : s.Idx → α) (idx : IVec si w) (upd : u.Idx → α) (i : s.Idx) (j₀ : u.Idx)
    (h₀ : d.resultIdx? j₀ idx = some i) (hsame : ∀ j, d.resultIdx? j idx = some i → upd j = upd j₀) :
    Host.scatter d (fun _ b => b) x idx upd i = upd j₀ := by
  rw [scatter_eq_foldl]
  refine foldl_apply_of_written _ i (upd j₀) _ x (u.rowMajor j₀) (List.mem_finRange _) (fun r => ?_) (fun r n _ => ?_)
  · rw [step_apply_of_eq d idx upd r _ i (by rw [Equiv.symm_apply_apply]; exact h₀), Equiv.symm_apply_apply]
  · by_cases hn : d.resultIdx? (u.rowMajor.symm n) idx = some i
    · exact Or.inr (by rw [step_apply_of_eq d idx upd r n i hn]; exact hsame _ hn)
    · exact Or.inl (step_apply_of_ne d _ idx upd r n i hn)

/-- The same for updates that land one to one: where e says where each update index lands and e is injective, the
    result at e j is the update at j, and an operand index outside e's range keeps the operand's element. -/
theorem scatter_set_apply_emb (x : s.Idx → α) (idx : IVec si w) (upd : u.Idx → α) (e : u.Idx → s.Idx)
    (he : ∀ j, d.resultIdx? j idx = some (e j)) (hinj : Function.Injective e) (j : u.Idx) :
    Host.scatter d (fun _ b => b) x idx upd (e j) = upd j :=
  scatter_set_apply_of_landed d x idx upd (e j) j (he j) fun j' hj' =>
    congrArg upd (hinj (Option.some.inj ((he j').symm.trans hj')))

theorem scatter_apply_off_emb (f : α → α → α) (x : s.Idx → α) (idx : IVec si w) (upd : u.Idx → α) (e : u.Idx → s.Idx)
    (he : ∀ j, d.resultIdx? j idx = some (e j)) (i : s.Idx) (hi : ∀ j, e j ≠ i) :
    Host.scatter d f x idx upd i = x i :=
  scatter_apply_of_missed d f x idx upd i fun j hj => hi j (Option.some.inj ((he j).symm.trans hj))

end Scatter

/-! ## A window scatter at start zero pads

When every start is zero and the update's axes are the operand's axes in order (the window coordinate on operand axis
a is the update index's coordinate on axis a), the update index j lands at the operand index with j's coordinates:
the updates fill the corner of the operand at the origin, one to one. So the replacing scatter is the update there
and the operand elsewhere. Stated for operands of rank two and of rank three. -/

section Pad2
variable {P0 P1 N0 N1 : Nat} {si : Shape} {w : Nat} {α : Type}
  (d : ScatterDims (⟨2, ![P0, P1]⟩ : Shape) si (⟨2, ![N0, N1]⟩ : Shape))

/-- An index of the smaller rectangle as the index of the larger one with the same coordinates. -/
def emb2 (h0 : N0 ≤ P0) (h1 : N1 ≤ P1) (j : (⟨2, ![N0, N1]⟩ : Shape).Idx) : (⟨2, ![P0, P1]⟩ : Shape).Idx :=
  ix2 ⟨(j 0).val, Nat.lt_of_lt_of_le (j 0).isLt h0⟩ ⟨(j 1).val, Nat.lt_of_lt_of_le (j 1).isLt h1⟩

theorem emb2_injective (h0 : N0 ≤ P0) (h1 : N1 ≤ P1) : Function.Injective (emb2 h0 h1) := fun j j' h => by
  rw [eq_ix2 j, eq_ix2 j']
  have e0 : ((emb2 h0 h1 j) 0).val = ((emb2 h0 h1 j') 0).val := by rw [h]
  have e1 : ((emb2 h0 h1 j) 1).val = ((emb2 h0 h1 j') 1).val := by rw [h]
  rw [Fin.ext (show (j 0).val = (j' 0).val from e0), Fin.ext (show (j 1).val = (j' 1).val from e1)]

theorem lands2 (h0 : N0 ≤ P0) (h1 : N1 ≤ P1) (idx : IVec si w) (hst : ∀ j a, d.start j idx a = 0)
    (hw0 : ∀ j, d.window j 0 = (j 0).val) (hw1 : ∀ j, d.window j 1 = (j 1).val) (j : (⟨2, ![N0, N1]⟩ : Shape).Idx) :
    d.resultIdx? j idx = some (emb2 h0 h1 j) := by
  refine resultIdx?_eq_some_of_coords d j idx _ fun a => ?_
  rw [hst j a]
  match a with
  | ⟨0, _⟩ =>
    show (0 : Int) + ((d.window j 0 : ℕ) : Int) = _
    rw [hw0, Int.zero_add]; rfl
  | ⟨1, _⟩ =>
    show (0 : Int) + ((d.window j 1 : ℕ) : Int) = _
    rw [hw1, Int.zero_add]; rfl

/-- THE PADDING SCATTER OF RANK TWO READ AT AN INDEX: the update inside its rectangle, the operand outside. -/
theorem scatter_set_pad2 (h0 : N0 ≤ P0) (h1 : N1 ≤ P1) (x : (⟨2, ![P0, P1]⟩ : Shape).Idx → α) (idx : IVec si w)
    (upd : (⟨2, ![N0, N1]⟩ : Shape).Idx → α) (hst : ∀ j a, d.start j idx a = 0)
    (hw0 : ∀ j, d.window j 0 = (j 0).val) (hw1 : ∀ j, d.window j 1 = (j 1).val) (i : (⟨2, ![P0, P1]⟩ : Shape).Idx) :
    Host.scatter d (fun _ b => b) x idx upd i
      = if h : (i 0).val < N0 ∧ (i 1).val < N1 then upd (ix2 ⟨(i 0).val, h.1⟩ ⟨(i 1).val, h.2⟩) else x i := by
  by_cases h : (i 0).val < N0 ∧ (i 1).val < N1
  · rw [dif_pos h]
    have hi : i = emb2 h0 h1 (ix2 ⟨(i 0).val, h.1⟩ ⟨(i 1).val, h.2⟩) := (eq_ix2 i).trans rfl
    exact (congrArg (Host.scatter d (fun _ b => b) x idx upd) hi).trans
      (scatter_set_apply_emb d x idx upd (emb2 h0 h1) (lands2 d h0 h1 idx hst hw0 hw1) (emb2_injective h0 h1) _)
  · rw [dif_neg h]
    exact scatter_apply_off_emb d _ x idx upd (emb2 h0 h1) (lands2 d h0 h1 idx hst hw0 hw1) i fun j hj =>
      h (by rw [← hj]; exact ⟨(j 0).isLt, (j 1).isLt⟩)

end Pad2

section Pad3
variable {P0 P1 P2 N0 N1 N2 : Nat} {si : Shape} {w : Nat} {α : Type}
  (d : ScatterDims (⟨3, ![P0, P1, P2]⟩ : Shape) si (⟨3, ![N0, N1, N2]⟩ : Shape))

/-- An index of the smaller box as the index of the larger one with the same coordinates. -/
def emb3 (h0 : N0 ≤ P0) (h1 : N1 ≤ P1) (h2 : N2 ≤ P2) (j : (⟨3, ![N0, N1, N2]⟩ : Shape).Idx) :
    (⟨3, ![P0, P1, P2]⟩ : Shape).Idx :=
  ix3 ⟨(j 0).val, Nat.lt_of_lt_of_le (j 0).isLt h0⟩ ⟨(j 1).val, Nat.lt_of_lt_of_le (j 1).isLt h1⟩
    ⟨(j 2).val, Nat.lt_of_lt_of_le (j 2).isLt h2⟩

theorem emb3_injective (h0 : N0 ≤ P0) (h1 : N1 ≤ P1) (h2 : N2 ≤ P2) : Function.Injective (emb3 h0 h1 h2) :=
  fun j j' h => by
  rw [eq_ix3 j, eq_ix3 j']
  have e0 : ((emb3 h0 h1 h2 j) 0).val = ((emb3 h0 h1 h2 j') 0).val := by rw [h]
  have e1 : ((emb3 h0 h1 h2 j) 1).val = ((emb3 h0 h1 h2 j') 1).val := by rw [h]
  have e2 : ((emb3 h0 h1 h2 j) 2).val = ((emb3 h0 h1 h2 j') 2).val := by rw [h]
  rw [Fin.ext (show (j 0).val = (j' 0).val from e0), Fin.ext (show (j 1).val = (j' 1).val from e1),
    Fin.ext (show (j 2).val = (j' 2).val from e2)]

theorem lands3 (h0 : N0 ≤ P0) (h1 : N1 ≤ P1) (h2 : N2 ≤ P2) (idx : IVec si w) (hst : ∀ j a, d.start j idx a = 0)
    (hw0 : ∀ j, d.window j 0 = (j 0).val) (hw1 : ∀ j, d.window j 1 = (j 1).val)
    (hw2 : ∀ j, d.window j 2 = (j 2).val) (j : (⟨3, ![N0, N1, N2]⟩ : Shape).Idx) :
    d.resultIdx? j idx = some (emb3 h0 h1 h2 j) := by
  refine resultIdx?_eq_some_of_coords d j idx _ fun a => ?_
  rw [hst j a]
  match a with
  | ⟨0, _⟩ =>
    show (0 : Int) + ((d.window j 0 : ℕ) : Int) = _
    rw [hw0, Int.zero_add]; rfl
  | ⟨1, _⟩ =>
    show (0 : Int) + ((d.window j 1 : ℕ) : Int) = _
    rw [hw1, Int.zero_add]; rfl
  | ⟨2, _⟩ =>
    show (0 : Int) + ((d.window j 2 : ℕ) : Int) = _
    rw [hw2, Int.zero_add]; rfl

/-- THE PADDING SCATTER OF RANK THREE READ AT AN INDEX: the update inside its box, the operand outside. -/
theorem scatter_set_pad3 (h0 : N0 ≤ P0) (h1 : N1 ≤ P1) (h2 : N2 ≤ P2) (x : (⟨3, ![P0, P1, P2]⟩ : Shape).Idx → α)
    (idx : IVec si w) (upd : (⟨3, ![N0, N1, N2]⟩ : Shape).Idx → α) (hst : ∀ j a, d.start j idx a = 0)
    (hw0 : ∀ j, d.window j 0 = (j 0).val) (hw1 : ∀ j, d.window j 1 = (j 1).val)
    (hw2 : ∀ j, d.window j 2 = (j 2).val) (i : (⟨3, ![P0, P1, P2]⟩ : Shape).Idx) :
    Host.scatter d (fun _ b => b) x idx upd i
      = if h : (i 0).val < N0 ∧ (i 1).val < N1 ∧ (i 2).val < N2 then
          upd (ix3 ⟨(i 0).val, h.1⟩ ⟨(i 1).val, h.2.1⟩ ⟨(i 2).val, h.2.2⟩)
        else x i := by
  by_cases h : (i 0).val < N0 ∧ (i 1).val < N1 ∧ (i 2).val < N2
  · rw [dif_pos h]
    have hi : i = emb3 h0 h1 h2 (ix3 ⟨(i 0).val, h.1⟩ ⟨(i 1).val, h.2.1⟩ ⟨(i 2).val, h.2.2⟩) := (eq_ix3 i).trans rfl
    exact (congrArg (Host.scatter d (fun _ b => b) x idx upd) hi).trans
      (scatter_set_apply_emb d x idx upd (emb3 h0 h1 h2) (lands3 d h0 h1 h2 idx hst hw0 hw1 hw2)
        (emb3_injective h0 h1 h2) _)
  · rw [dif_neg h]
    exact scatter_apply_off_emb d _ x idx upd (emb3 h0 h1 h2) (lands3 d h0 h1 h2 idx hst hw0 hw1 hw2) i fun j hj =>
      h (by rw [← hj]; exact ⟨(j 0).isLt, (j 1).isLt, (j 2).isLt⟩)

end Pad3

end Idealize.ShloMosaic.ScatterSet
-- ==== Proof.RStageId.lean ====
import proofs.«414947_j9895604650636_3_alg».proof.Proof.RefRead
import proofs.«414947_j9895604650636_3_alg».proof.Proof.Spec
import proofs.«414947_j9895604650636_3_alg».proof.Proof.LibGatherRows
import proofs.«414947_j9895604650636_3_alg».proof.Proof.LibScatterSet
import Mathlib.Algebra.BigOperators.Fin

/-
  THE REFERENCE'S FIRST TWO ARRAYS, INDEX BY INDEX.

  The reference first gathers, for every node, the row of the node-type table that the node's type word selects;
  this is the array enc0. It then builds the replacement rows of the identifier leaves: it gathers the identifier
  encodings' rows, gathers the node-type rows at the leaves' nodes (a gather FROM the first array), joins the two
  side by side into rows of 512 entries, and applies the affine map: a contraction over the 512 columns against the
  transposed weights, plus the bias broadcast over the rows. Read at one entry (r, d), the contraction over 512
  columns is the sum over the first 256 columns (where the joined row is the identifier encoding) plus the sum over
  the last 256 (where it is the node-type row), which is the replacement entry updId names.
-/

noncomputable section

namespace Cert.ReferenceIdeal.StageId

open Idealize.ShloMosaic Idealize.ShloMosaic.TcCoe Idealize.ShloMosaic.ValueIdx Idealize.SL.Sem
open Cert.ReferenceIdeal Cert.ReferenceIdeal.Gen Cert.ReferenceIdeal.ReadP Cert.NodeEmbed

/-! ## A gather of whole rows reads the row its start word is clamped to -/

/-- A gather of whole rows at (n, ch), once the start word at (n, 0) is known to be v: the operand at the row v is
    read as, and the same column. -/
theorem gather_readRow {α : Type} {P C N : Nat} (hP : 0 < P)
    (d : GatherDims (⟨2, ![P, C]⟩ : Shape) (⟨2, ![N, 1]⟩ : Shape) (⟨2, ![N, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![P, C]⟩ : Shape).Idx → α) (idx : IVec (⟨2, ![N, 1]⟩ : Shape) 32) (n : Fin N) (ch : Fin C)
    (v : BitVec 32) (hv : idx (ix2 n (0 : Fin 1)) = v) :
    Host.gather d x idx (ix2 n ch) = x (ix2 (readRow P hP v) ch) := by
  subst hv
  exact GatherRows.gather_rows_apply hP d hod hcs hob hsb hsm hiv hss x idx n ch

/-! ## The three start-index arrays at (row, 0): the index word, wrapped -/

/-- The start indices of the node-type gather: node p's type word, a negative one with 120 added. -/
theorem v5_at (x10 : (⟨S500000, .i32⟩ : BufTy).Contents (Elt Ideal)) (p : Fin 500000) :
    val_main_v5 (F := Ideal) x10 (ix2 p (0 : Fin 1)) = wrap 120#32 (x10 (ix1 p)) := by
  have hj : idx_main_v5 (ix2 p (0 : Fin 1)) = ix1 p := by
    funext a; match a with | ⟨0, _⟩ => rfl
  rw [val_main_v5_apply, hj, val_main_v4_apply, val_main_v1_apply, val_main_v3_apply, val_main_v0_apply,
    val_main_v2_apply, val_main_c_apply, val_main_c_0_apply]
  rfl

/-- The start indices of the identifier-encoding gather: leaf r's identifier word, a negative one with 50000 added. -/
theorem v12_at (x11 : (⟨S150000, .i32⟩ : BufTy).Contents (Elt Ideal)) (r : Fin 150000) :
    val_main_v12 (F := Ideal) x11 (ix2 r (0 : Fin 1)) = wrap 50000#32 (x11 (ix1 r)) := by
  have hj : idx_main_v12 (ix2 r (0 : Fin 1)) = ix1 r := by
    funext a; match a with | ⟨0, _⟩ => rfl
  rw [val_main_v12_apply, hj, val_main_v11_apply, val_main_v8_apply, val_main_v10_apply, val_main_v7_apply,
    val_main_v9_apply, val_main_c_1_apply, val_main_c_2_apply]
  rfl

/-- The start indices of the gather from the first array: leaf r's node word, a negative one with 500000 added. -/
theorem v19_at (x12 : (⟨S150000, .i32⟩ : BufTy).Contents (Elt Ideal)) (r : Fin 150000) :
    val_main_v19 (F := Ideal) x12 (ix2 r (0 : Fin 1)) = wrap 500000#32 (x12 (ix1 r)) := by
  have hj : idx_main_v19 (ix2 r (0 : Fin 1)) = ix1 r := by
    funext a; match a with | ⟨0, _⟩ => rfl
  rw [val_main_v19_apply, hj, val_main_v18_apply, val_main_v15_apply, val_main_v17_apply, val_main_v14_apply,
    val_main_v16_apply, val_main_c_3_apply, val_main_c_4_apply]
  rfl

/-! ## The first array -/

/-- The first array at (p, k): entry k of node p's node-type row. -/
theorem enc_at (x1 : (⟨S120x256, .f32⟩ : BufTy).Contents (Elt Ideal)) (x10 : (⟨S500000, .i32⟩ : BufTy).Contents (Elt Ideal))
    (p : Fin 500000) (k : Fin 256) :
    val_main_v6 (F := Ideal) x1 x10 (ix2 p k) = typeRow x1 x10 p k := by
  unfold val_main_v6
  exact gather_readRow (by decide) gather_S120x256_S500000x1_S500000x256_1_0_n_n_0_1_1256 rfl rfl rfl rfl rfl rfl rfl
    x1 (val_main_v5 (F := Ideal) x10) p k _ (v5_at x10 p)

/-- The reference's first array, every node's node-type row. -/
theorem enc_eq (x1 : (⟨S120x256, .f32⟩ : BufTy).Contents (Elt Ideal)) (x10 : (⟨S500000, .i32⟩ : BufTy).Contents (Elt Ideal)) :
    val_main_v6 (F := Ideal) x1 x10 = enc0 x1 x10 := by
  funext i
  obtain ⟨p, k, rfl⟩ : ∃ p k, i = ix2 p k := ⟨_, _, eq_ix2 i⟩
  exact enc_at x1 x10 p k

/-! ## The two gathered halves of a joined row -/

/-- The identifier-encoding gather at (r, k): entry k of the encoding row that leaf r's identifier word reads. -/
theorem v13_at (x0 : (⟨S50000x256, .f32⟩ : BufTy).Contents (Elt Ideal)) (x11 : (⟨S150000, .i32⟩ : BufTy).Contents (Elt Ideal))
    (r : Fin 150000) (k : Fin 256) :
    val_main_v13 (F := Ideal) x0 x11 (ix2 r k)
      = x0 (ix2 (readRow 50000 (by decide) (wrap 50000#32 (x11 (ix1 r)))) k) := by
  unfold val_main_v13
  exact gather_readRow (by decide) gather_S50000x256_S150000x1_S150000x256_1_0_n_n_0_1_1256 rfl rfl rfl rfl rfl rfl rfl
    x0 (val_main_v12 (F := Ideal) x11) r k _ (v12_at x11 r)

/-- The gather from the first array at (r, k): entry k of the node-type row of the node that leaf r's node word
    reads. -/
theorem v20_at (x1 : (⟨S120x256, .f32⟩ : BufTy).Contents (Elt Ideal)) (x10 : (⟨S500000, .i32⟩ : BufTy).Contents (Elt Ideal))
    (x12 : (⟨S150000, .i32⟩ : BufTy).Contents (Elt Ideal)) (r : Fin 150000) (k : Fin 256) :
    val_main_v20 (F := Ideal) x1 x10 x12 (ix2 r k) = typeRow x1 x10 (nodeRead (x12 (ix1 r))) k := by
  unfold val_main_v20
  rw [gather_readRow (by decide) gather_S500000x256_S150000x1_S150000x256_1_0_n_n_0_1_1256 rfl rfl rfl rfl rfl rfl rfl
    (val_main_v6 (F := Ideal) x1 x10) (val_main_v19 (F := Ideal) x12) r k _ (v19_at x12 r)]
  exact enc_at x1 x10 _ k

/-! ## The joined row: its first 256 columns are the encoding, its last 256 the node-type row -/

/-- On a column below 256 the joined row reads the identifier-encoding gather at that column. -/
theorem cat_left (x0 : (⟨S50000x256, .f32⟩ : BufTy).Contents (Elt Ideal)) (x1 : (⟨S120x256, .f32⟩ : BufTy).Contents (Elt Ideal))
    (x10 : (⟨S500000, .i32⟩ : BufTy).Contents (Elt Ideal)) (x11 x12 : (⟨S150000, .i32⟩ : BufTy).Contents (Elt Ideal))
    (r : Fin 150000) (d : Fin 256) (k : Fin 256) :
    val_main_v21 (F := Ideal) x0 x1 x10 x11 x12 (lidx_main_v23 (ix2 r d) ⟨k.val, by omega⟩)
      = val_main_v13 (F := Ideal) x0 x11 (ix2 r k) := by
  unfold val_main_v21
  exact concatenate_pair_apply_left (1 : Fin S150000x512.rank) _ _ concatenates_S150000x256_S150000x256_S150000x512_d1 _ rfl
    (ix2 r k) (fun b => match b with | ⟨0, _⟩ => rfl | ⟨1, _⟩ => rfl)

/-- On column 256 + k the joined row reads the gather from the first array at column k. -/
theorem cat_right (x0 : (⟨S50000x256, .f32⟩ : BufTy).Contents (Elt Ideal)) (x1 : (⟨S120x256, .f32⟩ : BufTy).Contents (Elt Ideal))
    (x10 : (⟨S500000, .i32⟩ : BufTy).Contents (Elt Ideal)) (x11 x12 : (⟨S150000, .i32⟩ : BufTy).Contents (Elt Ideal))
    (r : Fin 150000) (d : Fin 256) (k : Fin 256) :
    val_main_v21 (F := Ideal) x0 x1 x10 x11 x12 (lidx_main_v23 (ix2 r d) ⟨256 + k.val, by omega⟩)
      = val_main_v20 (F := Ideal) x1 x10 x12 (ix2 r k) := by
  unfold val_main_v21
  exact concatenate_pair_apply_right (1 : Fin S150000x512.rank) _ _ concatenates_S150000x256_S150000x256_S150000x512_d1 _ rfl rfl
    (ix2 r k) (fun b hb => match b, hb with | ⟨0, _⟩, _ => rfl | ⟨1, _⟩, hb => absurd rfl hb)
    (by show k.val + 256 = 256 + k.val; omega)

/-! ## The transposed weights and the broadcast bias -/

/-- The transposed weights at the contraction's right index: W at (d, k). -/
theorem w_at (x4 : (⟨S256x512, .f32⟩ : BufTy).Contents (Elt Ideal)) (r : Fin 150000) (d : Fin 256) (k : Fin 512) :
    val_main_v22 (F := Ideal) x4 (ridx_main_v23 (ix2 r d) k) = x4 (ix2 d k) := by
  have h : idx_main_v22 (ridx_main_v23 (ix2 r d) k) = ix2 d k := by
    funext a; match a with | ⟨0, _⟩ => rfl | ⟨1, _⟩ => rfl
  rw [val_main_v22_apply, h]

/-- The bias broadcast over the rows, at (r, d): entry d of the bias. -/
theorem bias_at (x5 : (⟨S256, .f32⟩ : BufTy).Contents (Elt Ideal)) (r : Fin 150000) (d : Fin 256) :
    val_main_v25 (F := Ideal) x5 (ix2 r d) = x5 (ix1 d) := by
  have h : idx_main_v24 (idx_main_v25 (ix2 r d)) = ix1 d := by
    funext a; match a with | ⟨0, _⟩ => rfl
  rw [val_main_v25_apply, val_main_v24_apply, h]

/-! ## The replacement rows -/

/-- A sum over 512 columns is the sum over the first 256 plus the sum over the last 256. -/
theorem sum_512 (f : Fin 512 → EReal) :
    ∑ k : Fin 512, f k = (∑ k : Fin 256, f ⟨k.val, by omega⟩) + ∑ k : Fin 256, f ⟨256 + k.val, by omega⟩ :=
  Fin.sum_univ_add (M := EReal) (a := 256) (b := 256) f

/-- The replacement rows at (r, d). -/
theorem upd_at (x0 : (⟨S50000x256, .f32⟩ : BufTy).Contents (Elt Ideal)) (x1 : (⟨S120x256, .f32⟩ : BufTy).Contents (Elt Ideal)) (x4 : (⟨S256x512, .f32⟩ : BufTy).Contents (Elt Ideal)) (x5 : (⟨S256, .f32⟩ : BufTy).Contents (Elt Ideal))
    (x10 : (⟨S500000, .i32⟩ : BufTy).Contents (Elt Ideal)) (x11 x12 : (⟨S150000, .i32⟩ : BufTy).Contents (Elt Ideal))
    (r : Fin 150000) (d : Fin 256) :
    val_main_v26 (F := Ideal) x0 x1 x4 x5 x10 x11 x12 (ix2 r d) = updId x0 x1 x4 x5 x10 x11 x12 (ix2 r d) := by
  rw [val_main_v26_apply, val_main_v23_apply, bias_at, sum_512]
  simp only [cat_left, cat_right, w_at, v13_at, v20_at]
  rfl

/-- The reference's replacement rows of the identifier leaves. -/
theorem upd_eq (x0 : (⟨S50000x256, .f32⟩ : BufTy).Contents (Elt Ideal)) (x1 : (⟨S120x256, .f32⟩ : BufTy).Contents (Elt Ideal)) (x4 : (⟨S256x512, .f32⟩ : BufTy).Contents (Elt Ideal)) (x5 : (⟨S256, .f32⟩ : BufTy).Contents (Elt Ideal))
    (x10 : (⟨S500000, .i32⟩ : BufTy).Contents (Elt Ideal)) (x11 x12 : (⟨S150000, .i32⟩ : BufTy).Contents (Elt Ideal)) :
    val_main_v26 (F := Ideal) x0 x1 x4 x5 x10 x11 x12 = updId x0 x1 x4 x5 x10 x11 x12 := by
  funext i
  obtain ⟨r, d, rfl⟩ : ∃ r d, i = ix2 r d := ⟨_, _, eq_ix2 i⟩
  exact upd_at x0 x1 x4 x5 x10 x11 x12 r d

end Cert.ReferenceIdeal.StageId

end
-- ==== Proof.LibScatterRows.lean ====
/-
  WHERE THE HOST'S SCATTER OF WHOLE ROWS LANDS: operand [P, C], scatter indices [N, 1] with the index vector on
  axis 1, updates [N, C]; update window axes [1], inserted window axes [0], scatter-dims-to-operand-dims [0]. The
  update index (n, ch) has, on operand axis 0, the start idx[n, 0] read signed and window coordinate 0, and on operand
  axis 1 start 0 and window coordinate ch. So it lands at row idx[n, 0] and column ch when that row is in [0, P), and
  nowhere otherwise. In particular an update index that lands at an operand index i has a start word whose signed
  reading is i's row. The extents and the index width are variables; the dimension numbers are known only through the
  equations on their lists.
-/
import Idealize.ShloMosaic.PureOps.ShapeOps
import Idealize.ShloMosaic.PureOps.Dims
import Idealize.ShloMosaic.Lib.ValueIdx

namespace Idealize.ShloMosaic.ScatterRows

open Idealize.ShloMosaic Idealize.ShloMosaic.ValueIdx

/-! ## A list with one entry -/

/-- Every entry of a list that equals a one-entry list is that entry. -/
theorem getElem_singleton_of_eq {α : Type} {l : List α} {a : α} (h : l = [a]) (k : Nat) (hk : k < l.length) :
    l[k] = a := by
  subst h
  have hk0 : k = 0 := by simpa using hk
  subst hk0
  rfl

/-! ## The general scatter: the scatter-indices index of an update index, axis by axis -/

section General
variable {s si u : Shape} (d : ScatterDims s si u)

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_singleton_of_eq ha _ _)

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_singleton_of_eq hb _ _)

/-- On an inserted operand axis the window coordinate is zero. -/
theorem window_of_not_mem (j : u.Idx) (a : Fin s.rank) (ha : a ∉ d.sKept) : d.window j a = 0 := by
  unfold ScatterDims.window
  rw [dif_neg ha]

end General

/-! ## Operand [P, C], scatter indices [N, 1], updates [N, C] -/

section Rows
variable {P C N w : Nat}
  (d : ScatterDims (⟨2, ![P, C]⟩ : Shape) (⟨2, ![N, 1]⟩ : Shape) (⟨2, ![N, C]⟩ : Shape))

/-- On operand axis 0 the start of the update index (n, ch) is the scatter index word idx[n, 0] read signed. -/
theorem start_zero (hs : d.scatterDimsToOperandDims = [0]) (hu : d.updateWindowDims = [1]) (hiv : d.indexVectorDim = 1)
    (idx : IVec (⟨2, ![N, 1]⟩ : Shape) w) (n : Fin N) (ch : Fin C) :
    d.start (ix2 n ch) idx 0 = (idx (ix2 n (0 : Fin 1))).toInt := by
  have h0mem : (0 : Fin 2) ∈ d.scatterDimsToOperandDims := by rw [hs]; exact List.mem_singleton.2 rfl
  have hus : d.uScatter = [0] := by
    show Shape.kept _ d.updateWindowDims = [0]
    rw [hu]; rfl
  have hsi : ∀ c : Fin d.scatterDimsToOperandDims.length, d.siIdx (ix2 n ch) c = ix2 n (0 : Fin 1) := by
    intro c
    funext b
    refine Fin.ext ?_
    match b with
    | ⟨0, hb⟩ =>
      rw [siIdx_val_of_ne d (ix2 n ch) c ⟨0, hb⟩ (by rw [hiv]; exact Nat.zero_ne_one) 0 hus]
      rfl
    | ⟨1, hb⟩ =>
      have h1 : (d.siIdx (ix2 n ch) c ⟨1, hb⟩).val < 1 := (d.siIdx (ix2 n ch) c ⟨1, hb⟩).isLt
      show (d.siIdx (ix2 n ch) c ⟨1, hb⟩).val = 0
      omega
  unfold ScatterDims.start
  rw [dif_pos h0mem, hsi]

/-- On operand axis 1 every start is zero. -/
theorem start_one (hs : d.scatterDimsToOperandDims = [0]) (idx : IVec (⟨2, ![N, 1]⟩ : Shape) w)
    (j : (⟨2, ![N, C]⟩ : Shape).Idx) : d.start j idx 1 = 0 := by
  have h10 : ¬ (1 : Fin 2) = 0 := fun h => absurd (congrArg Fin.val h) Nat.one_ne_zero
  have h1nmem : (1 : Fin 2) ∉ d.scatterDimsToOperandDims := by rw [hs]; exact fun h => h10 (List.mem_singleton.1 h)
  unfold ScatterDims.start
  rw [dif_neg h1nmem]

/-- Operand axis 0 is inserted: the window coordinate there is zero. -/
theorem window_zero (hi : d.insertedWindowDims = [0]) (j : (⟨2, ![N, C]⟩ : Shape).Idx) : d.window j 0 = 0 := by
  refine window_of_not_mem d j 0 fun h => ?_
  have hk : d.sKept = [1] := by
    show Shape.kept _ d.insertedWindowDims = [1]
    rw [hi]; rfl
  rw [hk] at h
  exact absurd (congrArg Fin.val (List.mem_singleton.1 h)) Nat.zero_ne_one

/-- Operand axis 1 is the one kept axis: the window coordinate there is the update index's column. -/
theorem window_one (hi : d.insertedWindowDims = [0]) (hu : d.updateWindowDims = [1])
    (j : (⟨2, ![N, C]⟩ : Shape).Idx) : d.window j 1 = (j 1).val := by
  have hk : d.sKept = [1] := by
    show Shape.kept _ d.insertedWindowDims = [1]
    rw [hi]; rfl
  exact window_of_singleton d j 1 (by rw [hk]; exact List.mem_singleton.2 rfl) 1 hu

/-- THE ROW AN UPDATE LANDS AT: if the update index (n, ch) lands at the operand index i, the scatter index word
    idx[n, 0], read signed, is i's row (so it is in [0, P)), and i's column is ch. -/
theorem row_of_landed (hu : d.updateWindowDims = [1]) (hi : d.insertedWindowDims = [0])
    (hs : d.scatterDimsToOperandDims = [0]) (hiv : d.indexVectorDim = 1)
    (idx : IVec (⟨2, ![N, 1]⟩ : Shape) w) (n : Fin N) (ch : Fin C) (i : (⟨2, ![P, C]⟩ : Shape).Idx)
    (h : d.resultIdx? (ix2 n ch) idx = some i) :
    (idx (ix2 n (0 : Fin 1))).toInt = ((i 0).val : Int) ∧ (i 1).val = ch.val := by
  unfold ScatterDims.resultIdx? at h
  split at h
  · rename_i hin
    have hi' := Option.some.inj h
    have h0 := hin 0
    have e0 : (i 0).val = (d.start (ix2 n ch) idx 0 + (d.window (ix2 n ch) 0 : Int)).toNat := by rw [← hi']
    have e1 : (i 1).val = (d.start (ix2 n ch) idx 1 + (d.window (ix2 n ch) 1 : Int)).toNat := by rw [← hi']
    rw [start_zero d hs hu hiv, window_zero d hi] at e0 h0
    rw [start_one d hs, window_one d hi hu] at e1
    refine ⟨?_, ?_⟩
    · omega
    · rw [e1]; show ((0 : Int) + (ch.val : Int)).toNat = ch.val; omega
  · exact absurd h (by simp)

/-- THE UPDATE THAT LANDS: when the scatter index word idx[n, 0], read signed, is the row p, the update index (n, ch)
    lands at (p, ch). -/
theorem landed_of_row (hu : d.updateWindowDims = [1]) (hi : d.insertedWindowDims = [0])
    (hs : d.scatterDimsToOperandDims = [0]) (hiv : d.indexVectorDim = 1)
    (idx : IVec (⟨2, ![N, 1]⟩ : Shape) w) (n : Fin N) (ch : Fin C) (p : Fin P)
    (h : (idx (ix2 n (0 : Fin 1))).toInt = (p.val : Int)) :
    d.resultIdx? (ix2 n ch) idx = some (ix2 p ch) := by
  unfold ScatterDims.resultIdx?
  have hin : ∀ a, 0 ≤ d.start (ix2 n ch) idx a + (d.window (ix2 n ch) a : Int)
      ∧ d.start (ix2 n ch) idx a + (d.window (ix2 n ch) a : Int) < ((⟨2, ![P, C]⟩ : Shape).size a : Int) := by
    intro a
    match a with
    | ⟨0, _⟩ =>
      show 0 ≤ d.start (ix2 n ch) idx 0 + (d.window (ix2 n ch) 0 : Int)
        ∧ d.start (ix2 n ch) idx 0 + (d.window (ix2 n ch) 0 : Int) < (P : Int)
      rw [start_zero d hs hu hiv, window_zero d hi, h]
      have := p.isLt
      omega
    | ⟨1, _⟩ =>
      show 0 ≤ d.start (ix2 n ch) idx 1 + (d.window (ix2 n ch) 1 : Int)
        ∧ d.start (ix2 n ch) idx 1 + (d.window (ix2 n ch) 1 : Int) < (C : Int)
      rw [start_one d hs, window_one d hi hu]
      have : ((ix2 n ch : (⟨2, ![N, C]⟩ : Shape).Idx) 1).val = ch.val := rfl
      rw [this]
      have := ch.isLt
      omega
  rw [dif_pos hin]
  refine congrArg some (funext fun a => Fin.ext ?_)
  match a with
  | ⟨0, _⟩ =>
    show (d.start (ix2 n ch) idx 0 + (d.window (ix2 n ch) 0 : Int)).toNat = p.val
    rw [start_zero d hs hu hiv, window_zero d hi, h]
    omega
  | ⟨1, _⟩ =>
    show (d.start (ix2 n ch) idx 1 + (d.window (ix2 n ch) 1 : Int)).toNat = ch.val
    rw [start_one d hs, window_one d hi hu]
    show ((0 : Int) + (ch.val : Int)).toNat = ch.val
    omega

/-- NO UPDATE LANDS ON A ROW NO START WORD NAMES: if no scatter index word, read signed, is the row p, no update index
    lands at (p, c). -/
theorem missed_of_rows (hu : d.updateWindowDims = [1]) (hi : d.insertedWindowDims = [0])
    (hs : d.scatterDimsToOperandDims = [0]) (hiv : d.indexVectorDim = 1)
    (idx : IVec (⟨2, ![N, 1]⟩ : Shape) w) (p : Fin P) (c : Fin C)
    (h : ∀ n : Fin N, (idx (ix2 n (0 : Fin 1))).toInt ≠ (p.val : Int)) (j : (⟨2, ![N, C]⟩ : Shape).Idx) :
    d.resultIdx? j idx ≠ some (ix2 p c) := by
  intro hj
  rw [eq_ix2 j] at hj
  exact h _ (row_of_landed d hu hi hs hiv idx _ _ _ hj).1

end Rows

end Idealize.ShloMosaic.ScatterRows
-- ==== Proof.RStageSmall.lean ====
/-
  THE REFERENCE'S REPLACEMENT ROWS OF THE PRIMITIVE-TYPE LEAVES AND OF THE MODULE LEAVES, INDEX BY INDEX.

  Each of the two stages gathers a row of a 16-row table, gathers back the row its leaf addresses from the array as
  it stands after the earlier groups' rows have been written, joins the two along the columns, and applies the
  affine map: entry (r, d) is the sum over the 320 joined columns of the joined row against row d of the weight,
  plus the bias at d. The sum splits into the first 64 columns (the table's row) and the remaining 256 (the row read
  back). The row read back is addressed by a node-index word of a LATER group, which no EARLIER group's word writes:
  every scatter before it leaves that row alone, so it is still the node-type row of its node. That makes each entry
  the "new part + original part + bias" of the vocabulary.
-/
import proofs.«414947_j9895604650636_3_alg».proof.Proof.RefRead
import proofs.«414947_j9895604650636_3_alg».proof.Proof.Spec
import proofs.«414947_j9895604650636_3_alg».proof.Proof.LibGatherRows
import proofs.«414947_j9895604650636_3_alg».proof.Proof.LibScatterSet
import proofs.«414947_j9895604650636_3_alg».proof.Proof.LibScatterRows
import Mathlib.Algebra.BigOperators.Fin

noncomputable section

namespace Cert.ReferenceIdeal.StageSmall

open Idealize.ShloMosaic Idealize.ShloMosaic.TcCoe Idealize.ShloMosaic.ValueIdx Idealize.SL.Sem
open Cert.ReferenceIdeal Cert.ReferenceIdeal.Gen Cert.ReferenceIdeal.ReadP Cert.NodeEmbed

/-! ## Arithmetic -/

/-- A sum over 320 columns is the sum over the first 64 plus the sum over the remaining 256. -/
theorem sum_fin320 (f : Fin 320 → EReal) :
    ∑ k : Fin 320, f k = (∑ k : Fin 64, f ⟨k.val, by omega⟩) + ∑ k : Fin 256, f ⟨64 + k.val, by omega⟩ :=
  Fin.sum_univ_add (a := 64) (b := 256) f

/-- A node-index word whose wrapped form reads, signed, as the node p is written at p. -/
theorem nodeWrite_of_toInt (v : BitVec 32) (p : Fin 500000) (h : (wrap 500000#32 v).toInt = (p.val : Int)) :
    nodeWrite v = some p := by
  have hc : 0 ≤ (wrap 500000#32 v).toInt ∧ (wrap 500000#32 v).toInt < ((500000 : Nat) : Int) :=
    ⟨by omega, by have := p.isLt; omega⟩
  unfold nodeWrite writeRow
  rw [dif_pos hc]
  exact congrArg some (Fin.ext (by show (wrap 500000#32 v).toInt.toNat = p.val; omega))

section Stages

variable (x0 : (⟨S50000x256, .f32⟩ : BufTy).Contents (Elt Ideal)) (x1 : (⟨S120x256, .f32⟩ : BufTy).Contents (Elt Ideal))
  (x2 x3 : (⟨S16x64, .f32⟩ : BufTy).Contents (Elt Ideal)) (x4 : (⟨S256x512, .f32⟩ : BufTy).Contents (Elt Ideal))
  (x5 : (⟨S256, .f32⟩ : BufTy).Contents (Elt Ideal)) (x6 : (⟨S256x320, .f32⟩ : BufTy).Contents (Elt Ideal))
  (x7 : (⟨S256, .f32⟩ : BufTy).Contents (Elt Ideal)) (x8 : (⟨S256x320, .f32⟩ : BufTy).Contents (Elt Ideal))
  (x9 : (⟨S256, .f32⟩ : BufTy).Contents (Elt Ideal)) (x10 : (⟨S500000, .i32⟩ : BufTy).Contents (Elt Ideal))
  (x11 x12 : (⟨S150000, .i32⟩ : BufTy).Contents (Elt Ideal)) (x13 x14 : (⟨S60000, .i32⟩ : BufTy).Contents (Elt Ideal))
  (x15 x16 : (⟨S30000, .i32⟩ : BufTy).Contents (Elt Ideal))

/-! ## The start words: each index operand, at row r, is the wrapped word of its argument -/

theorem word5 (p : Fin 500000) : val_main_v5 (F := Ideal) x10 (ix2 p (0 : Fin 1)) = wrap 120#32 (x10 (ix1 p)) := by
  rw [val_main_v5_apply, val_main_v4_apply, val_main_v1_apply, val_main_v3_apply, val_main_v0_apply,
    val_main_v2_apply]
  have hi : idx_main_v5 (ix2 p (0 : Fin 1)) = ix1 p := funext fun a => match a with | ⟨0, _⟩ => rfl
  rw [hi]
  rfl

theorem word32 (n : Fin 150000) : val_main_v32 (F := Ideal) x12 (ix2 n (0 : Fin 1)) = wrap 500000#32 (x12 (ix1 n)) := by
  rw [val_main_v32_apply, val_main_v31_apply, val_main_v28_apply, val_main_v30_apply, val_main_v27_apply,
    val_main_v29_apply]
  have hi : idx_main_v32 (ix2 n (0 : Fin 1)) = ix1 n := funext fun a => match a with | ⟨0, _⟩ => rfl
  rw [hi]
  rfl

theorem word39 (r : Fin 60000) : val_main_v39 (F := Ideal) x13 (ix2 r (0 : Fin 1)) = wrap 16#32 (x13 (ix1 r)) := by
  rw [val_main_v39_apply, val_main_v38_apply, val_main_v35_apply, val_main_v37_apply, val_main_v34_apply,
    val_main_v36_apply]
  have hi : idx_main_v39 (ix2 r (0 : Fin 1)) = ix1 r := funext fun a => match a with | ⟨0, _⟩ => rfl
  rw [hi]
  rfl

theorem word46 (r : Fin 60000) : val_main_v46 (F := Ideal) x14 (ix2 r (0 : Fin 1)) = wrap 500000#32 (x14 (ix1 r)) := by
  rw [val_main_v46_apply, val_main_v45_apply, val_main_v42_apply, val_main_v44_apply, val_main_v41_apply,
    val_main_v43_apply]
  have hi : idx_main_v46 (ix2 r (0 : Fin 1)) = ix1 r := funext fun a => match a with | ⟨0, _⟩ => rfl
  rw [hi]
  rfl

theorem word59 (r : Fin 60000) : val_main_v59 (F := Ideal) x14 (ix2 r (0 : Fin 1)) = wrap 500000#32 (x14 (ix1 r)) := by
  rw [val_main_v59_apply, val_main_v58_apply, val_main_v55_apply, val_main_v57_apply, val_main_v54_apply,
    val_main_v56_apply]
  have hi : idx_main_v59 (ix2 r (0 : Fin 1)) = ix1 r := funext fun a => match a with | ⟨0, _⟩ => rfl
  rw [hi]
  rfl

theorem word66 (r : Fin 30000) : val_main_v66 (F := Ideal) x15 (ix2 r (0 : Fin 1)) = wrap 16#32 (x15 (ix1 r)) := by
  rw [val_main_v66_apply, val_main_v65_apply, val_main_v62_apply, val_main_v64_apply, val_main_v61_apply,
    val_main_v63_apply]
  have hi : idx_main_v66 (ix2 r (0 : Fin 1)) = ix1 r := funext fun a => match a with | ⟨0, _⟩ => rfl
  rw [hi]
  rfl

theorem word73 (r : Fin 30000) : val_main_v73 (F := Ideal) x16 (ix2 r (0 : Fin 1)) = wrap 500000#32 (x16 (ix1 r)) := by
  rw [val_main_v73_apply, val_main_v72_apply, val_main_v69_apply, val_main_v71_apply, val_main_v68_apply,
    val_main_v70_apply]
  have hi : idx_main_v73 (ix2 r (0 : Fin 1)) = ix1 r := funext fun a => match a with | ⟨0, _⟩ => rfl
  rw [hi]
  rfl

/-! ## The first array at an index -/

/-- The first array at (p, k) is the node-type row of p at k. -/
theorem v6_at (p : Fin 500000) (k : Fin 256) : val_main_v6 (F := Ideal) x1 x10 (ix2 p k) = typeRow x1 x10 p k := by
  unfold val_main_v6
  rw [GatherRows.gather_rows_apply (by decide) gather_S120x256_S500000x1_S500000x256_1_0_n_n_0_1_1256 rfl rfl rfl rfl rfl rfl
    rfl]
  exact congrArg (fun q => x1 (ix2 q k))
    (Fin.ext (congrArg (fun v : BitVec 32 => min v.toInt.toNat (120 - 1)) (word5 x10 p)))

/-! ## The scatters off the rows they write -/

/-- After the identifier leaves' rows are written, a row that no identifier leaf writes still holds its
    node-type row. -/
theorem v33_missed (p : Fin 500000) (k : Fin 256) (h : ∀ j : Fin 150000, nodeWrite (x12 (ix1 j)) ≠ some p) :
    val_main_v33 (F := Ideal) x0 x1 x4 x5 x10 x11 x12 (ix2 p k) = typeRow x1 x10 p k := by
  unfold val_main_v33
  refine (ScatterSet.scatter_apply_of_missed scatter_S500000x256_S150000x1_S150000x256_1_0_0_1 _ _ _ _ (ix2 p k)
    (ScatterRows.missed_of_rows scatter_S500000x256_S150000x1_S150000x256_1_0_0_1 rfl rfl rfl rfl _ p k
      fun n hn => h n ?_)).trans (v6_at x1 x10 p k)
  rw [word32] at hn
  exact nodeWrite_of_toInt _ p hn

/-- After the primitive-type leaves' rows are written too, a row that no primitive-type leaf writes holds what it
    held before. -/
theorem v60_missed (p : Fin 500000) (k : Fin 256) (h : ∀ j : Fin 60000, nodeWrite (x14 (ix1 j)) ≠ some p) :
    val_main_v60 (F := Ideal) x0 x1 x2 x4 x5 x6 x7 x10 x11 x12 x13 x14 (ix2 p k)
      = val_main_v33 (F := Ideal) x0 x1 x4 x5 x10 x11 x12 (ix2 p k) := by
  unfold val_main_v60
  refine ScatterSet.scatter_apply_of_missed scatter_S500000x256_S60000x1_S60000x256_1_0_0_1 _ _ _ _ (ix2 p k)
    (ScatterRows.missed_of_rows scatter_S500000x256_S60000x1_S60000x256_1_0_0_1 rfl rfl rfl rfl _ p k
      fun n hn => h n ?_)
  rw [word59] at hn
  exact nodeWrite_of_toInt _ p hn

/-! ## The primitive-type leaves -/

/-- The small table's row the stage reads for leaf r. -/
theorem v40_at (r : Fin 60000) (k : Fin 64) :
    val_main_v40 (F := Ideal) x2 x13 (ix2 r k) = x2 (ix2 (readRow 16 (by decide) (wrap 16#32 (x13 (ix1 r)))) k) := by
  unfold val_main_v40
  rw [GatherRows.gather_rows_apply (by decide) gather_S16x64_S60000x1_S60000x64_1_0_n_n_0_1_164 rfl rfl rfl rfl rfl rfl rfl]
  exact congrArg (fun q => x2 (ix2 q k))
    (Fin.ext (congrArg (fun v : BitVec 32 => min v.toInt.toNat (16 - 1)) (word39 x13 r)))

/-- The row read back for leaf r is row nodeRead of the array after the first scatter. -/
theorem v47_at (r : Fin 60000) (k : Fin 256) :
    val_main_v47 (F := Ideal) x0 x1 x4 x5 x10 x11 x12 x14 (ix2 r k)
      = val_main_v33 (F := Ideal) x0 x1 x4 x5 x10 x11 x12 (ix2 (nodeRead (x14 (ix1 r))) k) := by
  unfold val_main_v47
  rw [GatherRows.gather_rows_apply (by decide) gather_S500000x256_S60000x1_S60000x256_1_0_n_n_0_1_1256 rfl rfl rfl rfl rfl rfl
    rfl]
  exact congrArg (fun q => val_main_v33 (F := Ideal) x0 x1 x4 x5 x10 x11 x12 (ix2 q k))
    (Fin.ext (congrArg (fun v : BitVec 32 => min v.toInt.toNat (500000 - 1)) (word46 x14 r)))

/-- On the first 64 columns the concatenation is the small table's row. -/
theorem v48_left (r : Fin 60000) (d : Fin 256) (k : Fin 64) :
    val_main_v48 (F := Ideal) x0 x1 x2 x4 x5 x10 x11 x12 x13 x14 (lidx_main_v50 (ix2 r d) ⟨k.val, by omega⟩)
      = val_main_v40 (F := Ideal) x2 x13 (ix2 r k) := by
  unfold val_main_v48
  exact concatenate_pair_apply_left (t := S60000x320) (s₁ := S60000x64) (s₂ := S60000x256) 1 _ _ _ _ rfl (ix2 r k)
    fun b => match b with | ⟨0, _⟩ => rfl | ⟨1, _⟩ => rfl

/-- On the remaining 256 columns the concatenation is the row read back. -/
theorem v48_right (r : Fin 60000) (d : Fin 256) (k : Fin 256) :
    val_main_v48 (F := Ideal) x0 x1 x2 x4 x5 x10 x11 x12 x13 x14 (lidx_main_v50 (ix2 r d) ⟨64 + k.val, by omega⟩)
      = val_main_v47 (F := Ideal) x0 x1 x4 x5 x10 x11 x12 x14 (ix2 r k) := by
  unfold val_main_v48
  exact concatenate_pair_apply_right (t := S60000x320) (s₁ := S60000x64) (s₂ := S60000x256) 1 _ _ _ _ rfl rfl (ix2 r k)
    (fun b => match b with | ⟨0, _⟩ => fun _ => rfl | ⟨1, _⟩ => fun hb => absurd rfl hb)
    (by show k.val + 64 = 64 + k.val; omega)

/-- The transposed weight at (k, d) is the weight at (d, k). -/
theorem v49_at (r : Fin 60000) (d : Fin 256) (k : Fin 320) :
    val_main_v49 (F := Ideal) x6 (ridx_main_v50 (ix2 r d) k) = x6 (ix2 d k) := by
  rw [val_main_v49_apply]
  exact congrArg x6 (funext fun a => match a with | ⟨0, _⟩ => rfl | ⟨1, _⟩ => rfl)

/-- The broadcast bias at (r, d) is the bias at d. -/
theorem v52_at (r : Fin 60000) (d : Fin 256) : val_main_v52 (F := Ideal) x7 (ix2 r d) = x7 (ix1 d) := by
  rw [val_main_v52_apply, val_main_v51_apply]
  exact congrArg x7 (funext fun a => match a with | ⟨0, _⟩ => rfl)

/-- One replacement entry of the primitive-type leaves. -/
theorem prim_entry (hap : ∀ (j : Fin 150000) (r : Fin 60000), nodeWrite (x12 (ix1 j)) ≠ some (nodeRead (x14 (ix1 r))))
    (r : Fin 60000) (d : Fin 256) :
    val_main_v53 (F := Ideal) x0 x1 x2 x4 x5 x6 x7 x10 x11 x12 x13 x14 (ix2 r d)
      = updSmall (M := 60000) x2 x1 x6 x7 x10 x13 x14 (ix2 r d) := by
  rw [val_main_v53_apply, val_main_v50_apply, sum_fin320, v52_at]
  have hnew : ∀ k : Fin 64,
      val_main_v48 (F := Ideal) x0 x1 x2 x4 x5 x10 x11 x12 x13 x14 (lidx_main_v50 (ix2 r d) ⟨k.val, by omega⟩)
          * val_main_v49 (F := Ideal) x6 (ridx_main_v50 (ix2 r d) ⟨k.val, by omega⟩)
        = x2 (ix2 (readRow 16 (by decide) (wrap 16#32 (x13 (ix1 r)))) k) * x6 (ix2 d ⟨k.val, by omega⟩) := fun k => by
    rw [v48_left, v40_at, v49_at]
  have horig : ∀ k : Fin 256,
      val_main_v48 (F := Ideal) x0 x1 x2 x4 x5 x10 x11 x12 x13 x14 (lidx_main_v50 (ix2 r d) ⟨64 + k.val, by omega⟩)
          * val_main_v49 (F := Ideal) x6 (ridx_main_v50 (ix2 r d) ⟨64 + k.val, by omega⟩)
        = typeRow x1 x10 (nodeRead (x14 (ix1 r))) k * x6 (ix2 d ⟨64 + k.val, by omega⟩) := fun k => by
    rw [v48_right, v47_at, v33_missed x0 x1 x4 x5 x10 x11 x12 _ k fun j => hap j r, v49_at]
  rw [Finset.sum_congr rfl fun k _ => hnew k, Finset.sum_congr rfl fun k _ => horig k]
  rfl

/-! ## The module leaves -/

/-- The small table's row the stage reads for leaf r. -/
theorem v67_at (r : Fin 30000) (k : Fin 64) :
    val_main_v67 (F := Ideal) x3 x15 (ix2 r k) = x3 (ix2 (readRow 16 (by decide) (wrap 16#32 (x15 (ix1 r)))) k) := by
  unfold val_main_v67
  rw [GatherRows.gather_rows_apply (by decide) gather_S16x64_S30000x1_S30000x64_1_0_n_n_0_1_164 rfl rfl rfl rfl rfl rfl rfl]
  exact congrArg (fun q => x3 (ix2 q k))
    (Fin.ext (congrArg (fun v : BitVec 32 => min v.toInt.toNat (16 - 1)) (word66 x15 r)))

/-- The row read back for leaf r is row nodeRead of the array after the second scatter. -/
theorem v74_at (r : Fin 30000) (k : Fin 256) :
    val_main_v74 (F := Ideal) x0 x1 x2 x4 x5 x6 x7 x10 x11 x12 x13 x14 x16 (ix2 r k)
      = val_main_v60 (F := Ideal) x0 x1 x2 x4 x5 x6 x7 x10 x11 x12 x13 x14 (ix2 (nodeRead (x16 (ix1 r))) k) := by
  unfold val_main_v74
  rw [GatherRows.gather_rows_apply (by decide) gather_S500000x256_S30000x1_S30000x256_1_0_n_n_0_1_1256 rfl rfl rfl rfl rfl rfl
    rfl]
  exact congrArg (fun q => val_main_v60 (F := Ideal) x0 x1 x2 x4 x5 x6 x7 x10 x11 x12 x13 x14 (ix2 q k))
    (Fin.ext (congrArg (fun v : BitVec 32 => min v.toInt.toNat (500000 - 1)) (word73 x16 r)))

/-- On the first 64 columns the concatenation is the small table's row. -/
theorem v75_left (r : Fin 30000) (d : Fin 256) (k : Fin 64) :
    val_main_v75 (F := Ideal) x0 x1 x2 x3 x4 x5 x6 x7 x10 x11 x12 x13 x14 x15 x16
        (lidx_main_v77 (ix2 r d) ⟨k.val, by omega⟩)
      = val_main_v67 (F := Ideal) x3 x15 (ix2 r k) := by
  unfold val_main_v75
  exact concatenate_pair_apply_left (t := S30000x320) (s₁ := S30000x64) (s₂ := S30000x256) 1 _ _ _ _ rfl (ix2 r k)
    fun b => match b with | ⟨0, _⟩ => rfl | ⟨1, _⟩ => rfl

/-- On the remaining 256 columns the concatenation is the row read back. -/
theorem v75_right (r : Fin 30000) (d : Fin 256) (k : Fin 256) :
    val_main_v75 (F := Ideal) x0 x1 x2 x3 x4 x5 x6 x7 x10 x11 x12 x13 x14 x15 x16
        (lidx_main_v77 (ix2 r d) ⟨64 + k.val, by omega⟩)
      = val_main_v74 (F := Ideal) x0 x1 x2 x4 x5 x6 x7 x10 x11 x12 x13 x14 x16 (ix2 r k) := by
  unfold val_main_v75
  exact concatenate_pair_apply_right (t := S30000x320) (s₁ := S30000x64) (s₂ := S30000x256) 1 _ _ _ _ rfl rfl (ix2 r k)
    (fun b => match b with | ⟨0, _⟩ => fun _ => rfl | ⟨1, _⟩ => fun hb => absurd rfl hb)
    (by show k.val + 64 = 64 + k.val; omega)

/-- The transposed weight at (k, d) is the weight at (d, k). -/
theorem v76_at (r : Fin 30000) (d : Fin 256) (k : Fin 320) :
    val_main_v76 (F := Ideal) x8 (ridx_main_v77 (ix2 r d) k) = x8 (ix2 d k) := by
  rw [val_main_v76_apply]
  exact congrArg x8 (funext fun a => match a with | ⟨0, _⟩ => rfl | ⟨1, _⟩ => rfl)

/-- The broadcast bias at (r, d) is the bias at d. -/
theorem v79_at (r : Fin 30000) (d : Fin 256) : val_main_v79 (F := Ideal) x9 (ix2 r d) = x9 (ix1 d) := by
  rw [val_main_v79_apply, val_main_v78_apply]
  exact congrArg x9 (funext fun a => match a with | ⟨0, _⟩ => rfl)

/-- One replacement entry of the module leaves. -/
theorem mod_entry (hap1 : ∀ (j : Fin 150000) (r : Fin 30000), nodeWrite (x12 (ix1 j)) ≠ some (nodeRead (x16 (ix1 r))))
    (hap2 : ∀ (j : Fin 60000) (r : Fin 30000), nodeWrite (x14 (ix1 j)) ≠ some (nodeRead (x16 (ix1 r))))
    (r : Fin 30000) (d : Fin 256) :
    val_main_v80 (F := Ideal) x0 x1 x2 x3 x4 x5 x6 x7 x8 x9 x10 x11 x12 x13 x14 x15 x16 (ix2 r d)
      = updSmall (M := 30000) x3 x1 x8 x9 x10 x15 x16 (ix2 r d) := by
  rw [val_main_v80_apply, val_main_v77_apply, sum_fin320, v79_at]
  have hnew : ∀ k : Fin 64,
      val_main_v75 (F := Ideal) x0 x1 x2 x3 x4 x5 x6 x7 x10 x11 x12 x13 x14 x15 x16
            (lidx_main_v77 (ix2 r d) ⟨k.val, by omega⟩)
          * val_main_v76 (F := Ideal) x8 (ridx_main_v77 (ix2 r d) ⟨k.val, by omega⟩)
        = x3 (ix2 (readRow 16 (by decide) (wrap 16#32 (x15 (ix1 r)))) k) * x8 (ix2 d ⟨k.val, by omega⟩) := fun k => by
    rw [v75_left, v67_at, v76_at]
  have horig : ∀ k : Fin 256,
      val_main_v75 (F := Ideal) x0 x1 x2 x3 x4 x5 x6 x7 x10 x11 x12 x13 x14 x15 x16
            (lidx_main_v77 (ix2 r d) ⟨64 + k.val, by omega⟩)
          * val_main_v76 (F := Ideal) x8 (ridx_main_v77 (ix2 r d) ⟨64 + k.val, by omega⟩)
        = typeRow x1 x10 (nodeRead (x16 (ix1 r))) k * x8 (ix2 d ⟨64 + k.val, by omega⟩) := fun k => by
    rw [v75_right, v74_at, v60_missed x0 x1 x2 x4 x5 x6 x7 x10 x11 x12 x13 x14 _ k fun j => hap2 j r,
      v33_missed x0 x1 x4 x5 x10 x11 x12 _ k fun j => hap1 j r, v76_at]
  rw [Finset.sum_congr rfl fun k _ => hnew k, Finset.sum_congr rfl fun k _ => horig k]
  rfl

end Stages

/-- The reference's replacement rows of the primitive-type leaves: the row it reads back is still the node-type
    row, because no identifier leaf writes it. -/
theorem updPrim_eq (x0 : (⟨S50000x256, .f32⟩ : BufTy).Contents (Elt Ideal)) (x1 : (⟨S120x256, .f32⟩ : BufTy).Contents (Elt Ideal)) (x2 : (⟨S16x64, .f32⟩ : BufTy).Contents (Elt Ideal)) (x4 : (⟨S256x512, .f32⟩ : BufTy).Contents (Elt Ideal)) (x5 : (⟨S256, .f32⟩ : BufTy).Contents (Elt Ideal))
    (x6 : (⟨S256x320, .f32⟩ : BufTy).Contents (Elt Ideal)) (x7 : (⟨S256, .f32⟩ : BufTy).Contents (Elt Ideal)) (x10 : (⟨S500000, .i32⟩ : BufTy).Contents (Elt Ideal)) (x11 x12 : (⟨S150000, .i32⟩ : BufTy).Contents (Elt Ideal)) (x13 x14 : (⟨S60000, .i32⟩ : BufTy).Contents (Elt Ideal))
    (hap : ∀ (j : Fin 150000) (r : Fin 60000), nodeWrite (x12 (ix1 j)) ≠ some (nodeRead (x14 (ix1 r)))) :
    val_main_v53 (F := Ideal) x0 x1 x2 x4 x5 x6 x7 x10 x11 x12 x13 x14 = updSmall (M := 60000) x2 x1 x6 x7 x10 x13 x14 := by
  funext i
  obtain ⟨r, d, rfl⟩ : ∃ (r : Fin 60000) (d : Fin 256), i = ix2 r d := ⟨_, _, eq_ix2 i⟩
  exact prim_entry x0 x1 x2 x4 x5 x6 x7 x10 x11 x12 x13 x14 hap r d

/-- The reference's replacement rows of the module leaves: neither an identifier leaf nor a primitive-type leaf
    writes the row it reads back. -/
theorem updMod_eq (x0 : (⟨S50000x256, .f32⟩ : BufTy).Contents (Elt Ideal)) (x1 : (⟨S120x256, .f32⟩ : BufTy).Contents (Elt Ideal)) (x2 x3 : (⟨S16x64, .f32⟩ : BufTy).Contents (Elt Ideal)) (x4 : (⟨S256x512, .f32⟩ : BufTy).Contents (Elt Ideal)) (x5 : (⟨S256, .f32⟩ : BufTy).Contents (Elt Ideal))
    (x6 : (⟨S256x320, .f32⟩ : BufTy).Contents (Elt Ideal)) (x7 : (⟨S256, .f32⟩ : BufTy).Contents (Elt Ideal)) (x8 : (⟨S256x320, .f32⟩ : BufTy).Contents (Elt Ideal)) (x9 : (⟨S256, .f32⟩ : BufTy).Contents (Elt Ideal)) (x10 : (⟨S500000, .i32⟩ : BufTy).Contents (Elt Ideal)) (x11 x12 : (⟨S150000, .i32⟩ : BufTy).Contents (Elt Ideal))
    (x13 x14 : (⟨S60000, .i32⟩ : BufTy).Contents (Elt Ideal)) (x15 x16 : (⟨S30000, .i32⟩ : BufTy).Contents (Elt Ideal))
    (hap1 : ∀ (j : Fin 150000) (r : Fin 30000), nodeWrite (x12 (ix1 j)) ≠ some (nodeRead (x16 (ix1 r))))
    (hap2 : ∀ (j : Fin 60000) (r : Fin 30000), nodeWrite (x14 (ix1 j)) ≠ some (nodeRead (x16 (ix1 r)))) :
    val_main_v80 (F := Ideal) x0 x1 x2 x3 x4 x5 x6 x7 x8 x9 x10 x11 x12 x13 x14 x15 x16 = updSmall (M := 30000) x3 x1 x8 x9 x10 x15 x16 := by
  funext i
  obtain ⟨r, d, rfl⟩ : ∃ (r : Fin 30000) (d : Fin 256), i = ix2 r d := ⟨_, _, eq_ix2 i⟩
  exact mod_entry x0 x1 x2 x3 x4 x5 x6 x7 x8 x9 x10 x11 x12 x13 x14 x15 x16 hap1 hap2 r d

end Cert.ReferenceIdeal.StageSmall

end
-- ==== Proof.RValue.lean ====
/-
  THE REFERENCE PROGRAM'S RESULT AS THE SAME NESTED SCATTERS.

  On the domain each stage of the reference is the array the vocabulary names: the rows it reads back before the
  second and third replacement are still node-type rows, because the groups write disjoint rows.
-/
import proofs.«414947_j9895604650636_3_alg».proof.Proof.RStageId
import proofs.«414947_j9895604650636_3_alg».proof.Proof.RStageSmall

noncomputable section

namespace Cert.ReferenceIdeal.Result

open Idealize.ShloMosaic Idealize.ShloMosaic.TcCoe Idealize.ShloMosaic.ValueIdx Idealize.SL.Sem
open Cert.ReferenceIdeal Cert.ReferenceIdeal.Gen Cert.ReferenceIdeal.ReadP Cert.NodeEmbed

/-- On the domain the reference's result is the node-type rows with the three groups of replacement rows scattered
    in, one after the other. -/
theorem ref_result (x0 : (⟨S50000x256, .f32⟩ : BufTy).Contents (Elt Ideal)) (x1 : (⟨S120x256, .f32⟩ : BufTy).Contents (Elt Ideal)) (x2 x3 : (⟨S16x64, .f32⟩ : BufTy).Contents (Elt Ideal)) (x4 : (⟨S256x512, .f32⟩ : BufTy).Contents (Elt Ideal)) (x5 : (⟨S256, .f32⟩ : BufTy).Contents (Elt Ideal)) (x6 : (⟨S256x320, .f32⟩ : BufTy).Contents (Elt Ideal)) (x7 : (⟨S256, .f32⟩ : BufTy).Contents (Elt Ideal)) (x8 : (⟨S256x320, .f32⟩ : BufTy).Contents (Elt Ideal)) (x9 : (⟨S256, .f32⟩ : BufTy).Contents (Elt Ideal)) (x10 : (⟨S500000, .i32⟩ : BufTy).Contents (Elt Ideal)) (x11 x12 : (⟨S150000, .i32⟩ : BufTy).Contents (Elt Ideal)) (x13 x14 : (⟨S60000, .i32⟩ : BufTy).Contents (Elt Ideal)) (x15 x16 : (⟨S30000, .i32⟩ : BufTy).Contents (Elt Ideal))
    (dom : Domain x10 x12 x13 x14 x15 x16) :
    val_main_v87 (F := Ideal) x0 x1 x2 x3 x4 x5 x6 x7 x8 x9 x10 x11 x12 x13 x14 x15 x16
      = Host.scatter scatter_S500000x256_S30000x1_S30000x256_1_0_0_1 (fun _ b => b)
    (Host.scatter scatter_S500000x256_S60000x1_S60000x256_1_0_0_1 (fun _ b => b)
      (Host.scatter scatter_S500000x256_S150000x1_S150000x256_1_0_0_1 (fun _ b => b) (enc0 x1 x10) (val_main_v32 (F := Ideal) x12) (updId x0 x1 x4 x5 x10 x11 x12))
      (val_main_v59 (F := Ideal) x14) (updSmall (M := 60000) x2 x1 x6 x7 x10 x13 x14))
    (val_main_v86 (F := Ideal) x16) (updSmall (M := 30000) x3 x1 x8 x9 x10 x15 x16) := by
  unfold val_main_v87 val_main_v60 val_main_v33
  rw [StageSmall.updMod_eq x0 x1 x2 x3 x4 x5 x6 x7 x8 x9 x10 x11 x12 x13 x14 x15 x16 dom.id_mod dom.prim_mod,
    StageSmall.updPrim_eq x0 x1 x2 x4 x5 x6 x7 x10 x11 x12 x13 x14 dom.id_prim,
    StageId.upd_eq x0 x1 x4 x5 x10 x11 x12, StageId.enc_eq x1 x10]

end Cert.ReferenceIdeal.Result

end
-- ==== Proof.LibSsa.lean ====
/-
  General lemmas about a straight line of host operations in static single assignment: every operation writes one
  buffer of its own, and no buffer is written twice. In such a line the contents a buffer holds at the end are decided
  where it is written: the operation's function applied to what its operands hold AT THE END, since nothing after an
  operand's own writer writes it again. One equation per operation, each about the fold of the whole line, none
  mentioning the rest of the line.
-/
import Idealize.ShloMosaic.Lib.StableHlo.Run

namespace Idealize.ShloMosaic.StableHlo

open Idealize.ShloMosaic Idealize.SL.Sem

variable {τ : Topo} {sig : RefSig} {Val : EltTy → Type}

/-- The line's operations write, one each and in order, exactly the references of the list `W`: the `k`-th operation
    writes the `k`-th reference and nothing else. -/
def WritesAre (ops : List (HloOp τ sig Val)) (W : List (Ref sig .tc)) : Prop :=
  List.Forall₂ (fun op w => op.writes = {(Proc.devRef .tc w : DevRef τ sig)}) ops W

/-- The fold over two lines one after the other is the second line's fold from where the first ends. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- What remains of the line after its first `j` operations writes what remains of the list. -/
theorem WritesAre.drop {ops : List (HloOp τ sig Val)} {W : List (Ref sig .tc)} (hW : WritesAre ops W) (j : ℕ) :
    WritesAre (ops.drop j) (W.drop j) := by
  unfold WritesAre at hW ⊢
  induction hW generalizing j with
  | nil => simp only [List.drop_nil]; exact List.Forall₂.nil
  | cons h t ih =>
    cases j with
    | zero => exact List.Forall₂.cons h t
    | succ j => simpa only [List.drop_succ_cons] using ih j

/-- A reference the line never writes holds at the end what it held at the start. -/
theorem after_keep {ops : List (HloOp τ sig Val)} {W : List (Ref sig .tc)} (hW : WritesAre ops W)
    (F0 : Valuation τ sig Val) {r : Ref sig .tc} (hr : r ∉ W) :
    after ops F0 (Proc.devRef .tc r) = F0 (Proc.devRef .tc r) := by
  unfold WritesAre at hW
  induction hW generalizing F0 with
  | nil => rfl
  | cons h _ ih =>
    rw [after_cons, ih _ fun hm => hr (List.mem_cons_of_mem _ hm), HloOp.result_of_not_mem]
    rw [h, Finset.mem_singleton]
    exact fun e => hr (Proc.devRef_injective _ e ▸ List.mem_cons_self)

/-- A reference no operation from the `k`-th on writes holds at the end what it held after the first `k` operations. -/
theorem after_eq_take {ops : List (HloOp τ sig Val)} {W : List (Ref sig .tc)} (hW : WritesAre ops W)
    (F0 : Valuation τ sig Val) (k : ℕ) {r : Ref sig .tc} (hr : r ∉ W.drop k) :
    after ops F0 (Proc.devRef .tc r) = after (ops.take k) F0 (Proc.devRef .tc r) := by
  conv_lhs => rw [← List.take_append_drop k ops, after_append]
  exact after_keep (hW.drop k) _ hr

/-- The reference the `k`-th operation writes, written by none after it, holds at the end that operation's result over
    what the first `k` operations leave. -/
theorem after_eq_result {ops : List (HloOp τ sig Val)} {W : List (Ref sig .tc)} (hW : WritesAre ops W)
    (F0 : Valuation τ sig Val) (k : ℕ) {op : HloOp τ sig Val} (hk : ops[k]? = some op) {y : Ref sig .tc}
    (hy' : y ∉ W.drop (k + 1)) :
    after ops F0 (Proc.devRef .tc y) = op.result (after (ops.take k) F0) (Proc.devRef .tc y) := by
  obtain ⟨hlt, rfl⟩ := List.getElem?_eq_some_iff.mp hk
  conv_lhs => rw [← List.take_append_drop k ops, after_append, List.drop_eq_getElem_cons hlt, after_cons]
  exact after_keep (hW.drop (k + 1)) _ hy'

/-- A constant: written by the `k`-th operation and by none after it, the reference ends at the constant. -/
theorem ssa_nullary {ops : List (HloOp τ sig Val)} {W : List (Ref sig .tc)} (hW : WritesAre ops W)
    (F0 : Valuation τ sig Val) (k : ℕ) {y : Ref sig .tc} {v : y.ty.Contents Val} {hy}
    (hk : ops[k]? = some (nullary y v hy)) (hy' : y ∉ W.drop (k + 1)) :
    after ops F0 (Proc.devRef .tc y) = v := by
  rw [after_eq_result hW F0 k hk hy']
  exact nullary_result y v hy _

/-- One operand: the result, written by the `k`-th operation and by none after it, ends at the function of what the
    operand ends at, the operand being written by no operation from the `k`-th on. -/
theorem ssa_unary {ops : List (HloOp τ sig Val)} {W : List (Ref sig .tc)} (hW : WritesAre ops W)
    (F0 : Valuation τ sig Val) (k : ℕ) {x y : Ref sig .tc} {f : x.ty.Contents Val → y.ty.Contents Val} {hx hy}
    (hk : ops[k]? = some (unary x y f hx hy)) (hx' : x ∉ W.drop k) (hy' : y ∉ W.drop (k + 1)) :
    after ops F0 (Proc.devRef .tc y) = f (after ops F0 (Proc.devRef .tc x)) := by
  rw [after_eq_result hW F0 k hk hy', after_eq_take hW F0 k hx']
  exact unary_result x y f hx hy _

/-- Two operands: as `ssa_unary`, both operands written by no operation from the `k`-th on. -/
theorem ssa_binary {ops : List (HloOp τ sig Val)} {W : List (Ref sig .tc)} (hW : WritesAre ops W)
    (F0 : Valuation τ sig Val) (k : ℕ) {a b y : Ref sig .tc}
    {f : a.ty.Contents Val → b.ty.Contents Val → y.ty.Contents Val} {ha hb hy}
    (hk : ops[k]? = some (binary a b y f ha hb hy)) (ha' : a ∉ W.drop k) (hb' : b ∉ W.drop k)
    (hy' : y ∉ W.drop (k + 1)) :
    after ops F0 (Proc.devRef .tc y) = f (after ops F0 (Proc.devRef .tc a)) (after ops F0 (Proc.devRef .tc b)) := by
  rw [after_eq_result hW F0 k hk hy', after_eq_take hW F0 k ha', after_eq_take hW F0 k hb']
  exact binary_result a b y f ha hb hy _

/-- Three operands: as `ssa_unary`, the three operands written by no operation from the `k`-th on. -/
theorem ssa_ternary {ops : List (HloOp τ sig Val)} {W : List (Ref sig .tc)} (hW : WritesAre ops W)
    (F0 : Valuation τ sig Val) (k : ℕ) {c a b y : Ref sig .tc}
    {f : c.ty.Contents Val → a.ty.Contents Val → b.ty.Contents Val → y.ty.Contents Val} {hc ha hb hy}
    (hk : ops[k]? = some (ternary c a b y f hc ha hb hy)) (hc' : c ∉ W.drop k) (ha' : a ∉ W.drop k)
    (hb' : b ∉ W.drop k) (hy' : y ∉ W.drop (k + 1)) :
    after ops F0 (Proc.devRef .tc y)
      = f (after ops F0 (Proc.devRef .tc c)) (after ops F0 (Proc.devRef .tc a)) (after ops F0 (Proc.devRef .tc b)) := by
  rw [after_eq_result hW F0 k hk hy', after_eq_take hW F0 k hc', after_eq_take hW F0 k ha', after_eq_take hW F0 k hb']
  exact ternary_result c a b y f hc ha hb hy _

/-- A reshape: the result ends at the operand's final contents, read in row-major order at the result's shape. -/
theorem ssa_reshape {ops : List (HloOp τ sig Val)} {W : List (Ref sig .tc)} (hW : WritesAre ops W)
    (F0 : Valuation τ sig Val) (k : ℕ) {x y : Ref sig .tc} {he : x.ty.elt = y.ty.elt}
    {hn : x.ty.shape.ShapeCasts y.ty.shape} {hx hy}
    (hk : ops[k]? = some (reshape x y he hn hx hy)) (hx' : x ∉ W.drop k) (hy' : y ∉ W.drop (k + 1)) :
    after ops F0 (Proc.devRef .tc y)
      = fun i => he ▸ shapeCast y.ty.shape (after ops F0 (Proc.devRef .tc x)) hn i := by
  rw [after_eq_result hW F0 k hk hy', after_eq_take hW F0 k hx']
  exact reshape_result x y he hn hx hy _

/-- A family of operands: the result ends at the function of the family of what the operands end at, every operand
    written by no operation from the `k`-th on. -/
theorem ssa_nary {n : ℕ} {ops : List (HloOp τ sig Val)} {W : List (Ref sig .tc)} (hW : WritesAre ops W)
    (F0 : Valuation τ sig Val) (k : ℕ) {xs : Fin n → Ref sig .tc} {y : Ref sig .tc}
    {f : ((j : Fin n) → (xs j).ty.Contents Val) → y.ty.Contents Val} {hxs hy}
    (hk : ops[k]? = some (nary xs y f hxs hy)) (hxs' : ∀ j, xs j ∉ W.drop k) (hy' : y ∉ W.drop (k + 1)) :
    after ops F0 (Proc.devRef .tc y) = f (fun j => after ops F0 (Proc.devRef .tc (xs j))) := by
  have hops : (fun j => after ops F0 (Proc.devRef .tc (xs j)))
      = fun j => after (ops.take k) F0 (Proc.devRef .tc (xs j)) :=
    funext fun j => after_eq_take hW F0 k (hxs' j)
  rw [after_eq_result hW F0 k hk hy', hops]
  exact nary_result xs y f hxs hy _

section Test

/- A line of three operations over any four distinct references: a constant into `a`, a function of `x` into `y`, a
   function of `y` and `a` into `z`. The stage equations, in program order, give `z`'s final contents in terms of
   what `x` held at the start. -/
example {x a y z : Ref sig .tc} (hxa : x ≠ a) (hxy : x ≠ y) (hxz : x ≠ z) (hay : a ≠ y) (haz : a ≠ z) (hyz : y ≠ z)
    (v : a.ty.Contents Val) (f : x.ty.Contents Val → y.ty.Contents Val)
    (g : y.ty.Contents Val → a.ty.Contents Val → z.ty.Contents Val) (hx ha hy hz) (F0 : Valuation τ sig Val) :
    after [nullary (τ := τ) a v ha, unary x y f hx hy, binary y a z g hy ha hz] F0 (Proc.devRef .tc z)
      = g (f (F0 (Proc.devRef .tc x))) v := by
  have hW : WritesAre [nullary (τ := τ) a v ha, unary x y f hx hy, binary y a z g hy ha hz] [a, y, z] :=
    .cons rfl (.cons rfl (.cons rfl .nil))
  have e0 := after_keep hW F0 (r := x) (by simp [hxa, hxy, hxz])
  have e1 := ssa_nullary hW F0 0 rfl (by simp [hay, haz])
  have e2 := ssa_unary hW F0 1 rfl (by simp [hxy, hxz]) (by simp [hyz])
  have e3 := ssa_binary hW F0 2 rfl (by simp [hyz]) (by simp [haz]) (by simp)
  rw [e3, e2, e1, e0]

end Test

end Idealize.ShloMosaic.StableHlo
-- ==== Proof.RStages.lean ====
import proofs.«414947_j9895604650636_3_alg».proof.Proof.RefRead
import proofs.«414947_j9895604650636_3_alg».proof.Proof.LibSsa

set_option maxRecDepth 16384

noncomputable section

namespace Cert.ReferenceIdeal.Stages

open Idealize.ShloMosaic Idealize.ShloMosaic.TcCoe Idealize.ShloMosaic.StableHlo Idealize.SL.Sem
open Cert.ReferenceIdeal Cert.ReferenceIdeal.Gen Cert.ReferenceIdeal.ValueP Cert.ReferenceIdeal.ReadP

variable {F : FTy → Type} [FloatOps F] (V : Valuation τ sig (Elt F))

/-- The buffers the operations write, one each, in program order. -/
abbrev written : List (Ref sig .tc) :=
  [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_v21, main_v22, main_v23, main_v24, main_v25, main_v26, main_c_5, main_v27, main_v28, main_c_6, main_v29, main_v30, main_v31, main_v32, main_v33, main_c_7, main_v34, main_v35, main_c_8, main_v36, main_v37, main_v38, main_v39, main_v40, main_c_9, main_v41, main_v42, main_c_10, main_v43, main_v44, main_v45, main_v46, main_v47, main_v48, main_v49, main_v50, main_v51, main_v52, main_v53, main_c_11, main_v54, main_v55, main_c_12, main_v56, main_v57, main_v58, main_v59, main_v60, main_c_13, main_v61, main_v62, main_c_14, main_v63, main_v64, main_v65, main_v66, main_v67, main_c_15, main_v68, main_v69, main_c_16, main_v70, main_v71, main_v72, main_v73, main_v74, main_v75, main_v76, main_v77, main_v78, main_v79, main_v80, main_c_17, main_v81, main_v82, main_c_18, main_v83, main_v84, main_v85, main_v86, main_v87]

/-- The k-th operation writes the k-th buffer of that list and nothing else: the program is in single assignment. -/
theorem writes : WritesAre (ops (F := F)) written :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))

/-! ## The argument buffers keep their contents: no operation writes one -/

theorem keep_main_arg0 : after (ops (F := F)) V (Proc.devRef .tc main_arg0) = V (Proc.devRef .tc main_arg0) :=
  after_keep writes V (by decide)
theorem keep_main_arg1 : after (ops (F := F)) V (Proc.devRef .tc main_arg1) = V (Proc.devRef .tc main_arg1) :=
  after_keep writes V (by decide)
theorem keep_main_arg2 : after (ops (F := F)) V (Proc.devRef .tc main_arg2) = V (Proc.devRef .tc main_arg2) :=
  after_keep writes V (by decide)
theorem keep_main_arg3 : after (ops (F := F)) V (Proc.devRef .tc main_arg3) = V (Proc.devRef .tc main_arg3) :=
  after_keep writes V (by decide)
theorem keep_main_arg4 : after (ops (F := F)) V (Proc.devRef .tc main_arg4) = V (Proc.devRef .tc main_arg4) :=
  after_keep writes V (by decide)
theorem keep_main_arg5 : after (ops (F := F)) V (Proc.devRef .tc main_arg5) = V (Proc.devRef .tc main_arg5) :=
  after_keep writes V (by decide)
theorem keep_main_arg6 : after (ops (F := F)) V (Proc.devRef .tc main_arg6) = V (Proc.devRef .tc main_arg6) :=
  after_keep writes V (by decide)
theorem keep_main_arg7 : after (ops (F := F)) V (Proc.devRef .tc main_arg7) = V (Proc.devRef .tc main_arg7) :=
  after_keep writes V (by decide)
theorem keep_main_arg8 : after (ops (F := F)) V (Proc.devRef .tc main_arg8) = V (Proc.devRef .tc main_arg8) :=
  after_keep writes V (by decide)
theorem keep_main_arg9 : after (ops (F := F)) V (Proc.devRef .tc main_arg9) = V (Proc.devRef .tc main_arg9) :=
  after_keep writes V (by decide)
theorem keep_main_arg10 : after (ops (F := F)) V (Proc.devRef .tc main_arg10) = V (Proc.devRef .tc main_arg10) :=
  after_keep writes V (by decide)
theorem keep_main_arg11 : after (ops (F := F)) V (Proc.devRef .tc main_arg11) = V (Proc.devRef .tc main_arg11) :=
  after_keep writes V (by decide)
theorem keep_main_arg12 : after (ops (F := F)) V (Proc.devRef .tc main_arg12) = V (Proc.devRef .tc main_arg12) :=
  after_keep writes V (by decide)
theorem keep_main_arg13 : after (ops (F := F)) V (Proc.devRef .tc main_arg13) = V (Proc.devRef .tc main_arg13) :=
  after_keep writes V (by decide)
theorem keep_main_arg14 : after (ops (F := F)) V (Proc.devRef .tc main_arg14) = V (Proc.devRef .tc main_arg14) :=
  after_keep writes V (by decide)
theorem keep_main_arg15 : after (ops (F := F)) V (Proc.devRef .tc main_arg15) = V (Proc.devRef .tc main_arg15) :=
  after_keep writes V (by decide)
theorem keep_main_arg16 : after (ops (F := F)) V (Proc.devRef .tc main_arg16) = V (Proc.devRef .tc main_arg16) :=
  after_keep writes V (by decide)

/-! ## One equation per operation, in program order -/

theorem at_main_c : after (ops (F := F)) V (Proc.devRef .tc main_c) = val_main_c (F := F) :=
  ssa_nullary writes V 0 rfl (by decide)
theorem at_main_v0 : after (ops (F := F)) V (Proc.devRef .tc main_v0) = val_main_v0 (F := F) :=
  (ssa_unary writes V 1 rfl (by decide) (by decide)).trans (by rw [at_main_c V]; rfl)
theorem at_main_v1 : after (ops (F := F)) V (Proc.devRef .tc main_v1) = val_main_v1 (F := F) (V (Proc.devRef .tc main_arg10)) :=
  (ssa_binary writes V 2 rfl (by decide) (by decide) (by decide)).trans (by rw [keep_main_arg10 V, at_main_v0 V]; rfl)
theorem at_main_c_0 : after (ops (F := F)) V (Proc.devRef .tc main_c_0) = val_main_c_0 (F := F) :=
  ssa_nullary writes V 3 rfl (by decide)
theorem at_main_v2 : after (ops (F := F)) V (Proc.devRef .tc main_v2) = val_main_v2 (F := F) :=
  (ssa_unary writes V 4 rfl (by decide) (by decide)).trans (by rw [at_main_c_0 V]; rfl)
theorem at_main_v3 : after (ops (F := F)) V (Proc.devRef .tc main_v3) = val_main_v3 (F := F) (V (Proc.devRef .tc main_arg10)) :=
  (ssa_binary writes V 5 rfl (by decide) (by decide) (by decide)).trans (by rw [keep_main_arg10 V, at_main_v2 V]; rfl)
theorem at_main_v4 : after (ops (F := F)) V (Proc.devRef .tc main_v4) = val_main_v4 (F := F) (V (Proc.devRef .tc main_arg10)) :=
  (ssa_ternary writes V 6 rfl (by decide) (by decide) (by decide) (by decide)).trans (by rw [at_main_v1 V, at_main_v3 V, keep_main_arg10 V]; rfl)
theorem at_main_v5 : after (ops (F := F)) V (Proc.devRef .tc main_v5) = val_main_v5 (F := F) (V (Proc.devRef .tc main_arg10)) :=
  (ssa_unary writes V 7 rfl (by decide) (by decide)).trans (by rw [at_main_v4 V]; rfl)
theorem at_main_v6 : after (ops (F := F)) V (Proc.devRef .tc main_v6) = val_main_v6 (F := F) (V (Proc.devRef .tc main_arg1)) (V (Proc.devRef .tc main_arg10)) :=
  (ssa_binary writes V 8 rfl (by decide) (by decide) (by decide)).trans (by rw [keep_main_arg1 V, at_main_v5 V]; rfl)
theorem at_main_c_1 : after (ops (F := F)) V (Proc.devRef .tc main_c_1) = val_main_c_1 (F := F) :=
  ssa_nullary writes V 9 rfl (by decide)
theorem at_main_v7 : after (ops (F := F)) V (Proc.devRef .tc main_v7) = val_main_v7 (F := F) :=
  (ssa_unary writes V 10 rfl (by decide) (by decide)).trans (by rw [at_main_c_1 V]; rfl)
theorem at_main_v8 : after (ops (F := F)) V (Proc.devRef .tc main_v8) = val_main_v8 (F := F) (V (Proc.devRef .tc main_arg11)) :=
  (ssa_binary writes V 11 rfl (by decide) (by decide) (by decide)).trans (by rw [keep_main_arg11 V, at_main_v7 V]; rfl)
theorem at_main_c_2 : after (ops (F := F)) V (Proc.devRef .tc main_c_2) = val_main_c_2 (F := F) :=
  ssa_nullary writes V 12 rfl (by decide)
theorem at_main_v9 : after (ops (F := F)) V (Proc.devRef .tc main_v9) = val_main_v9 (F := F) :=
  (ssa_unary writes V 13 rfl (by decide) (by decide)).trans (by rw [at_main_c_2 V]; rfl)
theorem at_main_v10 : after (ops (F := F)) V (Proc.devRef .tc main_v10) = val_main_v10 (F := F) (V (Proc.devRef .tc main_arg11)) :=
  (ssa_binary writes V 14 rfl (by decide) (by decide) (by decide)).trans (by rw [keep_main_arg11 V, at_main_v9 V]; rfl)
theorem at_main_v11 : after (ops (F := F)) V (Proc.devRef .tc main_v11) = val_main_v11 (F := F) (V (Proc.devRef .tc main_arg11)) :=
  (ssa_ternary writes V 15 rfl (by decide) (by decide) (by decide) (by decide)).trans (by rw [at_main_v8 V, at_main_v10 V, keep_main_arg11 V]; rfl)
theorem at_main_v12 : after (ops (F := F)) V (Proc.devRef .tc main_v12) = val_main_v12 (F := F) (V (Proc.devRef .tc main_arg11)) :=
  (ssa_unary writes V 16 rfl (by decide) (by decide)).trans (by rw [at_main_v11 V]; rfl)
theorem at_main_v13 : after (ops (F := F)) V (Proc.devRef .tc main_v13) = val_main_v13 (F := F) (V (Proc.devRef .tc main_arg0)) (V (Proc.devRef .tc main_arg11)) :=
  (ssa_binary writes V 17 rfl (by decide) (by decide) (by decide)).trans (by rw [keep_main_arg0 V, at_main_v12 V]; rfl)
theorem at_main_c_3 : after (ops (F := F)) V (Proc.devRef .tc main_c_3) = val_main_c_3 (F := F) :=
  ssa_nullary writes V 18 rfl (by decide)
theorem at_main_v14 : after (ops (F := F)) V (Proc.devRef .tc main_v14) = val_main_v14 (F := F) :=
  (ssa_unary writes V 19 rfl (by decide) (by decide)).trans (by rw [at_main_c_3 V]; rfl)
theorem at_main_v15 : after (ops (F := F)) V (Proc.devRef .tc main_v15) = val_main_v15 (F := F) (V (Proc.devRef .tc main_arg12)) :=
  (ssa_binary writes V 20 rfl (by decide) (by decide) (by decide)).trans (by rw [keep_main_arg12 V, at_main_v14 V]; rfl)
theorem at_main_c_4 : after (ops (F := F)) V (Proc.devRef .tc main_c_4) = val_main_c_4 (F := F) :=
  ssa_nullary writes V 21 rfl (by decide)
theorem at_main_v16 : after (ops (F := F)) V (Proc.devRef .tc main_v16) = val_main_v16 (F := F) :=
  (ssa_unary writes V 22 rfl (by decide) (by decide)).trans (by rw [at_main_c_4 V]; rfl)
theorem at_main_v17 : after (ops (F := F)) V (Proc.devRef .tc main_v17) = val_main_v17 (F := F) (V (Proc.devRef .tc main_arg12)) :=
  (ssa_binary writes V 23 rfl (by decide) (by decide) (by decide)).trans (by rw [keep_main_arg12 V, at_main_v16 V]; rfl)
theorem at_main_v18 : after (ops (F := F)) V (Proc.devRef .tc main_v18) = val_main_v18 (F := F) (V (Proc.devRef .tc main_arg12)) :=
  (ssa_ternary writes V 24 rfl (by decide) (by decide) (by decide) (by decide)).trans (by rw [at_main_v15 V, at_main_v17 V, keep_main_arg12 V]; rfl)
theorem at_main_v19 : after (ops (F := F)) V (Proc.devRef .tc main_v19) = val_main_v19 (F := F) (V (Proc.devRef .tc main_arg12)) :=
  (ssa_unary writes V 25 rfl (by decide) (by decide)).trans (by rw [at_main_v18 V]; rfl)
theorem at_main_v20 : after (ops (F := F)) V (Proc.devRef .tc main_v20) = val_main_v20 (F := F) (V (Proc.devRef .tc main_arg1)) (V (Proc.devRef .tc main_arg10)) (V (Proc.devRef .tc main_arg12)) :=
  (ssa_binary writes V 26 rfl (by decide) (by decide) (by decide)).trans (by rw [at_main_v6 V, at_main_v19 V]; rfl)
theorem at_main_v21 : after (ops (F := F)) V (Proc.devRef .tc main_v21) = val_main_v21 (F := F) (V (Proc.devRef .tc main_arg0)) (V (Proc.devRef .tc main_arg1)) (V (Proc.devRef .tc main_arg10)) (V (Proc.devRef .tc main_arg11)) (V (Proc.devRef .tc main_arg12)) :=
  (ssa_binary writes V 27 rfl (by decide) (by decide) (by decide)).trans (by rw [at_main_v13 V, at_main_v20 V]; rfl)
theorem at_main_v22 : after (ops (F := F)) V (Proc.devRef .tc main_v22) = val_main_v22 (F := F) (V (Proc.devRef .tc main_arg4)) :=
  (ssa_unary writes V 28 rfl (by decide) (by decide)).trans (by rw [keep_main_arg4 V]; rfl)
theorem at_main_v23 : after (ops (F := F)) V (Proc.devRef .tc main_v23) = val_main_v23 (F := F) (V (Proc.devRef .tc main_arg0)) (V (Proc.devRef .tc main_arg1)) (V (Proc.devRef .tc main_arg4)) (V (Proc.devRef .tc main_arg10)) (V (Proc.devRef .tc main_arg11)) (V (Proc.devRef .tc main_arg12)) :=
  (ssa_binary writes V 29 rfl (by decide) (by decide) (by decide)).trans (by rw [at_main_v21 V, at_main_v22 V]; rfl)
theorem at_main_v24 : after (ops (F := F)) V (Proc.devRef .tc main_v24) = val_main_v24 (F := F) (V (Proc.devRef .tc main_arg5)) :=
  (ssa_unary writes V 30 rfl (by decide) (by decide)).trans (by rw [keep_main_arg5 V]; rfl)
theorem at_main_v25 : after (ops (F := F)) V (Proc.devRef .tc main_v25) = val_main_v25 (F := F) (V (Proc.devRef .tc main_arg5)) :=
  (ssa_unary writes V 31 rfl (by decide) (by decide)).trans (by rw [at_main_v24 V]; rfl)
theorem at_main_v26 : after (ops (F := F)) V (Proc.devRef .tc main_v26) = val_main_v26 (F := F) (V (Proc.devRef .tc main_arg0)) (V (Proc.devRef .tc main_arg1)) (V (Proc.devRef .tc main_arg4)) (V (Proc.devRef .tc main_arg5)) (V (Proc.devRef .tc main_arg10)) (V (Proc.devRef .tc main_arg11)) (V (Proc.devRef .tc main_arg12)) :=
  (ssa_binary writes V 32 rfl (by decide) (by decide) (by decide)).trans (by rw [at_main_v23 V, at_main_v25 V]; rfl)
theorem at_main_c_5 : after (ops (F := F)) V (Proc.devRef .tc main_c_5) = val_main_c_5 (F := F) :=
  ssa_nullary writes V 33 rfl (by decide)
theorem at_main_v27 : after (ops (F := F)) V (Proc.devRef .tc main_v27) = val_main_v27 (F := F) :=
  (ssa_unary writes V 34 rfl (by decide) (by decide)).trans (by rw [at_main_c_5 V]; rfl)
theorem at_main_v28 : after (ops (F := F)) V (Proc.devRef .tc main_v28) = val_main_v28 (F := F) (V (Proc.devRef .tc main_arg12)) :=
  (ssa_binary writes V 35 rfl (by decide) (by decide) (by decide)).trans (by rw [keep_main_arg12 V, at_main_v27 V]; rfl)
theorem at_main_c_6 : after (ops (F := F)) V (Proc.devRef .tc main_c_6) = val_main_c_6 (F := F) :=
  ssa_nullary writes V 36 rfl (by decide)
theorem at_main_v29 : after (ops (F := F)) V (Proc.devRef .tc main_v29) = val_main_v29 (F := F) :=
  (ssa_unary writes V 37 rfl (by decide) (by decide)).trans (by rw [at_main_c_6 V]; rfl)
theorem at_main_v30 : after (ops (F := F)) V (Proc.devRef .tc main_v30) = val_main_v30 (F := F) (V (Proc.devRef .tc main_arg12)) :=
  (ssa_binary writes V 38 rfl (by decide) (by decide) (by decide)).trans (by rw [keep_main_arg12 V, at_main_v29 V]; rfl)
theorem at_main_v31 : after (ops (F := F)) V (Proc.devRef .tc main_v31) = val_main_v31 (F := F) (V (Proc.devRef .tc main_arg12)) :=
  (ssa_ternary writes V 39 rfl (by decide) (by decide) (by decide) (by decide)).trans (by rw [at_main_v28 V, at_main_v30 V, keep_main_arg12 V]; rfl)
theorem at_main_v32 : after (ops (F := F)) V (Proc.devRef .tc main_v32) = val_main_v32 (F := F) (V (Proc.devRef .tc main_arg12)) :=
  (ssa_unary writes V 40 rfl (by decide) (by decide)).trans (by rw [at_main_v31 V]; rfl)
theorem at_main_v33 : after (ops (F := F)) V (Proc.devRef .tc main_v33) = val_main_v33 (F := F) (V (Proc.devRef .tc main_arg0)) (V (Proc.devRef .tc main_arg1)) (V (Proc.devRef .tc main_arg4)) (V (Proc.devRef .tc main_arg5)) (V (Proc.devRef .tc main_arg10)) (V (Proc.devRef .tc main_arg11)) (V (Proc.devRef .tc main_arg12)) :=
  (ssa_ternary writes V 41 rfl (by decide) (by decide) (by decide) (by decide)).trans (by rw [at_main_v6 V, at_main_v32 V, at_main_v26 V]; rfl)
theorem at_main_c_7 : after (ops (F := F)) V (Proc.devRef .tc main_c_7) = val_main_c_7 (F := F) :=
  ssa_nullary writes V 42 rfl (by decide)
theorem at_main_v34 : after (ops (F := F)) V (Proc.devRef .tc main_v34) = val_main_v34 (F := F) :=
  (ssa_unary writes V 43 rfl (by decide) (by decide)).trans (by rw [at_main_c_7 V]; rfl)
theorem at_main_v35 : after (ops (F := F)) V (Proc.devRef .tc main_v35) = val_main_v35 (F := F) (V (Proc.devRef .tc main_arg13)) :=
  (ssa_binary writes V 44 rfl (by decide) (by decide) (by decide)).trans (by rw [keep_main_arg13 V, at_main_v34 V]; rfl)
theorem at_main_c_8 : after (ops (F := F)) V (Proc.devRef .tc main_c_8) = val_main_c_8 (F := F) :=
  ssa_nullary writes V 45 rfl (by decide)
theorem at_main_v36 : after (ops (F := F)) V (Proc.devRef .tc main_v36) = val_main_v36 (F := F) :=
  (ssa_unary writes V 46 rfl (by decide) (by decide)).trans (by rw [at_main_c_8 V]; rfl)
theorem at_main_v37 : after (ops (F := F)) V (Proc.devRef .tc main_v37) = val_main_v37 (F := F) (V (Proc.devRef .tc main_arg13)) :=
  (ssa_binary writes V 47 rfl (by decide) (by decide) (by decide)).trans (by rw [keep_main_arg13 V, at_main_v36 V]; rfl)
theorem at_main_v38 : after (ops (F := F)) V (Proc.devRef .tc main_v38) = val_main_v38 (F := F) (V (Proc.devRef .tc main_arg13)) :=
  (ssa_ternary writes V 48 rfl (by decide) (by decide) (by decide) (by decide)).trans (by rw [at_main_v35 V, at_main_v37 V, keep_main_arg13 V]; rfl)
theorem at_main_v39 : after (ops (F := F)) V (Proc.devRef .tc main_v39) = val_main_v39 (F := F) (V (Proc.devRef .tc main_arg13)) :=
  (ssa_unary writes V 49 rfl (by decide) (by decide)).trans (by rw [at_main_v38 V]; rfl)
theorem at_main_v40 : after (ops (F := F)) V (Proc.devRef .tc main_v40) = val_main_v40 (F := F) (V (Proc.devRef .tc main_arg2)) (V (Proc.devRef .tc main_arg13)) :=
  (ssa_binary writes V 50 rfl (by decide) (by decide) (by decide)).trans (by rw [keep_main_arg2 V, at_main_v39 V]; rfl)
theorem at_main_c_9 : after (ops (F := F)) V (Proc.devRef .tc main_c_9) = val_main_c_9 (F := F) :=
  ssa_nullary writes V 51 rfl (by decide)
theorem at_main_v41 : after (ops (F := F)) V (Proc.devRef .tc main_v41) = val_main_v41 (F := F) :=
  (ssa_unary writes V 52 rfl (by decide) (by decide)).trans (by rw [at_main_c_9 V]; rfl)
theorem at_main_v42 : after (ops (F := F)) V (Proc.devRef .tc main_v42) = val_main_v42 (F := F) (V (Proc.devRef .tc main_arg14)) :=
  (ssa_binary writes V 53 rfl (by decide) (by decide) (by decide)).trans (by rw [keep_main_arg14 V, at_main_v41 V]; rfl)
theorem at_main_c_10 : after (ops (F := F)) V (Proc.devRef .tc main_c_10) = val_main_c_10 (F := F) :=
  ssa_nullary writes V 54 rfl (by decide)
theorem at_main_v43 : after (ops (F := F)) V (Proc.devRef .tc main_v43) = val_main_v43 (F := F) :=
  (ssa_unary writes V 55 rfl (by decide) (by decide)).trans (by rw [at_main_c_10 V]; rfl)
theorem at_main_v44 : after (ops (F := F)) V (Proc.devRef .tc main_v44) = val_main_v44 (F := F) (V (Proc.devRef .tc main_arg14)) :=
  (ssa_binary writes V 56 rfl (by decide) (by decide) (by decide)).trans (by rw [keep_main_arg14 V, at_main_v43 V]; rfl)
theorem at_main_v45 : after (ops (F := F)) V (Proc.devRef .tc main_v45) = val_main_v45 (F := F) (V (Proc.devRef .tc main_arg14)) :=
  (ssa_ternary writes V 57 rfl (by decide) (by decide) (by decide) (by decide)).trans (by rw [at_main_v42 V, at_main_v44 V, keep_main_arg14 V]; rfl)
theorem at_main_v46 : after (ops (F := F)) V (Proc.devRef .tc main_v46) = val_main_v46 (F := F) (V (Proc.devRef .tc main_arg14)) :=
  (ssa_unary writes V 58 rfl (by decide) (by decide)).trans (by rw [at_main_v45 V]; rfl)
theorem at_main_v47 : after (ops (F := F)) V (Proc.devRef .tc main_v47) = val_main_v47 (F := F) (V (Proc.devRef .tc main_arg0)) (V (Proc.devRef .tc main_arg1)) (V (Proc.devRef .tc main_arg4)) (V (Proc.devRef .tc main_arg5)) (V (Proc.devRef .tc main_arg10)) (V (Proc.devRef .tc main_arg11)) (V (Proc.devRef .tc main_arg12)) (V (Proc.devRef .tc main_arg14)) :=
  (ssa_binary writes V 59 rfl (by decide) (by decide) (by decide)).trans (by rw [at_main_v33 V, at_main_v46 V]; rfl)
theorem at_main_v48 : after (ops (F := F)) V (Proc.devRef .tc main_v48) = val_main_v48 (F := F) (V (Proc.devRef .tc main_arg0)) (V (Proc.devRef .tc main_arg1)) (V (Proc.devRef .tc main_arg2)) (V (Proc.devRef .tc main_arg4)) (V (Proc.devRef .tc main_arg5)) (V (Proc.devRef .tc main_arg10)) (V (Proc.devRef .tc main_arg11)) (V (Proc.devRef .tc main_arg12)) (V (Proc.devRef .tc main_arg13)) (V (Proc.devRef .tc main_arg14)) :=
  (ssa_binary writes V 60 rfl (by decide) (by decide) (by decide)).trans (by rw [at_main_v40 V, at_main_v47 V]; rfl)
theorem at_main_v49 : after (ops (F := F)) V (Proc.devRef .tc main_v49) = val_main_v49 (F := F) (V (Proc.devRef .tc main_arg6)) :=
  (ssa_unary writes V 61 rfl (by decide) (by decide)).trans (by rw [keep_main_arg6 V]; rfl)
theorem at_main_v50 : after (ops (F := F)) V (Proc.devRef .tc main_v50) = val_main_v50 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg10)) (V (Proc.devRef .tc main_arg11)) (V (Proc.devRef .tc main_arg12)) (V (Proc.devRef .tc main_arg13)) (V (Proc.devRef .tc main_arg14)) :=
  (ssa_binary writes V 62 rfl (by decide) (by decide) (by decide)).trans (by rw [at_main_v48 V, at_main_v49 V]; rfl)
theorem at_main_v51 : after (ops (F := F)) V (Proc.devRef .tc main_v51) = val_main_v51 (F := F) (V (Proc.devRef .tc main_arg7)) :=
  (ssa_unary writes V 63 rfl (by decide) (by decide)).trans (by rw [keep_main_arg7 V]; rfl)
theorem at_main_v52 : after (ops (F := F)) V (Proc.devRef .tc main_v52) = val_main_v52 (F := F) (V (Proc.devRef .tc main_arg7)) :=
  (ssa_unary writes V 64 rfl (by decide) (by decide)).trans (by rw [at_main_v51 V]; rfl)
theorem at_main_v53 : after (ops (F := F)) V (Proc.devRef .tc main_v53) = val_main_v53 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg12)) (V (Proc.devRef .tc main_arg13)) (V (Proc.devRef .tc main_arg14)) :=
  (ssa_binary writes V 65 rfl (by decide) (by decide) (by decide)).trans (by rw [at_main_v50 V, at_main_v52 V]; rfl)
theorem at_main_c_11 : after (ops (F := F)) V (Proc.devRef .tc main_c_11) = val_main_c_11 (F := F) :=
  ssa_nullary writes V 66 rfl (by decide)
theorem at_main_v54 : after (ops (F := F)) V (Proc.devRef .tc main_v54) = val_main_v54 (F := F) :=
  (ssa_unary writes V 67 rfl (by decide) (by decide)).trans (by rw [at_main_c_11 V]; rfl)
theorem at_main_v55 : after (ops (F := F)) V (Proc.devRef .tc main_v55) = val_main_v55 (F := F) (V (Proc.devRef .tc main_arg14)) :=
  (ssa_binary writes V 68 rfl (by decide) (by decide) (by decide)).trans (by rw [keep_main_arg14 V, at_main_v54 V]; rfl)
theorem at_main_c_12 : after (ops (F := F)) V (Proc.devRef .tc main_c_12) = val_main_c_12 (F := F) :=
  ssa_nullary writes V 69 rfl (by decide)
theorem at_main_v56 : after (ops (F := F)) V (Proc.devRef .tc main_v56) = val_main_v56 (F := F) :=
  (ssa_unary writes V 70 rfl (by decide) (by decide)).trans (by rw [at_main_c_12 V]; rfl)
theorem at_main_v57 : after (ops (F := F)) V (Proc.devRef .tc main_v57) = val_main_v57 (F := F) (V (Proc.devRef .tc main_arg14)) :=
  (ssa_binary writes V 71 rfl (by decide) (by decide) (by decide)).trans (by rw [keep_main_arg14 V, at_main_v56 V]; rfl)
theorem at_main_v58 : after (ops (F := F)) V (Proc.devRef .tc main_v58) = val_main_v58 (F := F) (V (Proc.devRef .tc main_arg14)) :=
  (ssa_ternary writes V 72 rfl (by decide) (by decide) (by decide) (by decide)).trans (by rw [at_main_v55 V, at_main_v57 V, keep_main_arg14 V]; rfl)
theorem at_main_v59 : after (ops (F := F)) V (Proc.devRef .tc main_v59) = val_main_v59 (F := F) (V (Proc.devRef .tc main_arg14)) :=
  (ssa_unary writes V 73 rfl (by decide) (by decide)).trans (by rw [at_main_v58 V]; rfl)
theorem at_main_v60 : after (ops (F := F)) V (Proc.devRef .tc main_v60) = val_main_v60 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg12)) (V (Proc.devRef .tc main_arg13)) (V (Proc.devRef .tc main_arg14)) :=
  (ssa_ternary writes V 74 rfl (by decide) (by decide) (by decide) (by decide)).trans (by rw [at_main_v33 V, at_main_v59 V, at_main_v53 V]; rfl)
theorem at_main_c_13 : after (ops (F := F)) V (Proc.devRef .tc main_c_13) = val_main_c_13 (F := F) :=
  ssa_nullary writes V 75 rfl (by decide)
theorem at_main_v61 : after (ops (F := F)) V (Proc.devRef .tc main_v61) = val_main_v61 (F := F) :=
  (ssa_unary writes V 76 rfl (by decide) (by decide)).trans (by rw [at_main_c_13 V]; rfl)
theorem at_main_v62 : after (ops (F := F)) V (Proc.devRef .tc main_v62) = val_main_v62 (F := F) (V (Proc.devRef .tc main_arg15)) :=
  (ssa_binary writes V 77 rfl (by decide) (by decide) (by decide)).trans (by rw [keep_main_arg15 V, at_main_v61 V]; rfl)
theorem at_main_c_14 : after (ops (F := F)) V (Proc.devRef .tc main_c_14) = val_main_c_14 (F := F) :=
  ssa_nullary writes V 78 rfl (by decide)
theorem at_main_v63 : after (ops (F := F)) V (Proc.devRef .tc main_v63) = val_main_v63 (F := F) :=
  (ssa_unary writes V 79 rfl (by decide) (by decide)).trans (by rw [at_main_c_14 V]; rfl)
theorem at_main_v64 : after (ops (F := F)) V (Proc.devRef .tc main_v64) = val_main_v64 (F := F) (V (Proc.devRef .tc main_arg15)) :=
  (ssa_binary writes V 80 rfl (by decide) (by decide) (by decide)).trans (by rw [keep_main_arg15 V, at_main_v63 V]; rfl)
theorem at_main_v65 : after (ops (F := F)) V (Proc.devRef .tc main_v65) = val_main_v65 (F := F) (V (Proc.devRef .tc main_arg15)) :=
  (ssa_ternary writes V 81 rfl (by decide) (by decide) (by decide) (by decide)).trans (by rw [at_main_v62 V, at_main_v64 V, keep_main_arg15 V]; rfl)
theorem at_main_v66 : after (ops (F := F)) V (Proc.devRef .tc main_v66) = val_main_v66 (F := F) (V (Proc.devRef .tc main_arg15)) :=
  (ssa_unary writes V 82 rfl (by decide) (by decide)).trans (by rw [at_main_v65 V]; rfl)
theorem at_main_v67 : after (ops (F := F)) V (Proc.devRef .tc main_v67) = val_main_v67 (F := F) (V (Proc.devRef .tc main_arg3)) (V (Proc.devRef .tc main_arg15)) :=
  (ssa_binary writes V 83 rfl (by decide) (by decide) (by decide)).trans (by rw [keep_main_arg3 V, at_main_v66 V]; rfl)
theorem at_main_c_15 : after (ops (F := F)) V (Proc.devRef .tc main_c_15) = val_main_c_15 (F := F) :=
  ssa_nullary writes V 84 rfl (by decide)
theorem at_main_v68 : after (ops (F := F)) V (Proc.devRef .tc main_v68) = val_main_v68 (F := F) :=
  (ssa_unary writes V 85 rfl (by decide) (by decide)).trans (by rw [at_main_c_15 V]; rfl)
theorem at_main_v69 : after (ops (F := F)) V (Proc.devRef .tc main_v69) = val_main_v69 (F := F) (V (Proc.devRef .tc main_arg16)) :=
  (ssa_binary writes V 86 rfl (by decide) (by decide) (by decide)).trans (by rw [keep_main_arg16 V, at_main_v68 V]; rfl)
theorem at_main_c_16 : after (ops (F := F)) V (Proc.devRef .tc main_c_16) = val_main_c_16 (F := F) :=
  ssa_nullary writes V 87 rfl (by decide)
theorem at_main_v70 : after (ops (F := F)) V (Proc.devRef .tc main_v70) = val_main_v70 (F := F) :=
  (ssa_unary writes V 88 rfl (by decide) (by decide)).trans (by rw [at_main_c_16 V]; rfl)
theorem at_main_v71 : after (ops (F := F)) V (Proc.devRef .tc main_v71) = val_main_v71 (F := F) (V (Proc.devRef .tc main_arg16)) :=
  (ssa_binary writes V 89 rfl (by decide) (by decide) (by decide)).trans (by rw [keep_main_arg16 V, at_main_v70 V]; rfl)
theorem at_main_v72 : after (ops (F := F)) V (Proc.devRef .tc main_v72) = val_main_v72 (F := F) (V (Proc.devRef .tc main_arg16)) :=
  (ssa_ternary writes V 90 rfl (by decide) (by decide) (by decide) (by decide)).trans (by rw [at_main_v69 V, at_main_v71 V, keep_main_arg16 V]; rfl)
theorem at_main_v73 : after (ops (F := F)) V (Proc.devRef .tc main_v73) = val_main_v73 (F := F) (V (Proc.devRef .tc main_arg16)) :=
  (ssa_unary writes V 91 rfl (by decide) (by decide)).trans (by rw [at_main_v72 V]; rfl)
theorem at_main_v74 : after (ops (F := F)) V (Proc.devRef .tc main_v74) = val_main_v74 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg12)) (V (Proc.devRef .tc main_arg13)) (V (Proc.devRef .tc main_arg14)) (V (Proc.devRef .tc main_arg16)) :=
  (ssa_binary writes V 92 rfl (by decide) (by decide) (by decide)).trans (by rw [at_main_v60 V, at_main_v73 V]; rfl)
theorem at_main_v75 : after (ops (F := F)) V (Proc.devRef .tc main_v75) = val_main_v75 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  (ssa_binary writes V 93 rfl (by decide) (by decide) (by decide)).trans (by rw [at_main_v67 V, at_main_v74 V]; rfl)
theorem at_main_v76 : after (ops (F := F)) V (Proc.devRef .tc main_v76) = val_main_v76 (F := F) (V (Proc.devRef .tc main_arg8)) :=
  (ssa_unary writes V 94 rfl (by decide) (by decide)).trans (by rw [keep_main_arg8 V]; rfl)
theorem at_main_v77 : after (ops (F := F)) V (Proc.devRef .tc main_v77) = val_main_v77 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  (ssa_binary writes V 95 rfl (by decide) (by decide) (by decide)).trans (by rw [at_main_v75 V, at_main_v76 V]; rfl)
theorem at_main_v78 : after (ops (F := F)) V (Proc.devRef .tc main_v78) = val_main_v78 (F := F) (V (Proc.devRef .tc main_arg9)) :=
  (ssa_unary writes V 96 rfl (by decide) (by decide)).trans (by rw [keep_main_arg9 V]; rfl)
theorem at_main_v79 : after (ops (F := F)) V (Proc.devRef .tc main_v79) = val_main_v79 (F := F) (V (Proc.devRef .tc main_arg9)) :=
  (ssa_unary writes V 97 rfl (by decide) (by decide)).trans (by rw [at_main_v78 V]; rfl)
theorem at_main_v80 : after (ops (F := F)) V (Proc.devRef .tc main_v80) = val_main_v80 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  (ssa_binary writes V 98 rfl (by decide) (by decide) (by decide)).trans (by rw [at_main_v77 V, at_main_v79 V]; rfl)
theorem at_main_c_17 : after (ops (F := F)) V (Proc.devRef .tc main_c_17) = val_main_c_17 (F := F) :=
  ssa_nullary writes V 99 rfl (by decide)
theorem at_main_v81 : after (ops (F := F)) V (Proc.devRef .tc main_v81) = val_main_v81 (F := F) :=
  (ssa_unary writes V 100 rfl (by decide) (by decide)).trans (by rw [at_main_c_17 V]; rfl)
theorem at_main_v82 : after (ops (F := F)) V (Proc.devRef .tc main_v82) = val_main_v82 (F := F) (V (Proc.devRef .tc main_arg16)) :=
  (ssa_binary writes V 101 rfl (by decide) (by decide) (by decide)).trans (by rw [keep_main_arg16 V, at_main_v81 V]; rfl)
theorem at_main_c_18 : after (ops (F := F)) V (Proc.devRef .tc main_c_18) = val_main_c_18 (F := F) :=
  ssa_nullary writes V 102 rfl (by decide)
theorem at_main_v83 : after (ops (F := F)) V (Proc.devRef .tc main_v83) = val_main_v83 (F := F) :=
  (ssa_unary writes V 103 rfl (by decide) (by decide)).trans (by rw [at_main_c_18 V]; rfl)
theorem at_main_v84 : after (ops (F := F)) V (Proc.devRef .tc main_v84) = val_main_v84 (F := F) (V (Proc.devRef .tc main_arg16)) :=
  (ssa_binary writes V 104 rfl (by decide) (by decide) (by decide)).trans (by rw [keep_main_arg16 V, at_main_v83 V]; rfl)
theorem at_main_v85 : after (ops (F := F)) V (Proc.devRef .tc main_v85) = val_main_v85 (F := F) (V (Proc.devRef .tc main_arg16)) :=
  (ssa_ternary writes V 105 rfl (by decide) (by decide) (by decide) (by decide)).trans (by rw [at_main_v82 V, at_main_v84 V, keep_main_arg16 V]; rfl)
theorem at_main_v86 : after (ops (F := F)) V (Proc.devRef .tc main_v86) = val_main_v86 (F := F) (V (Proc.devRef .tc main_arg16)) :=
  (ssa_unary writes V 106 rfl (by decide) (by decide)).trans (by rw [at_main_v85 V]; rfl)
theorem at_main_v87 : after (ops (F := F)) V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
  (ssa_ternary writes V 107 rfl (by decide) (by decide) (by decide) (by decide)).trans (by rw [at_main_v60 V, at_main_v86 V, at_main_v80 V]; rfl)

end Cert.ReferenceIdeal.Stages

end
-- ==== Proof.PreFacts.lean ====
/-
  THE PRECONDITION, READ.

  The printed precondition is one conjunction: every float argument finite; every node-type word in [0, 120), every
  primitive-type word and every module word in [0, 16); and, for each ordered pair (earlier group, later group) of the
  three node-index arguments, "the array of zeros with ones written at the earlier group's rows reads zero at every row
  the later group addresses". A conjunct "all of a mask" says the mask bit is one at every index; a signed compare that
  is one says the inequality of the signed readings; and a row where that written array reads zero is a row that no
  word of the earlier group writes — a replacing scatter of ones into zeros holds a one wherever some update lands.
  So where the precondition is all ones the integer arguments lie in the domain of the specification.
-/
import proofs.«414947_j9895604650636_3_alg».proof.Pre_finite_inputs
import proofs.«414947_j9895604650636_3_alg».proof.Proof.Gen.Pre_finite_inputs
import proofs.«414947_j9895604650636_3_alg».proof.Proof.Spec
import proofs.«414947_j9895604650636_3_alg».proof.Proof.LibScatterSet
import Idealize.ShloMosaic.Lib.StableHlo.Predicate
import Idealize.ShloMosaic.Lib.ReduceAll

noncomputable section

namespace Cert.NodeEmbed.PreFacts

open Idealize.ShloMosaic Idealize.ShloMosaic.ValueIdx Cert.Pre_finite_inputs Cert.NodeEmbed
open Idealize.ShloMosaic.StableHlo.Predicate (ixP bcast_col1 gather_take toInt_ofNat_small)

/-! ## Indices -/

/-- The two ways of writing the index of a one-axis array at coordinate k name the same index. -/
theorem ofFin_eq_ix1 {n : Nat} (k : Fin n) : Shape.Idx.ofFin k = ix1 k := by
  funext a
  obtain rfl : a = 0 := Subsingleton.elim _ _
  exact Fin.ext rfl

/-! ## Where an update of a scatter into a one-axis array lands

The operand has one axis, which is inserted and which the one component of the start index addresses; the scatter
indices are a column of M words and there are M updates, one per word. Update j then lands at the row its word
names, read signed, when that row exists. -/

section Lands
variable {P M w : Nat} (d : ScatterDims (⟨1, ![P]⟩ : Shape) (⟨2, ![M, 1]⟩ : Shape) (⟨1, ![M]⟩ : Shape))

/-- Update j reads its start index at row j of the column. -/
theorem siIdx_eq (hivd : d.indexVectorDim = 1) (j : (⟨1, ![M]⟩ : Shape).Idx)
    (c : Fin d.scatterDimsToOperandDims.length) : d.siIdx j c = ixP (j 0) := by
  funext b
  match b with
  | ⟨0, _⟩ =>
    unfold ScatterDims.siIdx
    rw [dif_neg (by rw [hivd]; exact Nat.zero_ne_one)]
    unfold ScatterDims.siCoord
    refine Fin.ext ?_
    simp only [Fin.val_cast]
    exact congrArg (fun q => (j q).val) (Subsingleton.elim _ _)
  | ⟨1, _⟩ => exact Subsingleton.elim (α := Fin 1) _ _

theorem start_eq (hsd : d.scatterDimsToOperandDims = [0]) (hivd : d.indexVectorDim = 1)
    (j : (⟨1, ![M]⟩ : Shape).Idx) (idx : IVec (⟨2, ![M, 1]⟩ : Shape) w) :
    d.start j idx 0 = (idx (ixP (j 0))).toInt := by
  unfold ScatterDims.start
  rw [dif_pos (by rw [hsd]; exact List.mem_singleton.mpr rfl), siIdx_eq d hivd]
  rfl

theorem window_eq (hiw : d.insertedWindowDims = [0]) (j : (⟨1, ![M]⟩ : Shape).Idx) : d.window j 0 = 0 := by
  unfold ScatterDims.window
  rw [dif_neg]
  intro h
  have h2 : (0 : Fin 1) ∉ d.insertedWindowDims := of_decide_eq_true (List.mem_filter.1 h).2
  exact h2 (by rw [hiw]; exact List.mem_singleton.mpr rfl)

/-- Update j lands at row p when its word, read signed, is p. -/
theorem lands (hiw : d.insertedWindowDims = [0]) (hsd : d.scatterDimsToOperandDims = [0])
    (hivd : d.indexVectorDim = 1) (idx : IVec (⟨2, ![M, 1]⟩ : Shape) w) (j : Fin M) (p : Fin P)
    (hp : (idx (ixP j)).toInt = (p.val : Int)) : d.resultIdx? (ix1 j) idx = some (ix1 p) := by
  refine ScatterSet.resultIdx?_eq_some_of_coords d (ix1 j) idx (ix1 p) fun a => ?_
  obtain rfl : a = 0 := Subsingleton.elim _ _
  rw [start_eq d hsd hivd, window_eq d hiw]
  show (idx (ixP j)).toInt + ((0 : Nat) : Int) = (p.val : Int)
  rw [hp]
  exact Int.add_zero _

/-- When every update carries the same element e, the replacing scatter holds e at every row some word names. -/
theorem scatter_at_written {α : Type} (hiw : d.insertedWindowDims = [0]) (hsd : d.scatterDimsToOperandDims = [0])
    (hivd : d.indexVectorDim = 1) (x : (⟨1, ![P]⟩ : Shape).Idx → α) (idx : IVec (⟨2, ![M, 1]⟩ : Shape) w)
    (upd : (⟨1, ![M]⟩ : Shape).Idx → α) (e : α) (hupd : ∀ j, upd j = e) (j : Fin M) (p : Fin P)
    (hp : (idx (ixP j)).toInt = (p.val : Int)) : Host.scatter d (fun _ b => b) x idx upd (ix1 p) = e := by
  rw [ScatterSet.scatter_set_apply_of_landed d x idx upd (ix1 p) (ix1 j) (lands d hiw hsd hivd idx j p hp)
    (fun j' _ => by rw [hupd, hupd])]
  exact hupd _

end Lands

/-! ## Rows apart

A mask of zeros with ones scattered at the rows the writer's words name, gathered at the rows the reader's words
name: where a gathered element is zero, no writer word names the row that reader word reads. -/

theorem rows_apart {P M M' : Nat} (hP : 0 < P)
    (dS : ScatterDims (⟨1, ![P]⟩ : Shape) (⟨2, ![M, 1]⟩ : Shape) (⟨1, ![M]⟩ : Shape))
    (hiw : dS.insertedWindowDims = [0]) (hsd : dS.scatterDimsToOperandDims = [0]) (hivd : dS.indexVectorDim = 1)
    (dG : GatherDims (⟨1, ![P]⟩ : Shape) (⟨2, ![M', 1]⟩ : Shape) (⟨1, ![M']⟩ : Shape))
    (hcoll : dG.collapsedSliceDims = [0]) (hob : dG.operandBatchingDims = []) (hsim : dG.startIndexMap = [0])
    (hgivd : dG.indexVectorDim = 1)
    (x : IVec (⟨1, ![P]⟩ : Shape) 32) (wi : IVec (⟨2, ![M, 1]⟩ : Shape) 32) (upd : IVec (⟨1, ![M]⟩ : Shape) 32)
    (hupd : ∀ j, upd j = 1#32) (ri : IVec (⟨2, ![M', 1]⟩ : Shape) 32) (j : Fin M) (r : Fin M')
    (h : Host.gather dG (Host.scatter dS (fun _ b => b) x wi upd) ri (ix1 r) = 0#32) :
    writeRow P (wi (ixP j)) ≠ some (readRow P hP (ri (ixP r))) := by
  intro hw
  by_cases hr : 0 ≤ (wi (ixP j)).toInt ∧ (wi (ixP j)).toInt < (P : Int)
  · rw [writeRow, dif_pos hr] at hw
    have hv : (wi (ixP j)).toInt.toNat = (readRow P hP (ri (ixP r))).val := congrArg Fin.val (Option.some.inj hw)
    have hland : Host.scatter dS (fun _ b => b) x wi upd (ix1 (readRow P hP (ri (ixP r)))) = 1#32 :=
      scatter_at_written dS hiw hsd hivd x wi upd 1#32 hupd j _ (by omega)
    rw [← ofFin_eq_ix1, gather_take dG hcoll hob hsim hgivd _ ri r hP, ofFin_eq_ix1] at h
    have : (1#32 : BitVec 32) = 0#32 := hland.symm.trans h
    exact absurd this (by decide)
  · rw [writeRow, dif_neg hr] at hw
    exact Option.some_ne_none _ hw.symm

/-! ## The printed words -/

/-- A column of index words as the programs print it: a negative word has n added, and the words are laid as a
    column. Row j of the column is the wrapped word j. -/
theorem wrapped_col {M : Nat} (hb : (⟨1, ![M]⟩ : Shape).BroadcastsInDim (⟨2, ![M, 1]⟩ : Shape) ![0])
    (hz : S_.BroadcastsInDim (⟨1, ![M]⟩ : Shape) ![]) (a : IVec (⟨1, ![M]⟩ : Shape) 32) (n : BitVec 32) (j : Fin M) :
    broadcastInDim (⟨2, ![M, 1]⟩ : Shape) ![0] hb
        (select (cmpi .slt a (broadcastInDim (⟨1, ![M]⟩ : Shape) ![] hz (constantI S_ 32 0#32)))
          (addi a (broadcastInDim (⟨1, ![M]⟩ : Shape) ![] hz (constantI S_ 32 n))) a) (ixP j)
      = wrap n (a (ix1 j)) := by
  rw [bcast_col1, ofFin_eq_ix1]
  rfl

/-- "0 ≤ x and x < N" printed over a whole array, read at one element. -/
theorem range_at {s : Shape} (hz : S_.BroadcastsInDim s ![]) (a : IVec s 32) (N : Nat) (hN : N < 2 ^ 31) (i : s.Idx)
    (h : andi (cmpi .sge a (broadcastInDim s ![] hz (constantI S_ 32 0#32)))
      (cmpi .slt a (broadcastInDim s ![] hz (constantI S_ 32 (BitVec.ofNat 32 N)))) i = 1#1) :
    0 ≤ (a i).toInt ∧ (a i).toInt < (N : Int) := by
  obtain ⟨h1, h2⟩ := IntOp.andi_eq_one.1 h
  have h1' : (0#32 : BitVec 32).toInt ≤ (a i).toInt := IntOp.cmpi_sge.1 h1
  have h2' : (a i).toInt < (BitVec.ofNat 32 N).toInt := IntOp.cmpi_slt.1 h2
  rw [toInt_ofNat_small N hN] at h2'
  rw [show (0#32 : BitVec 32).toInt = 0 from by decide] at h1'
  exact ⟨h1', h2'⟩

instance : Subsingleton S_.Idx := ⟨fun a b => funext fun d => d.elim0⟩

/-- The precondition, read: where the printed predicate is all ones, the integer arguments lie in the domain. -/
theorem domain_of_pre
    (a0 : FVec Ideal S50000x256 .f32) (a1 : FVec Ideal S120x256 .f32) (a2 a3 : FVec Ideal S16x64 .f32)
    (a4 : FVec Ideal S256x512 .f32) (a5 : FVec Ideal S256 .f32) (a6 : FVec Ideal S256x320 .f32) (a7 : FVec Ideal S256 .f32)
    (a8 : FVec Ideal S256x320 .f32) (a9 : FVec Ideal S256 .f32) (a10 : IVec S500000 32) (a11 a12 : IVec S150000 32)
    (a13 a14 : IVec S60000 32) (a15 a16 : IVec S30000 32)
    (h : Cert.Pre_finite_inputs.fn (F := Ideal) a0 a1 a2 a3 a4 a5 a6 a7 a8 a9 a10 a11 a12 a13 a14 a15 a16 = (fun _ => 1#1)) :
    Domain a10 a12 a13 a14 a15 a16 := by
  have h0 := congrFun h ix0
  dsimp only [fn, fn_part1, fn_part2, fn_part3, fn_part4, fn_part5, fn_part6, fn_part7] at h0
  obtain ⟨h1, hPM⟩ := IntOp.andi_eq_one.1 h0
  obtain ⟨h2, hIM⟩ := IntOp.andi_eq_one.1 h1
  obtain ⟨h3, hIP⟩ := IntOp.andi_eq_one.1 h2
  obtain ⟨h4, hM⟩ := IntOp.andi_eq_one.1 h3
  obtain ⟨h5, hP⟩ := IntOp.andi_eq_one.1 h4
  obtain ⟨_, hT⟩ := IntOp.andi_eq_one.1 h5
  clear h0 h1 h2 h3 h4 h5
  refine ⟨fun p => ?_, fun r => ?_, fun r => ?_, fun j r => ?_, fun j r => ?_, fun j r => ?_⟩
  · exact range_at _ a10 120 (by omega) (ix1 p) (Host.reduce_andi_all _ _ _ _ _ hT (ix1 p))
  · exact range_at _ a13 16 (by omega) (ix1 r) (Host.reduce_andi_all _ _ _ _ _ hP (ix1 r))
  · exact range_at _ a15 16 (by omega) (ix1 r) (Host.reduce_andi_all _ _ _ _ _ hM (ix1 r))
  · have e := IntOp.cmpi_eq.1 (Host.reduce_andi_all _ _ _ _ _ hIP (ix1 r))
    have := rows_apart (P := 500000) (by decide) scatter_S500000_S150000x1_S150000_n_0_0_1 rfl rfl rfl
      gather_S500000_S60000x1_S60000_n_0_n_n_0_1_1 rfl rfl rfl rfl _ _ _ (fun _ => rfl) _ j r e
    rw [wrapped_col, wrapped_col] at this
    exact this
  · have e := IntOp.cmpi_eq.1 (Host.reduce_andi_all _ _ _ _ _ hIM (ix1 r))
    have := rows_apart (P := 500000) (by decide) scatter_S500000_S150000x1_S150000_n_0_0_1 rfl rfl rfl
      gather_S500000_S30000x1_S30000_n_0_n_n_0_1_1 rfl rfl rfl rfl _ _ _ (fun _ => rfl) _ j r e
    rw [wrapped_col, wrapped_col] at this
    exact this
  · have e := IntOp.cmpi_eq.1 (Host.reduce_andi_all _ _ _ _ _ hPM (ix1 r))
    have := rows_apart (P := 500000) (by decide) scatter_S500000_S60000x1_S60000_n_0_0_1 rfl rfl rfl
      gather_S500000_S30000x1_S30000_n_0_n_n_0_1_1 rfl rfl rfl rfl _ _ _ (fun _ => rfl) _ j r e
    rw [wrapped_col, wrapped_col] at this
    exact this

end Cert.NodeEmbed.PreFacts

end
-- ==== Proof.lean ====
/-
  THE NODE EMBEDDING WITH THREE DISJOINT ROW UPDATES: the kernel program against its reference, over the extended reals.

  Both programs start from every node's node-type row and then replace three groups of rows, each replacement row the
  affine map W · [new ; orig] + b. They differ in where "orig" comes from: the reference reads the row back from the
  array the earlier replacements have already written; the kernel rebuilds it from the node-type table. On the domain
  of the statement — every type word indexes its table in range, and no node index of a later group reads a row that an
  earlier group writes — the row read back is still the node-type row, a one-hot product with a table is the table's
  row, and a product with the concatenation [new ; orig] is the sum of the two partial products; so the three groups of
  replacement rows, and with them the three nested scatters, are the same arrays in both programs.

  The frames of the two kernel programs are the generated ones; the reference's frame is its run with the result
  dropped; the ideal pass rewrote nothing, so the kernel's idealization is the program's own text read over the
  extended reals.
-/
import proofs.«414947_j9895604650636_3_alg».proof.Defs
import proofs.«414947_j9895604650636_3_alg».proof.Proof.Gen.Kernel
import proofs.«414947_j9895604650636_3_alg».proof.Proof.Gen.Kernel.Frame
import proofs.«414947_j9895604650636_3_alg».proof.Proof.Gen.KernelIdeal
import proofs.«414947_j9895604650636_3_alg».proof.Proof.Gen.KernelIdeal.Frame
import proofs.«414947_j9895604650636_3_alg».proof.Proof.Gen.ReferenceIdeal
import proofs.«414947_j9895604650636_3_alg».proof.Proof.Gen.Pre_finite_inputs
import proofs.«414947_j9895604650636_3_alg».proof.Proof.KRun
import proofs.«414947_j9895604650636_3_alg».proof.Proof.KValue
import proofs.«414947_j9895604650636_3_alg».proof.Proof.RValue
import proofs.«414947_j9895604650636_3_alg».proof.Proof.RStages
import proofs.«414947_j9895604650636_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The reference's nested scatters are the kernel program's: the index columns are the same terms (a negative word has
    500000 added, the words laid out as a column) and the scatters' dimension numbers are the same records. -/
theorem chains_agree (x0 : FVec Ideal S50000x256 .f32) (x1 : FVec Ideal S120x256 .f32) (x2 : FVec Ideal S16x64 .f32) (x3 : FVec Ideal S16x64 .f32) (x4 : FVec Ideal S256x512 .f32) (x5 : FVec Ideal S256 .f32) (x6 : FVec Ideal S256x320 .f32) (x7 : FVec Ideal S256 .f32) (x8 : FVec Ideal S256x320 .f32) (x9 : FVec Ideal S256 .f32) (x10 : IVec S500000 32) (x11 : IVec S150000 32) (x12 : IVec S150000 32) (x13 : IVec S60000 32) (x14 : IVec S60000 32) (x15 : IVec S30000 32) (x16 : IVec S30000 32) :
    Host.scatter Cert.ReferenceIdeal.scatter_S500000x256_S30000x1_S30000x256_1_0_0_1 (fun _ b => b)
    (Host.scatter Cert.ReferenceIdeal.scatter_S500000x256_S60000x1_S60000x256_1_0_0_1 (fun _ b => b)
      (Host.scatter Cert.ReferenceIdeal.scatter_S500000x256_S150000x1_S150000x256_1_0_0_1 (fun _ b => b) (Cert.NodeEmbed.enc0 x1 x10) (Cert.ReferenceIdeal.ReadP.val_main_v32 (F := Ideal) x12) (Cert.NodeEmbed.updId x0 x1 x4 x5 x10 x11 x12))
      (Cert.ReferenceIdeal.ReadP.val_main_v59 (F := Ideal) x14) (Cert.NodeEmbed.updSmall (M := 60000) x2 x1 x6 x7 x10 x13 x14))
    (Cert.ReferenceIdeal.ReadP.val_main_v86 (F := Ideal) x16) (Cert.NodeEmbed.updSmall (M := 30000) x3 x1 x8 x9 x10 x15 x16)
      = Cert.KernelIdeal.Result.result x0 x1 x2 x3 x4 x5 x6 x7 x8 x9 x10 x11 x12 x13 x14 x15 x16 := by
  have e12 : Cert.ReferenceIdeal.ReadP.val_main_v32 (F := Ideal) x12 = Cert.KernelIdeal.Result.col12 x12 := rfl
  have e14 : Cert.ReferenceIdeal.ReadP.val_main_v59 (F := Ideal) x14 = Cert.KernelIdeal.Result.col14 x14 := rfl
  have e16 : Cert.ReferenceIdeal.ReadP.val_main_v86 (F := Ideal) x16 = Cert.KernelIdeal.Result.col16 x16 := rfl
  have d1 : Cert.ReferenceIdeal.scatter_S500000x256_S150000x1_S150000x256_1_0_0_1
      = Cert.KernelIdeal.scatter_S500000x256_S150000x1_S150000x256_1_0_0_1 := rfl
  have d2 : Cert.ReferenceIdeal.scatter_S500000x256_S60000x1_S60000x256_1_0_0_1
      = Cert.KernelIdeal.scatter_S500000x256_S60000x1_S60000x256_1_0_0_1 := rfl
  have d3 : Cert.ReferenceIdeal.scatter_S500000x256_S30000x1_S30000x256_1_0_0_1
      = Cert.KernelIdeal.scatter_S500000x256_S30000x1_S30000x256_1_0_0_1 := rfl
  rw [e12, e14, e16, d1, d2, d3]
  rfl

/-- From memories agreeing on the arguments both programs end with the embedding of those arguments: the kernel
    program by its regions' arrays read through its host stretches, the reference by its stages read one operation at a
    time off the fold of its operations, each on the domain the precondition gives. -/
theorem algebraic : Cert.algebraic_KernelIdeal_ReferenceIdeal := by
  intro m ρ m' ρ' hpre hagree
  have dom := fun c : Dev Cert.KernelIdeal.nD =>
    Cert.NodeEmbed.PreFacts.domain_of_pre _ _ _ _ _ _ _ _ _ _ _ _ _ _ _ _ _ (hpre c)
  refine ⟨_, (θ_run Cert.KernelIdeal.defs _ _).mono
    (fun r h c => ⟨(h c).1.trans (Cert.KernelIdeal.Result.kernel_result m ρ c (dom c)), (h c).2⟩)
    (Cert.KernelIdeal.Gen.run_result m ρ), ?_⟩
  refine (θ_run Cert.ReferenceIdeal.defs _ _).mono (fun r h c => ⟨(h c).1.trans ?_, (h c).2⟩)
    (Cert.ReferenceIdeal.ValueP.run (F := Ideal) m' ρ')
  refine (Cert.ReferenceIdeal.Stages.at_main_v87 (F := Ideal) (StableHlo.launchContents m' c)).trans ?_
  show Cert.ReferenceIdeal.ReadP.val_main_v87 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16)) = _
  obtain ⟨h0, h1, h2, h3, h4, h5, h6, h7, h8, h9, h10, h11, h12, h13, h14, h15, h16⟩ := hagree c
  rw [h0, h1, h2, h3, h4, h5, h6, h7, h8, h9, h10, h11, h12, h13, h14, h15, h16,
    Cert.ReferenceIdeal.Result.ref_result _ _ _ _ _ _ _ _ _ _ _ _ _ _ _ _ _ (dom c)]
  exact chains_agree _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
